-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S64x4096 : Shape := ⟨2, ![64, 4096]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S64x4096x128 .f32) (main_arg1 : IVec S64x4096 32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_c_0 : IVec S_ 32 := constantI S_ 32 0#32
  let main_v4 : IVec S64x4096 32 := broadcastInDim S64x4096 ![] bcast_S_S64x4096 main_c_0
  let main_v5 : IVec S64x4096 1 := cmpi .sge main_arg1 main_v4
  let main_c_1 : IVec S_ 1 := constantI S_ 1 1#1
  let main_v6 : IVec S_ 1 := (fun x v => Host.reduce IntOp.andi x v reducesTo_S64x4096_S_d0_1 h_S_) main_v5 main_c_1
  let main_v7 : IVec S_ 1 := andi main_v3 main_v6
  let main_c_2 : IVec S_ 32 := constantI S_ 32 128#32
  let main_v8 : IVec S64x4096 32 := broadcastInDim S64x4096 ![] bcast_S_S64x4096 main_c_2
  let main_v9 : IVec S64x4096 1 := cmpi .slt main_arg1 main_v8
  let main_c_3 : IVec S_ 1 := constantI S_ 1 1#1
  let main_v10 : IVec S_ 1 := (fun x v => Host.reduce IntOp.andi x v reducesTo_S64x4096_S_d0_1 h_S_) main_v9 main_c_3
  let main_v11 : IVec S_ 1 := andi main_v7 main_v10
  main_v11
-- ==== Kernel.lean ====
abbrev S64x4096x128 : Shape := ⟨3, ![64, 4096, 128]⟩
abbrev S64x4096 : Shape := ⟨2, ![64, 4096]⟩
abbrev S10 : Shape := ⟨1, ![10]⟩
abbrev S_ : Shape := ⟨0, ![]⟩
abbrev S64x4095 : Shape := ⟨2, ![64, 4095]⟩
abbrev S1 : Shape := ⟨1, ![1]⟩
abbrev S64x4094 : Shape := ⟨2, ![64, 4094]⟩
abbrev S64x4093 : Shape := ⟨2, ![64, 4093]⟩
abbrev S64x4092 : Shape := ⟨2, ![64, 4092]⟩
abbrev S64x4091 : Shape := ⟨2, ![64, 4091]⟩
abbrev S64x4090 : Shape := ⟨2, ![64, 4090]⟩
abbrev S64x4089 : Shape := ⟨2, ![64, 4089]⟩
abbrev S64x4088 : Shape := ⟨2, ![64, 4088]⟩
abbrev S64x4087 : Shape := ⟨2, ![64, 4087]⟩
abbrev S64x4086 : Shape := ⟨2, ![64, 4086]⟩
abbrev S4096 : Shape := ⟨1, ![4096]⟩
abbrev S1x4096 : Shape := ⟨2, ![1, 4096]⟩
abbrev S4096x1 : Shape := ⟨2, ![4096, 1]⟩
abbrev S64x256x128 : Shape := ⟨3, ![64, 256, 128]⟩
abbrev S64x256 : Shape := ⟨2, ![64, 256]⟩
abbrev S64x256x1 : Shape := ⟨3, ![64, 256, 1]⟩

abbrev nBuf : Space → Nat
  | .hbm => 542
  | .vmem => 8
  | .smem => 0
  | _ => 0

abbrev hbmTy0_0 (i : Nat) : BufTy := match i % 128 with
  | 0 => ⟨S64x4096x128, .f32⟩
  | 1 => ⟨S64x4096, .i32⟩
  | 2 => ⟨S10, .f32⟩
  | 3 => ⟨S_, .i32⟩
  | 4 => ⟨S64x4096, .i32⟩
  | 5 => ⟨S64x4096, .i1⟩
  | 6 => ⟨S_, .f32⟩
  | 7 => ⟨S_, .f32⟩
  | 8 => ⟨S64x4096, .f32⟩
  | 9 => ⟨S64x4096, .f32⟩
  | 10 => ⟨S64x4096, .f32⟩
  | 11 => ⟨S64x4096, .f32⟩
  | 12 => ⟨S64x4095, .i1⟩
  | 13 => ⟨S_, .i32⟩
  | 14 => ⟨S_, .i32⟩
  | 15 => ⟨S_, .i32⟩
  | 16 => ⟨S_, .i1⟩
  | 17 => ⟨S_, .i1⟩
  | 18 => ⟨S64x4096, .i1⟩
  | 19 => ⟨S1, .f32⟩
  | 20 => ⟨S_, .f32⟩
  | 21 => ⟨S_, .f32⟩
  | 22 => ⟨S_, .f32⟩
  | 23 => ⟨S64x4096, .f32⟩
  | 24 => ⟨S64x4096, .f32⟩
  | 25 => ⟨S64x4096, .f32⟩
  | 26 => ⟨S64x4096, .f32⟩
  | 27 => ⟨S64x4094, .i1⟩
  | 28 => ⟨S_, .i32⟩
  | 29 => ⟨S_, .i32⟩
  | 30 => ⟨S_, .i32⟩
  | 31 => ⟨S_, .i1⟩
  | 32 => ⟨S_, .i1⟩
  | 33 => ⟨S64x4096, .i1⟩
  | 34 => ⟨S1, .f32⟩
  | 35 => ⟨S_, .f32⟩
  | 36 => ⟨S_, .f32⟩
  | 37 => ⟨S_, .f32⟩
  | 38 => ⟨S64x4096, .f32⟩
  | 39 => ⟨S64x4096, .f32⟩
  | 40 => ⟨S64x4096, .f32⟩
  | 41 => ⟨S64x4096, .f32⟩
  | 42 => ⟨S64x4093, .i1⟩
  | 43 => ⟨S_, .i32⟩
  | 44 => ⟨S_, .i32⟩
  | 45 => ⟨S_, .i32⟩
  | 46 => ⟨S_, .i1⟩
  | 47 => ⟨S_, .i1⟩
  | 48 => ⟨S64x4096, .i1⟩
  | 49 => ⟨S1, .f32⟩
  | 50 => ⟨S_, .f32⟩
  | 51 => ⟨S_, .f32⟩
  | 52 => ⟨S_, .f32⟩
  | 53 => ⟨S64x4096, .f32⟩
  | 54 => ⟨S64x4096, .f32⟩
  | 55 => ⟨S64x4096, .f32⟩
  | 56 => ⟨S64x4096, .f32⟩
  | 57 => ⟨S64x4092, .i1⟩
  | 58 => ⟨S_, .i32⟩
  | 59 => ⟨S_, .i32⟩
  | 60 => ⟨S_, .i32⟩
  | 61 => ⟨S_, .i1⟩
  | 62 => ⟨S_, .i1⟩
  | 63 => ⟨S64x4096, .i1⟩
  | 64 => ⟨S1, .f32⟩
  | 65 => ⟨S_, .f32⟩
  | 66 => ⟨S_, .f32⟩
  | 67 => ⟨S_, .f32⟩
  | 68 => ⟨S64x4096, .f32⟩
  | 69 => ⟨S64x4096, .f32⟩
  | 70 => ⟨S64x4096, .f32⟩
  | 71 => ⟨S64x4096, .f32⟩
  | 72 => ⟨S64x4091, .i1⟩
  | 73 => ⟨S_, .i32⟩
  | 74 => ⟨S_, .i32⟩
  | 75 => ⟨S_, .i32⟩
  | 76 => ⟨S_, .i1⟩
  | 77 => ⟨S_, .i1⟩
  | 78 => ⟨S64x4096, .i1⟩
  | 79 => ⟨S1, .f32⟩
  | 80 => ⟨S_, .f32⟩
  | 81 => ⟨S_, .f32⟩
  | 82 => ⟨S_, .f32⟩
  | 83 => ⟨S64x4096, .f32⟩
  | 84 => ⟨S64x4096, .f32⟩
  | 85 => ⟨S64x4096, .f32⟩
  | 86 => ⟨S64x4096, .f32⟩
  | 87 => ⟨S64x4090, .i1⟩
  | 88 => ⟨S_, .i32⟩
  | 89 => ⟨S_, .i32⟩
  | 90 => ⟨S_, .i32⟩
  | 91 => ⟨S_, .i1⟩
  | 92 => ⟨S_, .i1⟩
  | 93 => ⟨S64x4096, .i1⟩
  | 94 => ⟨S1, .f32⟩
  | 95 => ⟨S_, .f32⟩
  | 96 => ⟨S_, .f32⟩
  | 97 => ⟨S_, .f32⟩
  | 98 => ⟨S64x4096, .f32⟩
  | 99 => ⟨S64x4096, .f32⟩
  | 100 => ⟨S64x4096, .f32⟩
  | 101 => ⟨S64x4096, .f32⟩
  | 102 => ⟨S64x4089, .i1⟩
  | 103 => ⟨S_, .i32⟩
  | 104 => ⟨S_, .i32⟩
  | 105 => ⟨S_, .i32⟩
  | 106 => ⟨S_, .i1⟩
  | 107 => ⟨S_, .i1⟩
  | 108 => ⟨S64x4096, .i1⟩
  | 109 => ⟨S1, .f32⟩
  | 110 => ⟨S_, .f32⟩
  | 111 => ⟨S_, .f32⟩
  | 112 => ⟨S_, .f32⟩
  | 113 => ⟨S64x4096, .f32⟩
  | 114 => ⟨S64x4096, .f32⟩
  | 115 => ⟨S64x4096, .f32⟩
  | 116 => ⟨S64x4096, .f32⟩
  | 117 => ⟨S64x4088, .i1⟩
  | 118 => ⟨S_, .i32⟩
  | 119 => ⟨S_, .i32⟩
  | 120 => ⟨S_, .i32⟩
  | 121 => ⟨S_, .i1⟩
  | 122 => ⟨S_, .i1⟩
  | 123 => ⟨S64x4096, .i1⟩
  | 124 => ⟨S1, .f32⟩
  | 125 => ⟨S_, .f32⟩
  | 126 => ⟨S_, .f32⟩
  | 127 => ⟨S_, .f32⟩
  | _ => ⟨S64x4096x128, .f32⟩

abbrev hbmTy0_1 (i : Nat) : BufTy := match i % 128 with
  | 0 => ⟨S64x4096, .f32⟩
  | 1 => ⟨S64x4096, .f32⟩
  | 2 => ⟨S64x4096, .f32⟩
  | 3 => ⟨S64x4096, .f32⟩
  | 4 => ⟨S64x4087, .i1⟩
  | 5 => ⟨S_, .i32⟩
  | 6 => ⟨S_, .i32⟩
  | 7 => ⟨S_, .i32⟩
  | 8 => ⟨S_, .i1⟩
  | 9 => ⟨S_, .i1⟩
  | 10 => ⟨S64x4096, .i1⟩
  | 11 => ⟨S1, .f32⟩
  | 12 => ⟨S_, .f32⟩
  | 13 => ⟨S_, .f32⟩
  | 14 => ⟨S_, .f32⟩
  | 15 => ⟨S64x4096, .f32⟩
  | 16 => ⟨S64x4096, .f32⟩
  | 17 => ⟨S64x4096, .f32⟩
  | 18 => ⟨S64x4096, .f32⟩
  | 19 => ⟨S64x4086, .i1⟩
  | 20 => ⟨S_, .i32⟩
  | 21 => ⟨S_, .i32⟩
  | 22 => ⟨S_, .i32⟩
  | 23 => ⟨S_, .i1⟩
  | 24 => ⟨S_, .i1⟩
  | 25 => ⟨S64x4096, .i1⟩
  | 26 => ⟨S1, .f32⟩
  | 27 => ⟨S_, .f32⟩
  | 28 => ⟨S_, .f32⟩
  | 29 => ⟨S_, .f32⟩
  | 30 => ⟨S64x4096, .f32⟩
  | 31 => ⟨S64x4096, .f32⟩
  | 32 => ⟨S64x4096, .f32⟩
  | 33 => ⟨S64x4096, .f32⟩
  | 34 => ⟨S4096, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i1⟩
  | 47 => ⟨S1x4096, .i1⟩
  | 48 => ⟨S64x4096, .i1⟩
  | 49 => ⟨S64x4096, .i1⟩
  | 50 => ⟨S_, .i32⟩
  | 51 => ⟨S_, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S4096, .f32⟩
  | 67 => ⟨S_, .f32⟩
  | 68 => ⟨S_, .f32⟩
  | 69 => ⟨S64x4096, .f32⟩
  | 70 => ⟨S64x4096, .f32⟩
  | 71 => ⟨S64x4096, .f32⟩
  | 72 => ⟨S64x4095, .f32⟩
  | 73 => ⟨S_, .f32⟩
  | 74 => ⟨S_, .f32⟩
  | 75 => ⟨S64x4096, .f32⟩
  | 76 => ⟨S64x4096, .f32⟩
  | 77 => ⟨S_, .i32⟩
  | 78 => ⟨S4096, .i32⟩
  | 79 => ⟨S4096, .i32⟩
  | 80 => ⟨S_, .i32⟩
  | 81 => ⟨S4096, .i32⟩
  | 82 => ⟨S4096, .i1⟩
  | 83 => ⟨S1x4096, .i1⟩
  | 84 => ⟨S64x4096, .i1⟩
  | 85 => ⟨S64x4096, .i1⟩
  | 86 => ⟨S_, .i32⟩
  | 87 => ⟨S_, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S4096, .f32⟩
  | 103 => ⟨S_, .f32⟩
  | 104 => ⟨S_, .f32⟩
  | 105 => ⟨S64x4096, .f32⟩
  | 106 => ⟨S64x4096, .f32⟩
  | 107 => ⟨S64x4096, .f32⟩
  | 108 => ⟨S64x4094, .f32⟩
  | 109 => ⟨S_, .f32⟩
  | 110 => ⟨S_, .f32⟩
  | 111 => ⟨S64x4096, .f32⟩
  | 112 => ⟨S64x4096, .f32⟩
  | 113 => ⟨S_, .i32⟩
  | 114 => ⟨S4096, .i32⟩
  | 115 => ⟨S4096, .i32⟩
  | 116 => ⟨S_, .i32⟩
  | 117 => ⟨S4096, .i32⟩
  | 118 => ⟨S4096, .i1⟩
  | 119 => ⟨S1x4096, .i1⟩
  | 120 => ⟨S64x4096, .i1⟩
  | 121 => ⟨S64x4096, .i1⟩
  | 122 => ⟨S_, .i32⟩
  | 123 => ⟨S_, .i32⟩
  | 124 => ⟨S_, .i32⟩
  | 125 => ⟨S4096, .i32⟩
  | 126 => ⟨S4096, .i32⟩
  | 127 => ⟨S_, .i32⟩
  | _ => ⟨S64x4096x128, .f32⟩

abbrev hbmTy0_2 (i : Nat) : BufTy := match i % 128 with
  | 0 => ⟨S4096, .i32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S4096, .f32⟩
  | 11 => ⟨S_, .f32⟩
  | 12 => ⟨S_, .f32⟩
  | 13 => ⟨S64x4096, .f32⟩
  | 14 => ⟨S64x4096, .f32⟩
  | 15 => ⟨S64x4096, .f32⟩
  | 16 => ⟨S64x4093, .f32⟩
  | 17 => ⟨S_, .f32⟩
  | 18 => ⟨S_, .f32⟩
  | 19 => ⟨S64x4096, .f32⟩
  | 20 => ⟨S64x4096, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i1⟩
  | 27 => ⟨S1x4096, .i1⟩
  | 28 => ⟨S64x4096, .i1⟩
  | 29 => ⟨S64x4096, .i1⟩
  | 30 => ⟨S_, .i32⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S4096, .f32⟩
  | 47 => ⟨S_, .f32⟩
  | 48 => ⟨S_, .f32⟩
  | 49 => ⟨S64x4096, .f32⟩
  | 50 => ⟨S64x4096, .f32⟩
  | 51 => ⟨S64x4096, .f32⟩
  | 52 => ⟨S64x4092, .f32⟩
  | 53 => ⟨S_, .f32⟩
  | 54 => ⟨S_, .f32⟩
  | 55 => ⟨S64x4096, .f32⟩
  | 56 => ⟨S64x4096, .f32⟩
  | 57 => ⟨S_, .i32⟩
  | 58 => ⟨S4096, .i32⟩
  | 59 => ⟨S4096, .i32⟩
  | 60 => ⟨S_, .i32⟩
  | 61 => ⟨S4096, .i32⟩
  | 62 => ⟨S4096, .i1⟩
  | 63 => ⟨S1x4096, .i1⟩
  | 64 => ⟨S64x4096, .i1⟩
  | 65 => ⟨S64x4096, .i1⟩
  | 66 => ⟨S_, .i32⟩
  | 67 => ⟨S_, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S4096x1, .i32⟩
  | 82 => ⟨S4096, .f32⟩
  | 83 => ⟨S_, .f32⟩
  | 84 => ⟨S_, .f32⟩
  | 85 => ⟨S64x4096, .f32⟩
  | 86 => ⟨S64x4096, .f32⟩
  | 87 => ⟨S64x4096, .f32⟩
  | 88 => ⟨S64x4091, .f32⟩
  | 89 => ⟨S_, .f32⟩
  | 90 => ⟨S_, .f32⟩
  | 91 => ⟨S64x4096, .f32⟩
  | 92 => ⟨S64x4096, .f32⟩
  | 93 => ⟨S_, .i32⟩
  | 94 => ⟨S4096, .i32⟩
  | 95 => ⟨S4096, .i32⟩
  | 96 => ⟨S_, .i32⟩
  | 97 => ⟨S4096, .i32⟩
  | 98 => ⟨S4096, .i1⟩
  | 99 => ⟨S1x4096, .i1⟩
  | 100 => ⟨S64x4096, .i1⟩
  | 101 => ⟨S64x4096, .i1⟩
  | 102 => ⟨S_, .i32⟩
  | 103 => ⟨S_, .i32⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S4096, .f32⟩
  | 119 => ⟨S_, .f32⟩
  | 120 => ⟨S_, .f32⟩
  | 121 => ⟨S64x4096, .f32⟩
  | 122 => ⟨S64x4096, .f32⟩
  | 123 => ⟨S64x4096, .f32⟩
  | 124 => ⟨S64x4090, .f32⟩
  | 125 => ⟨S_, .f32⟩
  | 126 => ⟨S_, .f32⟩
  | 127 => ⟨S64x4096, .f32⟩
  | _ => ⟨S64x4096x128, .f32⟩

abbrev hbmTy0_3 (i : Nat) : BufTy := match i % 128 with
  | 0 => ⟨S64x4096, .f32⟩
  | 1 => ⟨S_, .i32⟩
  | 2 => ⟨S4096, .i32⟩
  | 3 => ⟨S4096, .i32⟩
  | 4 => ⟨S_, .i32⟩
  | 5 => ⟨S4096, .i32⟩
  | 6 => ⟨S4096, .i1⟩
  | 7 => ⟨S1x4096, .i1⟩
  | 8 => ⟨S64x4096, .i1⟩
  | 9 => ⟨S64x4096, .i1⟩
  | 10 => ⟨S_, .i32⟩
  | 11 => ⟨S_, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S4096, .f32⟩
  | 27 => ⟨S_, .f32⟩
  | 28 => ⟨S_, .f32⟩
  | 29 => ⟨S64x4096, .f32⟩
  | 30 => ⟨S64x4096, .f32⟩
  | 31 => ⟨S64x4096, .f32⟩
  | 32 => ⟨S64x4089, .f32⟩
  | 33 => ⟨S_, .f32⟩
  | 34 => ⟨S_, .f32⟩
  | 35 => ⟨S64x4096, .f32⟩
  | 36 => ⟨S64x4096, .f32⟩
  | 37 => ⟨S_, .i32⟩
  | 38 => ⟨S4096, .i32⟩
  | 39 => ⟨S4096, .i32⟩
  | 40 => ⟨S_, .i32⟩
  | 41 => ⟨S4096, .i32⟩
  | 42 => ⟨S4096, .i1⟩
  | 43 => ⟨S1x4096, .i1⟩
  | 44 => ⟨S64x4096, .i1⟩
  | 45 => ⟨S64x4096, .i1⟩
  | 46 => ⟨S_, .i32⟩
  | 47 => ⟨S_, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S_, .i32⟩
  | 55 => ⟨S4096, .i32⟩
  | 56 => ⟨S4096, .i1⟩
  | 57 => ⟨S_, .i32⟩
  | 58 => ⟨S4096, .i32⟩
  | 59 => ⟨S4096, .i32⟩
  | 60 => ⟨S4096, .i32⟩
  | 61 => ⟨S4096x1, .i32⟩
  | 62 => ⟨S4096, .f32⟩
  | 63 => ⟨S_, .f32⟩
  | 64 => ⟨S_, .f32⟩
  | 65 => ⟨S64x4096, .f32⟩
  | 66 => ⟨S64x4096, .f32⟩
  | 67 => ⟨S64x4096, .f32⟩
  | 68 => ⟨S64x4088, .f32⟩
  | 69 => ⟨S_, .f32⟩
  | 70 => ⟨S_, .f32⟩
  | 71 => ⟨S64x4096, .f32⟩
  | 72 => ⟨S64x4096, .f32⟩
  | 73 => ⟨S_, .i32⟩
  | 74 => ⟨S4096, .i32⟩
  | 75 => ⟨S4096, .i32⟩
  | 76 => ⟨S_, .i32⟩
  | 77 => ⟨S4096, .i32⟩
  | 78 => ⟨S4096, .i1⟩
  | 79 => ⟨S1x4096, .i1⟩
  | 80 => ⟨S64x4096, .i1⟩
  | 81 => ⟨S64x4096, .i1⟩
  | 82 => ⟨S_, .i32⟩
  | 83 => ⟨S_, .i32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S4096, .f32⟩
  | 99 => ⟨S_, .f32⟩
  | 100 => ⟨S_, .f32⟩
  | 101 => ⟨S64x4096, .f32⟩
  | 102 => ⟨S64x4096, .f32⟩
  | 103 => ⟨S64x4096, .f32⟩
  | 104 => ⟨S64x4087, .f32⟩
  | 105 => ⟨S_, .f32⟩
  | 106 => ⟨S_, .f32⟩
  | 107 => ⟨S64x4096, .f32⟩
  | 108 => ⟨S64x4096, .f32⟩
  | 109 => ⟨S_, .i32⟩
  | 110 => ⟨S4096, .i32⟩
  | 111 => ⟨S4096, .i32⟩
  | 112 => ⟨S_, .i32⟩
  | 113 => ⟨S4096, .i32⟩
  | 114 => ⟨S4096, .i1⟩
  | 115 => ⟨S1x4096, .i1⟩
  | 116 => ⟨S64x4096, .i1⟩
  | 117 => ⟨S64x4096, .i1⟩
  | 118 => ⟨S_, .i32⟩
  | 119 => ⟨S_, .i32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S_, .i32⟩
  | 127 => ⟨S4096, .i32⟩
  | _ => ⟨S64x4096x128, .f32⟩

abbrev hbmTy0_4 (i : Nat) : BufTy := match i % 128 with
  | 0 => ⟨S4096, .i1⟩
  | 1 => ⟨S_, .i32⟩
  | 2 => ⟨S4096, .i32⟩
  | 3 => ⟨S4096, .i32⟩
  | 4 => ⟨S4096, .i32⟩
  | 5 => ⟨S4096x1, .i32⟩
  | 6 => ⟨S4096, .f32⟩
  | 7 => ⟨S_, .f32⟩
  | 8 => ⟨S_, .f32⟩
  | 9 => ⟨S64x4096, .f32⟩
  | 10 => ⟨S64x4096, .f32⟩
  | 11 => ⟨S64x4096, .f32⟩
  | 12 => ⟨S64x4086, .f32⟩
  | 13 => ⟨S_, .f32⟩
  | 14 => ⟨S_, .f32⟩
  | 15 => ⟨S64x4096, .f32⟩
  | 16 => ⟨S64x4096, .f32⟩
  | 17 => ⟨S_, .i32⟩
  | 18 => ⟨S_, .i32⟩
  | 19 => ⟨S_, .i32⟩
  | 20 => ⟨S64x4096, .i32⟩
  | 21 => ⟨S64x4096, .i32⟩
  | 22 => ⟨S_, .i32⟩
  | 23 => ⟨S64x4096, .i32⟩
  | 24 => ⟨S64x4096, .i32⟩
  | 25 => ⟨S64x4096, .f32⟩
  | 26 => ⟨S_, .f32⟩
  | 27 => ⟨S_, .f32⟩
  | 28 => ⟨S_, .f32⟩
  | 29 => ⟨S_, .f32⟩
  | _ => ⟨S64x4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x4096x128, .f32⟩

abbrev bufTy : (tb : Table) → Fin (tcTables nBuf tb) → BufTy
  | .hbm, ⟨i, _⟩ => hbmTy i
  | .local _ .vmem, ⟨0, _⟩ => ⟨S64x256x128, .f32⟩
  | .local _ .vmem, ⟨1, _⟩ => ⟨S64x256x128, .f32⟩
  | .local _ .vmem, ⟨2, _⟩ => ⟨S64x256, .i32⟩
  | .local _ .vmem, ⟨3, _⟩ => ⟨S64x256, .i32⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_cst_0 : Ref sig .tc := ⟨.hbm, 6, rfl⟩
abbrev main_call0_cst_1 : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_2 : Ref sig .tc := ⟨.hbm, 13, rfl⟩
abbrev main_call0_call1_c : Ref sig .tc := ⟨.hbm, 14, rfl⟩
abbrev main_call0_call1_v0 : Ref sig .tc := ⟨.hbm, 15, rfl⟩
abbrev main_call0_call1_v1 : Ref sig .tc := ⟨.hbm, 16, rfl⟩
abbrev main_call0_call1_v2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_3 : Ref sig .tc := ⟨.hbm, 21, rfl⟩
abbrev main_call0_call2_v0 : Ref sig .tc := ⟨.hbm, 22, rfl⟩
abbrev main_call0_call2_v1 : Ref sig .tc := ⟨.hbm, 23, rfl⟩
abbrev main_call0_call2_v2 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_c_4 : Ref sig .tc := ⟨.hbm, 28, rfl⟩
abbrev main_call0_call3_c : Ref sig .tc := ⟨.hbm, 29, rfl⟩
abbrev main_call0_call3_v0 : Ref sig .tc := ⟨.hbm, 30, rfl⟩
abbrev main_call0_call3_v1 : Ref sig .tc := ⟨.hbm, 31, rfl⟩
abbrev main_call0_call3_v2 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_cst_5 : Ref sig .tc := ⟨.hbm, 36, rfl⟩
abbrev main_call0_call4_v0 : Ref sig .tc := ⟨.hbm, 37, rfl⟩
abbrev main_call0_call4_v1 : Ref sig .tc := ⟨.hbm, 38, rfl⟩
abbrev main_call0_call4_v2 : Ref sig .tc := ⟨.hbm, 39, rfl⟩
abbrev main_call0_v14 : Ref sig .tc := ⟨.hbm, 40, rfl⟩
abbrev main_call0_v15 : Ref sig .tc := ⟨.hbm, 41, rfl⟩
abbrev main_call0_v16 : Ref sig .tc := ⟨.hbm, 42, rfl⟩
abbrev main_call0_c_6 : Ref sig .tc := ⟨.hbm, 43, rfl⟩
abbrev main_call0_call5_c : Ref sig .tc := ⟨.hbm, 44, rfl⟩
abbrev main_call0_call5_v0 : Ref sig .tc := ⟨.hbm, 45, rfl⟩
abbrev main_call0_call5_v1 : Ref sig .tc := ⟨.hbm, 46, rfl⟩
abbrev main_call0_call5_v2 : Ref sig .tc := ⟨.hbm, 47, rfl⟩
abbrev main_call0_v17 : Ref sig .tc := ⟨.hbm, 48, rfl⟩
abbrev main_call0_v18 : Ref sig .tc := ⟨.hbm, 49, rfl⟩
abbrev main_call0_v19 : Ref sig .tc := ⟨.hbm, 50, rfl⟩
abbrev main_call0_cst_7 : Ref sig .tc := ⟨.hbm, 51, rfl⟩
abbrev main_call0_call6_v0 : Ref sig .tc := ⟨.hbm, 52, rfl⟩
abbrev main_call0_call6_v1 : Ref sig .tc := ⟨.hbm, 53, rfl⟩
abbrev main_call0_call6_v2 : Ref sig .tc := ⟨.hbm, 54, rfl⟩
abbrev main_call0_v20 : Ref sig .tc := ⟨.hbm, 55, rfl⟩
abbrev main_call0_v21 : Ref sig .tc := ⟨.hbm, 56, rfl⟩
abbrev main_call0_v22 : Ref sig .tc := ⟨.hbm, 57, rfl⟩
abbrev main_call0_c_8 : Ref sig .tc := ⟨.hbm, 58, rfl⟩
abbrev main_call0_call7_c : Ref sig .tc := ⟨.hbm, 59, rfl⟩
abbrev main_call0_call7_v0 : Ref sig .tc := ⟨.hbm, 60, rfl⟩
abbrev main_call0_call7_v1 : Ref sig .tc := ⟨.hbm, 61, rfl⟩
abbrev main_call0_call7_v2 : Ref sig .tc := ⟨.hbm, 62, rfl⟩
abbrev main_call0_v23 : Ref sig .tc := ⟨.hbm, 63, rfl⟩
abbrev main_call0_v24 : Ref sig .tc := ⟨.hbm, 64, rfl⟩
abbrev main_call0_v25 : Ref sig .tc := ⟨.hbm, 65, rfl⟩
abbrev main_call0_cst_9 : Ref sig .tc := ⟨.hbm, 66, rfl⟩
abbrev main_call0_call8_v0 : Ref sig .tc := ⟨.hbm, 67, rfl⟩
abbrev main_call0_call8_v1 : Ref sig .tc := ⟨.hbm, 68, rfl⟩
abbrev main_call0_call8_v2 : Ref sig .tc := ⟨.hbm, 69, rfl⟩
abbrev main_call0_v26 : Ref sig .tc := ⟨.hbm, 70, rfl⟩
abbrev main_call0_v27 : Ref sig .tc := ⟨.hbm, 71, rfl⟩
abbrev main_call0_v28 : Ref sig .tc := ⟨.hbm, 72, rfl⟩
abbrev main_call0_c_10 : Ref sig .tc := ⟨.hbm, 73, rfl⟩
abbrev main_call0_call9_c : Ref sig .tc := ⟨.hbm, 74, rfl⟩
abbrev main_call0_call9_v0 : Ref sig .tc := ⟨.hbm, 75, rfl⟩
abbrev main_call0_call9_v1 : Ref sig .tc := ⟨.hbm, 76, rfl⟩
abbrev main_call0_call9_v2 : Ref sig .tc := ⟨.hbm, 77, rfl⟩
abbrev main_call0_v29 : Ref sig .tc := ⟨.hbm, 78, rfl⟩
abbrev main_call0_v30 : Ref sig .tc := ⟨.hbm, 79, rfl⟩
abbrev main_call0_v31 : Ref sig .tc := ⟨.hbm, 80, rfl⟩
abbrev main_call0_cst_11 : Ref sig .tc := ⟨.hbm, 81, rfl⟩
abbrev main_call0_call10_v0 : Ref sig .tc := ⟨.hbm, 82, rfl⟩
abbrev main_call0_call10_v1 : Ref sig .tc := ⟨.hbm, 83, rfl⟩
abbrev main_call0_call10_v2 : Ref sig .tc := ⟨.hbm, 84, rfl⟩
abbrev main_call0_v32 : Ref sig .tc := ⟨.hbm, 85, rfl⟩
abbrev main_call0_v33 : Ref sig .tc := ⟨.hbm, 86, rfl⟩
abbrev main_call0_v34 : Ref sig .tc := ⟨.hbm, 87, rfl⟩
abbrev main_call0_c_12 : Ref sig .tc := ⟨.hbm, 88, rfl⟩
abbrev main_call0_call11_c : Ref sig .tc := ⟨.hbm, 89, rfl⟩
abbrev main_call0_call11_v0 : Ref sig .tc := ⟨.hbm, 90, rfl⟩
abbrev main_call0_call11_v1 : Ref sig .tc := ⟨.hbm, 91, rfl⟩
abbrev main_call0_call11_v2 : Ref sig .tc := ⟨.hbm, 92, rfl⟩
abbrev main_call0_v35 : Ref sig .tc := ⟨.hbm, 93, rfl⟩
abbrev main_call0_v36 : Ref sig .tc := ⟨.hbm, 94, rfl⟩
abbrev main_call0_v37 : Ref sig .tc := ⟨.hbm, 95, rfl⟩
abbrev main_call0_cst_13 : Ref sig .tc := ⟨.hbm, 96, rfl⟩
abbrev main_call0_call12_v0 : Ref sig .tc := ⟨.hbm, 97, rfl⟩
abbrev main_call0_call12_v1 : Ref sig .tc := ⟨.hbm, 98, rfl⟩
abbrev main_call0_call12_v2 : Ref sig .tc := ⟨.hbm, 99, rfl⟩
abbrev main_call0_v38 : Ref sig .tc := ⟨.hbm, 100, rfl⟩
abbrev main_call0_v39 : Ref sig .tc := ⟨.hbm, 101, rfl⟩
abbrev main_call0_v40 : Ref sig .tc := ⟨.hbm, 102, rfl⟩
abbrev main_call0_c_14 : Ref sig .tc := ⟨.hbm, 103, rfl⟩
abbrev main_call0_call13_c : Ref sig .tc := ⟨.hbm, 104, rfl⟩
abbrev main_call0_call13_v0 : Ref sig .tc := ⟨.hbm, 105, rfl⟩
abbrev main_call0_call13_v1 : Ref sig .tc := ⟨.hbm, 106, rfl⟩
abbrev main_call0_call13_v2 : Ref sig .tc := ⟨.hbm, 107, rfl⟩
abbrev main_call0_v41 : Ref sig .tc := ⟨.hbm, 108, rfl⟩
abbrev main_call0_v42 : Ref sig .tc := ⟨.hbm, 109, rfl⟩
abbrev main_call0_v43 : Ref sig .tc := ⟨.hbm, 110, rfl⟩
abbrev main_call0_cst_15 : Ref sig .tc := ⟨.hbm, 111, rfl⟩
abbrev main_call0_call14_v0 : Ref sig .tc := ⟨.hbm, 112, rfl⟩
abbrev main_call0_call14_v1 : Ref sig .tc := ⟨.hbm, 113, rfl⟩
abbrev main_call0_call14_v2 : Ref sig .tc := ⟨.hbm, 114, rfl⟩
abbrev main_call0_v44 : Ref sig .tc := ⟨.hbm, 115, rfl⟩
abbrev main_call0_v45 : Ref sig .tc := ⟨.hbm, 116, rfl⟩
abbrev main_call0_v46 : Ref sig .tc := ⟨.hbm, 117, rfl⟩
abbrev main_call0_c_16 : Ref sig .tc := ⟨.hbm, 118, rfl⟩
abbrev main_call0_call15_c : Ref sig .tc := ⟨.hbm, 119, rfl⟩
abbrev main_call0_call15_v0 : Ref sig .tc := ⟨.hbm, 120, rfl⟩
abbrev main_call0_call15_v1 : Ref sig .tc := ⟨.hbm, 121, rfl⟩
abbrev main_call0_call15_v2 : Ref sig .tc := ⟨.hbm, 122, rfl⟩
abbrev main_call0_v47 : Ref sig .tc := ⟨.hbm, 123, rfl⟩
abbrev main_call0_v48 : Ref sig .tc := ⟨.hbm, 124, rfl⟩
abbrev main_call0_v49 : Ref sig .tc := ⟨.hbm, 125, rfl⟩
abbrev main_call0_cst_17 : Ref sig .tc := ⟨.hbm, 126, rfl⟩
abbrev main_call0_call16_v0 : Ref sig .tc := ⟨.hbm, 127, rfl⟩
abbrev main_call0_call16_v1 : Ref sig .tc := ⟨.hbm, 128, rfl⟩
abbrev main_call0_call16_v2 : Ref sig .tc := ⟨.hbm, 129, rfl⟩
abbrev main_call0_v50 : Ref sig .tc := ⟨.hbm, 130, rfl⟩
abbrev main_call0_v51 : Ref sig .tc := ⟨.hbm, 131, rfl⟩
abbrev main_call0_v52 : Ref sig .tc := ⟨.hbm, 132, rfl⟩
abbrev main_call0_c_18 : Ref sig .tc := ⟨.hbm, 133, rfl⟩
abbrev main_call0_call17_c : Ref sig .tc := ⟨.hbm, 134, rfl⟩
abbrev main_call0_call17_v0 : Ref sig .tc := ⟨.hbm, 135, rfl⟩
abbrev main_call0_call17_v1 : Ref sig .tc := ⟨.hbm, 136, rfl⟩
abbrev main_call0_call17_v2 : Ref sig .tc := ⟨.hbm, 137, rfl⟩
abbrev main_call0_v53 : Ref sig .tc := ⟨.hbm, 138, rfl⟩
abbrev main_call0_v54 : Ref sig .tc := ⟨.hbm, 139, rfl⟩
abbrev main_call0_v55 : Ref sig .tc := ⟨.hbm, 140, rfl⟩
abbrev main_call0_cst_19 : Ref sig .tc := ⟨.hbm, 141, rfl⟩
abbrev main_call0_call18_v0 : Ref sig .tc := ⟨.hbm, 142, rfl⟩
abbrev main_call0_call18_v1 : Ref sig .tc := ⟨.hbm, 143, rfl⟩
abbrev main_call0_call18_v2 : Ref sig .tc := ⟨.hbm, 144, rfl⟩
abbrev main_call0_v56 : Ref sig .tc := ⟨.hbm, 145, rfl⟩
abbrev main_call0_v57 : Ref sig .tc := ⟨.hbm, 146, rfl⟩
abbrev main_call0_v58 : Ref sig .tc := ⟨.hbm, 147, rfl⟩
abbrev main_call0_c_20 : Ref sig .tc := ⟨.hbm, 148, rfl⟩
abbrev main_call0_call19_c : Ref sig .tc := ⟨.hbm, 149, rfl⟩
abbrev main_call0_call19_v0 : Ref sig .tc := ⟨.hbm, 150, rfl⟩
abbrev main_call0_call19_v1 : Ref sig .tc := ⟨.hbm, 151, rfl⟩
abbrev main_call0_call19_v2 : Ref sig .tc := ⟨.hbm, 152, rfl⟩
abbrev main_call0_v59 : Ref sig .tc := ⟨.hbm, 153, rfl⟩
abbrev main_call0_v60 : Ref sig .tc := ⟨.hbm, 154, rfl⟩
abbrev main_call0_v61 : Ref sig .tc := ⟨.hbm, 155, rfl⟩
abbrev main_call0_cst_21 : Ref sig .tc := ⟨.hbm, 156, rfl⟩
abbrev main_call0_call20_v0 : Ref sig .tc := ⟨.hbm, 157, rfl⟩
abbrev main_call0_call20_v1 : Ref sig .tc := ⟨.hbm, 158, rfl⟩
abbrev main_call0_call20_v2 : Ref sig .tc := ⟨.hbm, 159, rfl⟩
abbrev main_call0_v62 : Ref sig .tc := ⟨.hbm, 160, rfl⟩
abbrev main_call0_v63 : Ref sig .tc := ⟨.hbm, 161, rfl⟩
abbrev main_call0_v64 : Ref sig .tc := ⟨.hbm, 162, rfl⟩
abbrev main_call0_c_22 : Ref sig .tc := ⟨.hbm, 163, rfl⟩
abbrev main_call0_v65 : Ref sig .tc := ⟨.hbm, 164, rfl⟩
abbrev main_call0_v66 : Ref sig .tc := ⟨.hbm, 165, rfl⟩
abbrev main_call0_c_23 : Ref sig .tc := ⟨.hbm, 166, rfl⟩
abbrev main_call0_v67 : Ref sig .tc := ⟨.hbm, 167, rfl⟩
abbrev main_call0_v68 : Ref sig .tc := ⟨.hbm, 168, rfl⟩
abbrev main_call0_c_24 : Ref sig .tc := ⟨.hbm, 169, rfl⟩
abbrev main_call0_v69 : Ref sig .tc := ⟨.hbm, 170, rfl⟩
abbrev main_call0_v70 : Ref sig .tc := ⟨.hbm, 171, rfl⟩
abbrev main_call0_c_25 : Ref sig .tc := ⟨.hbm, 172, rfl⟩
abbrev main_call0_v71 : Ref sig .tc := ⟨.hbm, 173, rfl⟩
abbrev main_call0_v72 : Ref sig .tc := ⟨.hbm, 174, rfl⟩
abbrev main_call0_v73 : Ref sig .tc := ⟨.hbm, 175, rfl⟩
abbrev main_call0_v74 : Ref sig .tc := ⟨.hbm, 176, rfl⟩
abbrev main_call0_v75 : Ref sig .tc := ⟨.hbm, 177, rfl⟩
abbrev main_call0_c_26 : Ref sig .tc := ⟨.hbm, 178, rfl⟩
abbrev main_call0_c_27 : Ref sig .tc := ⟨.hbm, 179, rfl⟩
abbrev main_call0_call21_v0 : Ref sig .tc := ⟨.hbm, 180, rfl⟩
abbrev main_call0_call21_v1 : Ref sig .tc := ⟨.hbm, 181, rfl⟩
abbrev main_call0_call21_v2 : Ref sig .tc := ⟨.hbm, 182, rfl⟩
abbrev main_call0_call21_v3 : Ref sig .tc := ⟨.hbm, 183, rfl⟩
abbrev main_call0_call21_v4 : Ref sig .tc := ⟨.hbm, 184, rfl⟩
abbrev main_call0_v76 : Ref sig .tc := ⟨.hbm, 185, rfl⟩
abbrev main_call0_c_28 : Ref sig .tc := ⟨.hbm, 186, rfl⟩
abbrev main_call0_v77 : Ref sig .tc := ⟨.hbm, 187, rfl⟩
abbrev main_call0_v78 : Ref sig .tc := ⟨.hbm, 188, rfl⟩
abbrev main_call0_c_29 : Ref sig .tc := ⟨.hbm, 189, rfl⟩
abbrev main_call0_v79 : Ref sig .tc := ⟨.hbm, 190, rfl⟩
abbrev main_call0_v80 : Ref sig .tc := ⟨.hbm, 191, rfl⟩
abbrev main_call0_v81 : Ref sig .tc := ⟨.hbm, 192, rfl⟩
abbrev main_call0_v82 : Ref sig .tc := ⟨.hbm, 193, rfl⟩
abbrev main_call0_v83 : Ref sig .tc := ⟨.hbm, 194, rfl⟩
abbrev main_call0_cst_30 : Ref sig .tc := ⟨.hbm, 195, rfl⟩
abbrev main_call0_call22_v0 : Ref sig .tc := ⟨.hbm, 196, rfl⟩
abbrev main_call0_call22_v1 : Ref sig .tc := ⟨.hbm, 197, rfl⟩
abbrev main_call0_call22_v2 : Ref sig .tc := ⟨.hbm, 198, rfl⟩
abbrev main_call0_v84 : Ref sig .tc := ⟨.hbm, 199, rfl⟩
abbrev main_call0_v85 : Ref sig .tc := ⟨.hbm, 200, rfl⟩
abbrev main_call0_cst_31 : Ref sig .tc := ⟨.hbm, 201, rfl⟩
abbrev main_call0_call23_v0 : Ref sig .tc := ⟨.hbm, 202, rfl⟩
abbrev main_call0_v86 : Ref sig .tc := ⟨.hbm, 203, rfl⟩
abbrev main_call0_v87 : Ref sig .tc := ⟨.hbm, 204, rfl⟩
abbrev main_call0_c_32 : Ref sig .tc := ⟨.hbm, 205, rfl⟩
abbrev main_call0_v88 : Ref sig .tc := ⟨.hbm, 206, rfl⟩
abbrev main_call0_v89 : Ref sig .tc := ⟨.hbm, 207, rfl⟩
abbrev main_call0_c_33 : Ref sig .tc := ⟨.hbm, 208, rfl⟩
abbrev main_call0_v90 : Ref sig .tc := ⟨.hbm, 209, rfl⟩
abbrev main_call0_v91 : Ref sig .tc := ⟨.hbm, 210, rfl⟩
abbrev main_call0_v92 : Ref sig .tc := ⟨.hbm, 211, rfl⟩
abbrev main_call0_v93 : Ref sig .tc := ⟨.hbm, 212, rfl⟩
abbrev main_call0_v94 : Ref sig .tc := ⟨.hbm, 213, rfl⟩
abbrev main_call0_c_34 : Ref sig .tc := ⟨.hbm, 214, rfl⟩
abbrev main_call0_c_35 : Ref sig .tc := ⟨.hbm, 215, rfl⟩
abbrev main_call0_call24_v0 : Ref sig .tc := ⟨.hbm, 216, rfl⟩
abbrev main_call0_call24_v1 : Ref sig .tc := ⟨.hbm, 217, rfl⟩
abbrev main_call0_call24_v2 : Ref sig .tc := ⟨.hbm, 218, rfl⟩
abbrev main_call0_call24_v3 : Ref sig .tc := ⟨.hbm, 219, rfl⟩
abbrev main_call0_call24_v4 : Ref sig .tc := ⟨.hbm, 220, rfl⟩
abbrev main_call0_v95 : Ref sig .tc := ⟨.hbm, 221, rfl⟩
abbrev main_call0_c_36 : Ref sig .tc := ⟨.hbm, 222, rfl⟩
abbrev main_call0_v96 : Ref sig .tc := ⟨.hbm, 223, rfl⟩
abbrev main_call0_v97 : Ref sig .tc := ⟨.hbm, 224, rfl⟩
abbrev main_call0_c_37 : Ref sig .tc := ⟨.hbm, 225, rfl⟩
abbrev main_call0_v98 : Ref sig .tc := ⟨.hbm, 226, rfl⟩
abbrev main_call0_v99 : Ref sig .tc := ⟨.hbm, 227, rfl⟩
abbrev main_call0_v100 : Ref sig .tc := ⟨.hbm, 228, rfl⟩
abbrev main_call0_v101 : Ref sig .tc := ⟨.hbm, 229, rfl⟩
abbrev main_call0_v102 : Ref sig .tc := ⟨.hbm, 230, rfl⟩
abbrev main_call0_cst_38 : Ref sig .tc := ⟨.hbm, 231, rfl⟩
abbrev main_call0_call25_v0 : Ref sig .tc := ⟨.hbm, 232, rfl⟩
abbrev main_call0_call25_v1 : Ref sig .tc := ⟨.hbm, 233, rfl⟩
abbrev main_call0_call25_v2 : Ref sig .tc := ⟨.hbm, 234, rfl⟩
abbrev main_call0_v103 : Ref sig .tc := ⟨.hbm, 235, rfl⟩
abbrev main_call0_v104 : Ref sig .tc := ⟨.hbm, 236, rfl⟩
abbrev main_call0_cst_39 : Ref sig .tc := ⟨.hbm, 237, rfl⟩
abbrev main_call0_call26_v0 : Ref sig .tc := ⟨.hbm, 238, rfl⟩
abbrev main_call0_v105 : Ref sig .tc := ⟨.hbm, 239, rfl⟩
abbrev main_call0_v106 : Ref sig .tc := ⟨.hbm, 240, rfl⟩
abbrev main_call0_c_40 : Ref sig .tc := ⟨.hbm, 241, rfl⟩
abbrev main_call0_v107 : Ref sig .tc := ⟨.hbm, 242, rfl⟩
abbrev main_call0_v108 : Ref sig .tc := ⟨.hbm, 243, rfl⟩
abbrev main_call0_c_41 : Ref sig .tc := ⟨.hbm, 244, rfl⟩
abbrev main_call0_v109 : Ref sig .tc := ⟨.hbm, 245, rfl⟩
abbrev main_call0_v110 : Ref sig .tc := ⟨.hbm, 246, rfl⟩
abbrev main_call0_v111 : Ref sig .tc := ⟨.hbm, 247, rfl⟩
abbrev main_call0_v112 : Ref sig .tc := ⟨.hbm, 248, rfl⟩
abbrev main_call0_v113 : Ref sig .tc := ⟨.hbm, 249, rfl⟩
abbrev main_call0_c_42 : Ref sig .tc := ⟨.hbm, 250, rfl⟩
abbrev main_call0_c_43 : Ref sig .tc := ⟨.hbm, 251, rfl⟩
abbrev main_call0_call27_v0 : Ref sig .tc := ⟨.hbm, 252, rfl⟩
abbrev main_call0_call27_v1 : Ref sig .tc := ⟨.hbm, 253, rfl⟩
abbrev main_call0_call27_v2 : Ref sig .tc := ⟨.hbm, 254, rfl⟩
abbrev main_call0_call27_v3 : Ref sig .tc := ⟨.hbm, 255, rfl⟩
abbrev main_call0_call27_v4 : Ref sig .tc := ⟨.hbm, 256, rfl⟩
abbrev main_call0_v114 : Ref sig .tc := ⟨.hbm, 257, rfl⟩
abbrev main_call0_c_44 : Ref sig .tc := ⟨.hbm, 258, rfl⟩
abbrev main_call0_v115 : Ref sig .tc := ⟨.hbm, 259, rfl⟩
abbrev main_call0_v116 : Ref sig .tc := ⟨.hbm, 260, rfl⟩
abbrev main_call0_c_45 : Ref sig .tc := ⟨.hbm, 261, rfl⟩
abbrev main_call0_v117 : Ref sig .tc := ⟨.hbm, 262, rfl⟩
abbrev main_call0_v118 : Ref sig .tc := ⟨.hbm, 263, rfl⟩
abbrev main_call0_v119 : Ref sig .tc := ⟨.hbm, 264, rfl⟩
abbrev main_call0_v120 : Ref sig .tc := ⟨.hbm, 265, rfl⟩
abbrev main_call0_v121 : Ref sig .tc := ⟨.hbm, 266, rfl⟩
abbrev main_call0_cst_46 : Ref sig .tc := ⟨.hbm, 267, rfl⟩
abbrev main_call0_call28_v0 : Ref sig .tc := ⟨.hbm, 268, rfl⟩
abbrev main_call0_call28_v1 : Ref sig .tc := ⟨.hbm, 269, rfl⟩
abbrev main_call0_call28_v2 : Ref sig .tc := ⟨.hbm, 270, rfl⟩
abbrev main_call0_v122 : Ref sig .tc := ⟨.hbm, 271, rfl⟩
abbrev main_call0_v123 : Ref sig .tc := ⟨.hbm, 272, rfl⟩
abbrev main_call0_cst_47 : Ref sig .tc := ⟨.hbm, 273, rfl⟩
abbrev main_call0_call29_v0 : Ref sig .tc := ⟨.hbm, 274, rfl⟩
abbrev main_call0_v124 : Ref sig .tc := ⟨.hbm, 275, rfl⟩
abbrev main_call0_v125 : Ref sig .tc := ⟨.hbm, 276, rfl⟩
abbrev main_call0_c_48 : Ref sig .tc := ⟨.hbm, 277, rfl⟩
abbrev main_call0_v126 : Ref sig .tc := ⟨.hbm, 278, rfl⟩
abbrev main_call0_v127 : Ref sig .tc := ⟨.hbm, 279, rfl⟩
abbrev main_call0_c_49 : Ref sig .tc := ⟨.hbm, 280, rfl⟩
abbrev main_call0_v128 : Ref sig .tc := ⟨.hbm, 281, rfl⟩
abbrev main_call0_v129 : Ref sig .tc := ⟨.hbm, 282, rfl⟩
abbrev main_call0_v130 : Ref sig .tc := ⟨.hbm, 283, rfl⟩
abbrev main_call0_v131 : Ref sig .tc := ⟨.hbm, 284, rfl⟩
abbrev main_call0_v132 : Ref sig .tc := ⟨.hbm, 285, rfl⟩
abbrev main_call0_c_50 : Ref sig .tc := ⟨.hbm, 286, rfl⟩
abbrev main_call0_c_51 : Ref sig .tc := ⟨.hbm, 287, rfl⟩
abbrev main_call0_call30_v0 : Ref sig .tc := ⟨.hbm, 288, rfl⟩
abbrev main_call0_call30_v1 : Ref sig .tc := ⟨.hbm, 289, rfl⟩
abbrev main_call0_call30_v2 : Ref sig .tc := ⟨.hbm, 290, rfl⟩
abbrev main_call0_call30_v3 : Ref sig .tc := ⟨.hbm, 291, rfl⟩
abbrev main_call0_call30_v4 : Ref sig .tc := ⟨.hbm, 292, rfl⟩
abbrev main_call0_v133 : Ref sig .tc := ⟨.hbm, 293, rfl⟩
abbrev main_call0_c_52 : Ref sig .tc := ⟨.hbm, 294, rfl⟩
abbrev main_call0_v134 : Ref sig .tc := ⟨.hbm, 295, rfl⟩
abbrev main_call0_v135 : Ref sig .tc := ⟨.hbm, 296, rfl⟩
abbrev main_call0_c_53 : Ref sig .tc := ⟨.hbm, 297, rfl⟩
abbrev main_call0_v136 : Ref sig .tc := ⟨.hbm, 298, rfl⟩
abbrev main_call0_v137 : Ref sig .tc := ⟨.hbm, 299, rfl⟩
abbrev main_call0_v138 : Ref sig .tc := ⟨.hbm, 300, rfl⟩
abbrev main_call0_v139 : Ref sig .tc := ⟨.hbm, 301, rfl⟩
abbrev main_call0_v140 : Ref sig .tc := ⟨.hbm, 302, rfl⟩
abbrev main_call0_cst_54 : Ref sig .tc := ⟨.hbm, 303, rfl⟩
abbrev main_call0_call31_v0 : Ref sig .tc := ⟨.hbm, 304, rfl⟩
abbrev main_call0_call31_v1 : Ref sig .tc := ⟨.hbm, 305, rfl⟩
abbrev main_call0_call31_v2 : Ref sig .tc := ⟨.hbm, 306, rfl⟩
abbrev main_call0_v141 : Ref sig .tc := ⟨.hbm, 307, rfl⟩
abbrev main_call0_v142 : Ref sig .tc := ⟨.hbm, 308, rfl⟩
abbrev main_call0_cst_55 : Ref sig .tc := ⟨.hbm, 309, rfl⟩
abbrev main_call0_call32_v0 : Ref sig .tc := ⟨.hbm, 310, rfl⟩
abbrev main_call0_v143 : Ref sig .tc := ⟨.hbm, 311, rfl⟩
abbrev main_call0_v144 : Ref sig .tc := ⟨.hbm, 312, rfl⟩
abbrev main_call0_c_56 : Ref sig .tc := ⟨.hbm, 313, rfl⟩
abbrev main_call0_v145 : Ref sig .tc := ⟨.hbm, 314, rfl⟩
abbrev main_call0_v146 : Ref sig .tc := ⟨.hbm, 315, rfl⟩
abbrev main_call0_c_57 : Ref sig .tc := ⟨.hbm, 316, rfl⟩
abbrev main_call0_v147 : Ref sig .tc := ⟨.hbm, 317, rfl⟩
abbrev main_call0_v148 : Ref sig .tc := ⟨.hbm, 318, rfl⟩
abbrev main_call0_v149 : Ref sig .tc := ⟨.hbm, 319, rfl⟩
abbrev main_call0_v150 : Ref sig .tc := ⟨.hbm, 320, rfl⟩
abbrev main_call0_v151 : Ref sig .tc := ⟨.hbm, 321, rfl⟩
abbrev main_call0_c_58 : Ref sig .tc := ⟨.hbm, 322, rfl⟩
abbrev main_call0_c_59 : Ref sig .tc := ⟨.hbm, 323, rfl⟩
abbrev main_call0_call33_v0 : Ref sig .tc := ⟨.hbm, 324, rfl⟩
abbrev main_call0_call33_v1 : Ref sig .tc := ⟨.hbm, 325, rfl⟩
abbrev main_call0_call33_v2 : Ref sig .tc := ⟨.hbm, 326, rfl⟩
abbrev main_call0_call33_v3 : Ref sig .tc := ⟨.hbm, 327, rfl⟩
abbrev main_call0_call33_v4 : Ref sig .tc := ⟨.hbm, 328, rfl⟩
abbrev main_call0_v152 : Ref sig .tc := ⟨.hbm, 329, rfl⟩
abbrev main_call0_c_60 : Ref sig .tc := ⟨.hbm, 330, rfl⟩
abbrev main_call0_v153 : Ref sig .tc := ⟨.hbm, 331, rfl⟩
abbrev main_call0_v154 : Ref sig .tc := ⟨.hbm, 332, rfl⟩
abbrev main_call0_c_61 : Ref sig .tc := ⟨.hbm, 333, rfl⟩
abbrev main_call0_v155 : Ref sig .tc := ⟨.hbm, 334, rfl⟩
abbrev main_call0_v156 : Ref sig .tc := ⟨.hbm, 335, rfl⟩
abbrev main_call0_v157 : Ref sig .tc := ⟨.hbm, 336, rfl⟩
abbrev main_call0_v158 : Ref sig .tc := ⟨.hbm, 337, rfl⟩
abbrev main_call0_v159 : Ref sig .tc := ⟨.hbm, 338, rfl⟩
abbrev main_call0_cst_62 : Ref sig .tc := ⟨.hbm, 339, rfl⟩
abbrev main_call0_call34_v0 : Ref sig .tc := ⟨.hbm, 340, rfl⟩
abbrev main_call0_call34_v1 : Ref sig .tc := ⟨.hbm, 341, rfl⟩
abbrev main_call0_call34_v2 : Ref sig .tc := ⟨.hbm, 342, rfl⟩
abbrev main_call0_v160 : Ref sig .tc := ⟨.hbm, 343, rfl⟩
abbrev main_call0_v161 : Ref sig .tc := ⟨.hbm, 344, rfl⟩
abbrev main_call0_cst_63 : Ref sig .tc := ⟨.hbm, 345, rfl⟩
abbrev main_call0_call35_v0 : Ref sig .tc := ⟨.hbm, 346, rfl⟩
abbrev main_call0_v162 : Ref sig .tc := ⟨.hbm, 347, rfl⟩
abbrev main_call0_v163 : Ref sig .tc := ⟨.hbm, 348, rfl⟩
abbrev main_call0_c_64 : Ref sig .tc := ⟨.hbm, 349, rfl⟩
abbrev main_call0_v164 : Ref sig .tc := ⟨.hbm, 350, rfl⟩
abbrev main_call0_v165 : Ref sig .tc := ⟨.hbm, 351, rfl⟩
abbrev main_call0_c_65 : Ref sig .tc := ⟨.hbm, 352, rfl⟩
abbrev main_call0_v166 : Ref sig .tc := ⟨.hbm, 353, rfl⟩
abbrev main_call0_v167 : Ref sig .tc := ⟨.hbm, 354, rfl⟩
abbrev main_call0_v168 : Ref sig .tc := ⟨.hbm, 355, rfl⟩
abbrev main_call0_v169 : Ref sig .tc := ⟨.hbm, 356, rfl⟩
abbrev main_call0_v170 : Ref sig .tc := ⟨.hbm, 357, rfl⟩
abbrev main_call0_c_66 : Ref sig .tc := ⟨.hbm, 358, rfl⟩
abbrev main_call0_c_67 : Ref sig .tc := ⟨.hbm, 359, rfl⟩
abbrev main_call0_call36_v0 : Ref sig .tc := ⟨.hbm, 360, rfl⟩
abbrev main_call0_call36_v1 : Ref sig .tc := ⟨.hbm, 361, rfl⟩
abbrev main_call0_call36_v2 : Ref sig .tc := ⟨.hbm, 362, rfl⟩
abbrev main_call0_call36_v3 : Ref sig .tc := ⟨.hbm, 363, rfl⟩
abbrev main_call0_call36_v4 : Ref sig .tc := ⟨.hbm, 364, rfl⟩
abbrev main_call0_v171 : Ref sig .tc := ⟨.hbm, 365, rfl⟩
abbrev main_call0_c_68 : Ref sig .tc := ⟨.hbm, 366, rfl⟩
abbrev main_call0_v172 : Ref sig .tc := ⟨.hbm, 367, rfl⟩
abbrev main_call0_v173 : Ref sig .tc := ⟨.hbm, 368, rfl⟩
abbrev main_call0_c_69 : Ref sig .tc := ⟨.hbm, 369, rfl⟩
abbrev main_call0_v174 : Ref sig .tc := ⟨.hbm, 370, rfl⟩
abbrev main_call0_v175 : Ref sig .tc := ⟨.hbm, 371, rfl⟩
abbrev main_call0_v176 : Ref sig .tc := ⟨.hbm, 372, rfl⟩
abbrev main_call0_v177 : Ref sig .tc := ⟨.hbm, 373, rfl⟩
abbrev main_call0_v178 : Ref sig .tc := ⟨.hbm, 374, rfl⟩
abbrev main_call0_cst_70 : Ref sig .tc := ⟨.hbm, 375, rfl⟩
abbrev main_call0_call37_v0 : Ref sig .tc := ⟨.hbm, 376, rfl⟩
abbrev main_call0_call37_v1 : Ref sig .tc := ⟨.hbm, 377, rfl⟩
abbrev main_call0_call37_v2 : Ref sig .tc := ⟨.hbm, 378, rfl⟩
abbrev main_call0_v179 : Ref sig .tc := ⟨.hbm, 379, rfl⟩
abbrev main_call0_v180 : Ref sig .tc := ⟨.hbm, 380, rfl⟩
abbrev main_call0_cst_71 : Ref sig .tc := ⟨.hbm, 381, rfl⟩
abbrev main_call0_call38_v0 : Ref sig .tc := ⟨.hbm, 382, rfl⟩
abbrev main_call0_v181 : Ref sig .tc := ⟨.hbm, 383, rfl⟩
abbrev main_call0_v182 : Ref sig .tc := ⟨.hbm, 384, rfl⟩
abbrev main_call0_c_72 : Ref sig .tc := ⟨.hbm, 385, rfl⟩
abbrev main_call0_v183 : Ref sig .tc := ⟨.hbm, 386, rfl⟩
abbrev main_call0_v184 : Ref sig .tc := ⟨.hbm, 387, rfl⟩
abbrev main_call0_c_73 : Ref sig .tc := ⟨.hbm, 388, rfl⟩
abbrev main_call0_v185 : Ref sig .tc := ⟨.hbm, 389, rfl⟩
abbrev main_call0_v186 : Ref sig .tc := ⟨.hbm, 390, rfl⟩
abbrev main_call0_v187 : Ref sig .tc := ⟨.hbm, 391, rfl⟩
abbrev main_call0_v188 : Ref sig .tc := ⟨.hbm, 392, rfl⟩
abbrev main_call0_v189 : Ref sig .tc := ⟨.hbm, 393, rfl⟩
abbrev main_call0_c_74 : Ref sig .tc := ⟨.hbm, 394, rfl⟩
abbrev main_call0_c_75 : Ref sig .tc := ⟨.hbm, 395, rfl⟩
abbrev main_call0_call39_v0 : Ref sig .tc := ⟨.hbm, 396, rfl⟩
abbrev main_call0_call39_v1 : Ref sig .tc := ⟨.hbm, 397, rfl⟩
abbrev main_call0_call39_v2 : Ref sig .tc := ⟨.hbm, 398, rfl⟩
abbrev main_call0_call39_v3 : Ref sig .tc := ⟨.hbm, 399, rfl⟩
abbrev main_call0_call39_v4 : Ref sig .tc := ⟨.hbm, 400, rfl⟩
abbrev main_call0_v190 : Ref sig .tc := ⟨.hbm, 401, rfl⟩
abbrev main_call0_c_76 : Ref sig .tc := ⟨.hbm, 402, rfl⟩
abbrev main_call0_v191 : Ref sig .tc := ⟨.hbm, 403, rfl⟩
abbrev main_call0_v192 : Ref sig .tc := ⟨.hbm, 404, rfl⟩
abbrev main_call0_c_77 : Ref sig .tc := ⟨.hbm, 405, rfl⟩
abbrev main_call0_v193 : Ref sig .tc := ⟨.hbm, 406, rfl⟩
abbrev main_call0_v194 : Ref sig .tc := ⟨.hbm, 407, rfl⟩
abbrev main_call0_v195 : Ref sig .tc := ⟨.hbm, 408, rfl⟩
abbrev main_call0_v196 : Ref sig .tc := ⟨.hbm, 409, rfl⟩
abbrev main_call0_v197 : Ref sig .tc := ⟨.hbm, 410, rfl⟩
abbrev main_call0_cst_78 : Ref sig .tc := ⟨.hbm, 411, rfl⟩
abbrev main_call0_call40_v0 : Ref sig .tc := ⟨.hbm, 412, rfl⟩
abbrev main_call0_call40_v1 : Ref sig .tc := ⟨.hbm, 413, rfl⟩
abbrev main_call0_call40_v2 : Ref sig .tc := ⟨.hbm, 414, rfl⟩
abbrev main_call0_v198 : Ref sig .tc := ⟨.hbm, 415, rfl⟩
abbrev main_call0_v199 : Ref sig .tc := ⟨.hbm, 416, rfl⟩
abbrev main_call0_cst_79 : Ref sig .tc := ⟨.hbm, 417, rfl⟩
abbrev main_call0_call41_v0 : Ref sig .tc := ⟨.hbm, 418, rfl⟩
abbrev main_call0_v200 : Ref sig .tc := ⟨.hbm, 419, rfl⟩
abbrev main_call0_v201 : Ref sig .tc := ⟨.hbm, 420, rfl⟩
abbrev main_call0_c_80 : Ref sig .tc := ⟨.hbm, 421, rfl⟩
abbrev main_call0_v202 : Ref sig .tc := ⟨.hbm, 422, rfl⟩
abbrev main_call0_v203 : Ref sig .tc := ⟨.hbm, 423, rfl⟩
abbrev main_call0_c_81 : Ref sig .tc := ⟨.hbm, 424, rfl⟩
abbrev main_call0_v204 : Ref sig .tc := ⟨.hbm, 425, rfl⟩
abbrev main_call0_v205 : Ref sig .tc := ⟨.hbm, 426, rfl⟩
abbrev main_call0_v206 : Ref sig .tc := ⟨.hbm, 427, rfl⟩
abbrev main_call0_v207 : Ref sig .tc := ⟨.hbm, 428, rfl⟩
abbrev main_call0_v208 : Ref sig .tc := ⟨.hbm, 429, rfl⟩
abbrev main_call0_c_82 : Ref sig .tc := ⟨.hbm, 430, rfl⟩
abbrev main_call0_c_83 : Ref sig .tc := ⟨.hbm, 431, rfl⟩
abbrev main_call0_call42_v0 : Ref sig .tc := ⟨.hbm, 432, rfl⟩
abbrev main_call0_call42_v1 : Ref sig .tc := ⟨.hbm, 433, rfl⟩
abbrev main_call0_call42_v2 : Ref sig .tc := ⟨.hbm, 434, rfl⟩
abbrev main_call0_call42_v3 : Ref sig .tc := ⟨.hbm, 435, rfl⟩
abbrev main_call0_call42_v4 : Ref sig .tc := ⟨.hbm, 436, rfl⟩
abbrev main_call0_v209 : Ref sig .tc := ⟨.hbm, 437, rfl⟩
abbrev main_call0_c_84 : Ref sig .tc := ⟨.hbm, 438, rfl⟩
abbrev main_call0_v210 : Ref sig .tc := ⟨.hbm, 439, rfl⟩
abbrev main_call0_v211 : Ref sig .tc := ⟨.hbm, 440, rfl⟩
abbrev main_call0_c_85 : Ref sig .tc := ⟨.hbm, 441, rfl⟩
abbrev main_call0_v212 : Ref sig .tc := ⟨.hbm, 442, rfl⟩
abbrev main_call0_v213 : Ref sig .tc := ⟨.hbm, 443, rfl⟩
abbrev main_call0_v214 : Ref sig .tc := ⟨.hbm, 444, rfl⟩
abbrev main_call0_v215 : Ref sig .tc := ⟨.hbm, 445, rfl⟩
abbrev main_call0_v216 : Ref sig .tc := ⟨.hbm, 446, rfl⟩
abbrev main_call0_cst_86 : Ref sig .tc := ⟨.hbm, 447, rfl⟩
abbrev main_call0_call43_v0 : Ref sig .tc := ⟨.hbm, 448, rfl⟩
abbrev main_call0_call43_v1 : Ref sig .tc := ⟨.hbm, 449, rfl⟩
abbrev main_call0_call43_v2 : Ref sig .tc := ⟨.hbm, 450, rfl⟩
abbrev main_call0_v217 : Ref sig .tc := ⟨.hbm, 451, rfl⟩
abbrev main_call0_v218 : Ref sig .tc := ⟨.hbm, 452, rfl⟩
abbrev main_call0_cst_87 : Ref sig .tc := ⟨.hbm, 453, rfl⟩
abbrev main_call0_call44_v0 : Ref sig .tc := ⟨.hbm, 454, rfl⟩
abbrev main_call0_v219 : Ref sig .tc := ⟨.hbm, 455, rfl⟩
abbrev main_call0_v220 : Ref sig .tc := ⟨.hbm, 456, rfl⟩
abbrev main_call0_c_88 : Ref sig .tc := ⟨.hbm, 457, rfl⟩
abbrev main_call0_v221 : Ref sig .tc := ⟨.hbm, 458, rfl⟩
abbrev main_call0_v222 : Ref sig .tc := ⟨.hbm, 459, rfl⟩
abbrev main_call0_c_89 : Ref sig .tc := ⟨.hbm, 460, rfl⟩
abbrev main_call0_v223 : Ref sig .tc := ⟨.hbm, 461, rfl⟩
abbrev main_call0_v224 : Ref sig .tc := ⟨.hbm, 462, rfl⟩
abbrev main_call0_v225 : Ref sig .tc := ⟨.hbm, 463, rfl⟩
abbrev main_call0_v226 : Ref sig .tc := ⟨.hbm, 464, rfl⟩
abbrev main_call0_v227 : Ref sig .tc := ⟨.hbm, 465, rfl⟩
abbrev main_call0_c_90 : Ref sig .tc := ⟨.hbm, 466, rfl⟩
abbrev main_call0_c_91 : Ref sig .tc := ⟨.hbm, 467, rfl⟩
abbrev main_call0_call45_v0 : Ref sig .tc := ⟨.hbm, 468, rfl⟩
abbrev main_call0_call45_v1 : Ref sig .tc := ⟨.hbm, 469, rfl⟩
abbrev main_call0_call45_v2 : Ref sig .tc := ⟨.hbm, 470, rfl⟩
abbrev main_call0_call45_v3 : Ref sig .tc := ⟨.hbm, 471, rfl⟩
abbrev main_call0_call45_v4 : Ref sig .tc := ⟨.hbm, 472, rfl⟩
abbrev main_call0_v228 : Ref sig .tc := ⟨.hbm, 473, rfl⟩
abbrev main_call0_c_92 : Ref sig .tc := ⟨.hbm, 474, rfl⟩
abbrev main_call0_v229 : Ref sig .tc := ⟨.hbm, 475, rfl⟩
abbrev main_call0_v230 : Ref sig .tc := ⟨.hbm, 476, rfl⟩
abbrev main_call0_c_93 : Ref sig .tc := ⟨.hbm, 477, rfl⟩
abbrev main_call0_v231 : Ref sig .tc := ⟨.hbm, 478, rfl⟩
abbrev main_call0_v232 : Ref sig .tc := ⟨.hbm, 479, rfl⟩
abbrev main_call0_v233 : Ref sig .tc := ⟨.hbm, 480, rfl⟩
abbrev main_call0_v234 : Ref sig .tc := ⟨.hbm, 481, rfl⟩
abbrev main_call0_v235 : Ref sig .tc := ⟨.hbm, 482, rfl⟩
abbrev main_call0_cst_94 : Ref sig .tc := ⟨.hbm, 483, rfl⟩
abbrev main_call0_call46_v0 : Ref sig .tc := ⟨.hbm, 484, rfl⟩
abbrev main_call0_call46_v1 : Ref sig .tc := ⟨.hbm, 485, rfl⟩
abbrev main_call0_call46_v2 : Ref sig .tc := ⟨.hbm, 486, rfl⟩
abbrev main_call0_v236 : Ref sig .tc := ⟨.hbm, 487, rfl⟩
abbrev main_call0_v237 : Ref sig .tc := ⟨.hbm, 488, rfl⟩
abbrev main_call0_cst_95 : Ref sig .tc := ⟨.hbm, 489, rfl⟩
abbrev main_call0_call47_v0 : Ref sig .tc := ⟨.hbm, 490, rfl⟩
abbrev main_call0_v238 : Ref sig .tc := ⟨.hbm, 491, rfl⟩
abbrev main_call0_v239 : Ref sig .tc := ⟨.hbm, 492, rfl⟩
abbrev main_call0_c_96 : Ref sig .tc := ⟨.hbm, 493, rfl⟩
abbrev main_call0_v240 : Ref sig .tc := ⟨.hbm, 494, rfl⟩
abbrev main_call0_v241 : Ref sig .tc := ⟨.hbm, 495, rfl⟩
abbrev main_call0_c_97 : Ref sig .tc := ⟨.hbm, 496, rfl⟩
abbrev main_call0_v242 : Ref sig .tc := ⟨.hbm, 497, rfl⟩
abbrev main_call0_v243 : Ref sig .tc := ⟨.hbm, 498, rfl⟩
abbrev main_call0_v244 : Ref sig .tc := ⟨.hbm, 499, rfl⟩
abbrev main_call0_v245 : Ref sig .tc := ⟨.hbm, 500, rfl⟩
abbrev main_call0_v246 : Ref sig .tc := ⟨.hbm, 501, rfl⟩
abbrev main_call0_c_98 : Ref sig .tc := ⟨.hbm, 502, rfl⟩
abbrev main_call0_c_99 : Ref sig .tc := ⟨.hbm, 503, rfl⟩
abbrev main_call0_call48_v0 : Ref sig .tc := ⟨.hbm, 504, rfl⟩
abbrev main_call0_call48_v1 : Ref sig .tc := ⟨.hbm, 505, rfl⟩
abbrev main_call0_call48_v2 : Ref sig .tc := ⟨.hbm, 506, rfl⟩
abbrev main_call0_call48_v3 : Ref sig .tc := ⟨.hbm, 507, rfl⟩
abbrev main_call0_call48_v4 : Ref sig .tc := ⟨.hbm, 508, rfl⟩
abbrev main_call0_v247 : Ref sig .tc := ⟨.hbm, 509, rfl⟩
abbrev main_call0_c_100 : Ref sig .tc := ⟨.hbm, 510, rfl⟩
abbrev main_call0_v248 : Ref sig .tc := ⟨.hbm, 511, rfl⟩
abbrev main_call0_v249 : Ref sig .tc := ⟨.hbm, 512, rfl⟩
abbrev main_call0_c_101 : Ref sig .tc := ⟨.hbm, 513, rfl⟩
abbrev main_call0_v250 : Ref sig .tc := ⟨.hbm, 514, rfl⟩
abbrev main_call0_v251 : Ref sig .tc := ⟨.hbm, 515, rfl⟩
abbrev main_call0_v252 : Ref sig .tc := ⟨.hbm, 516, rfl⟩
abbrev main_call0_v253 : Ref sig .tc := ⟨.hbm, 517, rfl⟩
abbrev main_call0_v254 : Ref sig .tc := ⟨.hbm, 518, rfl⟩
abbrev main_call0_cst_102 : Ref sig .tc := ⟨.hbm, 519, rfl⟩
abbrev main_call0_call49_v0 : Ref sig .tc := ⟨.hbm, 520, rfl⟩
abbrev main_call0_call49_v1 : Ref sig .tc := ⟨.hbm, 521, rfl⟩
abbrev main_call0_call49_v2 : Ref sig .tc := ⟨.hbm, 522, rfl⟩
abbrev main_call0_v255 : Ref sig .tc := ⟨.hbm, 523, rfl⟩
abbrev main_call0_v256 : Ref sig .tc := ⟨.hbm, 524, rfl⟩
abbrev main_call0_cst_103 : Ref sig .tc := ⟨.hbm, 525, rfl⟩
abbrev main_call0_call50_v0 : Ref sig .tc := ⟨.hbm, 526, rfl⟩
abbrev main_call0_v257 : Ref sig .tc := ⟨.hbm, 527, rfl⟩
abbrev main_call0_v258 : Ref sig .tc := ⟨.hbm, 528, rfl⟩
abbrev main_call0_c_104 : Ref sig .tc := ⟨.hbm, 529, rfl⟩
abbrev main_call0_c_105 : Ref sig .tc := ⟨.hbm, 530, rfl⟩
abbrev main_call0_call51_v0 : Ref sig .tc := ⟨.hbm, 531, rfl⟩
abbrev main_call0_call51_v1 : Ref sig .tc := ⟨.hbm, 532, rfl⟩
abbrev main_call0_call51_v2 : Ref sig .tc := ⟨.hbm, 533, rfl⟩
abbrev main_call0_call51_v3 : Ref sig .tc := ⟨.hbm, 534, rfl⟩
abbrev main_call0_call51_v4 : Ref sig .tc := ⟨.hbm, 535, rfl⟩
abbrev main_call0_v259 : Ref sig .tc := ⟨.hbm, 536, rfl⟩
abbrev main_call0_v260 : Ref sig .tc := ⟨.hbm, 537, rfl⟩
abbrev main_call0_cst_106 : Ref sig .tc := ⟨.hbm, 538, rfl⟩
abbrev main_call0_v261 : Ref sig .tc := ⟨.hbm, 539, rfl⟩
abbrev main_call0_cst_107 : Ref sig .tc := ⟨.hbm, 540, rfl⟩
abbrev main_v0 : Ref sig .tc := ⟨.hbm, 541, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64x4096 : S_.BroadcastsInDim S64x4096 (![] : Fin 0 → Fin S64x4096.rank)
  slices_S64x4096_S64x4095_0_1 : S64x4096.Slices ![0, 1] S64x4095
  bcast_S_S_ : S_.BroadcastsInDim S_ (![] : Fin 0 → Fin S_.rank)
  pads_S64x4095_S64x4096_000_010 : S64x4095.Pads (![0, 0] : Fin 2 → Nat) ![0, 1] ![0, 0] S64x4096
  h_S_ : 0 < S_.numel
  slices_S10_S1_9 : S10.Slices ![9] S1
  shapeCasts_S1_S_ : S1.ShapeCasts S_
  slices_S64x4096_S64x4094_0_2 : S64x4096.Slices ![0, 2] S64x4094
  pads_S64x4094_S64x4096_000_020 : S64x4094.Pads (![0, 0] : Fin 2 → Nat) ![0, 2] ![0, 0] S64x4096
  slices_S10_S1_8 : S10.Slices ![8] S1
  slices_S64x4096_S64x4093_0_3 : S64x4096.Slices ![0, 3] S64x4093
  pads_S64x4093_S64x4096_000_030 : S64x4093.Pads (![0, 0] : Fin 2 → Nat) ![0, 3] ![0, 0] S64x4096
  slices_S10_S1_7 : S10.Slices ![7] S1
  slices_S64x4096_S64x4092_0_4 : S64x4096.Slices ![0, 4] S64x4092
  pads_S64x4092_S64x4096_000_040 : S64x4092.Pads (![0, 0] : Fin 2 → Nat) ![0, 4] ![0, 0] S64x4096
  slices_S10_S1_6 : S10.Slices ![6] S1
  slices_S64x4096_S64x4091_0_5 : S64x4096.Slices ![0, 5] S64x4091
  pads_S64x4091_S64x4096_000_050 : S64x4091.Pads (![0, 0] : Fin 2 → Nat) ![0, 5] ![0, 0] S64x4096
  slices_S10_S1_5 : S10.Slices ![5] S1
  slices_S64x4096_S64x4090_0_6 : S64x4096.Slices ![0, 6] S64x4090
  pads_S64x4090_S64x4096_000_060 : S64x4090.Pads (![0, 0] : Fin 2 → Nat) ![0, 6] ![0, 0] S64x4096
  slices_S10_S1_4 : S10.Slices ![4] S1
  slices_S64x4096_S64x4089_0_7 : S64x4096.Slices ![0, 7] S64x4089
  pads_S64x4089_S64x4096_000_070 : S64x4089.Pads (![0, 0] : Fin 2 → Nat) ![0, 7] ![0, 0] S64x4096
  slices_S10_S1_3 : S10.Slices ![3] S1
  slices_S64x4096_S64x4088_0_8 : S64x4096.Slices ![0, 8] S64x4088
  pads_S64x4088_S64x4096_000_080 : S64x4088.Pads (![0, 0] : Fin 2 → Nat) ![0, 8] ![0, 0] S64x4096
  slices_S10_S1_2 : S10.Slices ![2] S1
  slices_S64x4096_S64x4087_0_9 : S64x4096.Slices ![0, 9] S64x4087
  pads_S64x4087_S64x4096_000_090 : S64x4087.Pads (![0, 0] : Fin 2 → Nat) ![0, 9] ![0, 0] S64x4096
  slices_S10_S1_1 : S10.Slices ![1] S1
  slices_S64x4096_S64x4086_0_10 : S64x4096.Slices ![0, 10] S64x4086
  pads_S64x4086_S64x4096_000_0100 : S64x4086.Pads (![0, 0] : Fin 2 → Nat) ![0, 10] ![0, 0] S64x4096
  slices_S10_S1_0 : S10.Slices ![0] S1
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S4096_S4096x1_0 : S4096.BroadcastsInDim S4096x1 (![0] : Fin 1 → Fin S4096x1.rank)
  bcast_S4096_S64x4096_1 : S4096.BroadcastsInDim S64x4096 (![1] : Fin 1 → Fin S64x4096.rank)
  slices_S64x4096_S64x4095_0_0 : S64x4096.Slices ![0, 0] S64x4095
  pads_S64x4095_S64x4096_000_100 : S64x4095.Pads (![0, 1] : Fin 2 → Nat) ![0, 0] ![0, 0] S64x4096
  slices_S64x4096_S64x4094_0_0 : S64x4096.Slices ![0, 0] S64x4094
  pads_S64x4094_S64x4096_000_200 : S64x4094.Pads (![0, 2] : Fin 2 → Nat) ![0, 0] ![0, 0] S64x4096
  slices_S64x4096_S64x4093_0_0 : S64x4096.Slices ![0, 0] S64x4093
  pads_S64x4093_S64x4096_000_300 : S64x4093.Pads (![0, 3] : Fin 2 → Nat) ![0, 0] ![0, 0] S64x4096
  slices_S64x4096_S64x4092_0_0 : S64x4096.Slices ![0, 0] S64x4092
  pads_S64x4092_S64x4096_000_400 : S64x4092.Pads (![0, 4] : Fin 2 → Nat) ![0, 0] ![0, 0] S64x4096
  slices_S64x4096_S64x4091_0_0 : S64x4096.Slices ![0, 0] S64x4091
  pads_S64x4091_S64x4096_000_500 : S64x4091.Pads (![0, 5] : Fin 2 → Nat) ![0, 0] ![0, 0] S64x4096
  slices_S64x4096_S64x4090_0_0 : S64x4096.Slices ![0, 0] S64x4090
  pads_S64x4090_S64x4096_000_600 : S64x4090.Pads (![0, 6] : Fin 2 → Nat) ![0, 0] ![0, 0] S64x4096
  slices_S64x4096_S64x4089_0_0 : S64x4096.Slices ![0, 0] S64x4089
  pads_S64x4089_S64x4096_000_700 : S64x4089.Pads (![0, 7] : Fin 2 → Nat) ![0, 0] ![0, 0] S64x4096
  slices_S64x4096_S64x4088_0_0 : S64x4096.Slices ![0, 0] S64x4088
  pads_S64x4088_S64x4096_000_800 : S64x4088.Pads (![0, 8] : Fin 2 → Nat) ![0, 0] ![0, 0] S64x4096
  slices_S64x4096_S64x4087_0_0 : S64x4096.Slices ![0, 0] S64x4087
  pads_S64x4087_S64x4096_000_900 : S64x4087.Pads (![0, 9] : Fin 2 → Nat) ![0, 0] ![0, 0] S64x4096
  slices_S64x4096_S64x4086_0_0 : S64x4096.Slices ![0, 0] S64x4086
  pads_S64x4086_S64x4096_000_1000 : S64x4086.Pads (![0, 10] : Fin 2 → Nat) ![0, 0] ![0, 0] S64x4096
  reducesTo_S64x4096_S_d0_1 : S64x4096.ReducesTo [0, 1] S_
  inb_S64x256x128_S64x256x128_0_0_0 : ∀ a, (![0, 0, 0] : Fin 3 → Nat) a + S64x256x128.size a ≤ S64x256x128.size a
  h_S64x256x128 : 0 < S64x256x128.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  iota_S64x256x128_d2_w32 : S64x256x128.Iotas .tc 32 [2]
  shapeCasts_S64x256_S64x256x1 : S64x256.ShapeCasts S64x256x1
  broadcasts_S64x256x1_S64x256x128 : S64x256x1.Broadcasts S64x256x128
  reduces_S64x256x128_S64x256 : S64x256x128.Reduces [2] S64x256
  shapeCasts_S64x256x1_S64x256 : S64x256x1.ShapeCasts S64x256
  iota_S64x256_d1_w32 : S64x256.Iotas .tc 32 [1]
  gather_S10_S4096x1_S4096_n_0_n_n_0_1_1_wf : GatherDims.WF S10 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x128.size a ≤ S64x4096x128.size a
  hwx0_0 : ∀ i : grid0.Coords, EltTy.bits .f32 = 32 ∨ (Rect.block (s := S64x4096x128) S64x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x4096.size a
  hwx0_1 : ∀ i : grid0.Coords, EltTy.bits .i32 = 32 ∨ (Rect.block (s := S64x4096) S64x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x4096.size a
  hwx0_2 : ∀ i : grid0.Coords, EltTy.bits .f32 = 32 ∨ (Rect.block (s := S64x4096) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x4096.size a
  hwx0_3 : ∀ i : grid0.Coords, EltTy.bits .f32 = 32 ∨ (Rect.block (s := S64x4096) S64x256.size (cc0_transform_3 i) (hinb0_3 i)).WholeWords (EltTy.packing .f32)

variable [Facts₀]

def gather_S10_S4096x1_S4096_n_0_n_n_0_1_1 : GatherDims S10 S4096x1 S4096 where
  offsetDims := []
  collapsedSliceDims := [0]
  operandBatchingDims := []
  startIndicesBatchingDims := []
  startIndexMap := [0]
  indexVectorDim := 1
  sliceSizes := ![1]
  wf := gather_S10_S4096x1_S4096_n_0_n_n_0_1_1_wf

abbrev win0_0 : Pipeline.Window sig grid0 :=
  Pipeline.Window.ofSpec (Memref.whole main_arg0) S64x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v259) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v258) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v260) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S64x4096 : Shape := ⟨2, ![64, 4096]⟩
abbrev S10 : Shape := ⟨1, ![10]⟩
abbrev S_ : Shape := ⟨0, ![]⟩
abbrev S64x4096x1 : Shape := ⟨3, ![64, 4096, 1]⟩
abbrev S64x4096x1x1 : Shape := ⟨4, ![64, 4096, 1, 1]⟩
abbrev S1 : Shape := ⟨1, ![1]⟩
abbrev S1x1x1x1 : Shape := ⟨4, ![1, 1, 1, 1]⟩
abbrev S64x4095 : Shape := ⟨2, ![64, 4095]⟩
abbrev S64x4094 : Shape := ⟨2, ![64, 4094]⟩
abbrev S64x4093 : Shape := ⟨2, ![64, 4093]⟩
abbrev S64x4092 : Shape := ⟨2, ![64, 4092]⟩
abbrev S64x4091 : Shape := ⟨2, ![64, 4091]⟩
abbrev S64x4090 : Shape := ⟨2, ![64, 4090]⟩
abbrev S64x4089 : Shape := ⟨2, ![64, 4089]⟩
abbrev S64x4088 : Shape := ⟨2, ![64, 4088]⟩
abbrev S64x4087 : Shape := ⟨2, ![64, 4087]⟩
abbrev S64x4086 : Shape := ⟨2, ![64, 4086]⟩
abbrev S4096 : Shape := ⟨1, ![4096]⟩
abbrev S1x4096 : Shape := ⟨2, ![1, 4096]⟩
abbrev S4096x1 : Shape := ⟨2, ![4096, 1]⟩

abbrev nBuf : Space → Nat
  | .hbm => 574
  | .vmem => 0
  | .smem => 0
  | _ => 0

abbrev hbmTy0_0 (i : Nat) : BufTy := match i % 128 with
  | 0 => ⟨S64x4096x128, .f32⟩
  | 1 => ⟨S64x4096, .i32⟩
  | 2 => ⟨S10, .f32⟩
  | 3 => ⟨S_, .f32⟩
  | 4 => ⟨S64x4096, .f32⟩
  | 5 => ⟨S_, .f32⟩
  | 6 => ⟨S64x4096, .f32⟩
  | 7 => ⟨S64x4096, .f32⟩
  | 8 => ⟨S64x4096x1, .f32⟩
  | 9 => ⟨S64x4096x128, .f32⟩
  | 10 => ⟨S64x4096x128, .f32⟩
  | 11 => ⟨S64x4096x128, .f32⟩
  | 12 => ⟨S_, .f32⟩
  | 13 => ⟨S64x4096, .f32⟩
  | 14 => ⟨S64x4096x1, .f32⟩
  | 15 => ⟨S64x4096x1, .f32⟩
  | 16 => ⟨S64x4096x128, .f32⟩
  | 17 => ⟨S64x4096x128, .f32⟩
  | 18 => ⟨S64x4096x1, .i32⟩
  | 19 => ⟨S_, .i32⟩
  | 20 => ⟨S64x4096x1, .i32⟩
  | 21 => ⟨S64x4096x1, .i1⟩
  | 22 => ⟨S_, .i32⟩
  | 23 => ⟨S64x4096x1, .i32⟩
  | 24 => ⟨S64x4096x1, .i32⟩
  | 25 => ⟨S64x4096x1, .i32⟩
  | 26 => ⟨S64x4096x1x1, .i32⟩
  | 27 => ⟨S1, .i32⟩
  | 28 => ⟨S_, .i32⟩
  | 29 => ⟨S64x4096x1x1, .i32⟩
  | 30 => ⟨S64x4096x1x1, .i1⟩
  | 31 => ⟨S1x1x1x1, .i32⟩
  | 32 => ⟨S64x4096x1x1, .i32⟩
  | 33 => ⟨S64x4096x1x1, .i1⟩
  | 34 => ⟨S64x4096x1x1, .i1⟩
  | 35 => ⟨S_, .i1⟩
  | 36 => ⟨S64x4096x1, .i1⟩
  | 37 => ⟨S64x4096x1, .f32⟩
  | 38 => ⟨S_, .f32⟩
  | 39 => ⟨S64x4096x1, .f32⟩
  | 40 => ⟨S64x4096x1, .f32⟩
  | 41 => ⟨S64x4096, .f32⟩
  | 42 => ⟨S64x4096, .f32⟩
  | 43 => ⟨S_, .i32⟩
  | 44 => ⟨S64x4096, .i32⟩
  | 45 => ⟨S64x4096, .i1⟩
  | 46 => ⟨S_, .f32⟩
  | 47 => ⟨S_, .f32⟩
  | 48 => ⟨S64x4096, .f32⟩
  | 49 => ⟨S64x4096, .f32⟩
  | 50 => ⟨S64x4096, .f32⟩
  | 51 => ⟨S64x4096, .f32⟩
  | 52 => ⟨S64x4095, .i1⟩
  | 53 => ⟨S_, .i32⟩
  | 54 => ⟨S_, .i32⟩
  | 55 => ⟨S_, .i32⟩
  | 56 => ⟨S_, .i1⟩
  | 57 => ⟨S_, .i1⟩
  | 58 => ⟨S64x4096, .i1⟩
  | 59 => ⟨S1, .f32⟩
  | 60 => ⟨S_, .f32⟩
  | 61 => ⟨S_, .f32⟩
  | 62 => ⟨S_, .f32⟩
  | 63 => ⟨S64x4096, .f32⟩
  | 64 => ⟨S64x4096, .f32⟩
  | 65 => ⟨S64x4096, .f32⟩
  | 66 => ⟨S64x4096, .f32⟩
  | 67 => ⟨S64x4094, .i1⟩
  | 68 => ⟨S_, .i32⟩
  | 69 => ⟨S_, .i32⟩
  | 70 => ⟨S_, .i32⟩
  | 71 => ⟨S_, .i1⟩
  | 72 => ⟨S_, .i1⟩
  | 73 => ⟨S64x4096, .i1⟩
  | 74 => ⟨S1, .f32⟩
  | 75 => ⟨S_, .f32⟩
  | 76 => ⟨S_, .f32⟩
  | 77 => ⟨S_, .f32⟩
  | 78 => ⟨S64x4096, .f32⟩
  | 79 => ⟨S64x4096, .f32⟩
  | 80 => ⟨S64x4096, .f32⟩
  | 81 => ⟨S64x4096, .f32⟩
  | 82 => ⟨S64x4093, .i1⟩
  | 83 => ⟨S_, .i32⟩
  | 84 => ⟨S_, .i32⟩
  | 85 => ⟨S_, .i32⟩
  | 86 => ⟨S_, .i1⟩
  | 87 => ⟨S_, .i1⟩
  | 88 => ⟨S64x4096, .i1⟩
  | 89 => ⟨S1, .f32⟩
  | 90 => ⟨S_, .f32⟩
  | 91 => ⟨S_, .f32⟩
  | 92 => ⟨S_, .f32⟩
  | 93 => ⟨S64x4096, .f32⟩
  | 94 => ⟨S64x4096, .f32⟩
  | 95 => ⟨S64x4096, .f32⟩
  | 96 => ⟨S64x4096, .f32⟩
  | 97 => ⟨S64x4092, .i1⟩
  | 98 => ⟨S_, .i32⟩
  | 99 => ⟨S_, .i32⟩
  | 100 => ⟨S_, .i32⟩
  | 101 => ⟨S_, .i1⟩
  | 102 => ⟨S_, .i1⟩
  | 103 => ⟨S64x4096, .i1⟩
  | 104 => ⟨S1, .f32⟩
  | 105 => ⟨S_, .f32⟩
  | 106 => ⟨S_, .f32⟩
  | 107 => ⟨S_, .f32⟩
  | 108 => ⟨S64x4096, .f32⟩
  | 109 => ⟨S64x4096, .f32⟩
  | 110 => ⟨S64x4096, .f32⟩
  | 111 => ⟨S64x4096, .f32⟩
  | 112 => ⟨S64x4091, .i1⟩
  | 113 => ⟨S_, .i32⟩
  | 114 => ⟨S_, .i32⟩
  | 115 => ⟨S_, .i32⟩
  | 116 => ⟨S_, .i1⟩
  | 117 => ⟨S_, .i1⟩
  | 118 => ⟨S64x4096, .i1⟩
  | 119 => ⟨S1, .f32⟩
  | 120 => ⟨S_, .f32⟩
  | 121 => ⟨S_, .f32⟩
  | 122 => ⟨S_, .f32⟩
  | 123 => ⟨S64x4096, .f32⟩
  | 124 => ⟨S64x4096, .f32⟩
  | 125 => ⟨S64x4096, .f32⟩
  | 126 => ⟨S64x4096, .f32⟩
  | 127 => ⟨S64x4090, .i1⟩
  | _ => ⟨S64x4096x128, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i1⟩
  | 5 => ⟨S64x4096, .i1⟩
  | 6 => ⟨S1, .f32⟩
  | 7 => ⟨S_, .f32⟩
  | 8 => ⟨S_, .f32⟩
  | 9 => ⟨S_, .f32⟩
  | 10 => ⟨S64x4096, .f32⟩
  | 11 => ⟨S64x4096, .f32⟩
  | 12 => ⟨S64x4096, .f32⟩
  | 13 => ⟨S64x4096, .f32⟩
  | 14 => ⟨S64x4089, .i1⟩
  | 15 => ⟨S_, .i32⟩
  | 16 => ⟨S_, .i32⟩
  | 17 => ⟨S_, .i32⟩
  | 18 => ⟨S_, .i1⟩
  | 19 => ⟨S_, .i1⟩
  | 20 => ⟨S64x4096, .i1⟩
  | 21 => ⟨S1, .f32⟩
  | 22 => ⟨S_, .f32⟩
  | 23 => ⟨S_, .f32⟩
  | 24 => ⟨S_, .f32⟩
  | 25 => ⟨S64x4096, .f32⟩
  | 26 => ⟨S64x4096, .f32⟩
  | 27 => ⟨S64x4096, .f32⟩
  | 28 => ⟨S64x4096, .f32⟩
  | 29 => ⟨S64x4088, .i1⟩
  | 30 => ⟨S_, .i32⟩
  | 31 => ⟨S_, .i32⟩
  | 32 => ⟨S_, .i32⟩
  | 33 => ⟨S_, .i1⟩
  | 34 => ⟨S_, .i1⟩
  | 35 => ⟨S64x4096, .i1⟩
  | 36 => ⟨S1, .f32⟩
  | 37 => ⟨S_, .f32⟩
  | 38 => ⟨S_, .f32⟩
  | 39 => ⟨S_, .f32⟩
  | 40 => ⟨S64x4096, .f32⟩
  | 41 => ⟨S64x4096, .f32⟩
  | 42 => ⟨S64x4096, .f32⟩
  | 43 => ⟨S64x4096, .f32⟩
  | 44 => ⟨S64x4087, .i1⟩
  | 45 => ⟨S_, .i32⟩
  | 46 => ⟨S_, .i32⟩
  | 47 => ⟨S_, .i32⟩
  | 48 => ⟨S_, .i1⟩
  | 49 => ⟨S_, .i1⟩
  | 50 => ⟨S64x4096, .i1⟩
  | 51 => ⟨S1, .f32⟩
  | 52 => ⟨S_, .f32⟩
  | 53 => ⟨S_, .f32⟩
  | 54 => ⟨S_, .f32⟩
  | 55 => ⟨S64x4096, .f32⟩
  | 56 => ⟨S64x4096, .f32⟩
  | 57 => ⟨S64x4096, .f32⟩
  | 58 => ⟨S64x4096, .f32⟩
  | 59 => ⟨S64x4086, .i1⟩
  | 60 => ⟨S_, .i32⟩
  | 61 => ⟨S_, .i32⟩
  | 62 => ⟨S_, .i32⟩
  | 63 => ⟨S_, .i1⟩
  | 64 => ⟨S_, .i1⟩
  | 65 => ⟨S64x4096, .i1⟩
  | 66 => ⟨S1, .f32⟩
  | 67 => ⟨S_, .f32⟩
  | 68 => ⟨S_, .f32⟩
  | 69 => ⟨S_, .f32⟩
  | 70 => ⟨S64x4096, .f32⟩
  | 71 => ⟨S64x4096, .f32⟩
  | 72 => ⟨S64x4096, .f32⟩
  | 73 => ⟨S64x4096, .f32⟩
  | 74 => ⟨S4096, .i32⟩
  | 75 => ⟨S_, .i32⟩
  | 76 => ⟨S4096, .i32⟩
  | 77 => ⟨S4096, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i1⟩
  | 87 => ⟨S1x4096, .i1⟩
  | 88 => ⟨S64x4096, .i1⟩
  | 89 => ⟨S64x4096, .i1⟩
  | 90 => ⟨S_, .i32⟩
  | 91 => ⟨S_, .i32⟩
  | 92 => ⟨S_, .i32⟩
  | 93 => ⟨S4096, .i32⟩
  | 94 => ⟨S4096, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S4096x1, .i32⟩
  | 106 => ⟨S4096, .f32⟩
  | 107 => ⟨S_, .f32⟩
  | 108 => ⟨S_, .f32⟩
  | 109 => ⟨S64x4096, .f32⟩
  | 110 => ⟨S64x4096, .f32⟩
  | 111 => ⟨S64x4096, .f32⟩
  | 112 => ⟨S64x4095, .f32⟩
  | 113 => ⟨S_, .f32⟩
  | 114 => ⟨S_, .f32⟩
  | 115 => ⟨S64x4096, .f32⟩
  | 116 => ⟨S64x4096, .f32⟩
  | 117 => ⟨S_, .i32⟩
  | 118 => ⟨S4096, .i32⟩
  | 119 => ⟨S4096, .i32⟩
  | 120 => ⟨S_, .i32⟩
  | 121 => ⟨S4096, .i32⟩
  | 122 => ⟨S4096, .i1⟩
  | 123 => ⟨S1x4096, .i1⟩
  | 124 => ⟨S64x4096, .i1⟩
  | 125 => ⟨S64x4096, .i1⟩
  | 126 => ⟨S_, .i32⟩
  | 127 => ⟨S_, .i32⟩
  | _ => ⟨S64x4096x128, .f32⟩

abbrev hbmTy0_2 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S4096, .f32⟩
  | 15 => ⟨S_, .f32⟩
  | 16 => ⟨S_, .f32⟩
  | 17 => ⟨S64x4096, .f32⟩
  | 18 => ⟨S64x4096, .f32⟩
  | 19 => ⟨S64x4096, .f32⟩
  | 20 => ⟨S64x4094, .f32⟩
  | 21 => ⟨S_, .f32⟩
  | 22 => ⟨S_, .f32⟩
  | 23 => ⟨S64x4096, .f32⟩
  | 24 => ⟨S64x4096, .f32⟩
  | 25 => ⟨S_, .i32⟩
  | 26 => ⟨S4096, .i32⟩
  | 27 => ⟨S4096, .i32⟩
  | 28 => ⟨S_, .i32⟩
  | 29 => ⟨S4096, .i32⟩
  | 30 => ⟨S4096, .i1⟩
  | 31 => ⟨S1x4096, .i1⟩
  | 32 => ⟨S64x4096, .i1⟩
  | 33 => ⟨S64x4096, .i1⟩
  | 34 => ⟨S_, .i32⟩
  | 35 => ⟨S_, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S4096x1, .i32⟩
  | 50 => ⟨S4096, .f32⟩
  | 51 => ⟨S_, .f32⟩
  | 52 => ⟨S_, .f32⟩
  | 53 => ⟨S64x4096, .f32⟩
  | 54 => ⟨S64x4096, .f32⟩
  | 55 => ⟨S64x4096, .f32⟩
  | 56 => ⟨S64x4093, .f32⟩
  | 57 => ⟨S_, .f32⟩
  | 58 => ⟨S_, .f32⟩
  | 59 => ⟨S64x4096, .f32⟩
  | 60 => ⟨S64x4096, .f32⟩
  | 61 => ⟨S_, .i32⟩
  | 62 => ⟨S4096, .i32⟩
  | 63 => ⟨S4096, .i32⟩
  | 64 => ⟨S_, .i32⟩
  | 65 => ⟨S4096, .i32⟩
  | 66 => ⟨S4096, .i1⟩
  | 67 => ⟨S1x4096, .i1⟩
  | 68 => ⟨S64x4096, .i1⟩
  | 69 => ⟨S64x4096, .i1⟩
  | 70 => ⟨S_, .i32⟩
  | 71 => ⟨S_, .i32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S4096, .f32⟩
  | 87 => ⟨S_, .f32⟩
  | 88 => ⟨S_, .f32⟩
  | 89 => ⟨S64x4096, .f32⟩
  | 90 => ⟨S64x4096, .f32⟩
  | 91 => ⟨S64x4096, .f32⟩
  | 92 => ⟨S64x4092, .f32⟩
  | 93 => ⟨S_, .f32⟩
  | 94 => ⟨S_, .f32⟩
  | 95 => ⟨S64x4096, .f32⟩
  | 96 => ⟨S64x4096, .f32⟩
  | 97 => ⟨S_, .i32⟩
  | 98 => ⟨S4096, .i32⟩
  | 99 => ⟨S4096, .i32⟩
  | 100 => ⟨S_, .i32⟩
  | 101 => ⟨S4096, .i32⟩
  | 102 => ⟨S4096, .i1⟩
  | 103 => ⟨S1x4096, .i1⟩
  | 104 => ⟨S64x4096, .i1⟩
  | 105 => ⟨S64x4096, .i1⟩
  | 106 => ⟨S_, .i32⟩
  | 107 => ⟨S_, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S4096, .f32⟩
  | 123 => ⟨S_, .f32⟩
  | 124 => ⟨S_, .f32⟩
  | 125 => ⟨S64x4096, .f32⟩
  | 126 => ⟨S64x4096, .f32⟩
  | 127 => ⟨S64x4096, .f32⟩
  | _ => ⟨S64x4096x128, .f32⟩

abbrev hbmTy0_3 (i : Nat) : BufTy := match i % 128 with
  | 0 => ⟨S64x4091, .f32⟩
  | 1 => ⟨S_, .f32⟩
  | 2 => ⟨S_, .f32⟩
  | 3 => ⟨S64x4096, .f32⟩
  | 4 => ⟨S64x4096, .f32⟩
  | 5 => ⟨S_, .i32⟩
  | 6 => ⟨S4096, .i32⟩
  | 7 => ⟨S4096, .i32⟩
  | 8 => ⟨S_, .i32⟩
  | 9 => ⟨S4096, .i32⟩
  | 10 => ⟨S4096, .i1⟩
  | 11 => ⟨S1x4096, .i1⟩
  | 12 => ⟨S64x4096, .i1⟩
  | 13 => ⟨S64x4096, .i1⟩
  | 14 => ⟨S_, .i32⟩
  | 15 => ⟨S_, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096, .f32⟩
  | 31 => ⟨S_, .f32⟩
  | 32 => ⟨S_, .f32⟩
  | 33 => ⟨S64x4096, .f32⟩
  | 34 => ⟨S64x4096, .f32⟩
  | 35 => ⟨S64x4096, .f32⟩
  | 36 => ⟨S64x4090, .f32⟩
  | 37 => ⟨S_, .f32⟩
  | 38 => ⟨S_, .f32⟩
  | 39 => ⟨S64x4096, .f32⟩
  | 40 => ⟨S64x4096, .f32⟩
  | 41 => ⟨S_, .i32⟩
  | 42 => ⟨S4096, .i32⟩
  | 43 => ⟨S4096, .i32⟩
  | 44 => ⟨S_, .i32⟩
  | 45 => ⟨S4096, .i32⟩
  | 46 => ⟨S4096, .i1⟩
  | 47 => ⟨S1x4096, .i1⟩
  | 48 => ⟨S64x4096, .i1⟩
  | 49 => ⟨S64x4096, .i1⟩
  | 50 => ⟨S_, .i32⟩
  | 51 => ⟨S_, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S4096, .f32⟩
  | 67 => ⟨S_, .f32⟩
  | 68 => ⟨S_, .f32⟩
  | 69 => ⟨S64x4096, .f32⟩
  | 70 => ⟨S64x4096, .f32⟩
  | 71 => ⟨S64x4096, .f32⟩
  | 72 => ⟨S64x4089, .f32⟩
  | 73 => ⟨S_, .f32⟩
  | 74 => ⟨S_, .f32⟩
  | 75 => ⟨S64x4096, .f32⟩
  | 76 => ⟨S64x4096, .f32⟩
  | 77 => ⟨S_, .i32⟩
  | 78 => ⟨S4096, .i32⟩
  | 79 => ⟨S4096, .i32⟩
  | 80 => ⟨S_, .i32⟩
  | 81 => ⟨S4096, .i32⟩
  | 82 => ⟨S4096, .i1⟩
  | 83 => ⟨S1x4096, .i1⟩
  | 84 => ⟨S64x4096, .i1⟩
  | 85 => ⟨S64x4096, .i1⟩
  | 86 => ⟨S_, .i32⟩
  | 87 => ⟨S_, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S4096x1, .i32⟩
  | 102 => ⟨S4096, .f32⟩
  | 103 => ⟨S_, .f32⟩
  | 104 => ⟨S_, .f32⟩
  | 105 => ⟨S64x4096, .f32⟩
  | 106 => ⟨S64x4096, .f32⟩
  | 107 => ⟨S64x4096, .f32⟩
  | 108 => ⟨S64x4088, .f32⟩
  | 109 => ⟨S_, .f32⟩
  | 110 => ⟨S_, .f32⟩
  | 111 => ⟨S64x4096, .f32⟩
  | 112 => ⟨S64x4096, .f32⟩
  | 113 => ⟨S_, .i32⟩
  | 114 => ⟨S4096, .i32⟩
  | 115 => ⟨S4096, .i32⟩
  | 116 => ⟨S_, .i32⟩
  | 117 => ⟨S4096, .i32⟩
  | 118 => ⟨S4096, .i1⟩
  | 119 => ⟨S1x4096, .i1⟩
  | 120 => ⟨S64x4096, .i1⟩
  | 121 => ⟨S64x4096, .i1⟩
  | 122 => ⟨S_, .i32⟩
  | 123 => ⟨S_, .i32⟩
  | 124 => ⟨S_, .i32⟩
  | 125 => ⟨S4096, .i32⟩
  | 126 => ⟨S4096, .i32⟩
  | 127 => ⟨S_, .i32⟩
  | _ => ⟨S64x4096x128, .f32⟩

abbrev hbmTy0_4 (i : Nat) : BufTy := match i % 128 with
  | 0 => ⟨S4096, .i32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S4096, .f32⟩
  | 11 => ⟨S_, .f32⟩
  | 12 => ⟨S_, .f32⟩
  | 13 => ⟨S64x4096, .f32⟩
  | 14 => ⟨S64x4096, .f32⟩
  | 15 => ⟨S64x4096, .f32⟩
  | 16 => ⟨S64x4087, .f32⟩
  | 17 => ⟨S_, .f32⟩
  | 18 => ⟨S_, .f32⟩
  | 19 => ⟨S64x4096, .f32⟩
  | 20 => ⟨S64x4096, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i1⟩
  | 27 => ⟨S1x4096, .i1⟩
  | 28 => ⟨S64x4096, .i1⟩
  | 29 => ⟨S64x4096, .i1⟩
  | 30 => ⟨S_, .i32⟩
  | 31 => ⟨S_, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S4096, .f32⟩
  | 47 => ⟨S_, .f32⟩
  | 48 => ⟨S_, .f32⟩
  | 49 => ⟨S64x4096, .f32⟩
  | 50 => ⟨S64x4096, .f32⟩
  | 51 => ⟨S64x4096, .f32⟩
  | 52 => ⟨S64x4086, .f32⟩
  | 53 => ⟨S_, .f32⟩
  | 54 => ⟨S_, .f32⟩
  | 55 => ⟨S64x4096, .f32⟩
  | 56 => ⟨S64x4096, .f32⟩
  | 57 => ⟨S64x4096, .f32⟩
  | 58 => ⟨S_, .f32⟩
  | 59 => ⟨S_, .f32⟩
  | 60 => ⟨S_, .f32⟩
  | 61 => ⟨S_, .f32⟩
  | _ => ⟨S64x4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x4096x128, .f32⟩

abbrev bufTy : (tb : Table) → Fin (tcTables nBuf tb) → BufTy
  | .hbm, ⟨i, _⟩ => hbmTy i
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_c : Ref sig .tc := ⟨.hbm, 43, rfl⟩
abbrev main_v5 : Ref sig .tc := ⟨.hbm, 44, rfl⟩
abbrev main_v6 : Ref sig .tc := ⟨.hbm, 45, rfl⟩
abbrev main_cst_0 : Ref sig .tc := ⟨.hbm, 46, rfl⟩
abbrev main_cst_1 : Ref sig .tc := ⟨.hbm, 47, rfl⟩
abbrev main_call2_v0 : Ref sig .tc := ⟨.hbm, 48, rfl⟩
abbrev main_call2_v1 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_c_2 : Ref sig .tc := ⟨.hbm, 53, rfl⟩
abbrev main_call3_c : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_cst_3 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_c_4 : Ref sig .tc := ⟨.hbm, 68, rfl⟩
abbrev main_call5_c : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_cst_5 : Ref sig .tc := ⟨.hbm, 76, rfl⟩
abbrev main_call6_v0 : Ref sig .tc := ⟨.hbm, 77, rfl⟩
abbrev main_call6_v1 : Ref sig .tc := ⟨.hbm, 78, rfl⟩
abbrev main_call6_v2 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_c_6 : Ref sig .tc := ⟨.hbm, 83, rfl⟩
abbrev main_call7_c : Ref sig .tc := ⟨.hbm, 84, rfl⟩
abbrev main_call7_v0 : Ref sig .tc := ⟨.hbm, 85, rfl⟩
abbrev main_call7_v1 : Ref sig .tc := ⟨.hbm, 86, rfl⟩
abbrev main_call7_v2 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_cst_7 : Ref sig .tc := ⟨.hbm, 91, rfl⟩
abbrev main_call8_v0 : Ref sig .tc := ⟨.hbm, 92, rfl⟩
abbrev main_call8_v1 : Ref sig .tc := ⟨.hbm, 93, rfl⟩
abbrev main_call8_v2 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_c_8 : Ref sig .tc := ⟨.hbm, 98, rfl⟩
abbrev main_call9_c : Ref sig .tc := ⟨.hbm, 99, rfl⟩
abbrev main_call9_v0 : Ref sig .tc := ⟨.hbm, 100, rfl⟩
abbrev main_call9_v1 : Ref sig .tc := ⟨.hbm, 101, rfl⟩
abbrev main_call9_v2 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_cst_9 : Ref sig .tc := ⟨.hbm, 106, rfl⟩
abbrev main_call10_v0 : Ref sig .tc := ⟨.hbm, 107, rfl⟩
abbrev main_call10_v1 : Ref sig .tc := ⟨.hbm, 108, rfl⟩
abbrev main_call10_v2 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_c_10 : Ref sig .tc := ⟨.hbm, 113, rfl⟩
abbrev main_call11_c : Ref sig .tc := ⟨.hbm, 114, rfl⟩
abbrev main_call11_v0 : Ref sig .tc := ⟨.hbm, 115, rfl⟩
abbrev main_call11_v1 : Ref sig .tc := ⟨.hbm, 116, rfl⟩
abbrev main_call11_v2 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_cst_11 : Ref sig .tc := ⟨.hbm, 121, rfl⟩
abbrev main_call12_v0 : Ref sig .tc := ⟨.hbm, 122, rfl⟩
abbrev main_call12_v1 : Ref sig .tc := ⟨.hbm, 123, rfl⟩
abbrev main_call12_v2 : Ref sig .tc := ⟨.hbm, 124, rfl⟩
abbrev main_v37 : Ref sig .tc := ⟨.hbm, 125, rfl⟩
abbrev main_v38 : Ref sig .tc := ⟨.hbm, 126, rfl⟩
abbrev main_v39 : Ref sig .tc := ⟨.hbm, 127, rfl⟩
abbrev main_c_12 : Ref sig .tc := ⟨.hbm, 128, rfl⟩
abbrev main_call13_c : Ref sig .tc := ⟨.hbm, 129, rfl⟩
abbrev main_call13_v0 : Ref sig .tc := ⟨.hbm, 130, rfl⟩
abbrev main_call13_v1 : Ref sig .tc := ⟨.hbm, 131, rfl⟩
abbrev main_call13_v2 : Ref sig .tc := ⟨.hbm, 132, rfl⟩
abbrev main_v40 : Ref sig .tc := ⟨.hbm, 133, rfl⟩
abbrev main_v41 : Ref sig .tc := ⟨.hbm, 134, rfl⟩
abbrev main_v42 : Ref sig .tc := ⟨.hbm, 135, rfl⟩
abbrev main_cst_13 : Ref sig .tc := ⟨.hbm, 136, rfl⟩
abbrev main_call14_v0 : Ref sig .tc := ⟨.hbm, 137, rfl⟩
abbrev main_call14_v1 : Ref sig .tc := ⟨.hbm, 138, rfl⟩
abbrev main_call14_v2 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_c_14 : Ref sig .tc := ⟨.hbm, 143, rfl⟩
abbrev main_call15_c : Ref sig .tc := ⟨.hbm, 144, rfl⟩
abbrev main_call15_v0 : Ref sig .tc := ⟨.hbm, 145, rfl⟩
abbrev main_call15_v1 : Ref sig .tc := ⟨.hbm, 146, rfl⟩
abbrev main_call15_v2 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_cst_15 : Ref sig .tc := ⟨.hbm, 151, rfl⟩
abbrev main_call16_v0 : Ref sig .tc := ⟨.hbm, 152, rfl⟩
abbrev main_call16_v1 : Ref sig .tc := ⟨.hbm, 153, rfl⟩
abbrev main_call16_v2 : Ref sig .tc := ⟨.hbm, 154, rfl⟩
abbrev main_v49 : Ref sig .tc := ⟨.hbm, 155, rfl⟩
abbrev main_v50 : Ref sig .tc := ⟨.hbm, 156, rfl⟩
abbrev main_v51 : Ref sig .tc := ⟨.hbm, 157, rfl⟩
abbrev main_c_16 : Ref sig .tc := ⟨.hbm, 158, rfl⟩
abbrev main_call17_c : Ref sig .tc := ⟨.hbm, 159, rfl⟩
abbrev main_call17_v0 : Ref sig .tc := ⟨.hbm, 160, rfl⟩
abbrev main_call17_v1 : Ref sig .tc := ⟨.hbm, 161, rfl⟩
abbrev main_call17_v2 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_cst_17 : Ref sig .tc := ⟨.hbm, 166, rfl⟩
abbrev main_call18_v0 : Ref sig .tc := ⟨.hbm, 167, rfl⟩
abbrev main_call18_v1 : Ref sig .tc := ⟨.hbm, 168, rfl⟩
abbrev main_call18_v2 : Ref sig .tc := ⟨.hbm, 169, rfl⟩
abbrev main_v55 : Ref sig .tc := ⟨.hbm, 170, rfl⟩
abbrev main_v56 : Ref sig .tc := ⟨.hbm, 171, rfl⟩
abbrev main_v57 : Ref sig .tc := ⟨.hbm, 172, rfl⟩
abbrev main_c_18 : Ref sig .tc := ⟨.hbm, 173, rfl⟩
abbrev main_call19_c : Ref sig .tc := ⟨.hbm, 174, rfl⟩
abbrev main_call19_v0 : Ref sig .tc := ⟨.hbm, 175, rfl⟩
abbrev main_call19_v1 : Ref sig .tc := ⟨.hbm, 176, rfl⟩
abbrev main_call19_v2 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_cst_19 : Ref sig .tc := ⟨.hbm, 181, rfl⟩
abbrev main_call20_v0 : Ref sig .tc := ⟨.hbm, 182, rfl⟩
abbrev main_call20_v1 : Ref sig .tc := ⟨.hbm, 183, rfl⟩
abbrev main_call20_v2 : Ref sig .tc := ⟨.hbm, 184, rfl⟩
abbrev main_v61 : Ref sig .tc := ⟨.hbm, 185, rfl⟩
abbrev main_v62 : Ref sig .tc := ⟨.hbm, 186, rfl⟩
abbrev main_v63 : Ref sig .tc := ⟨.hbm, 187, rfl⟩
abbrev main_c_20 : Ref sig .tc := ⟨.hbm, 188, rfl⟩
abbrev main_call21_c : Ref sig .tc := ⟨.hbm, 189, rfl⟩
abbrev main_call21_v0 : Ref sig .tc := ⟨.hbm, 190, rfl⟩
abbrev main_call21_v1 : Ref sig .tc := ⟨.hbm, 191, rfl⟩
abbrev main_call21_v2 : Ref sig .tc := ⟨.hbm, 192, rfl⟩
abbrev main_v64 : Ref sig .tc := ⟨.hbm, 193, rfl⟩
abbrev main_v65 : Ref sig .tc := ⟨.hbm, 194, rfl⟩
abbrev main_v66 : Ref sig .tc := ⟨.hbm, 195, rfl⟩
abbrev main_cst_21 : Ref sig .tc := ⟨.hbm, 196, rfl⟩
abbrev main_call22_v0 : Ref sig .tc := ⟨.hbm, 197, rfl⟩
abbrev main_call22_v1 : Ref sig .tc := ⟨.hbm, 198, rfl⟩
abbrev main_call22_v2 : Ref sig .tc := ⟨.hbm, 199, rfl⟩
abbrev main_v67 : Ref sig .tc := ⟨.hbm, 200, rfl⟩
abbrev main_v68 : Ref sig .tc := ⟨.hbm, 201, rfl⟩
abbrev main_v69 : Ref sig .tc := ⟨.hbm, 202, rfl⟩
abbrev main_c_22 : Ref sig .tc := ⟨.hbm, 203, rfl⟩
abbrev main_v70 : Ref sig .tc := ⟨.hbm, 204, rfl⟩
abbrev main_v71 : Ref sig .tc := ⟨.hbm, 205, rfl⟩
abbrev main_c_23 : Ref sig .tc := ⟨.hbm, 206, rfl⟩
abbrev main_v72 : Ref sig .tc := ⟨.hbm, 207, rfl⟩
abbrev main_v73 : Ref sig .tc := ⟨.hbm, 208, rfl⟩
abbrev main_c_24 : Ref sig .tc := ⟨.hbm, 209, rfl⟩
abbrev main_v74 : Ref sig .tc := ⟨.hbm, 210, rfl⟩
abbrev main_v75 : Ref sig .tc := ⟨.hbm, 211, rfl⟩
abbrev main_c_25 : Ref sig .tc := ⟨.hbm, 212, rfl⟩
abbrev main_v76 : Ref sig .tc := ⟨.hbm, 213, rfl⟩
abbrev main_v77 : Ref sig .tc := ⟨.hbm, 214, rfl⟩
abbrev main_v78 : Ref sig .tc := ⟨.hbm, 215, rfl⟩
abbrev main_v79 : Ref sig .tc := ⟨.hbm, 216, rfl⟩
abbrev main_v80 : Ref sig .tc := ⟨.hbm, 217, rfl⟩
abbrev main_c_26 : Ref sig .tc := ⟨.hbm, 218, rfl⟩
abbrev main_c_27 : Ref sig .tc := ⟨.hbm, 219, rfl⟩
abbrev main_call23_v0 : Ref sig .tc := ⟨.hbm, 220, rfl⟩
abbrev main_call23_v1 : Ref sig .tc := ⟨.hbm, 221, rfl⟩
abbrev main_call23_v2 : Ref sig .tc := ⟨.hbm, 222, rfl⟩
abbrev main_call23_v3 : Ref sig .tc := ⟨.hbm, 223, rfl⟩
abbrev main_call23_v4 : Ref sig .tc := ⟨.hbm, 224, rfl⟩
abbrev main_v81 : Ref sig .tc := ⟨.hbm, 225, rfl⟩
abbrev main_c_28 : Ref sig .tc := ⟨.hbm, 226, rfl⟩
abbrev main_v82 : Ref sig .tc := ⟨.hbm, 227, rfl⟩
abbrev main_v83 : Ref sig .tc := ⟨.hbm, 228, rfl⟩
abbrev main_c_29 : Ref sig .tc := ⟨.hbm, 229, rfl⟩
abbrev main_v84 : Ref sig .tc := ⟨.hbm, 230, rfl⟩
abbrev main_v85 : Ref sig .tc := ⟨.hbm, 231, rfl⟩
abbrev main_v86 : Ref sig .tc := ⟨.hbm, 232, rfl⟩
abbrev main_v87 : Ref sig .tc := ⟨.hbm, 233, rfl⟩
abbrev main_v88 : Ref sig .tc := ⟨.hbm, 234, rfl⟩
abbrev main_cst_30 : Ref sig .tc := ⟨.hbm, 235, rfl⟩
abbrev main_call24_v0 : Ref sig .tc := ⟨.hbm, 236, rfl⟩
abbrev main_call24_v1 : Ref sig .tc := ⟨.hbm, 237, rfl⟩
abbrev main_call24_v2 : Ref sig .tc := ⟨.hbm, 238, rfl⟩
abbrev main_v89 : Ref sig .tc := ⟨.hbm, 239, rfl⟩
abbrev main_v90 : Ref sig .tc := ⟨.hbm, 240, rfl⟩
abbrev main_cst_31 : Ref sig .tc := ⟨.hbm, 241, rfl⟩
abbrev main_call25_v0 : Ref sig .tc := ⟨.hbm, 242, rfl⟩
abbrev main_v91 : Ref sig .tc := ⟨.hbm, 243, rfl⟩
abbrev main_v92 : Ref sig .tc := ⟨.hbm, 244, rfl⟩
abbrev main_c_32 : Ref sig .tc := ⟨.hbm, 245, rfl⟩
abbrev main_v93 : Ref sig .tc := ⟨.hbm, 246, rfl⟩
abbrev main_v94 : Ref sig .tc := ⟨.hbm, 247, rfl⟩
abbrev main_c_33 : Ref sig .tc := ⟨.hbm, 248, rfl⟩
abbrev main_v95 : Ref sig .tc := ⟨.hbm, 249, rfl⟩
abbrev main_v96 : Ref sig .tc := ⟨.hbm, 250, rfl⟩
abbrev main_v97 : Ref sig .tc := ⟨.hbm, 251, rfl⟩
abbrev main_v98 : Ref sig .tc := ⟨.hbm, 252, rfl⟩
abbrev main_v99 : Ref sig .tc := ⟨.hbm, 253, rfl⟩
abbrev main_c_34 : Ref sig .tc := ⟨.hbm, 254, rfl⟩
abbrev main_c_35 : Ref sig .tc := ⟨.hbm, 255, rfl⟩
abbrev main_call26_v0 : Ref sig .tc := ⟨.hbm, 256, rfl⟩
abbrev main_call26_v1 : Ref sig .tc := ⟨.hbm, 257, rfl⟩
abbrev main_call26_v2 : Ref sig .tc := ⟨.hbm, 258, rfl⟩
abbrev main_call26_v3 : Ref sig .tc := ⟨.hbm, 259, rfl⟩
abbrev main_call26_v4 : Ref sig .tc := ⟨.hbm, 260, rfl⟩
abbrev main_v100 : Ref sig .tc := ⟨.hbm, 261, rfl⟩
abbrev main_c_36 : Ref sig .tc := ⟨.hbm, 262, rfl⟩
abbrev main_v101 : Ref sig .tc := ⟨.hbm, 263, rfl⟩
abbrev main_v102 : Ref sig .tc := ⟨.hbm, 264, rfl⟩
abbrev main_c_37 : Ref sig .tc := ⟨.hbm, 265, rfl⟩
abbrev main_v103 : Ref sig .tc := ⟨.hbm, 266, rfl⟩
abbrev main_v104 : Ref sig .tc := ⟨.hbm, 267, rfl⟩
abbrev main_v105 : Ref sig .tc := ⟨.hbm, 268, rfl⟩
abbrev main_v106 : Ref sig .tc := ⟨.hbm, 269, rfl⟩
abbrev main_v107 : Ref sig .tc := ⟨.hbm, 270, rfl⟩
abbrev main_cst_38 : Ref sig .tc := ⟨.hbm, 271, rfl⟩
abbrev main_call27_v0 : Ref sig .tc := ⟨.hbm, 272, rfl⟩
abbrev main_call27_v1 : Ref sig .tc := ⟨.hbm, 273, rfl⟩
abbrev main_call27_v2 : Ref sig .tc := ⟨.hbm, 274, rfl⟩
abbrev main_v108 : Ref sig .tc := ⟨.hbm, 275, rfl⟩
abbrev main_v109 : Ref sig .tc := ⟨.hbm, 276, rfl⟩
abbrev main_cst_39 : Ref sig .tc := ⟨.hbm, 277, rfl⟩
abbrev main_call28_v0 : Ref sig .tc := ⟨.hbm, 278, rfl⟩
abbrev main_v110 : Ref sig .tc := ⟨.hbm, 279, rfl⟩
abbrev main_v111 : Ref sig .tc := ⟨.hbm, 280, rfl⟩
abbrev main_c_40 : Ref sig .tc := ⟨.hbm, 281, rfl⟩
abbrev main_v112 : Ref sig .tc := ⟨.hbm, 282, rfl⟩
abbrev main_v113 : Ref sig .tc := ⟨.hbm, 283, rfl⟩
abbrev main_c_41 : Ref sig .tc := ⟨.hbm, 284, rfl⟩
abbrev main_v114 : Ref sig .tc := ⟨.hbm, 285, rfl⟩
abbrev main_v115 : Ref sig .tc := ⟨.hbm, 286, rfl⟩
abbrev main_v116 : Ref sig .tc := ⟨.hbm, 287, rfl⟩
abbrev main_v117 : Ref sig .tc := ⟨.hbm, 288, rfl⟩
abbrev main_v118 : Ref sig .tc := ⟨.hbm, 289, rfl⟩
abbrev main_c_42 : Ref sig .tc := ⟨.hbm, 290, rfl⟩
abbrev main_c_43 : Ref sig .tc := ⟨.hbm, 291, rfl⟩
abbrev main_call29_v0 : Ref sig .tc := ⟨.hbm, 292, rfl⟩
abbrev main_call29_v1 : Ref sig .tc := ⟨.hbm, 293, rfl⟩
abbrev main_call29_v2 : Ref sig .tc := ⟨.hbm, 294, rfl⟩
abbrev main_call29_v3 : Ref sig .tc := ⟨.hbm, 295, rfl⟩
abbrev main_call29_v4 : Ref sig .tc := ⟨.hbm, 296, rfl⟩
abbrev main_v119 : Ref sig .tc := ⟨.hbm, 297, rfl⟩
abbrev main_c_44 : Ref sig .tc := ⟨.hbm, 298, rfl⟩
abbrev main_v120 : Ref sig .tc := ⟨.hbm, 299, rfl⟩
abbrev main_v121 : Ref sig .tc := ⟨.hbm, 300, rfl⟩
abbrev main_c_45 : Ref sig .tc := ⟨.hbm, 301, rfl⟩
abbrev main_v122 : Ref sig .tc := ⟨.hbm, 302, rfl⟩
abbrev main_v123 : Ref sig .tc := ⟨.hbm, 303, rfl⟩
abbrev main_v124 : Ref sig .tc := ⟨.hbm, 304, rfl⟩
abbrev main_v125 : Ref sig .tc := ⟨.hbm, 305, rfl⟩
abbrev main_v126 : Ref sig .tc := ⟨.hbm, 306, rfl⟩
abbrev main_cst_46 : Ref sig .tc := ⟨.hbm, 307, rfl⟩
abbrev main_call30_v0 : Ref sig .tc := ⟨.hbm, 308, rfl⟩
abbrev main_call30_v1 : Ref sig .tc := ⟨.hbm, 309, rfl⟩
abbrev main_call30_v2 : Ref sig .tc := ⟨.hbm, 310, rfl⟩
abbrev main_v127 : Ref sig .tc := ⟨.hbm, 311, rfl⟩
abbrev main_v128 : Ref sig .tc := ⟨.hbm, 312, rfl⟩
abbrev main_cst_47 : Ref sig .tc := ⟨.hbm, 313, rfl⟩
abbrev main_call31_v0 : Ref sig .tc := ⟨.hbm, 314, rfl⟩
abbrev main_v129 : Ref sig .tc := ⟨.hbm, 315, rfl⟩
abbrev main_v130 : Ref sig .tc := ⟨.hbm, 316, rfl⟩
abbrev main_c_48 : Ref sig .tc := ⟨.hbm, 317, rfl⟩
abbrev main_v131 : Ref sig .tc := ⟨.hbm, 318, rfl⟩
abbrev main_v132 : Ref sig .tc := ⟨.hbm, 319, rfl⟩
abbrev main_c_49 : Ref sig .tc := ⟨.hbm, 320, rfl⟩
abbrev main_v133 : Ref sig .tc := ⟨.hbm, 321, rfl⟩
abbrev main_v134 : Ref sig .tc := ⟨.hbm, 322, rfl⟩
abbrev main_v135 : Ref sig .tc := ⟨.hbm, 323, rfl⟩
abbrev main_v136 : Ref sig .tc := ⟨.hbm, 324, rfl⟩
abbrev main_v137 : Ref sig .tc := ⟨.hbm, 325, rfl⟩
abbrev main_c_50 : Ref sig .tc := ⟨.hbm, 326, rfl⟩
abbrev main_c_51 : Ref sig .tc := ⟨.hbm, 327, rfl⟩
abbrev main_call32_v0 : Ref sig .tc := ⟨.hbm, 328, rfl⟩
abbrev main_call32_v1 : Ref sig .tc := ⟨.hbm, 329, rfl⟩
abbrev main_call32_v2 : Ref sig .tc := ⟨.hbm, 330, rfl⟩
abbrev main_call32_v3 : Ref sig .tc := ⟨.hbm, 331, rfl⟩
abbrev main_call32_v4 : Ref sig .tc := ⟨.hbm, 332, rfl⟩
abbrev main_v138 : Ref sig .tc := ⟨.hbm, 333, rfl⟩
abbrev main_c_52 : Ref sig .tc := ⟨.hbm, 334, rfl⟩
abbrev main_v139 : Ref sig .tc := ⟨.hbm, 335, rfl⟩
abbrev main_v140 : Ref sig .tc := ⟨.hbm, 336, rfl⟩
abbrev main_c_53 : Ref sig .tc := ⟨.hbm, 337, rfl⟩
abbrev main_v141 : Ref sig .tc := ⟨.hbm, 338, rfl⟩
abbrev main_v142 : Ref sig .tc := ⟨.hbm, 339, rfl⟩
abbrev main_v143 : Ref sig .tc := ⟨.hbm, 340, rfl⟩
abbrev main_v144 : Ref sig .tc := ⟨.hbm, 341, rfl⟩
abbrev main_v145 : Ref sig .tc := ⟨.hbm, 342, rfl⟩
abbrev main_cst_54 : Ref sig .tc := ⟨.hbm, 343, rfl⟩
abbrev main_call33_v0 : Ref sig .tc := ⟨.hbm, 344, rfl⟩
abbrev main_call33_v1 : Ref sig .tc := ⟨.hbm, 345, rfl⟩
abbrev main_call33_v2 : Ref sig .tc := ⟨.hbm, 346, rfl⟩
abbrev main_v146 : Ref sig .tc := ⟨.hbm, 347, rfl⟩
abbrev main_v147 : Ref sig .tc := ⟨.hbm, 348, rfl⟩
abbrev main_cst_55 : Ref sig .tc := ⟨.hbm, 349, rfl⟩
abbrev main_call34_v0 : Ref sig .tc := ⟨.hbm, 350, rfl⟩
abbrev main_v148 : Ref sig .tc := ⟨.hbm, 351, rfl⟩
abbrev main_v149 : Ref sig .tc := ⟨.hbm, 352, rfl⟩
abbrev main_c_56 : Ref sig .tc := ⟨.hbm, 353, rfl⟩
abbrev main_v150 : Ref sig .tc := ⟨.hbm, 354, rfl⟩
abbrev main_v151 : Ref sig .tc := ⟨.hbm, 355, rfl⟩
abbrev main_c_57 : Ref sig .tc := ⟨.hbm, 356, rfl⟩
abbrev main_v152 : Ref sig .tc := ⟨.hbm, 357, rfl⟩
abbrev main_v153 : Ref sig .tc := ⟨.hbm, 358, rfl⟩
abbrev main_v154 : Ref sig .tc := ⟨.hbm, 359, rfl⟩
abbrev main_v155 : Ref sig .tc := ⟨.hbm, 360, rfl⟩
abbrev main_v156 : Ref sig .tc := ⟨.hbm, 361, rfl⟩
abbrev main_c_58 : Ref sig .tc := ⟨.hbm, 362, rfl⟩
abbrev main_c_59 : Ref sig .tc := ⟨.hbm, 363, rfl⟩
abbrev main_call35_v0 : Ref sig .tc := ⟨.hbm, 364, rfl⟩
abbrev main_call35_v1 : Ref sig .tc := ⟨.hbm, 365, rfl⟩
abbrev main_call35_v2 : Ref sig .tc := ⟨.hbm, 366, rfl⟩
abbrev main_call35_v3 : Ref sig .tc := ⟨.hbm, 367, rfl⟩
abbrev main_call35_v4 : Ref sig .tc := ⟨.hbm, 368, rfl⟩
abbrev main_v157 : Ref sig .tc := ⟨.hbm, 369, rfl⟩
abbrev main_c_60 : Ref sig .tc := ⟨.hbm, 370, rfl⟩
abbrev main_v158 : Ref sig .tc := ⟨.hbm, 371, rfl⟩
abbrev main_v159 : Ref sig .tc := ⟨.hbm, 372, rfl⟩
abbrev main_c_61 : Ref sig .tc := ⟨.hbm, 373, rfl⟩
abbrev main_v160 : Ref sig .tc := ⟨.hbm, 374, rfl⟩
abbrev main_v161 : Ref sig .tc := ⟨.hbm, 375, rfl⟩
abbrev main_v162 : Ref sig .tc := ⟨.hbm, 376, rfl⟩
abbrev main_v163 : Ref sig .tc := ⟨.hbm, 377, rfl⟩
abbrev main_v164 : Ref sig .tc := ⟨.hbm, 378, rfl⟩
abbrev main_cst_62 : Ref sig .tc := ⟨.hbm, 379, rfl⟩
abbrev main_call36_v0 : Ref sig .tc := ⟨.hbm, 380, rfl⟩
abbrev main_call36_v1 : Ref sig .tc := ⟨.hbm, 381, rfl⟩
abbrev main_call36_v2 : Ref sig .tc := ⟨.hbm, 382, rfl⟩
abbrev main_v165 : Ref sig .tc := ⟨.hbm, 383, rfl⟩
abbrev main_v166 : Ref sig .tc := ⟨.hbm, 384, rfl⟩
abbrev main_cst_63 : Ref sig .tc := ⟨.hbm, 385, rfl⟩
abbrev main_call37_v0 : Ref sig .tc := ⟨.hbm, 386, rfl⟩
abbrev main_v167 : Ref sig .tc := ⟨.hbm, 387, rfl⟩
abbrev main_v168 : Ref sig .tc := ⟨.hbm, 388, rfl⟩
abbrev main_c_64 : Ref sig .tc := ⟨.hbm, 389, rfl⟩
abbrev main_v169 : Ref sig .tc := ⟨.hbm, 390, rfl⟩
abbrev main_v170 : Ref sig .tc := ⟨.hbm, 391, rfl⟩
abbrev main_c_65 : Ref sig .tc := ⟨.hbm, 392, rfl⟩
abbrev main_v171 : Ref sig .tc := ⟨.hbm, 393, rfl⟩
abbrev main_v172 : Ref sig .tc := ⟨.hbm, 394, rfl⟩
abbrev main_v173 : Ref sig .tc := ⟨.hbm, 395, rfl⟩
abbrev main_v174 : Ref sig .tc := ⟨.hbm, 396, rfl⟩
abbrev main_v175 : Ref sig .tc := ⟨.hbm, 397, rfl⟩
abbrev main_c_66 : Ref sig .tc := ⟨.hbm, 398, rfl⟩
abbrev main_c_67 : Ref sig .tc := ⟨.hbm, 399, rfl⟩
abbrev main_call38_v0 : Ref sig .tc := ⟨.hbm, 400, rfl⟩
abbrev main_call38_v1 : Ref sig .tc := ⟨.hbm, 401, rfl⟩
abbrev main_call38_v2 : Ref sig .tc := ⟨.hbm, 402, rfl⟩
abbrev main_call38_v3 : Ref sig .tc := ⟨.hbm, 403, rfl⟩
abbrev main_call38_v4 : Ref sig .tc := ⟨.hbm, 404, rfl⟩
abbrev main_v176 : Ref sig .tc := ⟨.hbm, 405, rfl⟩
abbrev main_c_68 : Ref sig .tc := ⟨.hbm, 406, rfl⟩
abbrev main_v177 : Ref sig .tc := ⟨.hbm, 407, rfl⟩
abbrev main_v178 : Ref sig .tc := ⟨.hbm, 408, rfl⟩
abbrev main_c_69 : Ref sig .tc := ⟨.hbm, 409, rfl⟩
abbrev main_v179 : Ref sig .tc := ⟨.hbm, 410, rfl⟩
abbrev main_v180 : Ref sig .tc := ⟨.hbm, 411, rfl⟩
abbrev main_v181 : Ref sig .tc := ⟨.hbm, 412, rfl⟩
abbrev main_v182 : Ref sig .tc := ⟨.hbm, 413, rfl⟩
abbrev main_v183 : Ref sig .tc := ⟨.hbm, 414, rfl⟩
abbrev main_cst_70 : Ref sig .tc := ⟨.hbm, 415, rfl⟩
abbrev main_call39_v0 : Ref sig .tc := ⟨.hbm, 416, rfl⟩
abbrev main_call39_v1 : Ref sig .tc := ⟨.hbm, 417, rfl⟩
abbrev main_call39_v2 : Ref sig .tc := ⟨.hbm, 418, rfl⟩
abbrev main_v184 : Ref sig .tc := ⟨.hbm, 419, rfl⟩
abbrev main_v185 : Ref sig .tc := ⟨.hbm, 420, rfl⟩
abbrev main_cst_71 : Ref sig .tc := ⟨.hbm, 421, rfl⟩
abbrev main_call40_v0 : Ref sig .tc := ⟨.hbm, 422, rfl⟩
abbrev main_v186 : Ref sig .tc := ⟨.hbm, 423, rfl⟩
abbrev main_v187 : Ref sig .tc := ⟨.hbm, 424, rfl⟩
abbrev main_c_72 : Ref sig .tc := ⟨.hbm, 425, rfl⟩
abbrev main_v188 : Ref sig .tc := ⟨.hbm, 426, rfl⟩
abbrev main_v189 : Ref sig .tc := ⟨.hbm, 427, rfl⟩
abbrev main_c_73 : Ref sig .tc := ⟨.hbm, 428, rfl⟩
abbrev main_v190 : Ref sig .tc := ⟨.hbm, 429, rfl⟩
abbrev main_v191 : Ref sig .tc := ⟨.hbm, 430, rfl⟩
abbrev main_v192 : Ref sig .tc := ⟨.hbm, 431, rfl⟩
abbrev main_v193 : Ref sig .tc := ⟨.hbm, 432, rfl⟩
abbrev main_v194 : Ref sig .tc := ⟨.hbm, 433, rfl⟩
abbrev main_c_74 : Ref sig .tc := ⟨.hbm, 434, rfl⟩
abbrev main_c_75 : Ref sig .tc := ⟨.hbm, 435, rfl⟩
abbrev main_call41_v0 : Ref sig .tc := ⟨.hbm, 436, rfl⟩
abbrev main_call41_v1 : Ref sig .tc := ⟨.hbm, 437, rfl⟩
abbrev main_call41_v2 : Ref sig .tc := ⟨.hbm, 438, rfl⟩
abbrev main_call41_v3 : Ref sig .tc := ⟨.hbm, 439, rfl⟩
abbrev main_call41_v4 : Ref sig .tc := ⟨.hbm, 440, rfl⟩
abbrev main_v195 : Ref sig .tc := ⟨.hbm, 441, rfl⟩
abbrev main_c_76 : Ref sig .tc := ⟨.hbm, 442, rfl⟩
abbrev main_v196 : Ref sig .tc := ⟨.hbm, 443, rfl⟩
abbrev main_v197 : Ref sig .tc := ⟨.hbm, 444, rfl⟩
abbrev main_c_77 : Ref sig .tc := ⟨.hbm, 445, rfl⟩
abbrev main_v198 : Ref sig .tc := ⟨.hbm, 446, rfl⟩
abbrev main_v199 : Ref sig .tc := ⟨.hbm, 447, rfl⟩
abbrev main_v200 : Ref sig .tc := ⟨.hbm, 448, rfl⟩
abbrev main_v201 : Ref sig .tc := ⟨.hbm, 449, rfl⟩
abbrev main_v202 : Ref sig .tc := ⟨.hbm, 450, rfl⟩
abbrev main_cst_78 : Ref sig .tc := ⟨.hbm, 451, rfl⟩
abbrev main_call42_v0 : Ref sig .tc := ⟨.hbm, 452, rfl⟩
abbrev main_call42_v1 : Ref sig .tc := ⟨.hbm, 453, rfl⟩
abbrev main_call42_v2 : Ref sig .tc := ⟨.hbm, 454, rfl⟩
abbrev main_v203 : Ref sig .tc := ⟨.hbm, 455, rfl⟩
abbrev main_v204 : Ref sig .tc := ⟨.hbm, 456, rfl⟩
abbrev main_cst_79 : Ref sig .tc := ⟨.hbm, 457, rfl⟩
abbrev main_call43_v0 : Ref sig .tc := ⟨.hbm, 458, rfl⟩
abbrev main_v205 : Ref sig .tc := ⟨.hbm, 459, rfl⟩
abbrev main_v206 : Ref sig .tc := ⟨.hbm, 460, rfl⟩
abbrev main_c_80 : Ref sig .tc := ⟨.hbm, 461, rfl⟩
abbrev main_v207 : Ref sig .tc := ⟨.hbm, 462, rfl⟩
abbrev main_v208 : Ref sig .tc := ⟨.hbm, 463, rfl⟩
abbrev main_c_81 : Ref sig .tc := ⟨.hbm, 464, rfl⟩
abbrev main_v209 : Ref sig .tc := ⟨.hbm, 465, rfl⟩
abbrev main_v210 : Ref sig .tc := ⟨.hbm, 466, rfl⟩
abbrev main_v211 : Ref sig .tc := ⟨.hbm, 467, rfl⟩
abbrev main_v212 : Ref sig .tc := ⟨.hbm, 468, rfl⟩
abbrev main_v213 : Ref sig .tc := ⟨.hbm, 469, rfl⟩
abbrev main_c_82 : Ref sig .tc := ⟨.hbm, 470, rfl⟩
abbrev main_c_83 : Ref sig .tc := ⟨.hbm, 471, rfl⟩
abbrev main_call44_v0 : Ref sig .tc := ⟨.hbm, 472, rfl⟩
abbrev main_call44_v1 : Ref sig .tc := ⟨.hbm, 473, rfl⟩
abbrev main_call44_v2 : Ref sig .tc := ⟨.hbm, 474, rfl⟩
abbrev main_call44_v3 : Ref sig .tc := ⟨.hbm, 475, rfl⟩
abbrev main_call44_v4 : Ref sig .tc := ⟨.hbm, 476, rfl⟩
abbrev main_v214 : Ref sig .tc := ⟨.hbm, 477, rfl⟩
abbrev main_c_84 : Ref sig .tc := ⟨.hbm, 478, rfl⟩
abbrev main_v215 : Ref sig .tc := ⟨.hbm, 479, rfl⟩
abbrev main_v216 : Ref sig .tc := ⟨.hbm, 480, rfl⟩
abbrev main_c_85 : Ref sig .tc := ⟨.hbm, 481, rfl⟩
abbrev main_v217 : Ref sig .tc := ⟨.hbm, 482, rfl⟩
abbrev main_v218 : Ref sig .tc := ⟨.hbm, 483, rfl⟩
abbrev main_v219 : Ref sig .tc := ⟨.hbm, 484, rfl⟩
abbrev main_v220 : Ref sig .tc := ⟨.hbm, 485, rfl⟩
abbrev main_v221 : Ref sig .tc := ⟨.hbm, 486, rfl⟩
abbrev main_cst_86 : Ref sig .tc := ⟨.hbm, 487, rfl⟩
abbrev main_call45_v0 : Ref sig .tc := ⟨.hbm, 488, rfl⟩
abbrev main_call45_v1 : Ref sig .tc := ⟨.hbm, 489, rfl⟩
abbrev main_call45_v2 : Ref sig .tc := ⟨.hbm, 490, rfl⟩
abbrev main_v222 : Ref sig .tc := ⟨.hbm, 491, rfl⟩
abbrev main_v223 : Ref sig .tc := ⟨.hbm, 492, rfl⟩
abbrev main_cst_87 : Ref sig .tc := ⟨.hbm, 493, rfl⟩
abbrev main_call46_v0 : Ref sig .tc := ⟨.hbm, 494, rfl⟩
abbrev main_v224 : Ref sig .tc := ⟨.hbm, 495, rfl⟩
abbrev main_v225 : Ref sig .tc := ⟨.hbm, 496, rfl⟩
abbrev main_c_88 : Ref sig .tc := ⟨.hbm, 497, rfl⟩
abbrev main_v226 : Ref sig .tc := ⟨.hbm, 498, rfl⟩
abbrev main_v227 : Ref sig .tc := ⟨.hbm, 499, rfl⟩
abbrev main_c_89 : Ref sig .tc := ⟨.hbm, 500, rfl⟩
abbrev main_v228 : Ref sig .tc := ⟨.hbm, 501, rfl⟩
abbrev main_v229 : Ref sig .tc := ⟨.hbm, 502, rfl⟩
abbrev main_v230 : Ref sig .tc := ⟨.hbm, 503, rfl⟩
abbrev main_v231 : Ref sig .tc := ⟨.hbm, 504, rfl⟩
abbrev main_v232 : Ref sig .tc := ⟨.hbm, 505, rfl⟩
abbrev main_c_90 : Ref sig .tc := ⟨.hbm, 506, rfl⟩
abbrev main_c_91 : Ref sig .tc := ⟨.hbm, 507, rfl⟩
abbrev main_call47_v0 : Ref sig .tc := ⟨.hbm, 508, rfl⟩
abbrev main_call47_v1 : Ref sig .tc := ⟨.hbm, 509, rfl⟩
abbrev main_call47_v2 : Ref sig .tc := ⟨.hbm, 510, rfl⟩
abbrev main_call47_v3 : Ref sig .tc := ⟨.hbm, 511, rfl⟩
abbrev main_call47_v4 : Ref sig .tc := ⟨.hbm, 512, rfl⟩
abbrev main_v233 : Ref sig .tc := ⟨.hbm, 513, rfl⟩
abbrev main_c_92 : Ref sig .tc := ⟨.hbm, 514, rfl⟩
abbrev main_v234 : Ref sig .tc := ⟨.hbm, 515, rfl⟩
abbrev main_v235 : Ref sig .tc := ⟨.hbm, 516, rfl⟩
abbrev main_c_93 : Ref sig .tc := ⟨.hbm, 517, rfl⟩
abbrev main_v236 : Ref sig .tc := ⟨.hbm, 518, rfl⟩
abbrev main_v237 : Ref sig .tc := ⟨.hbm, 519, rfl⟩
abbrev main_v238 : Ref sig .tc := ⟨.hbm, 520, rfl⟩
abbrev main_v239 : Ref sig .tc := ⟨.hbm, 521, rfl⟩
abbrev main_v240 : Ref sig .tc := ⟨.hbm, 522, rfl⟩
abbrev main_cst_94 : Ref sig .tc := ⟨.hbm, 523, rfl⟩
abbrev main_call48_v0 : Ref sig .tc := ⟨.hbm, 524, rfl⟩
abbrev main_call48_v1 : Ref sig .tc := ⟨.hbm, 525, rfl⟩
abbrev main_call48_v2 : Ref sig .tc := ⟨.hbm, 526, rfl⟩
abbrev main_v241 : Ref sig .tc := ⟨.hbm, 527, rfl⟩
abbrev main_v242 : Ref sig .tc := ⟨.hbm, 528, rfl⟩
abbrev main_cst_95 : Ref sig .tc := ⟨.hbm, 529, rfl⟩
abbrev main_call49_v0 : Ref sig .tc := ⟨.hbm, 530, rfl⟩
abbrev main_v243 : Ref sig .tc := ⟨.hbm, 531, rfl⟩
abbrev main_v244 : Ref sig .tc := ⟨.hbm, 532, rfl⟩
abbrev main_c_96 : Ref sig .tc := ⟨.hbm, 533, rfl⟩
abbrev main_v245 : Ref sig .tc := ⟨.hbm, 534, rfl⟩
abbrev main_v246 : Ref sig .tc := ⟨.hbm, 535, rfl⟩
abbrev main_c_97 : Ref sig .tc := ⟨.hbm, 536, rfl⟩
abbrev main_v247 : Ref sig .tc := ⟨.hbm, 537, rfl⟩
abbrev main_v248 : Ref sig .tc := ⟨.hbm, 538, rfl⟩
abbrev main_v249 : Ref sig .tc := ⟨.hbm, 539, rfl⟩
abbrev main_v250 : Ref sig .tc := ⟨.hbm, 540, rfl⟩
abbrev main_v251 : Ref sig .tc := ⟨.hbm, 541, rfl⟩
abbrev main_c_98 : Ref sig .tc := ⟨.hbm, 542, rfl⟩
abbrev main_c_99 : Ref sig .tc := ⟨.hbm, 543, rfl⟩
abbrev main_call50_v0 : Ref sig .tc := ⟨.hbm, 544, rfl⟩
abbrev main_call50_v1 : Ref sig .tc := ⟨.hbm, 545, rfl⟩
abbrev main_call50_v2 : Ref sig .tc := ⟨.hbm, 546, rfl⟩
abbrev main_call50_v3 : Ref sig .tc := ⟨.hbm, 547, rfl⟩
abbrev main_call50_v4 : Ref sig .tc := ⟨.hbm, 548, rfl⟩
abbrev main_v252 : Ref sig .tc := ⟨.hbm, 549, rfl⟩
abbrev main_c_100 : Ref sig .tc := ⟨.hbm, 550, rfl⟩
abbrev main_v253 : Ref sig .tc := ⟨.hbm, 551, rfl⟩
abbrev main_v254 : Ref sig .tc := ⟨.hbm, 552, rfl⟩
abbrev main_c_101 : Ref sig .tc := ⟨.hbm, 553, rfl⟩
abbrev main_v255 : Ref sig .tc := ⟨.hbm, 554, rfl⟩
abbrev main_v256 : Ref sig .tc := ⟨.hbm, 555, rfl⟩
abbrev main_v257 : Ref sig .tc := ⟨.hbm, 556, rfl⟩
abbrev main_v258 : Ref sig .tc := ⟨.hbm, 557, rfl⟩
abbrev main_v259 : Ref sig .tc := ⟨.hbm, 558, rfl⟩
abbrev main_cst_102 : Ref sig .tc := ⟨.hbm, 559, rfl⟩
abbrev main_call51_v0 : Ref sig .tc := ⟨.hbm, 560, rfl⟩
abbrev main_call51_v1 : Ref sig .tc := ⟨.hbm, 561, rfl⟩
abbrev main_call51_v2 : Ref sig .tc := ⟨.hbm, 562, rfl⟩
abbrev main_v260 : Ref sig .tc := ⟨.hbm, 563, rfl⟩
abbrev main_v261 : Ref sig .tc := ⟨.hbm, 564, rfl⟩
abbrev main_cst_103 : Ref sig .tc := ⟨.hbm, 565, rfl⟩
abbrev main_call52_v0 : Ref sig .tc := ⟨.hbm, 566, rfl⟩
abbrev main_v262 : Ref sig .tc := ⟨.hbm, 567, rfl⟩
abbrev main_v263 : Ref sig .tc := ⟨.hbm, 568, rfl⟩
abbrev main_v264 : Ref sig .tc := ⟨.hbm, 569, rfl⟩
abbrev main_cst_104 : Ref sig .tc := ⟨.hbm, 570, rfl⟩
abbrev main_v265 : Ref sig .tc := ⟨.hbm, 571, rfl⟩
abbrev main_cst_105 : Ref sig .tc := ⟨.hbm, 572, rfl⟩
abbrev main_v266 : Ref sig .tc := ⟨.hbm, 573, rfl⟩

abbrev nD : Nat := 1
abbrev τ : Topo := Topo.v7x

variable {F : FTy → Type} [FloatOps F]

class Facts₀ : Prop where
  reducesTo_S64x4096x128_S64x4096_d2 : S64x4096x128.ReducesTo [2] S64x4096
  h_S_ : 0 < S_.numel
  bcast_S_S64x4096 : S_.BroadcastsInDim S64x4096 (![] : Fin 0 → Fin S64x4096.rank)
  bcast_S64x4096_S64x4096x1_0_1 : S64x4096.BroadcastsInDim S64x4096x1 (![0, 1] : Fin 2 → Fin S64x4096x1.rank)
  bcast_S64x4096x1_S64x4096x128_0_1_2 : S64x4096x1.BroadcastsInDim S64x4096x128 (![0, 1, 2] : Fin 3 → Fin S64x4096x128.rank)
  bcast_S_S64x4096x1 : S_.BroadcastsInDim S64x4096x1 (![] : Fin 0 → Fin S64x4096x1.rank)
  shapeCasts_S64x4096x1_S64x4096x1x1 : S64x4096x1.ShapeCasts S64x4096x1x1
  bcast_S_S64x4096x1x1 : S_.BroadcastsInDim S64x4096x1x1 (![] : Fin 0 → Fin S64x4096x1x1.rank)
  bcast_S1_S1x1x1x1_3 : S1.BroadcastsInDim S1x1x1x1 (![3] : Fin 1 → Fin S1x1x1x1.rank)
  bcast_S1x1x1x1_S64x4096x1x1_0_1_2_3 : S1x1x1x1.BroadcastsInDim S64x4096x1x1 (![0, 1, 2, 3] : Fin 4 → Fin S64x4096x1x1.rank)
  reducesTo_S64x4096x1x1_S64x4096x1_d3 : S64x4096x1x1.ReducesTo [3] S64x4096x1
  shapeCasts_S64x4096x1_S64x4096 : S64x4096x1.ShapeCasts S64x4096
  slices_S64x4096_S64x4095_0_1 : S64x4096.Slices ![0, 1] S64x4095
  bcast_S_S_ : S_.BroadcastsInDim S_ (![] : Fin 0 → Fin S_.rank)
  pads_S64x4095_S64x4096_000_010 : S64x4095.Pads (![0, 0] : Fin 2 → Nat) ![0, 1] ![0, 0] S64x4096
  slices_S10_S1_9 : S10.Slices ![9] S1
  shapeCasts_S1_S_ : S1.ShapeCasts S_
  slices_S64x4096_S64x4094_0_2 : S64x4096.Slices ![0, 2] S64x4094
  pads_S64x4094_S64x4096_000_020 : S64x4094.Pads (![0, 0] : Fin 2 → Nat) ![0, 2] ![0, 0] S64x4096
  slices_S10_S1_8 : S10.Slices ![8] S1
  slices_S64x4096_S64x4093_0_3 : S64x4096.Slices ![0, 3] S64x4093
  pads_S64x4093_S64x4096_000_030 : S64x4093.Pads (![0, 0] : Fin 2 → Nat) ![0, 3] ![0, 0] S64x4096
  slices_S10_S1_7 : S10.Slices ![7] S1
  slices_S64x4096_S64x4092_0_4 : S64x4096.Slices ![0, 4] S64x4092
  pads_S64x4092_S64x4096_000_040 : S64x4092.Pads (![0, 0] : Fin 2 → Nat) ![0, 4] ![0, 0] S64x4096
  slices_S10_S1_6 : S10.Slices ![6] S1
  slices_S64x4096_S64x4091_0_5 : S64x4096.Slices ![0, 5] S64x4091
  pads_S64x4091_S64x4096_000_050 : S64x4091.Pads (![0, 0] : Fin 2 → Nat) ![0, 5] ![0, 0] S64x4096
  slices_S10_S1_5 : S10.Slices ![5] S1
  slices_S64x4096_S64x4090_0_6 : S64x4096.Slices ![0, 6] S64x4090
  pads_S64x4090_S64x4096_000_060 : S64x4090.Pads (![0, 0] : Fin 2 → Nat) ![0, 6] ![0, 0] S64x4096
  slices_S10_S1_4 : S10.Slices ![4] S1
  slices_S64x4096_S64x4089_0_7 : S64x4096.Slices ![0, 7] S64x4089
  pads_S64x4089_S64x4096_000_070 : S64x4089.Pads (![0, 0] : Fin 2 → Nat) ![0, 7] ![0, 0] S64x4096
  slices_S10_S1_3 : S10.Slices ![3] S1
  slices_S64x4096_S64x4088_0_8 : S64x4096.Slices ![0, 8] S64x4088
  pads_S64x4088_S64x4096_000_080 : S64x4088.Pads (![0, 0] : Fin 2 → Nat) ![0, 8] ![0, 0] S64x4096
  slices_S10_S1_2 : S10.Slices ![2] S1
  slices_S64x4096_S64x4087_0_9 : S64x4096.Slices ![0, 9] S64x4087
  pads_S64x4087_S64x4096_000_090 : S64x4087.Pads (![0, 0] : Fin 2 → Nat) ![0, 9] ![0, 0] S64x4096
  slices_S10_S1_1 : S10.Slices ![1] S1
  slices_S64x4096_S64x4086_0_10 : S64x4096.Slices ![0, 10] S64x4086
  pads_S64x4086_S64x4096_000_0100 : S64x4086.Pads (![0, 0] : Fin 2 → Nat) ![0, 10] ![0, 0] S64x4096
  slices_S10_S1_0 : S10.Slices ![0] S1
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S4096_S4096x1_0 : S4096.BroadcastsInDim S4096x1 (![0] : Fin 1 → Fin S4096x1.rank)
  bcast_S4096_S64x4096_1 : S4096.BroadcastsInDim S64x4096 (![1] : Fin 1 → Fin S64x4096.rank)
  slices_S64x4096_S64x4095_0_0 : S64x4096.Slices ![0, 0] S64x4095
  pads_S64x4095_S64x4096_000_100 : S64x4095.Pads (![0, 1] : Fin 2 → Nat) ![0, 0] ![0, 0] S64x4096
  slices_S64x4096_S64x4094_0_0 : S64x4096.Slices ![0, 0] S64x4094
  pads_S64x4094_S64x4096_000_200 : S64x4094.Pads (![0, 2] : Fin 2 → Nat) ![0, 0] ![0, 0] S64x4096
  slices_S64x4096_S64x4093_0_0 : S64x4096.Slices ![0, 0] S64x4093
  pads_S64x4093_S64x4096_000_300 : S64x4093.Pads (![0, 3] : Fin 2 → Nat) ![0, 0] ![0, 0] S64x4096
  slices_S64x4096_S64x4092_0_0 : S64x4096.Slices ![0, 0] S64x4092
  pads_S64x4092_S64x4096_000_400 : S64x4092.Pads (![0, 4] : Fin 2 → Nat) ![0, 0] ![0, 0] S64x4096
  slices_S64x4096_S64x4091_0_0 : S64x4096.Slices ![0, 0] S64x4091
  pads_S64x4091_S64x4096_000_500 : S64x4091.Pads (![0, 5] : Fin 2 → Nat) ![0, 0] ![0, 0] S64x4096
  slices_S64x4096_S64x4090_0_0 : S64x4096.Slices ![0, 0] S64x4090
  pads_S64x4090_S64x4096_000_600 : S64x4090.Pads (![0, 6] : Fin 2 → Nat) ![0, 0] ![0, 0] S64x4096
  slices_S64x4096_S64x4089_0_0 : S64x4096.Slices ![0, 0] S64x4089
  pads_S64x4089_S64x4096_000_700 : S64x4089.Pads (![0, 7] : Fin 2 → Nat) ![0, 0] ![0, 0] S64x4096
  slices_S64x4096_S64x4088_0_0 : S64x4096.Slices ![0, 0] S64x4088
  pads_S64x4088_S64x4096_000_800 : S64x4088.Pads (![0, 8] : Fin 2 → Nat) ![0, 0] ![0, 0] S64x4096
  slices_S64x4096_S64x4087_0_0 : S64x4096.Slices ![0, 0] S64x4087
  pads_S64x4087_S64x4096_000_900 : S64x4087.Pads (![0, 9] : Fin 2 → Nat) ![0, 0] ![0, 0] S64x4096
  slices_S64x4096_S64x4086_0_0 : S64x4096.Slices ![0, 0] S64x4086
  pads_S64x4086_S64x4096_000_1000 : S64x4086.Pads (![0, 10] : Fin 2 → Nat) ![0, 0] ![0, 0] S64x4096
  reducesTo_S64x4096_S_d0_1 : S64x4096.ReducesTo [0, 1] S_
  gather_S64x4096x128_S64x4096x1x1_S64x4096x1_n_2_01_01_2_3_111_wf : GatherDims.WF S64x4096x128 S64x4096x1x1 S64x4096x1 [] [2] [0, 1] [2] [0, 1] 3 ![1, 1, 1]
  gather_S10_S4096x1_S4096_n_0_n_n_0_1_1_wf : GatherDims.WF S10 S4096x1 S4096 [] [0] [] [0] [] 1 ![1]

variable [Facts₀]

def gather_S64x4096x128_S64x4096x1x1_S64x4096x1_n_2_01_01_2_3_111 : GatherDims S64x4096x128 S64x4096x1x1 S64x4096x1 where
  offsetDims := []
  collapsedSliceDims := [2]
  operandBatchingDims := [0, 1]
  startIndicesBatchingDims := [0, 1]
  startIndexMap := [2]
  indexVectorDim := 3
  sliceSizes := ![1, 1, 1]
  wf := gather_S64x4096x128_S64x4096x1x1_S64x4096x1_n_2_01_01_2_3_111_wf
def gather_S10_S4096x1_S4096_n_0_n_n_0_1_1 : GatherDims S10 S4096x1 S4096 where
  offsetDims := []
  collapsedSliceDims := [0]
  operandBatchingDims := []
  startIndicesBatchingDims := []
  startIndexMap := [0]
  indexVectorDim := 1
  sliceSizes := ![1]
  wf := gather_S10_S4096x1_S4096_n_0_n_n_0_1_1_wf

class Facts : Prop extends Facts₀ where

variable [Facts]
-- ==== Proof.RefTerms.lean ====
/- The reference program's data flow as pure terms, one let per host operation in program order (a callee's body
   inlined at its call), cut into parts that end in the call of the next: the per-token negative log-likelihood NLL,
   the temporal weights TW, and the result refOut, their product summed and divided by the token count. -/
import proofs.«419000_j32066225832748_3_alg».proof.Proof.Gen.ReferenceIdeal

noncomputable section

namespace Cert.ReferenceIdeal.Terms

open Cert.ReferenceIdeal Cert.ReferenceIdeal.Facts₀ Cert.ReferenceIdeal.Facts Idealize.ShloMosaic

variable {F : FTy → Type} [FloatOps F]

/-- NLL, continued: operations 37 … of its chain. -/
def NLL_part2 (main_call1_v12 : IVec S64x4096x1 1) (main_call1_v13 : FVec F S64x4096x1 .f32) (main_call1_cst : FVec F S_ .f32) : FVec F S64x4096 .f32 :=
  let main_call1_v14 : FVec F S64x4096x1 .f32 := ((broadcastInDim S64x4096x1 ![] bcast_S_S64x4096x1)) main_call1_cst
  let main_v2 : FVec F S64x4096x1 .f32 := select main_call1_v12 main_call1_v13 main_call1_v14
  let main_v3 : FVec F S64x4096 .f32 := shapeCast S64x4096 main_v2 shapeCasts_S64x4096x1_S64x4096
  let main_v4 : FVec F S64x4096 .f32 := ((Host.negf : (⟨S64x4096, .f32⟩ : BufTy).Contents (Elt F) → (⟨S64x4096, .f32⟩ : BufTy).Contents (Elt F))) main_v3
  main_v4

/-- NLL, continued: operations 19 … of its chain. -/
def NLL_part1 (main_v0 : FVec F S64x4096x128 .f32) (main_v1 : IVec S64x4096x1 32) (main_call1_v0 : IVec S64x4096x1 32) : FVec F S64x4096 .f32 :=
  let main_call1_v1 : IVec S64x4096x1 1 := ((cmpi .slt)) main_v1 main_call1_v0
  let main_call1_c_0 : IVec S_ 32 := (constantI S_ 32 128#32)
  let main_call1_v2 : IVec S64x4096x1 32 := ((broadcastInDim S64x4096x1 ![] bcast_S_S64x4096x1)) main_call1_c_0
  let main_call1_v3 : IVec S64x4096x1 32 := addi main_v1 main_call1_v2
  let main_call1_v4 : IVec S64x4096x1 32 := select main_call1_v1 main_call1_v3 main_v1
  let main_call1_v5 : IVec S64x4096x1x1 32 := shapeCast S64x4096x1x1 main_call1_v4 shapeCasts_S64x4096x1_S64x4096x1x1
  let main_call1_c_1 : IVec S1 32 := (constantI S1 32 127#32)
  let main_call1_c_2 : IVec S_ 32 := (constantI S_ 32 0#32)
  let main_call1_v6 : IVec S64x4096x1x1 32 := ((broadcastInDim S64x4096x1x1 ![] bcast_S_S64x4096x1x1)) main_call1_c_2
  let main_call1_v7 : IVec S64x4096x1x1 1 := ((cmpi .sge)) main_call1_v5 main_call1_v6
  let main_call1_v8 : IVec S1x1x1x1 32 := ((broadcastInDim S1x1x1x1 ![3] bcast_S1_S1x1x1x1_3)) main_call1_c_1
  let main_call1_v9 : IVec S64x4096x1x1 32 := ((broadcastInDim S64x4096x1x1 ![0, 1, 2, 3] bcast_S1x1x1x1_S64x4096x1x1_0_1_2_3)) main_call1_v8
  let main_call1_v10 : IVec S64x4096x1x1 1 := ((cmpi .sle)) main_call1_v5 main_call1_v9
  let main_call1_v11 : IVec S64x4096x1x1 1 := andi main_call1_v7 main_call1_v10
  let main_call1_c_3 : IVec S_ 1 := (constantI S_ 1 1#1)
  let main_call1_v12 : IVec S64x4096x1 1 := ((fun x v => Host.reduce IntOp.andi x v reducesTo_S64x4096x1x1_S64x4096x1_d3 h_S_)) main_call1_v11 main_call1_c_3
  let main_call1_v13 : FVec F S64x4096x1 .f32 := ((fun x i => Host.gather gather_S64x4096x128_S64x4096x1x1_S64x4096x1_n_2_01_01_2_3_111 x i)) main_v0 main_call1_v5
  let main_call1_cst : FVec F S_ .f32 := (constant S_ .f32 0x7FC00000#32)
  NLL_part2 main_call1_v12 main_call1_v13 main_call1_cst

/-- The reference's negative log-likelihood of every token: log-softmax over the classes, the label's entry gathered, negated. -/
def NLL (main_arg0 : FVec F S64x4096x128 .f32) (main_arg1 : IVec S64x4096 32) : FVec F S64x4096 .f32 :=
  let main_call0_cst : FVec F S_ .f32 := (constant S_ .f32 0xFF800000#32)
  let main_call0_v0 : FVec F S64x4096 .f32 := ((fun x v => Host.reduce FloatOps.maximumf x v reducesTo_S64x4096x128_S64x4096_d2 h_S_)) main_arg0 main_call0_cst
  let main_call0_cst_0 : FVec F S_ .f32 := (constant S_ .f32 0xFF800000#32)
  let main_call0_v1 : FVec F S64x4096 .f32 := ((broadcastInDim S64x4096 ![] bcast_S_S64x4096)) main_call0_cst_0
  let main_call0_v2 : FVec F S64x4096 .f32 := maximumf main_call0_v1 main_call0_v0
  let main_call0_v3 : FVec F S64x4096x1 .f32 := ((broadcastInDim S64x4096x1 ![0, 1] bcast_S64x4096_S64x4096x1_0_1)) main_call0_v2
  let main_call0_v4 : FVec F S64x4096x128 .f32 := ((broadcastInDim S64x4096x128 ![0, 1, 2] bcast_S64x4096x1_S64x4096x128_0_1_2)) main_call0_v3
  let main_call0_v5 : FVec F S64x4096x128 .f32 := subf main_arg0 main_call0_v4
  let main_call0_v6 : FVec F S64x4096x128 .f32 := Host.exp main_call0_v5
  let main_call0_cst_1 : FVec F S_ .f32 := (constant S_ .f32 0x00000000#32)
  let main_call0_v7 : FVec F S64x4096 .f32 := ((fun x v => Host.reduceAdd x v reducesTo_S64x4096x128_S64x4096_d2 h_S_)) main_call0_v6 main_call0_cst_1
  let main_call0_v8 : FVec F S64x4096x1 .f32 := ((broadcastInDim S64x4096x1 ![0, 1] bcast_S64x4096_S64x4096x1_0_1)) main_call0_v7
  let main_call0_v9 : FVec F S64x4096x1 .f32 := Host.log main_call0_v8
  let main_call0_v10 : FVec F S64x4096x128 .f32 := ((broadcastInDim S64x4096x128 ![0, 1, 2] bcast_S64x4096x1_S64x4096x128_0_1_2)) main_call0_v9
  let main_v0 : FVec F S64x4096x128 .f32 := subf main_call0_v5 main_call0_v10
  let main_v1 : IVec S64x4096x1 32 := ((broadcastInDim S64x4096x1 ![0, 1] bcast_S64x4096_S64x4096x1_0_1 : (⟨S64x4096, .i32⟩ : BufTy).Contents (Elt F) → (⟨S64x4096x1, .i32⟩ : BufTy).Contents (Elt F))) main_arg1
  let main_call1_c : IVec S_ 32 := (constantI S_ 32 0#32)
  let main_call1_v0 : IVec S64x4096x1 32 := ((broadcastInDim S64x4096x1 ![] bcast_S_S64x4096x1)) main_call1_c
  NLL_part1 main_v0 main_v1 main_call1_v0

/-- TW, continued: operations 523 … of its chain. -/
def TW_part29 (main_v244 : FVec F S64x4096 .f32) (main_v260 : FVec F S64x4096 .f32) : FVec F S64x4096 .f32 :=
  let main_v261 : FVec F S64x4086 .f32 := (((extractStridedSlice S64x4086 ![0, 0] · slices_S64x4096_S64x4086_0_0) : (⟨S64x4096, .f32⟩ : BufTy).Contents (Elt F) → (⟨S64x4086, .f32⟩ : BufTy).Contents (Elt F))) main_v260
  let main_cst_103 : FVec F S_ .f32 := (constant S_ .f32 0x3F800000#32)
  let main_call52_v0 : FVec F S_ .f32 := id main_cst_103
  let main_v262 : FVec F S64x4096 .f32 := ((fun x v => pad S64x4096 ![0, 10] ![0, 0] ![0, 0] x v pads_S64x4086_S64x4096_000_1000 h_S_)) main_v261 main_call52_v0
  let main_v263 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v244 main_v262
  main_v263

/-- TW, continued: operations 505 … of its chain. -/
def TW_part28 (main_cst : FVec F S10 .f32) (main_v244 : FVec F S64x4096 .f32) (main_v246 : IVec S4096 32) (main_v251 : IVec S64x4096 1) (main_c_99 : IVec S_ 32) (main_call50_v1 : IVec S4096 32) : FVec F S64x4096 .f32 :=
  let main_call50_v2 : IVec S4096 32 := maxsi main_call50_v1 main_v246
  let main_call50_v3 : IVec S_ 32 := id main_c_99
  let main_call50_v4 : IVec S4096 32 := ((broadcastInDim S4096 ![] bcast_S_S4096)) main_call50_v3
  let main_v252 : IVec S4096 32 := minsi main_call50_v4 main_call50_v2
  let main_c_100 : IVec S_ 32 := (constantI S_ 32 0#32)
  let main_v253 : IVec S4096 32 := ((broadcastInDim S4096 ![] bcast_S_S4096 : (⟨S_, .i32⟩ : BufTy).Contents (Elt F) → (⟨S4096, .i32⟩ : BufTy).Contents (Elt F))) main_c_100
  let main_v254 : IVec S4096 1 := ((cmpi .slt : (⟨S4096, .i32⟩ : BufTy).Contents (Elt F) → (⟨S4096, .i32⟩ : BufTy).Contents (Elt F) → (⟨S4096, .i1⟩ : BufTy).Contents (Elt F))) main_v252 main_v253
  let main_c_101 : IVec S_ 32 := (constantI S_ 32 10#32)
  let main_v255 : IVec S4096 32 := ((broadcastInDim S4096 ![] bcast_S_S4096 : (⟨S_, .i32⟩ : BufTy).Contents (Elt F) → (⟨S4096, .i32⟩ : BufTy).Contents (Elt F))) main_c_101
  let main_v256 : IVec S4096 32 := ((addi : (⟨S4096, .i32⟩ : BufTy).Contents (Elt F) → (⟨S4096, .i32⟩ : BufTy).Contents (Elt F) → (⟨S4096, .i32⟩ : BufTy).Contents (Elt F))) main_v252 main_v255
  let main_v257 : IVec S4096 32 := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) main_v254 main_v256 main_v252
  let main_v258 : IVec S4096x1 32 := ((broadcastInDim S4096x1 ![0] bcast_S4096_S4096x1_0 : (⟨S4096, .i32⟩ : BufTy).Contents (Elt F) → (⟨S4096x1, .i32⟩ : BufTy).Contents (Elt F))) main_v257
  let main_v259 : FVec F S4096 .f32 := (((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))) main_cst main_v258
  let main_cst_102 : FVec F S_ .f32 := (constant S_ .f32 0x3F800000#32)
  let main_call51_v0 : FVec F S_ .f32 := id main_cst_102
  let main_call51_v1 : FVec F S64x4096 .f32 := ((broadcastInDim S64x4096 ![1] bcast_S4096_S64x4096_1)) main_v259
  let main_call51_v2 : FVec F S64x4096 .f32 := ((broadcastInDim S64x4096 ![] bcast_S_S64x4096)) main_call51_v0
  let main_v260 : FVec F S64x4096 .f32 := select main_v251 main_call51_v1 main_call51_v2
  TW_part29 main_v244 main_v260

/-- TW, continued: operations 487 … of its chain. -/
def TW_part27 (main_cst : FVec F S10 .f32) (main_v6 : IVec S64x4096 1) (main_v73 : IVec S4096 32) (main_v225 : FVec F S64x4096 .f32) (main_v241 : FVec F S64x4096 .f32) : FVec F S64x4096 .f32 :=
  let main_v242 : FVec F S64x4087 .f32 := (((extractStridedSlice S64x4087 ![0, 0] · slices_S64x4096_S64x4087_0_0) : (⟨S64x4096, .f32⟩ : BufTy).Contents (Elt F) → (⟨S64x4087, .f32⟩ : BufTy).Contents (Elt F))) main_v241
  let main_cst_95 : FVec F S_ .f32 := (constant S_ .f32 0x3F800000#32)
  let main_call49_v0 : FVec F S_ .f32 := id main_cst_95
  let main_v243 : FVec F S64x4096 .f32 := ((fun x v => pad S64x4096 ![0, 9] ![0, 0] ![0, 0] x v pads_S64x4087_S64x4096_000_900 h_S_)) main_v242 main_call49_v0
  let main_v244 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v225 main_v243
  let main_c_96 : IVec S_ 32 := (constantI S_ 32 10#32)
  let main_v245 : IVec S4096 32 := ((broadcastInDim S4096 ![] bcast_S_S4096 : (⟨S_, .i32⟩ : BufTy).Contents (Elt F) → (⟨S4096, .i32⟩ : BufTy).Contents (Elt F))) main_c_96
  let main_v246 : IVec S4096 32 := ((subi : (⟨S4096, .i32⟩ : BufTy).Contents (Elt F) → (⟨S4096, .i32⟩ : BufTy).Contents (Elt F) → (⟨S4096, .i32⟩ : BufTy).Contents (Elt F))) main_v73 main_v245
  let main_c_97 : IVec S_ 32 := (constantI S_ 32 0#32)
  let main_v247 : IVec S4096 32 := ((broadcastInDim S4096 ![] bcast_S_S4096 : (⟨S_, .i32⟩ : BufTy).Contents (Elt F) → (⟨S4096, .i32⟩ : BufTy).Contents (Elt F))) main_c_97
  let main_v248 : IVec S4096 1 := ((cmpi .sge : (⟨S4096, .i32⟩ : BufTy).Contents (Elt F) → (⟨S4096, .i32⟩ : BufTy).Contents (Elt F) → (⟨S4096, .i1⟩ : BufTy).Contents (Elt F))) main_v246 main_v247
  let main_v249 : IVec S1x4096 1 := ((broadcastInDim S1x4096 ![1] bcast_S4096_S1x4096_1 : (⟨S4096, .i1⟩ : BufTy).Contents (Elt F) → (⟨S1x4096, .i1⟩ : BufTy).Contents (Elt F))) main_v248
  let main_v250 : IVec S64x4096 1 := ((broadcastInDim S64x4096 ![0, 1] bcast_S1x4096_S64x4096_0_1 : (⟨S1x4096, .i1⟩ : BufTy).Contents (Elt F) → (⟨S64x4096, .i1⟩ : BufTy).Contents (Elt F))) main_v249
  let main_v251 : IVec S64x4096 1 := ((andi : (⟨S64x4096, .i1⟩ : BufTy).Contents (Elt F) → (⟨S64x4096, .i1⟩ : BufTy).Contents (Elt F) → (⟨S64x4096, .i1⟩ : BufTy).Contents (Elt F))) main_v6 main_v250
  let main_c_98 : IVec S_ 32 := (constantI S_ 32 0#32)
  let main_c_99 : IVec S_ 32 := (constantI S_ 32 9#32)
  let main_call50_v0 : IVec S_ 32 := id main_c_98
  let main_call50_v1 : IVec S4096 32 := ((broadcastInDim S4096 ![] bcast_S_S4096)) main_call50_v0
  TW_part28 main_cst main_v244 main_v246 main_v251 main_c_99 main_call50_v1

/-- TW, continued: operations 469 … of its chain. -/
def TW_part26 (main_cst : FVec F S10 .f32) (main_v6 : IVec S64x4096 1) (main_v73 : IVec S4096 32) (main_v225 : FVec F S64x4096 .f32) (main_v227 : IVec S4096 32) (main_v232 : IVec S64x4096 1) (main_c_91 : IVec S_ 32) (main_call47_v1 : IVec S4096 32) : FVec F S64x4096 .f32 :=
  let main_call47_v2 : IVec S4096 32 := maxsi main_call47_v1 main_v227
  let main_call47_v3 : IVec S_ 32 := id main_c_91
  let main_call47_v4 : IVec S4096 32 := ((broadcastInDim S4096 ![] bcast_S_S4096)) main_call47_v3
  let main_v233 : IVec S4096 32 := minsi main_call47_v4 main_call47_v2
  let main_c_92 : IVec S_ 32 := (constantI S_ 32 0#32)
  let main_v234 : IVec S4096 32 := ((broadcastInDim S4096 ![] bcast_S_S4096 : (⟨S_, .i32⟩ : BufTy).Contents (Elt F) → (⟨S4096, .i32⟩ : BufTy).Contents (Elt F))) main_c_92
  let main_v235 : IVec S4096 1 := ((cmpi .slt : (⟨S4096, .i32⟩ : BufTy).Contents (Elt F) → (⟨S4096, .i32⟩ : BufTy).Contents (Elt F) → (⟨S4096, .i1⟩ : BufTy).Contents (Elt F))) main_v233 main_v234
  let main_c_93 : IVec S_ 32 := (constantI S_ 32 10#32)
  let main_v236 : IVec S4096 32 := ((broadcastInDim S4096 ![] bcast_S_S4096 : (⟨S_, .i32⟩ : BufTy).Contents (Elt F) → (⟨S4096, .i32⟩ : BufTy).Contents (Elt F))) main_c_93
  let main_v237 : IVec S4096 32 := ((addi : (⟨S4096, .i32⟩ : BufTy).Contents (Elt F) → (⟨S4096, .i32⟩ : BufTy).Contents (Elt F) → (⟨S4096, .i32⟩ : BufTy).Contents (Elt F))) main_v233 main_v236
  let main_v238 : IVec S4096 32 := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) main_v235 main_v237 main_v233
  let main_v239 : IVec S4096x1 32 := ((broadcastInDim S4096x1 ![0] bcast_S4096_S4096x1_0 : (⟨S4096, .i32⟩ : BufTy).Contents (Elt F) → (⟨S4096x1, .i32⟩ : BufTy).Contents (Elt F))) main_v238
  let main_v240 : FVec F S4096 .f32 := (((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))) main_cst main_v239
  let main_cst_94 : FVec F S_ .f32 := (constant S_ .f32 0x3F800000#32)
  let main_call48_v0 : FVec F S_ .f32 := id main_cst_94
  let main_call48_v1 : FVec F S64x4096 .f32 := ((broadcastInDim S64x4096 ![1] bcast_S4096_S64x4096_1)) main_v240
  let main_call48_v2 : FVec F S64x4096 .f32 := ((broadcastInDim S64x4096 ![] bcast_S_S64x4096)) main_call48_v0
  let main_v241 : FVec F S64x4096 .f32 := select main_v232 main_call48_v1 main_call48_v2
  TW_part27 main_cst main_v6 main_v73 main_v225 main_v241

/-- TW, continued: operations 451 … of its chain. -/
def TW_part25 (main_cst : FVec F S10 .f32) (main_v6 : IVec S64x4096 1) (main_v73 : IVec S4096 32) (main_v206 : FVec F S64x4096 .f32) (main_v222 : FVec F S64x4096 .f32) : FVec F S64x4096 .f32 :=
  let main_v223 : FVec F S64x4088 .f32 := (((extractStridedSlice S64x4088 ![0, 0] · slices_S64x4096_S64x4088_0_0) : (⟨S64x4096, .f32⟩ : BufTy).Contents (Elt F) → (⟨S64x4088, .f32⟩ : BufTy).Contents (Elt F))) main_v222
  let main_cst_87 : FVec F S_ .f32 := (constant S_ .f32 0x3F800000#32)
  let main_call46_v0 : FVec F S_ .f32 := id main_cst_87
  let main_v224 : FVec F S64x4096 .f32 := ((fun x v => pad S64x4096 ![0, 8] ![0, 0] ![0, 0] x v pads_S64x4088_S64x4096_000_800 h_S_)) main_v223 main_call46_v0
  let main_v225 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v206 main_v224
  let main_c_88 : IVec S_ 32 := (constantI S_ 32 9#32)
  let main_v226 : IVec S4096 32 := ((broadcastInDim S4096 ![] bcast_S_S4096 : (⟨S_, .i32⟩ : BufTy).Contents (Elt F) → (⟨S4096, .i32⟩ : BufTy).Contents (Elt F))) main_c_88
  let main_v227 : IVec S4096 32 := ((subi : (⟨S4096, .i32⟩ : BufTy).Contents (Elt F) → (⟨S4096, .i32⟩ : BufTy).Contents (Elt F) → (⟨S4096, .i32⟩ : BufTy).Contents (Elt F))) main_v73 main_v226
  let main_c_89 : IVec S_ 32 := (constantI S_ 32 0#32)
  let main_v228 : IVec S4096 32 := ((broadcastInDim S4096 ![] bcast_S_S4096 : (⟨S_, .i32⟩ : BufTy).Contents (Elt F) → (⟨S4096, .i32⟩ : BufTy).Contents (Elt F))) main_c_89
  let main_v229 : IVec S4096 1 := ((cmpi .sge : (⟨S4096, .i32⟩ : BufTy).Contents (Elt F) → (⟨S4096, .i32⟩ : BufTy).Contents (Elt F) → (⟨S4096, .i1⟩ : BufTy).Contents (Elt F))) main_v227 main_v228
  let main_v230 : IVec S1x4096 1 := ((broadcastInDim S1x4096 ![1] bcast_S4096_S1x4096_1 : (⟨S4096, .i1⟩ : BufTy).Contents (Elt F) → (⟨S1x4096, .i1⟩ : BufTy).Contents (Elt F))) main_v229
  let main_v231 : IVec S64x4096 1 := ((broadcastInDim S64x4096 ![0, 1] bcast_S1x4096_S64x4096_0_1 : (⟨S1x4096, .i1⟩ : BufTy).Contents (Elt F) → (⟨S64x4096, .i1⟩ : BufTy).Contents (Elt F))) main_v230
  let main_v232 : IVec S64x4096 1 := ((andi : (⟨S64x4096, .i1⟩ : BufTy).Contents (Elt F) → (⟨S64x4096, .i1⟩ : BufTy).Contents (Elt F) → (⟨S64x4096, .i1⟩ : BufTy).Contents (Elt F))) main_v6 main_v231
  let main_c_90 : IVec S_ 32 := (constantI S_ 32 0#32)
  let main_c_91 : IVec S_ 32 := (constantI S_ 32 9#32)
  let main_call47_v0 : IVec S_ 32 := id main_c_90
  let main_call47_v1 : IVec S4096 32 := ((broadcastInDim S4096 ![] bcast_S_S4096)) main_call47_v0
  TW_part26 main_cst main_v6 main_v73 main_v225 main_v227 main_v232 main_c_91 main_call47_v1

/-- TW, continued: operations 433 … of its chain. -/
def TW_part24 (main_cst : FVec F S10 .f32) (main_v6 : IVec S64x4096 1) (main_v73 : IVec S4096 32) (main_v206 : FVec F S64x4096 .f32) (main_v208 : IVec S4096 32) (main_v213 : IVec S64x4096 1) (main_c_83 : IVec S_ 32) (main_call44_v1 : IVec S4096 32) : FVec F S64x4096 .f32 :=
  let main_call44_v2 : IVec S4096 32 := maxsi main_call44_v1 main_v208
  let main_call44_v3 : IVec S_ 32 := id main_c_83
  let main_call44_v4 : IVec S4096 32 := ((broadcastInDim S4096 ![] bcast_S_S4096)) main_call44_v3
  let main_v214 : IVec S4096 32 := minsi main_call44_v4 main_call44_v2
  let main_c_84 : IVec S_ 32 := (constantI S_ 32 0#32)
  let main_v215 : IVec S4096 32 := ((broadcastInDim S4096 ![] bcast_S_S4096 : (⟨S_, .i32⟩ : BufTy).Contents (Elt F) → (⟨S4096, .i32⟩ : BufTy).Contents (Elt F))) main_c_84
  let main_v216 : IVec S4096 1 := ((cmpi .slt : (⟨S4096, .i32⟩ : BufTy).Contents (Elt F) → (⟨S4096, .i32⟩ : BufTy).Contents (Elt F) → (⟨S4096, .i1⟩ : BufTy).Contents (Elt F))) main_v214 main_v215
  let main_c_85 : IVec S_ 32 := (constantI S_ 32 10#32)
  let main_v217 : IVec S4096 32 := ((broadcastInDim S4096 ![] bcast_S_S4096 : (⟨S_, .i32⟩ : BufTy).Contents (Elt F) → (⟨S4096, .i32⟩ : BufTy).Contents (Elt F))) main_c_85
  let main_v218 : IVec S4096 32 := ((addi : (⟨S4096, .i32⟩ : BufTy).Contents (Elt F) → (⟨S4096, .i32⟩ : BufTy).Contents (Elt F) → (⟨S4096, .i32⟩ : BufTy).Contents (Elt F))) main_v214 main_v217
  let main_v219 : IVec S4096 32 := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) main_v216 main_v218 main_v214
  let main_v220 : IVec S4096x1 32 := ((broadcastInDim S4096x1 ![0] bcast_S4096_S4096x1_0 : (⟨S4096, .i32⟩ : BufTy).Contents (Elt F) → (⟨S4096x1, .i32⟩ : BufTy).Contents (Elt F))) main_v219
  let main_v221 : FVec F S4096 .f32 := (((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))) main_cst main_v220
  let main_cst_86 : FVec F S_ .f32 := (constant S_ .f32 0x3F800000#32)
  let main_call45_v0 : FVec F S_ .f32 := id main_cst_86
  let main_call45_v1 : FVec F S64x4096 .f32 := ((broadcastInDim S64x4096 ![1] bcast_S4096_S64x4096_1)) main_v221
  let main_call45_v2 : FVec F S64x4096 .f32 := ((broadcastInDim S64x4096 ![] bcast_S_S64x4096)) main_call45_v0
  let main_v222 : FVec F S64x4096 .f32 := select main_v213 main_call45_v1 main_call45_v2
  TW_part25 main_cst main_v6 main_v73 main_v206 main_v222

/-- TW, continued: operations 415 … of its chain. -/
def TW_part23 (main_cst : FVec F S10 .f32) (main_v6 : IVec S64x4096 1) (main_v73 : IVec S4096 32) (main_v187 : FVec F S64x4096 .f32) (main_v203 : FVec F S64x4096 .f32) : FVec F S64x4096 .f32 :=
  let main_v204 : FVec F S64x4089 .f32 := (((extractStridedSlice S64x4089 ![0, 0] · slices_S64x4096_S64x4089_0_0) : (⟨S64x4096, .f32⟩ : BufTy).Contents (Elt F) → (⟨S64x4089, .f32⟩ : BufTy).Contents (Elt F))) main_v203
  let main_cst_79 : FVec F S_ .f32 := (constant S_ .f32 0x3F800000#32)
  let main_call43_v0 : FVec F S_ .f32 := id main_cst_79
  let main_v205 : FVec F S64x4096 .f32 := ((fun x v => pad S64x4096 ![0, 7] ![0, 0] ![0, 0] x v pads_S64x4089_S64x4096_000_700 h_S_)) main_v204 main_call43_v0
  let main_v206 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v187 main_v205
  let main_c_80 : IVec S_ 32 := (constantI S_ 32 8#32)
  let main_v207 : IVec S4096 32 := ((broadcastInDim S4096 ![] bcast_S_S4096 : (⟨S_, .i32⟩ : BufTy).Contents (Elt F) → (⟨S4096, .i32⟩ : BufTy).Contents (Elt F))) main_c_80
  let main_v208 : IVec S4096 32 := ((subi : (⟨S4096, .i32⟩ : BufTy).Contents (Elt F) → (⟨S4096, .i32⟩ : BufTy).Contents (Elt F) → (⟨S4096, .i32⟩ : BufTy).Contents (Elt F))) main_v73 main_v207
  let main_c_81 : IVec S_ 32 := (constantI S_ 32 0#32)
  let main_v209 : IVec S4096 32 := ((broadcastInDim S4096 ![] bcast_S_S4096 : (⟨S_, .i32⟩ : BufTy).Contents (Elt F) → (⟨S4096, .i32⟩ : BufTy).Contents (Elt F))) main_c_81
  let main_v210 : IVec S4096 1 := ((cmpi .sge : (⟨S4096, .i32⟩ : BufTy).Contents (Elt F) → (⟨S4096, .i32⟩ : BufTy).Contents (Elt F) → (⟨S4096, .i1⟩ : BufTy).Contents (Elt F))) main_v208 main_v209
  let main_v211 : IVec S1x4096 1 := ((broadcastInDim S1x4096 ![1] bcast_S4096_S1x4096_1 : (⟨S4096, .i1⟩ : BufTy).Contents (Elt F) → (⟨S1x4096, .i1⟩ : BufTy).Contents (Elt F))) main_v210
  let main_v212 : IVec S64x4096 1 := ((broadcastInDim S64x4096 ![0, 1] bcast_S1x4096_S64x4096_0_1 : (⟨S1x4096, .i1⟩ : BufTy).Contents (Elt F) → (⟨S64x4096, .i1⟩ : BufTy).Contents (Elt F))) main_v211
  let main_v213 : IVec S64x4096 1 := ((andi : (⟨S64x4096, .i1⟩ : BufTy).Contents (Elt F) → (⟨S64x4096, .i1⟩ : BufTy).Contents (Elt F) → (⟨S64x4096, .i1⟩ : BufTy).Contents (Elt F))) main_v6 main_v212
  let main_c_82 : IVec S_ 32 := (constantI S_ 32 0#32)
  let main_c_83 : IVec S_ 32 := (constantI S_ 32 9#32)
  let main_call44_v0 : IVec S_ 32 := id main_c_82
  let main_call44_v1 : IVec S4096 32 := ((broadcastInDim S4096 ![] bcast_S_S4096)) main_call44_v0
  TW_part24 main_cst main_v6 main_v73 main_v206 main_v208 main_v213 main_c_83 main_call44_v1

/-- TW, continued: operations 397 … of its chain. -/
def TW_part22 (main_cst : FVec F S10 .f32) (main_v6 : IVec S64x4096 1) (main_v73 : IVec S4096 32) (main_v187 : FVec F S64x4096 .f32) (main_v189 : IVec S4096 32) (main_v194 : IVec S64x4096 1) (main_c_75 : IVec S_ 32) (main_call41_v1 : IVec S4096 32) : FVec F S64x4096 .f32 :=
  let main_call41_v2 : IVec S4096 32 := maxsi main_call41_v1 main_v189
  let main_call41_v3 : IVec S_ 32 := id main_c_75
  let main_call41_v4 : IVec S4096 32 := ((broadcastInDim S4096 ![] bcast_S_S4096)) main_call41_v3
  let main_v195 : IVec S4096 32 := minsi main_call41_v4 main_call41_v2
  let main_c_76 : IVec S_ 32 := (constantI S_ 32 0#32)
  let main_v196 : IVec S4096 32 := ((broadcastInDim S4096 ![] bcast_S_S4096 : (⟨S_, .i32⟩ : BufTy).Contents (Elt F) → (⟨S4096, .i32⟩ : BufTy).Contents (Elt F))) main_c_76
  let main_v197 : IVec S4096 1 := ((cmpi .slt : (⟨S4096, .i32⟩ : BufTy).Contents (Elt F) → (⟨S4096, .i32⟩ : BufTy).Contents (Elt F) → (⟨S4096, .i1⟩ : BufTy).Contents (Elt F))) main_v195 main_v196
  let main_c_77 : IVec S_ 32 := (constantI S_ 32 10#32)
  let main_v198 : IVec S4096 32 := ((broadcastInDim S4096 ![] bcast_S_S4096 : (⟨S_, .i32⟩ : BufTy).Contents (Elt F) → (⟨S4096, .i32⟩ : BufTy).Contents (Elt F))) main_c_77
  let main_v199 : IVec S4096 32 := ((addi : (⟨S4096, .i32⟩ : BufTy).Contents (Elt F) → (⟨S4096, .i32⟩ : BufTy).Contents (Elt F) → (⟨S4096, .i32⟩ : BufTy).Contents (Elt F))) main_v195 main_v198
  let main_v200 : IVec S4096 32 := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) main_v197 main_v199 main_v195
  let main_v201 : IVec S4096x1 32 := ((broadcastInDim S4096x1 ![0] bcast_S4096_S4096x1_0 : (⟨S4096, .i32⟩ : BufTy).Contents (Elt F) → (⟨S4096x1, .i32⟩ : BufTy).Contents (Elt F))) main_v200
  let main_v202 : FVec F S4096 .f32 := (((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))) main_cst main_v201
  let main_cst_78 : FVec F S_ .f32 := (constant S_ .f32 0x3F800000#32)
  let main_call42_v0 : FVec F S_ .f32 := id main_cst_78
  let main_call42_v1 : FVec F S64x4096 .f32 := ((broadcastInDim S64x4096 ![1] bcast_S4096_S64x4096_1)) main_v202
  let main_call42_v2 : FVec F S64x4096 .f32 := ((broadcastInDim S64x4096 ![] bcast_S_S64x4096)) main_call42_v0
  let main_v203 : FVec F S64x4096 .f32 := select main_v194 main_call42_v1 main_call42_v2
  TW_part23 main_cst main_v6 main_v73 main_v187 main_v203

/-- TW, continued: operations 379 … of its chain. -/
def TW_part21 (main_cst : FVec F S10 .f32) (main_v6 : IVec S64x4096 1) (main_v73 : IVec S4096 32) (main_v168 : FVec F S64x4096 .f32) (main_v184 : FVec F S64x4096 .f32) : FVec F S64x4096 .f32 :=
  let main_v185 : FVec F S64x4090 .f32 := (((extractStridedSlice S64x4090 ![0, 0] · slices_S64x4096_S64x4090_0_0) : (⟨S64x4096, .f32⟩ : BufTy).Contents (Elt F) → (⟨S64x4090, .f32⟩ : BufTy).Contents (Elt F))) main_v184
  let main_cst_71 : FVec F S_ .f32 := (constant S_ .f32 0x3F800000#32)
  let main_call40_v0 : FVec F S_ .f32 := id main_cst_71
  let main_v186 : FVec F S64x4096 .f32 := ((fun x v => pad S64x4096 ![0, 6] ![0, 0] ![0, 0] x v pads_S64x4090_S64x4096_000_600 h_S_)) main_v185 main_call40_v0
  let main_v187 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v168 main_v186
  let main_c_72 : IVec S_ 32 := (constantI S_ 32 7#32)
  let main_v188 : IVec S4096 32 := ((broadcastInDim S4096 ![] bcast_S_S4096 : (⟨S_, .i32⟩ : BufTy).Contents (Elt F) → (⟨S4096, .i32⟩ : BufTy).Contents (Elt F))) main_c_72
  let main_v189 : IVec S4096 32 := ((subi : (⟨S4096, .i32⟩ : BufTy).Contents (Elt F) → (⟨S4096, .i32⟩ : BufTy).Contents (Elt F) → (⟨S4096, .i32⟩ : BufTy).Contents (Elt F))) main_v73 main_v188
  let main_c_73 : IVec S_ 32 := (constantI S_ 32 0#32)
  let main_v190 : IVec S4096 32 := ((broadcastInDim S4096 ![] bcast_S_S4096 : (⟨S_, .i32⟩ : BufTy).Contents (Elt F) → (⟨S4096, .i32⟩ : BufTy).Contents (Elt F))) main_c_73
  let main_v191 : IVec S4096 1 := ((cmpi .sge : (⟨S4096, .i32⟩ : BufTy).Contents (Elt F) → (⟨S4096, .i32⟩ : BufTy).Contents (Elt F) → (⟨S4096, .i1⟩ : BufTy).Contents (Elt F))) main_v189 main_v190
  let main_v192 : IVec S1x4096 1 := ((broadcastInDim S1x4096 ![1] bcast_S4096_S1x4096_1 : (⟨S4096, .i1⟩ : BufTy).Contents (Elt F) → (⟨S1x4096, .i1⟩ : BufTy).Contents (Elt F))) main_v191
  let main_v193 : IVec S64x4096 1 := ((broadcastInDim S64x4096 ![0, 1] bcast_S1x4096_S64x4096_0_1 : (⟨S1x4096, .i1⟩ : BufTy).Contents (Elt F) → (⟨S64x4096, .i1⟩ : BufTy).Contents (Elt F))) main_v192
  let main_v194 : IVec S64x4096 1 := ((andi : (⟨S64x4096, .i1⟩ : BufTy).Contents (Elt F) → (⟨S64x4096, .i1⟩ : BufTy).Contents (Elt F) → (⟨S64x4096, .i1⟩ : BufTy).Contents (Elt F))) main_v6 main_v193
  let main_c_74 : IVec S_ 32 := (constantI S_ 32 0#32)
  let main_c_75 : IVec S_ 32 := (constantI S_ 32 9#32)
  let main_call41_v0 : IVec S_ 32 := id main_c_74
  let main_call41_v1 : IVec S4096 32 := ((broadcastInDim S4096 ![] bcast_S_S4096)) main_call41_v0
  TW_part22 main_cst main_v6 main_v73 main_v187 main_v189 main_v194 main_c_75 main_call41_v1

/-- TW, continued: operations 361 … of its chain. -/
def TW_part20 (main_cst : FVec F S10 .f32) (main_v6 : IVec S64x4096 1) (main_v73 : IVec S4096 32) (main_v168 : FVec F S64x4096 .f32) (main_v170 : IVec S4096 32) (main_v175 : IVec S64x4096 1) (main_c_67 : IVec S_ 32) (main_call38_v1 : IVec S4096 32) : FVec F S64x4096 .f32 :=
  let main_call38_v2 : IVec S4096 32 := maxsi main_call38_v1 main_v170
  let main_call38_v3 : IVec S_ 32 := id main_c_67
  let main_call38_v4 : IVec S4096 32 := ((broadcastInDim S4096 ![] bcast_S_S4096)) main_call38_v3
  let main_v176 : IVec S4096 32 := minsi main_call38_v4 main_call38_v2
  let main_c_68 : IVec S_ 32 := (constantI S_ 32 0#32)
  let main_v177 : IVec S4096 32 := ((broadcastInDim S4096 ![] bcast_S_S4096 : (⟨S_, .i32⟩ : BufTy).Contents (Elt F) → (⟨S4096, .i32⟩ : BufTy).Contents (Elt F))) main_c_68
  let main_v178 : IVec S4096 1 := ((cmpi .slt : (⟨S4096, .i32⟩ : BufTy).Contents (Elt F) → (⟨S4096, .i32⟩ : BufTy).Contents (Elt F) → (⟨S4096, .i1⟩ : BufTy).Contents (Elt F))) main_v176 main_v177
  let main_c_69 : IVec S_ 32 := (constantI S_ 32 10#32)
  let main_v179 : IVec S4096 32 := ((broadcastInDim S4096 ![] bcast_S_S4096 : (⟨S_, .i32⟩ : BufTy).Contents (Elt F) → (⟨S4096, .i32⟩ : BufTy).Contents (Elt F))) main_c_69
  let main_v180 : IVec S4096 32 := ((addi : (⟨S4096, .i32⟩ : BufTy).Contents (Elt F) → (⟨S4096, .i32⟩ : BufTy).Contents (Elt F) → (⟨S4096, .i32⟩ : BufTy).Contents (Elt F))) main_v176 main_v179
  let main_v181 : IVec S4096 32 := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) main_v178 main_v180 main_v176
  let main_v182 : IVec S4096x1 32 := ((broadcastInDim S4096x1 ![0] bcast_S4096_S4096x1_0 : (⟨S4096, .i32⟩ : BufTy).Contents (Elt F) → (⟨S4096x1, .i32⟩ : BufTy).Contents (Elt F))) main_v181
  let main_v183 : FVec F S4096 .f32 := (((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))) main_cst main_v182
  let main_cst_70 : FVec F S_ .f32 := (constant S_ .f32 0x3F800000#32)
  let main_call39_v0 : FVec F S_ .f32 := id main_cst_70
  let main_call39_v1 : FVec F S64x4096 .f32 := ((broadcastInDim S64x4096 ![1] bcast_S4096_S64x4096_1)) main_v183
  let main_call39_v2 : FVec F S64x4096 .f32 := ((broadcastInDim S64x4096 ![] bcast_S_S64x4096)) main_call39_v0
  let main_v184 : FVec F S64x4096 .f32 := select main_v175 main_call39_v1 main_call39_v2
  TW_part21 main_cst main_v6 main_v73 main_v168 main_v184

/-- TW, continued: operations 343 … of its chain. -/
def TW_part19 (main_cst : FVec F S10 .f32) (main_v6 : IVec S64x4096 1) (main_v73 : IVec S4096 32) (main_v149 : FVec F S64x4096 .f32) (main_v165 : FVec F S64x4096 .f32) : FVec F S64x4096 .f32 :=
  let main_v166 : FVec F S64x4091 .f32 := (((extractStridedSlice S64x4091 ![0, 0] · slices_S64x4096_S64x4091_0_0) : (⟨S64x4096, .f32⟩ : BufTy).Contents (Elt F) → (⟨S64x4091, .f32⟩ : BufTy).Contents (Elt F))) main_v165
  let main_cst_63 : FVec F S_ .f32 := (constant S_ .f32 0x3F800000#32)
  let main_call37_v0 : FVec F S_ .f32 := id main_cst_63
  let main_v167 : FVec F S64x4096 .f32 := ((fun x v => pad S64x4096 ![0, 5] ![0, 0] ![0, 0] x v pads_S64x4091_S64x4096_000_500 h_S_)) main_v166 main_call37_v0
  let main_v168 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v149 main_v167
  let main_c_64 : IVec S_ 32 := (constantI S_ 32 6#32)
  let main_v169 : IVec S4096 32 := ((broadcastInDim S4096 ![] bcast_S_S4096 : (⟨S_, .i32⟩ : BufTy).Contents (Elt F) → (⟨S4096, .i32⟩ : BufTy).Contents (Elt F))) main_c_64
  let main_v170 : IVec S4096 32 := ((subi : (⟨S4096, .i32⟩ : BufTy).Contents (Elt F) → (⟨S4096, .i32⟩ : BufTy).Contents (Elt F) → (⟨S4096, .i32⟩ : BufTy).Contents (Elt F))) main_v73 main_v169
  let main_c_65 : IVec S_ 32 := (constantI S_ 32 0#32)
  let main_v171 : IVec S4096 32 := ((broadcastInDim S4096 ![] bcast_S_S4096 : (⟨S_, .i32⟩ : BufTy).Contents (Elt F) → (⟨S4096, .i32⟩ : BufTy).Contents (Elt F))) main_c_65
  let main_v172 : IVec S4096 1 := ((cmpi .sge : (⟨S4096, .i32⟩ : BufTy).Contents (Elt F) → (⟨S4096, .i32⟩ : BufTy).Contents (Elt F) → (⟨S4096, .i1⟩ : BufTy).Contents (Elt F))) main_v170 main_v171
  let main_v173 : IVec S1x4096 1 := ((broadcastInDim S1x4096 ![1] bcast_S4096_S1x4096_1 : (⟨S4096, .i1⟩ : BufTy).Contents (Elt F) → (⟨S1x4096, .i1⟩ : BufTy).Contents (Elt F))) main_v172
  let main_v174 : IVec S64x4096 1 := ((broadcastInDim S64x4096 ![0, 1] bcast_S1x4096_S64x4096_0_1 : (⟨S1x4096, .i1⟩ : BufTy).Contents (Elt F) → (⟨S64x4096, .i1⟩ : BufTy).Contents (Elt F))) main_v173
  let main_v175 : IVec S64x4096 1 := ((andi : (⟨S64x4096, .i1⟩ : BufTy).Contents (Elt F) → (⟨S64x4096, .i1⟩ : BufTy).Contents (Elt F) → (⟨S64x4096, .i1⟩ : BufTy).Contents (Elt F))) main_v6 main_v174
  let main_c_66 : IVec S_ 32 := (constantI S_ 32 0#32)
  let main_c_67 : IVec S_ 32 := (constantI S_ 32 9#32)
  let main_call38_v0 : IVec S_ 32 := id main_c_66
  let main_call38_v1 : IVec S4096 32 := ((broadcastInDim S4096 ![] bcast_S_S4096)) main_call38_v0
  TW_part20 main_cst main_v6 main_v73 main_v168 main_v170 main_v175 main_c_67 main_call38_v1

/-- TW, continued: operations 325 … of its chain. -/
def TW_part18 (main_cst : FVec F S10 .f32) (main_v6 : IVec S64x4096 1) (main_v73 : IVec S4096 32) (main_v149 : FVec F S64x4096 .f32) (main_v151 : IVec S4096 32) (main_v156 : IVec S64x4096 1) (main_c_59 : IVec S_ 32) (main_call35_v1 : IVec S4096 32) : FVec F S64x4096 .f32 :=
  let main_call35_v2 : IVec S4096 32 := maxsi main_call35_v1 main_v151
  let main_call35_v3 : IVec S_ 32 := id main_c_59
  let main_call35_v4 : IVec S4096 32 := ((broadcastInDim S4096 ![] bcast_S_S4096)) main_call35_v3
  let main_v157 : IVec S4096 32 := minsi main_call35_v4 main_call35_v2
  let main_c_60 : IVec S_ 32 := (constantI S_ 32 0#32)
  let main_v158 : IVec S4096 32 := ((broadcastInDim S4096 ![] bcast_S_S4096 : (⟨S_, .i32⟩ : BufTy).Contents (Elt F) → (⟨S4096, .i32⟩ : BufTy).Contents (Elt F))) main_c_60
  let main_v159 : IVec S4096 1 := ((cmpi .slt : (⟨S4096, .i32⟩ : BufTy).Contents (Elt F) → (⟨S4096, .i32⟩ : BufTy).Contents (Elt F) → (⟨S4096, .i1⟩ : BufTy).Contents (Elt F))) main_v157 main_v158
  let main_c_61 : IVec S_ 32 := (constantI S_ 32 10#32)
  let main_v160 : IVec S4096 32 := ((broadcastInDim S4096 ![] bcast_S_S4096 : (⟨S_, .i32⟩ : BufTy).Contents (Elt F) → (⟨S4096, .i32⟩ : BufTy).Contents (Elt F))) main_c_61
  let main_v161 : IVec S4096 32 := ((addi : (⟨S4096, .i32⟩ : BufTy).Contents (Elt F) → (⟨S4096, .i32⟩ : BufTy).Contents (Elt F) → (⟨S4096, .i32⟩ : BufTy).Contents (Elt F))) main_v157 main_v160
  let main_v162 : IVec S4096 32 := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) main_v159 main_v161 main_v157
  let main_v163 : IVec S4096x1 32 := ((broadcastInDim S4096x1 ![0] bcast_S4096_S4096x1_0 : (⟨S4096, .i32⟩ : BufTy).Contents (Elt F) → (⟨S4096x1, .i32⟩ : BufTy).Contents (Elt F))) main_v162
  let main_v164 : FVec F S4096 .f32 := (((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))) main_cst main_v163
  let main_cst_62 : FVec F S_ .f32 := (constant S_ .f32 0x3F800000#32)
  let main_call36_v0 : FVec F S_ .f32 := id main_cst_62
  let main_call36_v1 : FVec F S64x4096 .f32 := ((broadcastInDim S64x4096 ![1] bcast_S4096_S64x4096_1)) main_v164
  let main_call36_v2 : FVec F S64x4096 .f32 := ((broadcastInDim S64x4096 ![] bcast_S_S64x4096)) main_call36_v0
  let main_v165 : FVec F S64x4096 .f32 := select main_v156 main_call36_v1 main_call36_v2
  TW_part19 main_cst main_v6 main_v73 main_v149 main_v165

/-- TW, continued: operations 307 … of its chain. -/
def TW_part17 (main_cst : FVec F S10 .f32) (main_v6 : IVec S64x4096 1) (main_v73 : IVec S4096 32) (main_v130 : FVec F S64x4096 .f32) (main_v146 : FVec F S64x4096 .f32) : FVec F S64x4096 .f32 :=
  let main_v147 : FVec F S64x4092 .f32 := (((extractStridedSlice S64x4092 ![0, 0] · slices_S64x4096_S64x4092_0_0) : (⟨S64x4096, .f32⟩ : BufTy).Contents (Elt F) → (⟨S64x4092, .f32⟩ : BufTy).Contents (Elt F))) main_v146
  let main_cst_55 : FVec F S_ .f32 := (constant S_ .f32 0x3F800000#32)
  let main_call34_v0 : FVec F S_ .f32 := id main_cst_55
  let main_v148 : FVec F S64x4096 .f32 := ((fun x v => pad S64x4096 ![0, 4] ![0, 0] ![0, 0] x v pads_S64x4092_S64x4096_000_400 h_S_)) main_v147 main_call34_v0
  let main_v149 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v130 main_v148
  let main_c_56 : IVec S_ 32 := (constantI S_ 32 5#32)
  let main_v150 : IVec S4096 32 := ((broadcastInDim S4096 ![] bcast_S_S4096 : (⟨S_, .i32⟩ : BufTy).Contents (Elt F) → (⟨S4096, .i32⟩ : BufTy).Contents (Elt F))) main_c_56
  let main_v151 : IVec S4096 32 := ((subi : (⟨S4096, .i32⟩ : BufTy).Contents (Elt F) → (⟨S4096, .i32⟩ : BufTy).Contents (Elt F) → (⟨S4096, .i32⟩ : BufTy).Contents (Elt F))) main_v73 main_v150
  let main_c_57 : IVec S_ 32 := (constantI S_ 32 0#32)
  let main_v152 : IVec S4096 32 := ((broadcastInDim S4096 ![] bcast_S_S4096 : (⟨S_, .i32⟩ : BufTy).Contents (Elt F) → (⟨S4096, .i32⟩ : BufTy).Contents (Elt F))) main_c_57
  let main_v153 : IVec S4096 1 := ((cmpi .sge : (⟨S4096, .i32⟩ : BufTy).Contents (Elt F) → (⟨S4096, .i32⟩ : BufTy).Contents (Elt F) → (⟨S4096, .i1⟩ : BufTy).Contents (Elt F))) main_v151 main_v152
  let main_v154 : IVec S1x4096 1 := ((broadcastInDim S1x4096 ![1] bcast_S4096_S1x4096_1 : (⟨S4096, .i1⟩ : BufTy).Contents (Elt F) → (⟨S1x4096, .i1⟩ : BufTy).Contents (Elt F))) main_v153
  let main_v155 : IVec S64x4096 1 := ((broadcastInDim S64x4096 ![0, 1] bcast_S1x4096_S64x4096_0_1 : (⟨S1x4096, .i1⟩ : BufTy).Contents (Elt F) → (⟨S64x4096, .i1⟩ : BufTy).Contents (Elt F))) main_v154
  let main_v156 : IVec S64x4096 1 := ((andi : (⟨S64x4096, .i1⟩ : BufTy).Contents (Elt F) → (⟨S64x4096, .i1⟩ : BufTy).Contents (Elt F) → (⟨S64x4096, .i1⟩ : BufTy).Contents (Elt F))) main_v6 main_v155
  let main_c_58 : IVec S_ 32 := (constantI S_ 32 0#32)
  let main_c_59 : IVec S_ 32 := (constantI S_ 32 9#32)
  let main_call35_v0 : IVec S_ 32 := id main_c_58
  let main_call35_v1 : IVec S4096 32 := ((broadcastInDim S4096 ![] bcast_S_S4096)) main_call35_v0
  TW_part18 main_cst main_v6 main_v73 main_v149 main_v151 main_v156 main_c_59 main_call35_v1

/-- TW, continued: operations 289 … of its chain. -/
def TW_part16 (main_cst : FVec F S10 .f32) (main_v6 : IVec S64x4096 1) (main_v73 : IVec S4096 32) (main_v130 : FVec F S64x4096 .f32) (main_v132 : IVec S4096 32) (main_v137 : IVec S64x4096 1) (main_c_51 : IVec S_ 32) (main_call32_v1 : IVec S4096 32) : FVec F S64x4096 .f32 :=
  let main_call32_v2 : IVec S4096 32 := maxsi main_call32_v1 main_v132
  let main_call32_v3 : IVec S_ 32 := id main_c_51
  let main_call32_v4 : IVec S4096 32 := ((broadcastInDim S4096 ![] bcast_S_S4096)) main_call32_v3
  let main_v138 : IVec S4096 32 := minsi main_call32_v4 main_call32_v2
  let main_c_52 : IVec S_ 32 := (constantI S_ 32 0#32)
  let main_v139 : IVec S4096 32 := ((broadcastInDim S4096 ![] bcast_S_S4096 : (⟨S_, .i32⟩ : BufTy).Contents (Elt F) → (⟨S4096, .i32⟩ : BufTy).Contents (Elt F))) main_c_52
  let main_v140 : IVec S4096 1 := ((cmpi .slt : (⟨S4096, .i32⟩ : BufTy).Contents (Elt F) → (⟨S4096, .i32⟩ : BufTy).Contents (Elt F) → (⟨S4096, .i1⟩ : BufTy).Contents (Elt F))) main_v138 main_v139
  let main_c_53 : IVec S_ 32 := (constantI S_ 32 10#32)
  let main_v141 : IVec S4096 32 := ((broadcastInDim S4096 ![] bcast_S_S4096 : (⟨S_, .i32⟩ : BufTy).Contents (Elt F) → (⟨S4096, .i32⟩ : BufTy).Contents (Elt F))) main_c_53
  let main_v142 : IVec S4096 32 := ((addi : (⟨S4096, .i32⟩ : BufTy).Contents (Elt F) → (⟨S4096, .i32⟩ : BufTy).Contents (Elt F) → (⟨S4096, .i32⟩ : BufTy).Contents (Elt F))) main_v138 main_v141
  let main_v143 : IVec S4096 32 := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) main_v140 main_v142 main_v138
  let main_v144 : IVec S4096x1 32 := ((broadcastInDim S4096x1 ![0] bcast_S4096_S4096x1_0 : (⟨S4096, .i32⟩ : BufTy).Contents (Elt F) → (⟨S4096x1, .i32⟩ : BufTy).Contents (Elt F))) main_v143
  let main_v145 : FVec F S4096 .f32 := (((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))) main_cst main_v144
  let main_cst_54 : FVec F S_ .f32 := (constant S_ .f32 0x3F800000#32)
  let main_call33_v0 : FVec F S_ .f32 := id main_cst_54
  let main_call33_v1 : FVec F S64x4096 .f32 := ((broadcastInDim S64x4096 ![1] bcast_S4096_S64x4096_1)) main_v145
  let main_call33_v2 : FVec F S64x4096 .f32 := ((broadcastInDim S64x4096 ![] bcast_S_S64x4096)) main_call33_v0
  let main_v146 : FVec F S64x4096 .f32 := select main_v137 main_call33_v1 main_call33_v2
  TW_part17 main_cst main_v6 main_v73 main_v130 main_v146

/-- TW, continued: operations 271 … of its chain. -/
def TW_part15 (main_cst : FVec F S10 .f32) (main_v6 : IVec S64x4096 1) (main_v73 : IVec S4096 32) (main_v111 : FVec F S64x4096 .f32) (main_v127 : FVec F S64x4096 .f32) : FVec F S64x4096 .f32 :=
  let main_v128 : FVec F S64x4093 .f32 := (((extractStridedSlice S64x4093 ![0, 0] · slices_S64x4096_S64x4093_0_0) : (⟨S64x4096, .f32⟩ : BufTy).Contents (Elt F) → (⟨S64x4093, .f32⟩ : BufTy).Contents (Elt F))) main_v127
  let main_cst_47 : FVec F S_ .f32 := (constant S_ .f32 0x3F800000#32)
  let main_call31_v0 : FVec F S_ .f32 := id main_cst_47
  let main_v129 : FVec F S64x4096 .f32 := ((fun x v => pad S64x4096 ![0, 3] ![0, 0] ![0, 0] x v pads_S64x4093_S64x4096_000_300 h_S_)) main_v128 main_call31_v0
  let main_v130 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v111 main_v129
  let main_c_48 : IVec S_ 32 := (constantI S_ 32 4#32)
  let main_v131 : IVec S4096 32 := ((broadcastInDim S4096 ![] bcast_S_S4096 : (⟨S_, .i32⟩ : BufTy).Contents (Elt F) → (⟨S4096, .i32⟩ : BufTy).Contents (Elt F))) main_c_48
  let main_v132 : IVec S4096 32 := ((subi : (⟨S4096, .i32⟩ : BufTy).Contents (Elt F) → (⟨S4096, .i32⟩ : BufTy).Contents (Elt F) → (⟨S4096, .i32⟩ : BufTy).Contents (Elt F))) main_v73 main_v131
  let main_c_49 : IVec S_ 32 := (constantI S_ 32 0#32)
  let main_v133 : IVec S4096 32 := ((broadcastInDim S4096 ![] bcast_S_S4096 : (⟨S_, .i32⟩ : BufTy).Contents (Elt F) → (⟨S4096, .i32⟩ : BufTy).Contents (Elt F))) main_c_49
  let main_v134 : IVec S4096 1 := ((cmpi .sge : (⟨S4096, .i32⟩ : BufTy).Contents (Elt F) → (⟨S4096, .i32⟩ : BufTy).Contents (Elt F) → (⟨S4096, .i1⟩ : BufTy).Contents (Elt F))) main_v132 main_v133
  let main_v135 : IVec S1x4096 1 := ((broadcastInDim S1x4096 ![1] bcast_S4096_S1x4096_1 : (⟨S4096, .i1⟩ : BufTy).Contents (Elt F) → (⟨S1x4096, .i1⟩ : BufTy).Contents (Elt F))) main_v134
  let main_v136 : IVec S64x4096 1 := ((broadcastInDim S64x4096 ![0, 1] bcast_S1x4096_S64x4096_0_1 : (⟨S1x4096, .i1⟩ : BufTy).Contents (Elt F) → (⟨S64x4096, .i1⟩ : BufTy).Contents (Elt F))) main_v135
  let main_v137 : IVec S64x4096 1 := ((andi : (⟨S64x4096, .i1⟩ : BufTy).Contents (Elt F) → (⟨S64x4096, .i1⟩ : BufTy).Contents (Elt F) → (⟨S64x4096, .i1⟩ : BufTy).Contents (Elt F))) main_v6 main_v136
  let main_c_50 : IVec S_ 32 := (constantI S_ 32 0#32)
  let main_c_51 : IVec S_ 32 := (constantI S_ 32 9#32)
  let main_call32_v0 : IVec S_ 32 := id main_c_50
  let main_call32_v1 : IVec S4096 32 := ((broadcastInDim S4096 ![] bcast_S_S4096)) main_call32_v0
  TW_part16 main_cst main_v6 main_v73 main_v130 main_v132 main_v137 main_c_51 main_call32_v1

/-- TW, continued: operations 253 … of its chain. -/
def TW_part14 (main_cst : FVec F S10 .f32) (main_v6 : IVec S64x4096 1) (main_v73 : IVec S4096 32) (main_v111 : FVec F S64x4096 .f32) (main_v113 : IVec S4096 32) (main_v118 : IVec S64x4096 1) (main_c_43 : IVec S_ 32) (main_call29_v1 : IVec S4096 32) : FVec F S64x4096 .f32 :=
  let main_call29_v2 : IVec S4096 32 := maxsi main_call29_v1 main_v113
  let main_call29_v3 : IVec S_ 32 := id main_c_43
  let main_call29_v4 : IVec S4096 32 := ((broadcastInDim S4096 ![] bcast_S_S4096)) main_call29_v3
  let main_v119 : IVec S4096 32 := minsi main_call29_v4 main_call29_v2
  let main_c_44 : IVec S_ 32 := (constantI S_ 32 0#32)
  let main_v120 : IVec S4096 32 := ((broadcastInDim S4096 ![] bcast_S_S4096 : (⟨S_, .i32⟩ : BufTy).Contents (Elt F) → (⟨S4096, .i32⟩ : BufTy).Contents (Elt F))) main_c_44
  let main_v121 : IVec S4096 1 := ((cmpi .slt : (⟨S4096, .i32⟩ : BufTy).Contents (Elt F) → (⟨S4096, .i32⟩ : BufTy).Contents (Elt F) → (⟨S4096, .i1⟩ : BufTy).Contents (Elt F))) main_v119 main_v120
  let main_c_45 : IVec S_ 32 := (constantI S_ 32 10#32)
  let main_v122 : IVec S4096 32 := ((broadcastInDim S4096 ![] bcast_S_S4096 : (⟨S_, .i32⟩ : BufTy).Contents (Elt F) → (⟨S4096, .i32⟩ : BufTy).Contents (Elt F))) main_c_45
  let main_v123 : IVec S4096 32 := ((addi : (⟨S4096, .i32⟩ : BufTy).Contents (Elt F) → (⟨S4096, .i32⟩ : BufTy).Contents (Elt F) → (⟨S4096, .i32⟩ : BufTy).Contents (Elt F))) main_v119 main_v122
  let main_v124 : IVec S4096 32 := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) main_v121 main_v123 main_v119
  let main_v125 : IVec S4096x1 32 := ((broadcastInDim S4096x1 ![0] bcast_S4096_S4096x1_0 : (⟨S4096, .i32⟩ : BufTy).Contents (Elt F) → (⟨S4096x1, .i32⟩ : BufTy).Contents (Elt F))) main_v124
  let main_v126 : FVec F S4096 .f32 := (((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))) main_cst main_v125
  let main_cst_46 : FVec F S_ .f32 := (constant S_ .f32 0x3F800000#32)
  let main_call30_v0 : FVec F S_ .f32 := id main_cst_46
  let main_call30_v1 : FVec F S64x4096 .f32 := ((broadcastInDim S64x4096 ![1] bcast_S4096_S64x4096_1)) main_v126
  let main_call30_v2 : FVec F S64x4096 .f32 := ((broadcastInDim S64x4096 ![] bcast_S_S64x4096)) main_call30_v0
  let main_v127 : FVec F S64x4096 .f32 := select main_v118 main_call30_v1 main_call30_v2
  TW_part15 main_cst main_v6 main_v73 main_v111 main_v127

/-- TW, continued: operations 235 … of its chain. -/
def TW_part13 (main_cst : FVec F S10 .f32) (main_v6 : IVec S64x4096 1) (main_v73 : IVec S4096 32) (main_v92 : FVec F S64x4096 .f32) (main_v108 : FVec F S64x4096 .f32) : FVec F S64x4096 .f32 :=
  let main_v109 : FVec F S64x4094 .f32 := (((extractStridedSlice S64x4094 ![0, 0] · slices_S64x4096_S64x4094_0_0) : (⟨S64x4096, .f32⟩ : BufTy).Contents (Elt F) → (⟨S64x4094, .f32⟩ : BufTy).Contents (Elt F))) main_v108
  let main_cst_39 : FVec F S_ .f32 := (constant S_ .f32 0x3F800000#32)
  let main_call28_v0 : FVec F S_ .f32 := id main_cst_39
  let main_v110 : FVec F S64x4096 .f32 := ((fun x v => pad S64x4096 ![0, 2] ![0, 0] ![0, 0] x v pads_S64x4094_S64x4096_000_200 h_S_)) main_v109 main_call28_v0
  let main_v111 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v92 main_v110
  let main_c_40 : IVec S_ 32 := (constantI S_ 32 3#32)
  let main_v112 : IVec S4096 32 := ((broadcastInDim S4096 ![] bcast_S_S4096 : (⟨S_, .i32⟩ : BufTy).Contents (Elt F) → (⟨S4096, .i32⟩ : BufTy).Contents (Elt F))) main_c_40
  let main_v113 : IVec S4096 32 := ((subi : (⟨S4096, .i32⟩ : BufTy).Contents (Elt F) → (⟨S4096, .i32⟩ : BufTy).Contents (Elt F) → (⟨S4096, .i32⟩ : BufTy).Contents (Elt F))) main_v73 main_v112
  let main_c_41 : IVec S_ 32 := (constantI S_ 32 0#32)
  let main_v114 : IVec S4096 32 := ((broadcastInDim S4096 ![] bcast_S_S4096 : (⟨S_, .i32⟩ : BufTy).Contents (Elt F) → (⟨S4096, .i32⟩ : BufTy).Contents (Elt F))) main_c_41
  let main_v115 : IVec S4096 1 := ((cmpi .sge : (⟨S4096, .i32⟩ : BufTy).Contents (Elt F) → (⟨S4096, .i32⟩ : BufTy).Contents (Elt F) → (⟨S4096, .i1⟩ : BufTy).Contents (Elt F))) main_v113 main_v114
  let main_v116 : IVec S1x4096 1 := ((broadcastInDim S1x4096 ![1] bcast_S4096_S1x4096_1 : (⟨S4096, .i1⟩ : BufTy).Contents (Elt F) → (⟨S1x4096, .i1⟩ : BufTy).Contents (Elt F))) main_v115
  let main_v117 : IVec S64x4096 1 := ((broadcastInDim S64x4096 ![0, 1] bcast_S1x4096_S64x4096_0_1 : (⟨S1x4096, .i1⟩ : BufTy).Contents (Elt F) → (⟨S64x4096, .i1⟩ : BufTy).Contents (Elt F))) main_v116
  let main_v118 : IVec S64x4096 1 := ((andi : (⟨S64x4096, .i1⟩ : BufTy).Contents (Elt F) → (⟨S64x4096, .i1⟩ : BufTy).Contents (Elt F) → (⟨S64x4096, .i1⟩ : BufTy).Contents (Elt F))) main_v6 main_v117
  let main_c_42 : IVec S_ 32 := (constantI S_ 32 0#32)
  let main_c_43 : IVec S_ 32 := (constantI S_ 32 9#32)
  let main_call29_v0 : IVec S_ 32 := id main_c_42
  let main_call29_v1 : IVec S4096 32 := ((broadcastInDim S4096 ![] bcast_S_S4096)) main_call29_v0
  TW_part14 main_cst main_v6 main_v73 main_v111 main_v113 main_v118 main_c_43 main_call29_v1

/-- TW, continued: operations 217 … of its chain. -/
def TW_part12 (main_cst : FVec F S10 .f32) (main_v6 : IVec S64x4096 1) (main_v73 : IVec S4096 32) (main_v92 : FVec F S64x4096 .f32) (main_v94 : IVec S4096 32) (main_v99 : IVec S64x4096 1) (main_c_35 : IVec S_ 32) (main_call26_v1 : IVec S4096 32) : FVec F S64x4096 .f32 :=
  let main_call26_v2 : IVec S4096 32 := maxsi main_call26_v1 main_v94
  let main_call26_v3 : IVec S_ 32 := id main_c_35
  let main_call26_v4 : IVec S4096 32 := ((broadcastInDim S4096 ![] bcast_S_S4096)) main_call26_v3
  let main_v100 : IVec S4096 32 := minsi main_call26_v4 main_call26_v2
  let main_c_36 : IVec S_ 32 := (constantI S_ 32 0#32)
  let main_v101 : IVec S4096 32 := ((broadcastInDim S4096 ![] bcast_S_S4096 : (⟨S_, .i32⟩ : BufTy).Contents (Elt F) → (⟨S4096, .i32⟩ : BufTy).Contents (Elt F))) main_c_36
  let main_v102 : IVec S4096 1 := ((cmpi .slt : (⟨S4096, .i32⟩ : BufTy).Contents (Elt F) → (⟨S4096, .i32⟩ : BufTy).Contents (Elt F) → (⟨S4096, .i1⟩ : BufTy).Contents (Elt F))) main_v100 main_v101
  let main_c_37 : IVec S_ 32 := (constantI S_ 32 10#32)
  let main_v103 : IVec S4096 32 := ((broadcastInDim S4096 ![] bcast_S_S4096 : (⟨S_, .i32⟩ : BufTy).Contents (Elt F) → (⟨S4096, .i32⟩ : BufTy).Contents (Elt F))) main_c_37
  let main_v104 : IVec S4096 32 := ((addi : (⟨S4096, .i32⟩ : BufTy).Contents (Elt F) → (⟨S4096, .i32⟩ : BufTy).Contents (Elt F) → (⟨S4096, .i32⟩ : BufTy).Contents (Elt F))) main_v100 main_v103
  let main_v105 : IVec S4096 32 := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) main_v102 main_v104 main_v100
  let main_v106 : IVec S4096x1 32 := ((broadcastInDim S4096x1 ![0] bcast_S4096_S4096x1_0 : (⟨S4096, .i32⟩ : BufTy).Contents (Elt F) → (⟨S4096x1, .i32⟩ : BufTy).Contents (Elt F))) main_v105
  let main_v107 : FVec F S4096 .f32 := (((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))) main_cst main_v106
  let main_cst_38 : FVec F S_ .f32 := (constant S_ .f32 0x3F800000#32)
  let main_call27_v0 : FVec F S_ .f32 := id main_cst_38
  let main_call27_v1 : FVec F S64x4096 .f32 := ((broadcastInDim S64x4096 ![1] bcast_S4096_S64x4096_1)) main_v107
  let main_call27_v2 : FVec F S64x4096 .f32 := ((broadcastInDim S64x4096 ![] bcast_S_S64x4096)) main_call27_v0
  let main_v108 : FVec F S64x4096 .f32 := select main_v99 main_call27_v1 main_call27_v2
  TW_part13 main_cst main_v6 main_v73 main_v92 main_v108

/-- TW, continued: operations 199 … of its chain. -/
def TW_part11 (main_cst : FVec F S10 .f32) (main_v6 : IVec S64x4096 1) (main_v68 : FVec F S64x4096 .f32) (main_v73 : IVec S4096 32) (main_v89 : FVec F S64x4096 .f32) : FVec F S64x4096 .f32 :=
  let main_v90 : FVec F S64x4095 .f32 := (((extractStridedSlice S64x4095 ![0, 0] · slices_S64x4096_S64x4095_0_0) : (⟨S64x4096, .f32⟩ : BufTy).Contents (Elt F) → (⟨S64x4095, .f32⟩ : BufTy).Contents (Elt F))) main_v89
  let main_cst_31 : FVec F S_ .f32 := (constant S_ .f32 0x3F800000#32)
  let main_call25_v0 : FVec F S_ .f32 := id main_cst_31
  let main_v91 : FVec F S64x4096 .f32 := ((fun x v => pad S64x4096 ![0, 1] ![0, 0] ![0, 0] x v pads_S64x4095_S64x4096_000_100 h_S_)) main_v90 main_call25_v0
  let main_v92 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v68 main_v91
  let main_c_32 : IVec S_ 32 := (constantI S_ 32 2#32)
  let main_v93 : IVec S4096 32 := ((broadcastInDim S4096 ![] bcast_S_S4096 : (⟨S_, .i32⟩ : BufTy).Contents (Elt F) → (⟨S4096, .i32⟩ : BufTy).Contents (Elt F))) main_c_32
  let main_v94 : IVec S4096 32 := ((subi : (⟨S4096, .i32⟩ : BufTy).Contents (Elt F) → (⟨S4096, .i32⟩ : BufTy).Contents (Elt F) → (⟨S4096, .i32⟩ : BufTy).Contents (Elt F))) main_v73 main_v93
  let main_c_33 : IVec S_ 32 := (constantI S_ 32 0#32)
  let main_v95 : IVec S4096 32 := ((broadcastInDim S4096 ![] bcast_S_S4096 : (⟨S_, .i32⟩ : BufTy).Contents (Elt F) → (⟨S4096, .i32⟩ : BufTy).Contents (Elt F))) main_c_33
  let main_v96 : IVec S4096 1 := ((cmpi .sge : (⟨S4096, .i32⟩ : BufTy).Contents (Elt F) → (⟨S4096, .i32⟩ : BufTy).Contents (Elt F) → (⟨S4096, .i1⟩ : BufTy).Contents (Elt F))) main_v94 main_v95
  let main_v97 : IVec S1x4096 1 := ((broadcastInDim S1x4096 ![1] bcast_S4096_S1x4096_1 : (⟨S4096, .i1⟩ : BufTy).Contents (Elt F) → (⟨S1x4096, .i1⟩ : BufTy).Contents (Elt F))) main_v96
  let main_v98 : IVec S64x4096 1 := ((broadcastInDim S64x4096 ![0, 1] bcast_S1x4096_S64x4096_0_1 : (⟨S1x4096, .i1⟩ : BufTy).Contents (Elt F) → (⟨S64x4096, .i1⟩ : BufTy).Contents (Elt F))) main_v97
  let main_v99 : IVec S64x4096 1 := ((andi : (⟨S64x4096, .i1⟩ : BufTy).Contents (Elt F) → (⟨S64x4096, .i1⟩ : BufTy).Contents (Elt F) → (⟨S64x4096, .i1⟩ : BufTy).Contents (Elt F))) main_v6 main_v98
  let main_c_34 : IVec S_ 32 := (constantI S_ 32 0#32)
  let main_c_35 : IVec S_ 32 := (constantI S_ 32 9#32)
  let main_call26_v0 : IVec S_ 32 := id main_c_34
  let main_call26_v1 : IVec S4096 32 := ((broadcastInDim S4096 ![] bcast_S_S4096)) main_call26_v0
  TW_part12 main_cst main_v6 main_v73 main_v92 main_v94 main_v99 main_c_35 main_call26_v1

/-- TW, continued: operations 181 … of its chain. -/
def TW_part10 (main_cst : FVec F S10 .f32) (main_v6 : IVec S64x4096 1) (main_v68 : FVec F S64x4096 .f32) (main_v73 : IVec S4096 32) (main_v75 : IVec S4096 32) (main_v80 : IVec S64x4096 1) (main_c_27 : IVec S_ 32) (main_call23_v1 : IVec S4096 32) : FVec F S64x4096 .f32 :=
  let main_call23_v2 : IVec S4096 32 := maxsi main_call23_v1 main_v75
  let main_call23_v3 : IVec S_ 32 := id main_c_27
  let main_call23_v4 : IVec S4096 32 := ((broadcastInDim S4096 ![] bcast_S_S4096)) main_call23_v3
  let main_v81 : IVec S4096 32 := minsi main_call23_v4 main_call23_v2
  let main_c_28 : IVec S_ 32 := (constantI S_ 32 0#32)
  let main_v82 : IVec S4096 32 := ((broadcastInDim S4096 ![] bcast_S_S4096 : (⟨S_, .i32⟩ : BufTy).Contents (Elt F) → (⟨S4096, .i32⟩ : BufTy).Contents (Elt F))) main_c_28
  let main_v83 : IVec S4096 1 := ((cmpi .slt : (⟨S4096, .i32⟩ : BufTy).Contents (Elt F) → (⟨S4096, .i32⟩ : BufTy).Contents (Elt F) → (⟨S4096, .i1⟩ : BufTy).Contents (Elt F))) main_v81 main_v82
  let main_c_29 : IVec S_ 32 := (constantI S_ 32 10#32)
  let main_v84 : IVec S4096 32 := ((broadcastInDim S4096 ![] bcast_S_S4096 : (⟨S_, .i32⟩ : BufTy).Contents (Elt F) → (⟨S4096, .i32⟩ : BufTy).Contents (Elt F))) main_c_29
  let main_v85 : IVec S4096 32 := ((addi : (⟨S4096, .i32⟩ : BufTy).Contents (Elt F) → (⟨S4096, .i32⟩ : BufTy).Contents (Elt F) → (⟨S4096, .i32⟩ : BufTy).Contents (Elt F))) main_v81 main_v84
  let main_v86 : IVec S4096 32 := ((select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))) main_v83 main_v85 main_v81
  let main_v87 : IVec S4096x1 32 := ((broadcastInDim S4096x1 ![0] bcast_S4096_S4096x1_0 : (⟨S4096, .i32⟩ : BufTy).Contents (Elt F) → (⟨S4096x1, .i32⟩ : BufTy).Contents (Elt F))) main_v86
  let main_v88 : FVec F S4096 .f32 := (((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))) main_cst main_v87
  let main_cst_30 : FVec F S_ .f32 := (constant S_ .f32 0x3F800000#32)
  let main_call24_v0 : FVec F S_ .f32 := id main_cst_30
  let main_call24_v1 : FVec F S64x4096 .f32 := ((broadcastInDim S64x4096 ![1] bcast_S4096_S64x4096_1)) main_v88
  let main_call24_v2 : FVec F S64x4096 .f32 := ((broadcastInDim S64x4096 ![] bcast_S_S64x4096)) main_call24_v0
  let main_v89 : FVec F S64x4096 .f32 := select main_v80 main_call24_v1 main_call24_v2
  TW_part11 main_cst main_v6 main_v68 main_v73 main_v89

/-- TW, continued: operations 163 … of its chain. -/
def TW_part9 (main_cst : FVec F S10 .f32) (main_v6 : IVec S64x4096 1) (main_v68 : FVec F S64x4096 .f32) (main_v69 : IVec S4096 32) (main_c_22 : IVec S_ 32) : FVec F S64x4096 .f32 :=
  let main_v70 : IVec S4096 32 := ((broadcastInDim S4096 ![] bcast_S_S4096 : (⟨S_, .i32⟩ : BufTy).Contents (Elt F) → (⟨S4096, .i32⟩ : BufTy).Contents (Elt F))) main_c_22
  let main_v71 : IVec S4096 32 := ((subi : (⟨S4096, .i32⟩ : BufTy).Contents (Elt F) → (⟨S4096, .i32⟩ : BufTy).Contents (Elt F) → (⟨S4096, .i32⟩ : BufTy).Contents (Elt F))) main_v70 main_v69
  let main_c_23 : IVec S_ 32 := (constantI S_ 32 10#32)
  let main_v72 : IVec S4096 32 := ((broadcastInDim S4096 ![] bcast_S_S4096 : (⟨S_, .i32⟩ : BufTy).Contents (Elt F) → (⟨S4096, .i32⟩ : BufTy).Contents (Elt F))) main_c_23
  let main_v73 : IVec S4096 32 := ((minsi : (⟨S4096, .i32⟩ : BufTy).Contents (Elt F) → (⟨S4096, .i32⟩ : BufTy).Contents (Elt F) → (⟨S4096, .i32⟩ : BufTy).Contents (Elt F))) main_v72 main_v71
  let main_c_24 : IVec S_ 32 := (constantI S_ 32 1#32)
  let main_v74 : IVec S4096 32 := ((broadcastInDim S4096 ![] bcast_S_S4096 : (⟨S_, .i32⟩ : BufTy).Contents (Elt F) → (⟨S4096, .i32⟩ : BufTy).Contents (Elt F))) main_c_24
  let main_v75 : IVec S4096 32 := ((subi : (⟨S4096, .i32⟩ : BufTy).Contents (Elt F) → (⟨S4096, .i32⟩ : BufTy).Contents (Elt F) → (⟨S4096, .i32⟩ : BufTy).Contents (Elt F))) main_v73 main_v74
  let main_c_25 : IVec S_ 32 := (constantI S_ 32 0#32)
  let main_v76 : IVec S4096 32 := ((broadcastInDim S4096 ![] bcast_S_S4096 : (⟨S_, .i32⟩ : BufTy).Contents (Elt F) → (⟨S4096, .i32⟩ : BufTy).Contents (Elt F))) main_c_25
  let main_v77 : IVec S4096 1 := ((cmpi .sge : (⟨S4096, .i32⟩ : BufTy).Contents (Elt F) → (⟨S4096, .i32⟩ : BufTy).Contents (Elt F) → (⟨S4096, .i1⟩ : BufTy).Contents (Elt F))) main_v75 main_v76
  let main_v78 : IVec S1x4096 1 := ((broadcastInDim S1x4096 ![1] bcast_S4096_S1x4096_1 : (⟨S4096, .i1⟩ : BufTy).Contents (Elt F) → (⟨S1x4096, .i1⟩ : BufTy).Contents (Elt F))) main_v77
  let main_v79 : IVec S64x4096 1 := ((broadcastInDim S64x4096 ![0, 1] bcast_S1x4096_S64x4096_0_1 : (⟨S1x4096, .i1⟩ : BufTy).Contents (Elt F) → (⟨S64x4096, .i1⟩ : BufTy).Contents (Elt F))) main_v78
  let main_v80 : IVec S64x4096 1 := ((andi : (⟨S64x4096, .i1⟩ : BufTy).Contents (Elt F) → (⟨S64x4096, .i1⟩ : BufTy).Contents (Elt F) → (⟨S64x4096, .i1⟩ : BufTy).Contents (Elt F))) main_v6 main_v79
  let main_c_26 : IVec S_ 32 := (constantI S_ 32 0#32)
  let main_c_27 : IVec S_ 32 := (constantI S_ 32 9#32)
  let main_call23_v0 : IVec S_ 32 := id main_c_26
  let main_call23_v1 : IVec S4096 32 := ((broadcastInDim S4096 ![] bcast_S_S4096)) main_call23_v0
  TW_part10 main_cst main_v6 main_v68 main_v73 main_v75 main_v80 main_c_27 main_call23_v1

/-- TW, continued: operations 145 … of its chain. -/
def TW_part8 (main_cst : FVec F S10 .f32) (main_v6 : IVec S64x4096 1) (main_v56 : FVec F S64x4096 .f32) (main_v61 : FVec F S64x4096 .f32) : FVec F S64x4096 .f32 :=
  let main_v62 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v56 main_v61
  let main_v63 : IVec S64x4086 1 := (((extractStridedSlice S64x4086 ![0, 10] · slices_S64x4096_S64x4086_0_10) : (⟨S64x4096, .i1⟩ : BufTy).Contents (Elt F) → (⟨S64x4086, .i1⟩ : BufTy).Contents (Elt F))) main_v6
  let main_c_20 : IVec S_ 32 := (constantI S_ 32 0#32)
  let main_call21_c : IVec S_ 32 := (constantI S_ 32 0#32)
  let main_call21_v0 : IVec S_ 32 := ((broadcastInDim S_ ![] bcast_S_S_)) main_call21_c
  let main_call21_v1 : IVec S_ 1 := ((cmpi .ne)) main_c_20 main_call21_v0
  let main_call21_v2 : IVec S_ 1 := id main_call21_v1
  let main_v64 : IVec S64x4096 1 := ((fun x v => pad S64x4096 ![0, 0] ![0, 10] ![0, 0] x v pads_S64x4086_S64x4096_000_0100 h_S_)) main_v63 main_call21_v2
  let main_v65 : FVec F S1 .f32 := (((extractStridedSlice S1 ![0] · slices_S10_S1_0) : (⟨S10, .f32⟩ : BufTy).Contents (Elt F) → (⟨S1, .f32⟩ : BufTy).Contents (Elt F))) main_cst
  let main_v66 : FVec F S_ .f32 := shapeCast S_ main_v65 shapeCasts_S1_S_
  let main_cst_21 : FVec F S_ .f32 := (constant S_ .f32 0x3F800000#32)
  let main_call22_v0 : FVec F S_ .f32 := id main_cst_21
  let main_call22_v1 : FVec F S64x4096 .f32 := ((broadcastInDim S64x4096 ![] bcast_S_S64x4096)) main_v66
  let main_call22_v2 : FVec F S64x4096 .f32 := ((broadcastInDim S64x4096 ![] bcast_S_S64x4096)) main_call22_v0
  let main_v67 : FVec F S64x4096 .f32 := select main_v64 main_call22_v1 main_call22_v2
  let main_v68 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v62 main_v67
  let main_v69 : IVec S4096 32 := (iotaInDim S4096 32 0)
  let main_c_22 : IVec S_ 32 := (constantI S_ 32 4095#32)
  TW_part9 main_cst main_v6 main_v68 main_v69 main_c_22

/-- TW, continued: operations 127 … of its chain. -/
def TW_part7 (main_cst : FVec F S10 .f32) (main_v6 : IVec S64x4096 1) (main_v50 : FVec F S64x4096 .f32) (main_v52 : IVec S64x4096 1) (main_v54 : FVec F S_ .f32) (main_call18_v0 : FVec F S_ .f32) : FVec F S64x4096 .f32 :=
  let main_call18_v1 : FVec F S64x4096 .f32 := ((broadcastInDim S64x4096 ![] bcast_S_S64x4096)) main_v54
  let main_call18_v2 : FVec F S64x4096 .f32 := ((broadcastInDim S64x4096 ![] bcast_S_S64x4096)) main_call18_v0
  let main_v55 : FVec F S64x4096 .f32 := select main_v52 main_call18_v1 main_call18_v2
  let main_v56 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v50 main_v55
  let main_v57 : IVec S64x4087 1 := (((extractStridedSlice S64x4087 ![0, 9] · slices_S64x4096_S64x4087_0_9) : (⟨S64x4096, .i1⟩ : BufTy).Contents (Elt F) → (⟨S64x4087, .i1⟩ : BufTy).Contents (Elt F))) main_v6
  let main_c_18 : IVec S_ 32 := (constantI S_ 32 0#32)
  let main_call19_c : IVec S_ 32 := (constantI S_ 32 0#32)
  let main_call19_v0 : IVec S_ 32 := ((broadcastInDim S_ ![] bcast_S_S_)) main_call19_c
  let main_call19_v1 : IVec S_ 1 := ((cmpi .ne)) main_c_18 main_call19_v0
  let main_call19_v2 : IVec S_ 1 := id main_call19_v1
  let main_v58 : IVec S64x4096 1 := ((fun x v => pad S64x4096 ![0, 0] ![0, 9] ![0, 0] x v pads_S64x4087_S64x4096_000_090 h_S_)) main_v57 main_call19_v2
  let main_v59 : FVec F S1 .f32 := (((extractStridedSlice S1 ![1] · slices_S10_S1_1) : (⟨S10, .f32⟩ : BufTy).Contents (Elt F) → (⟨S1, .f32⟩ : BufTy).Contents (Elt F))) main_cst
  let main_v60 : FVec F S_ .f32 := shapeCast S_ main_v59 shapeCasts_S1_S_
  let main_cst_19 : FVec F S_ .f32 := (constant S_ .f32 0x3F800000#32)
  let main_call20_v0 : FVec F S_ .f32 := id main_cst_19
  let main_call20_v1 : FVec F S64x4096 .f32 := ((broadcastInDim S64x4096 ![] bcast_S_S64x4096)) main_v60
  let main_call20_v2 : FVec F S64x4096 .f32 := ((broadcastInDim S64x4096 ![] bcast_S_S64x4096)) main_call20_v0
  let main_v61 : FVec F S64x4096 .f32 := select main_v58 main_call20_v1 main_call20_v2
  TW_part8 main_cst main_v6 main_v56 main_v61

/-- TW, continued: operations 109 … of its chain. -/
def TW_part6 (main_cst : FVec F S10 .f32) (main_v6 : IVec S64x4096 1) (main_v44 : FVec F S64x4096 .f32) (main_v46 : IVec S64x4096 1) (main_v47 : FVec F S1 .f32) : FVec F S64x4096 .f32 :=
  let main_v48 : FVec F S_ .f32 := shapeCast S_ main_v47 shapeCasts_S1_S_
  let main_cst_15 : FVec F S_ .f32 := (constant S_ .f32 0x3F800000#32)
  let main_call16_v0 : FVec F S_ .f32 := id main_cst_15
  let main_call16_v1 : FVec F S64x4096 .f32 := ((broadcastInDim S64x4096 ![] bcast_S_S64x4096)) main_v48
  let main_call16_v2 : FVec F S64x4096 .f32 := ((broadcastInDim S64x4096 ![] bcast_S_S64x4096)) main_call16_v0
  let main_v49 : FVec F S64x4096 .f32 := select main_v46 main_call16_v1 main_call16_v2
  let main_v50 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v44 main_v49
  let main_v51 : IVec S64x4088 1 := (((extractStridedSlice S64x4088 ![0, 8] · slices_S64x4096_S64x4088_0_8) : (⟨S64x4096, .i1⟩ : BufTy).Contents (Elt F) → (⟨S64x4088, .i1⟩ : BufTy).Contents (Elt F))) main_v6
  let main_c_16 : IVec S_ 32 := (constantI S_ 32 0#32)
  let main_call17_c : IVec S_ 32 := (constantI S_ 32 0#32)
  let main_call17_v0 : IVec S_ 32 := ((broadcastInDim S_ ![] bcast_S_S_)) main_call17_c
  let main_call17_v1 : IVec S_ 1 := ((cmpi .ne)) main_c_16 main_call17_v0
  let main_call17_v2 : IVec S_ 1 := id main_call17_v1
  let main_v52 : IVec S64x4096 1 := ((fun x v => pad S64x4096 ![0, 0] ![0, 8] ![0, 0] x v pads_S64x4088_S64x4096_000_080 h_S_)) main_v51 main_call17_v2
  let main_v53 : FVec F S1 .f32 := (((extractStridedSlice S1 ![2] · slices_S10_S1_2) : (⟨S10, .f32⟩ : BufTy).Contents (Elt F) → (⟨S1, .f32⟩ : BufTy).Contents (Elt F))) main_cst
  let main_v54 : FVec F S_ .f32 := shapeCast S_ main_v53 shapeCasts_S1_S_
  let main_cst_17 : FVec F S_ .f32 := (constant S_ .f32 0x3F800000#32)
  let main_call18_v0 : FVec F S_ .f32 := id main_cst_17
  TW_part7 main_cst main_v6 main_v50 main_v52 main_v54 main_call18_v0

/-- TW, continued: operations 91 … of its chain. -/
def TW_part5 (main_cst : FVec F S10 .f32) (main_v6 : IVec S64x4096 1) (main_v38 : FVec F S64x4096 .f32) (main_v39 : IVec S64x4090 1) (main_call13_v1 : IVec S_ 1) : FVec F S64x4096 .f32 :=
  let main_call13_v2 : IVec S_ 1 := id main_call13_v1
  let main_v40 : IVec S64x4096 1 := ((fun x v => pad S64x4096 ![0, 0] ![0, 6] ![0, 0] x v pads_S64x4090_S64x4096_000_060 h_S_)) main_v39 main_call13_v2
  let main_v41 : FVec F S1 .f32 := (((extractStridedSlice S1 ![4] · slices_S10_S1_4) : (⟨S10, .f32⟩ : BufTy).Contents (Elt F) → (⟨S1, .f32⟩ : BufTy).Contents (Elt F))) main_cst
  let main_v42 : FVec F S_ .f32 := shapeCast S_ main_v41 shapeCasts_S1_S_
  let main_cst_13 : FVec F S_ .f32 := (constant S_ .f32 0x3F800000#32)
  let main_call14_v0 : FVec F S_ .f32 := id main_cst_13
  let main_call14_v1 : FVec F S64x4096 .f32 := ((broadcastInDim S64x4096 ![] bcast_S_S64x4096)) main_v42
  let main_call14_v2 : FVec F S64x4096 .f32 := ((broadcastInDim S64x4096 ![] bcast_S_S64x4096)) main_call14_v0
  let main_v43 : FVec F S64x4096 .f32 := select main_v40 main_call14_v1 main_call14_v2
  let main_v44 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v38 main_v43
  let main_v45 : IVec S64x4089 1 := (((extractStridedSlice S64x4089 ![0, 7] · slices_S64x4096_S64x4089_0_7) : (⟨S64x4096, .i1⟩ : BufTy).Contents (Elt F) → (⟨S64x4089, .i1⟩ : BufTy).Contents (Elt F))) main_v6
  let main_c_14 : IVec S_ 32 := (constantI S_ 32 0#32)
  let main_call15_c : IVec S_ 32 := (constantI S_ 32 0#32)
  let main_call15_v0 : IVec S_ 32 := ((broadcastInDim S_ ![] bcast_S_S_)) main_call15_c
  let main_call15_v1 : IVec S_ 1 := ((cmpi .ne)) main_c_14 main_call15_v0
  let main_call15_v2 : IVec S_ 1 := id main_call15_v1
  let main_v46 : IVec S64x4096 1 := ((fun x v => pad S64x4096 ![0, 0] ![0, 7] ![0, 0] x v pads_S64x4089_S64x4096_000_070 h_S_)) main_v45 main_call15_v2
  let main_v47 : FVec F S1 .f32 := (((extractStridedSlice S1 ![3] · slices_S10_S1_3) : (⟨S10, .f32⟩ : BufTy).Contents (Elt F) → (⟨S1, .f32⟩ : BufTy).Contents (Elt F))) main_cst
  TW_part6 main_cst main_v6 main_v44 main_v46 main_v47

/-- TW, continued: operations 73 … of its chain. -/
def TW_part4 (main_cst : FVec F S10 .f32) (main_v6 : IVec S64x4096 1) (main_v32 : FVec F S64x4096 .f32) (main_v33 : IVec S64x4091 1) (main_c_10 : IVec S_ 32) : FVec F S64x4096 .f32 :=
  let main_call11_c : IVec S_ 32 := (constantI S_ 32 0#32)
  let main_call11_v0 : IVec S_ 32 := ((broadcastInDim S_ ![] bcast_S_S_)) main_call11_c
  let main_call11_v1 : IVec S_ 1 := ((cmpi .ne)) main_c_10 main_call11_v0
  let main_call11_v2 : IVec S_ 1 := id main_call11_v1
  let main_v34 : IVec S64x4096 1 := ((fun x v => pad S64x4096 ![0, 0] ![0, 5] ![0, 0] x v pads_S64x4091_S64x4096_000_050 h_S_)) main_v33 main_call11_v2
  let main_v35 : FVec F S1 .f32 := (((extractStridedSlice S1 ![5] · slices_S10_S1_5) : (⟨S10, .f32⟩ : BufTy).Contents (Elt F) → (⟨S1, .f32⟩ : BufTy).Contents (Elt F))) main_cst
  let main_v36 : FVec F S_ .f32 := shapeCast S_ main_v35 shapeCasts_S1_S_
  let main_cst_11 : FVec F S_ .f32 := (constant S_ .f32 0x3F800000#32)
  let main_call12_v0 : FVec F S_ .f32 := id main_cst_11
  let main_call12_v1 : FVec F S64x4096 .f32 := ((broadcastInDim S64x4096 ![] bcast_S_S64x4096)) main_v36
  let main_call12_v2 : FVec F S64x4096 .f32 := ((broadcastInDim S64x4096 ![] bcast_S_S64x4096)) main_call12_v0
  let main_v37 : FVec F S64x4096 .f32 := select main_v34 main_call12_v1 main_call12_v2
  let main_v38 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v32 main_v37
  let main_v39 : IVec S64x4090 1 := (((extractStridedSlice S64x4090 ![0, 6] · slices_S64x4096_S64x4090_0_6) : (⟨S64x4096, .i1⟩ : BufTy).Contents (Elt F) → (⟨S64x4090, .i1⟩ : BufTy).Contents (Elt F))) main_v6
  let main_c_12 : IVec S_ 32 := (constantI S_ 32 0#32)
  let main_call13_c : IVec S_ 32 := (constantI S_ 32 0#32)
  let main_call13_v0 : IVec S_ 32 := ((broadcastInDim S_ ![] bcast_S_S_)) main_call13_c
  let main_call13_v1 : IVec S_ 1 := ((cmpi .ne)) main_c_12 main_call13_v0
  TW_part5 main_cst main_v6 main_v38 main_v39 main_call13_v1

/-- TW, continued: operations 55 … of its chain. -/
def TW_part3 (main_cst : FVec F S10 .f32) (main_v6 : IVec S64x4096 1) (main_v20 : FVec F S64x4096 .f32) (main_v25 : FVec F S64x4096 .f32) : FVec F S64x4096 .f32 :=
  let main_v26 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v20 main_v25
  let main_v27 : IVec S64x4092 1 := (((extractStridedSlice S64x4092 ![0, 4] · slices_S64x4096_S64x4092_0_4) : (⟨S64x4096, .i1⟩ : BufTy).Contents (Elt F) → (⟨S64x4092, .i1⟩ : BufTy).Contents (Elt F))) main_v6
  let main_c_8 : IVec S_ 32 := (constantI S_ 32 0#32)
  let main_call9_c : IVec S_ 32 := (constantI S_ 32 0#32)
  let main_call9_v0 : IVec S_ 32 := ((broadcastInDim S_ ![] bcast_S_S_)) main_call9_c
  let main_call9_v1 : IVec S_ 1 := ((cmpi .ne)) main_c_8 main_call9_v0
  let main_call9_v2 : IVec S_ 1 := id main_call9_v1
  let main_v28 : IVec S64x4096 1 := ((fun x v => pad S64x4096 ![0, 0] ![0, 4] ![0, 0] x v pads_S64x4092_S64x4096_000_040 h_S_)) main_v27 main_call9_v2
  let main_v29 : FVec F S1 .f32 := (((extractStridedSlice S1 ![6] · slices_S10_S1_6) : (⟨S10, .f32⟩ : BufTy).Contents (Elt F) → (⟨S1, .f32⟩ : BufTy).Contents (Elt F))) main_cst
  let main_v30 : FVec F S_ .f32 := shapeCast S_ main_v29 shapeCasts_S1_S_
  let main_cst_9 : FVec F S_ .f32 := (constant S_ .f32 0x3F800000#32)
  let main_call10_v0 : FVec F S_ .f32 := id main_cst_9
  let main_call10_v1 : FVec F S64x4096 .f32 := ((broadcastInDim S64x4096 ![] bcast_S_S64x4096)) main_v30
  let main_call10_v2 : FVec F S64x4096 .f32 := ((broadcastInDim S64x4096 ![] bcast_S_S64x4096)) main_call10_v0
  let main_v31 : FVec F S64x4096 .f32 := select main_v28 main_call10_v1 main_call10_v2
  let main_v32 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v26 main_v31
  let main_v33 : IVec S64x4091 1 := (((extractStridedSlice S64x4091 ![0, 5] · slices_S64x4096_S64x4091_0_5) : (⟨S64x4096, .i1⟩ : BufTy).Contents (Elt F) → (⟨S64x4091, .i1⟩ : BufTy).Contents (Elt F))) main_v6
  let main_c_10 : IVec S_ 32 := (constantI S_ 32 0#32)
  TW_part4 main_cst main_v6 main_v32 main_v33 main_c_10

/-- TW, continued: operations 37 … of its chain. -/
def TW_part2 (main_cst : FVec F S10 .f32) (main_v6 : IVec S64x4096 1) (main_v14 : FVec F S64x4096 .f32) (main_v16 : IVec S64x4096 1) (main_v18 : FVec F S_ .f32) (main_call6_v0 : FVec F S_ .f32) : FVec F S64x4096 .f32 :=
  let main_call6_v1 : FVec F S64x4096 .f32 := ((broadcastInDim S64x4096 ![] bcast_S_S64x4096)) main_v18
  let main_call6_v2 : FVec F S64x4096 .f32 := ((broadcastInDim S64x4096 ![] bcast_S_S64x4096)) main_call6_v0
  let main_v19 : FVec F S64x4096 .f32 := select main_v16 main_call6_v1 main_call6_v2
  let main_v20 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v14 main_v19
  let main_v21 : IVec S64x4093 1 := (((extractStridedSlice S64x4093 ![0, 3] · slices_S64x4096_S64x4093_0_3) : (⟨S64x4096, .i1⟩ : BufTy).Contents (Elt F) → (⟨S64x4093, .i1⟩ : BufTy).Contents (Elt F))) main_v6
  let main_c_6 : IVec S_ 32 := (constantI S_ 32 0#32)
  let main_call7_c : IVec S_ 32 := (constantI S_ 32 0#32)
  let main_call7_v0 : IVec S_ 32 := ((broadcastInDim S_ ![] bcast_S_S_)) main_call7_c
  let main_call7_v1 : IVec S_ 1 := ((cmpi .ne)) main_c_6 main_call7_v0
  let main_call7_v2 : IVec S_ 1 := id main_call7_v1
  let main_v22 : IVec S64x4096 1 := ((fun x v => pad S64x4096 ![0, 0] ![0, 3] ![0, 0] x v pads_S64x4093_S64x4096_000_030 h_S_)) main_v21 main_call7_v2
  let main_v23 : FVec F S1 .f32 := (((extractStridedSlice S1 ![7] · slices_S10_S1_7) : (⟨S10, .f32⟩ : BufTy).Contents (Elt F) → (⟨S1, .f32⟩ : BufTy).Contents (Elt F))) main_cst
  let main_v24 : FVec F S_ .f32 := shapeCast S_ main_v23 shapeCasts_S1_S_
  let main_cst_7 : FVec F S_ .f32 := (constant S_ .f32 0x3F800000#32)
  let main_call8_v0 : FVec F S_ .f32 := id main_cst_7
  let main_call8_v1 : FVec F S64x4096 .f32 := ((broadcastInDim S64x4096 ![] bcast_S_S64x4096)) main_v24
  let main_call8_v2 : FVec F S64x4096 .f32 := ((broadcastInDim S64x4096 ![] bcast_S_S64x4096)) main_call8_v0
  let main_v25 : FVec F S64x4096 .f32 := select main_v22 main_call8_v1 main_call8_v2
  TW_part3 main_cst main_v6 main_v20 main_v25

/-- TW, continued: operations 19 … of its chain. -/
def TW_part1 (main_cst : FVec F S10 .f32) (main_v6 : IVec S64x4096 1) (main_v8 : FVec F S64x4096 .f32) (main_v10 : IVec S64x4096 1) (main_v11 : FVec F S1 .f32) : FVec F S64x4096 .f32 :=
  let main_v12 : FVec F S_ .f32 := shapeCast S_ main_v11 shapeCasts_S1_S_
  let main_cst_3 : FVec F S_ .f32 := (constant S_ .f32 0x3F800000#32)
  let main_call4_v0 : FVec F S_ .f32 := id main_cst_3
  let main_call4_v1 : FVec F S64x4096 .f32 := ((broadcastInDim S64x4096 ![] bcast_S_S64x4096)) main_v12
  let main_call4_v2 : FVec F S64x4096 .f32 := ((broadcastInDim S64x4096 ![] bcast_S_S64x4096)) main_call4_v0
  let main_v13 : FVec F S64x4096 .f32 := select main_v10 main_call4_v1 main_call4_v2
  let main_v14 : FVec F S64x4096 .f32 := ((maximumf : (⟨S64x4096, .f32⟩ : BufTy).Contents (Elt F) → (⟨S64x4096, .f32⟩ : BufTy).Contents (Elt F) → (⟨S64x4096, .f32⟩ : BufTy).Contents (Elt F))) main_v8 main_v13
  let main_v15 : IVec S64x4094 1 := (((extractStridedSlice S64x4094 ![0, 2] · slices_S64x4096_S64x4094_0_2) : (⟨S64x4096, .i1⟩ : BufTy).Contents (Elt F) → (⟨S64x4094, .i1⟩ : BufTy).Contents (Elt F))) main_v6
  let main_c_4 : IVec S_ 32 := (constantI S_ 32 0#32)
  let main_call5_c : IVec S_ 32 := (constantI S_ 32 0#32)
  let main_call5_v0 : IVec S_ 32 := ((broadcastInDim S_ ![] bcast_S_S_)) main_call5_c
  let main_call5_v1 : IVec S_ 1 := ((cmpi .ne)) main_c_4 main_call5_v0
  let main_call5_v2 : IVec S_ 1 := id main_call5_v1
  let main_v16 : IVec S64x4096 1 := ((fun x v => pad S64x4096 ![0, 0] ![0, 2] ![0, 0] x v pads_S64x4094_S64x4096_000_020 h_S_)) main_v15 main_call5_v2
  let main_v17 : FVec F S1 .f32 := (((extractStridedSlice S1 ![8] · slices_S10_S1_8) : (⟨S10, .f32⟩ : BufTy).Contents (Elt F) → (⟨S1, .f32⟩ : BufTy).Contents (Elt F))) main_cst
  let main_v18 : FVec F S_ .f32 := shapeCast S_ main_v17 shapeCasts_S1_S_
  let main_cst_5 : FVec F S_ .f32 := (constant S_ .f32 0x3F800000#32)
  let main_call6_v0 : FVec F S_ .f32 := id main_cst_5
  TW_part2 main_cst main_v6 main_v14 main_v16 main_v18 main_call6_v0

/-- The reference's temporal weight of every token, from the labels alone: a windowed maximum around every positive label. -/
def TW (main_arg1 : IVec S64x4096 32) : FVec F S64x4096 .f32 :=
  let main_cst : FVec F S10 .f32 := (fun i => FloatOps.ofBits .f32 (lit0 (S10.rowMajor i)))
  let main_c : IVec S_ 32 := (constantI S_ 32 0#32)
  let main_v5 : IVec S64x4096 32 := ((broadcastInDim S64x4096 ![] bcast_S_S64x4096 : (⟨S_, .i32⟩ : BufTy).Contents (Elt F) → (⟨S64x4096, .i32⟩ : BufTy).Contents (Elt F))) main_c
  let main_v6 : IVec S64x4096 1 := ((cmpi .sgt : (⟨S64x4096, .i32⟩ : BufTy).Contents (Elt F) → (⟨S64x4096, .i32⟩ : BufTy).Contents (Elt F) → (⟨S64x4096, .i1⟩ : BufTy).Contents (Elt F))) main_arg1 main_v5
  let main_cst_0 : FVec F S_ .f32 := (constant S_ .f32 0x40A00000#32)
  let main_cst_1 : FVec F S_ .f32 := (constant S_ .f32 0x3F800000#32)
  let main_call2_v0 : FVec F S64x4096 .f32 := ((broadcastInDim S64x4096 ![] bcast_S_S64x4096)) main_cst_0
  let main_call2_v1 : FVec F S64x4096 .f32 := ((broadcastInDim S64x4096 ![] bcast_S_S64x4096)) main_cst_1
  let main_v7 : FVec F S64x4096 .f32 := select main_v6 main_call2_v0 main_call2_v1
  let main_v8 : FVec F S64x4096 .f32 := ((id : (⟨S64x4096, .f32⟩ : BufTy).Contents (Elt F) → (⟨S64x4096, .f32⟩ : BufTy).Contents (Elt F))) main_v7
  let main_v9 : IVec S64x4095 1 := (((extractStridedSlice S64x4095 ![0, 1] · slices_S64x4096_S64x4095_0_1) : (⟨S64x4096, .i1⟩ : BufTy).Contents (Elt F) → (⟨S64x4095, .i1⟩ : BufTy).Contents (Elt F))) main_v6
  let main_c_2 : IVec S_ 32 := (constantI S_ 32 0#32)
  let main_call3_c : IVec S_ 32 := (constantI S_ 32 0#32)
  let main_call3_v0 : IVec S_ 32 := ((broadcastInDim S_ ![] bcast_S_S_)) main_call3_c
  let main_call3_v1 : IVec S_ 1 := ((cmpi .ne)) main_c_2 main_call3_v0
  let main_call3_v2 : IVec S_ 1 := id main_call3_v1
  let main_v10 : IVec S64x4096 1 := ((fun x v => pad S64x4096 ![0, 0] ![0, 1] ![0, 0] x v pads_S64x4095_S64x4096_000_010 h_S_)) main_v9 main_call3_v2
  let main_v11 : FVec F S1 .f32 := (((extractStridedSlice S1 ![9] · slices_S10_S1_9) : (⟨S10, .f32⟩ : BufTy).Contents (Elt F) → (⟨S1, .f32⟩ : BufTy).Contents (Elt F))) main_cst
  TW_part1 main_cst main_v6 main_v8 main_v10 main_v11

/-- The reference's result from the two arrays: their product summed over all tokens and divided by the token count. -/
def tail (main_v4 : FVec F S64x4096 .f32) (main_v263 : FVec F S64x4096 .f32) : FVec F S_ .f32 :=
  let main_v264 : FVec F S64x4096 .f32 := ((mulf : (⟨S64x4096, .f32⟩ : BufTy).Contents (Elt F) → (⟨S64x4096, .f32⟩ : BufTy).Contents (Elt F) → (⟨S64x4096, .f32⟩ : BufTy).Contents (Elt F))) main_v4 main_v263
  let main_cst_104 : FVec F S_ .f32 := (constant S_ .f32 0x00000000#32)
  let main_v265 : FVec F S_ .f32 := (((fun x v => Host.reduceAdd x v reducesTo_S64x4096_S_d0_1 h_S_) : (⟨S64x4096, .f32⟩ : BufTy).Contents (Elt F) → (⟨S_, .f32⟩ : BufTy).Contents (Elt F) → (⟨S_, .f32⟩ : BufTy).Contents (Elt F))) main_v264 main_cst_104
  let main_cst_105 : FVec F S_ .f32 := (constant S_ .f32 0x48800000#32)
  let main_v266 : FVec F S_ .f32 := ((Host.divf : (⟨S_, .f32⟩ : BufTy).Contents (Elt F) → (⟨S_, .f32⟩ : BufTy).Contents (Elt F) → (⟨S_, .f32⟩ : BufTy).Contents (Elt F))) main_v265 main_cst_105
  main_v266

/-- The reference's result as one function of its two arguments. -/
def refOut (main_arg0 : FVec F S64x4096x128 .f32) (main_arg1 : IVec S64x4096 32) : FVec F S_ .f32 :=
  tail (NLL main_arg0 main_arg1) (TW main_arg1)

end Cert.ReferenceIdeal.Terms

end
-- ==== Proof.LibReal.lean ====
/-
  Finite reals among the extended reals. At the ideal float instance a value is an extended real;
  the laws of real arithmetic (a variance as a mean of squares minus the squared mean, say) hold
  of the FINITE ones only. This module names the predicate "is the coercion of a real", shows it
  closed under the ideal operations a kernel and its reference are built from (sum, difference,
  product, finite sums, quotient by a nonzero real, exponential, maximum and its folds), and reads
  the four f32 words a program spells for 0, 524288, +∞ and -∞.
-/
import Idealize.ShloMosaic.PureOps.Ideal
import Idealize.ShloMosaic.PureOps.Ideal.Laws
import Mathlib.Data.EReal.Operations
import Mathlib.Data.EReal.Inv
import Mathlib.Data.Finset.Fold
import Mathlib.Algebra.BigOperators.Group.Finset.Basic
import Mathlib.Analysis.SpecialFunctions.Exp

noncomputable section

namespace Cert.LibReal

open Idealize.ShloMosaic
open scoped BigOperators

/-- `x` is a finite real: the image of some `r : ℝ` in the extended reals. -/
def IsReal (x : EReal) : Prop := ∃ r : ℝ, x = (r : EReal)

/-- `x` is a positive finite real. -/
def IsPosReal (x : EReal) : Prop := ∃ r : ℝ, 0 < r ∧ x = (r : EReal)

/-! ## The predicate -/

/-- The image of a real is a finite real. -/
theorem isReal_coe (r : ℝ) : IsReal (r : EReal) := ⟨r, rfl⟩

/-- Zero is a finite real. -/
theorem isReal_zero : IsReal 0 := ⟨0, EReal.coe_zero.symm⟩

/-- One is a finite real. -/
theorem isReal_one : IsReal 1 := ⟨1, EReal.coe_one.symm⟩

/-- A finite real is not `-∞`. -/
theorem IsReal.ne_bot {x : EReal} (hx : IsReal x) : x ≠ ⊥ := by
  obtain ⟨r, rfl⟩ := hx; exact EReal.coe_ne_bot r

/-- A finite real is not `+∞`. -/
theorem IsReal.ne_top {x : EReal} (hx : IsReal x) : x ≠ ⊤ := by
  obtain ⟨r, rfl⟩ := hx; exact EReal.coe_ne_top r

/-- The finite reals are exactly the extended reals other than the two infinities. -/
theorem isReal_iff {x : EReal} : IsReal x ↔ x ≠ ⊥ ∧ x ≠ ⊤ := by
  constructor
  · intro hx; exact ⟨hx.ne_bot, hx.ne_top⟩
  · rintro ⟨hb, ht⟩
    induction x using EReal.rec with
    | bot => exact absurd rfl hb
    | top => exact absurd rfl ht
    | coe r => exact ⟨r, rfl⟩

/-- A positive finite real is a finite real. -/
theorem IsPosReal.isReal {x : EReal} (hx : IsPosReal x) : IsReal x := by
  obtain ⟨r, _, rfl⟩ := hx; exact ⟨r, rfl⟩

/-- A positive finite real is above zero in the order of the extended reals. -/
theorem IsPosReal.pos {x : EReal} (hx : IsPosReal x) : 0 < x := by
  obtain ⟨r, hr, rfl⟩ := hx; exact EReal.coe_pos.mpr hr

/-- A positive finite real is not zero. -/
theorem IsPosReal.ne_zero {x : EReal} (hx : IsPosReal x) : x ≠ 0 := hx.pos.ne'

/-- The image of a positive real is a positive finite real. -/
theorem isPosReal_coe {r : ℝ} (hr : 0 < r) : IsPosReal (r : EReal) := ⟨r, hr, rfl⟩

/-! ## Sum, difference, product, negation -/

/-- The sum of two finite reals is a finite real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite reals is a finite real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite reals is a finite real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite real is a finite real. -/
theorem IsReal.neg {x : EReal} (hx : IsReal x) : IsReal (-x) := by
  obtain ⟨a, rfl⟩ := hx; exact ⟨-a, (EReal.coe_neg a).symm⟩

/-- The sum of two positive finite reals is a positive finite real. -/
theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

/-- The product of two positive finite reals is a positive finite real. -/
theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-! ## Finite sums -/

/-- The coercion of the reals into the extended reals commutes with a finite sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A finite sum of extended reals that are termwise the images of reals is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_finset_sum]; exact Finset.sum_congr rfl h

/-- A finite sum of finite reals is a finite real. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A sum over a finite type of finite reals is a finite real. -/
theorem IsReal.sum_univ {ι : Type*} [Fintype ι] (f : ι → EReal) (h : ∀ i, IsReal (f i)) :
    IsReal (∑ i, f i) :=
  IsReal.sum Finset.univ f fun i _ => h i

/-- A finite sum, over a nonempty index set, of positive finite reals is a positive finite real. -/
theorem IsPosReal.sum {ι : Type*} (s : Finset ι) (hs : s.Nonempty) (f : ι → EReal)
    (h : ∀ i ∈ s, IsPosReal (f i)) : IsPosReal (∑ i ∈ s, f i) := by
  classical
  induction s using Finset.induction_on with
  | empty => exact absurd hs Finset.not_nonempty_empty
  | insert a s ha ih =>
    rw [Finset.sum_insert ha]
    rcases s.eq_empty_or_nonempty with rfl | hne
    · rw [Finset.sum_empty, add_zero]; exact h a (Finset.mem_insert_self _ _)
    · exact (h a (Finset.mem_insert_self _ _)).add (ih hne fun i hi => h i (Finset.mem_insert_of_mem hi))

/-- A sum over a nonempty finite type of positive finite reals is a positive finite real, hence not zero. -/
theorem IsPosReal.sum_univ {ι : Type*} [Fintype ι] [Nonempty ι] (f : ι → EReal) (h : ∀ i, IsPosReal (f i)) :
    IsPosReal (∑ i, f i) :=
  IsPosReal.sum Finset.univ Finset.univ_nonempty f fun i _ => h i

/-! ## The ideal quotient -/

/-- The ideal quotient of two reals with a nonzero divisor is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The ideal quotient of a finite real by a nonzero real is a finite real. -/
theorem IsReal.div_coe {x : EReal} (hx : IsReal x) {b : ℝ} (hb : b ≠ 0) : IsReal (Ideal.div x (b : EReal)) := by
  obtain ⟨a, rfl⟩ := hx; exact ⟨a / b, div_coe_coe a hb⟩

/-- The ideal quotient of a finite real by a nonzero finite real is a finite real. -/
theorem IsReal.div {x y : EReal} (hx : IsReal x) (hy : IsReal y) (hy0 : y ≠ 0) : IsReal (Ideal.div x y) := by
  obtain ⟨b, rfl⟩ := hy
  exact hx.div_coe (EReal.coe_ne_zero.mp hy0)

/-- The ideal quotient of a finite real by a positive finite real is a finite real. -/
theorem IsReal.div_pos {x y : EReal} (hx : IsReal x) (hy : IsPosReal y) : IsReal (Ideal.div x y) :=
  hx.div hy.isReal hy.ne_zero

/-! ## The ideal exponential -/

/-- The ideal exponential of a finite real is a positive finite real. -/
theorem IsReal.exp_pos {x : EReal} (hx : IsReal x) : IsPosReal (Ideal.exp x) := by
  obtain ⟨a, rfl⟩ := hx; exact ⟨Real.exp a, Real.exp_pos a, Ideal.exp_coe a⟩

/-- The ideal exponential of a finite real is a finite real. -/
theorem IsReal.exp {x : EReal} (hx : IsReal x) : IsReal (Ideal.exp x) := hx.exp_pos.isReal

/-! ## Maximum, minimum, and a fold of the maximum from `-∞` -/

/-- The maximum of two finite reals is a finite real. -/
theorem IsReal.max {x y : EReal} (hx : IsReal x) (hy : IsReal y) : IsReal (max x y) := by
  rcases max_choice x y with h | h <;> rw [h] <;> assumption

/-- The minimum of two finite reals is a finite real. -/
theorem IsReal.min {x y : EReal} (hx : IsReal x) (hy : IsReal y) : IsReal (min x y) := by
  rcases min_choice x y with h | h <;> rw [h] <;> assumption

/-- A fold of the maximum from `-∞` over finite reals is `-∞` or a finite real, and a finite real as soon as
    the index set is nonempty. The operation is any one that IS the maximum (the order's `max`, or the ideal
    instance's `maximumf`, which carry different commutativity and associativity witnesses). -/
theorem fold_max_bot_aux {ι : Type*} (op : EReal → EReal → EReal) [Std.Commutative op] [Std.Associative op]
    (hop : ∀ x y, op x y = Max.max x y) (f : ι → EReal) (s : Finset ι) (h : ∀ i ∈ s, IsReal (f i)) :
    (s.fold op ⊥ f = ⊥ ∨ IsReal (s.fold op ⊥ f)) ∧ (s.Nonempty → IsReal (s.fold op ⊥ f)) := by
  classical
  induction s using Finset.induction_on with
  | empty => exact ⟨Or.inl Finset.fold_empty, fun hne => absurd hne Finset.not_nonempty_empty⟩
  | insert a s ha ih =>
    have hr : IsReal ((insert a s).fold op ⊥ f) := by
      rw [Finset.fold_insert ha, hop]
      rcases (ih fun i hi => h i (Finset.mem_insert_of_mem hi)).1 with hb | hb
      · rw [hb, max_eq_left bot_le]; exact h a (Finset.mem_insert_self _ _)
      · exact (h a (Finset.mem_insert_self _ _)).max hb
    exact ⟨Or.inr hr, fun _ => hr⟩

/-- The maximum of a nonempty finite family of finite reals, folded from `-∞`, is a finite real. -/
theorem IsReal.fold_max_bot {ι : Type*} (op : EReal → EReal → EReal) [Std.Commutative op] [Std.Associative op]
    (hop : ∀ x y, op x y = Max.max x y) (s : Finset ι) (hs : s.Nonempty) (f : ι → EReal)
    (h : ∀ i ∈ s, IsReal (f i)) : IsReal (s.fold op ⊥ f) :=
  (fold_max_bot_aux op hop f s h).2 hs

/-- The same for the order's own `max`. -/
theorem IsReal.fold_max {ι : Type*} (s : Finset ι) (hs : s.Nonempty) (f : ι → EReal)
    (h : ∀ i ∈ s, IsReal (f i)) : IsReal (s.fold Max.max ⊥ f) :=
  IsReal.fold_max_bot Max.max (fun _ _ => rfl) s hs f h

/-- The same for the ideal instance's `maximumf`, at any format. -/
theorem IsReal.fold_maximumf {φ : FTy} {ι : Type*} (s : Finset ι) (hs : s.Nonempty) (f : ι → Ideal φ)
    (h : ∀ i ∈ s, IsReal (f i)) :
    IsReal (s.fold (FloatOps.maximumf (F := Ideal) (φ := φ)) (⊥ : EReal) f) :=
  IsReal.fold_max_bot (FloatOps.maximumf (F := Ideal) (φ := φ)) (fun _ _ => rfl) s hs f h

/-- A fold of the maximum from a finite real over finite reals is a finite real, whatever the index set. -/
theorem IsReal.fold_max_of_isReal {ι : Type*} (op : EReal → EReal → EReal) [Std.Commutative op] [Std.Associative op]
    (hop : ∀ x y, op x y = Max.max x y) (s : Finset ι) (f : ι → EReal) {b : EReal} (hb : IsReal b)
    (h : ∀ i ∈ s, IsReal (f i)) : IsReal (s.fold op b f) := by
  classical
  induction s using Finset.induction_on with
  | empty => rw [Finset.fold_empty]; exact hb
  | insert a s ha ih =>
    rw [Finset.fold_insert ha, hop]
    exact (h a (Finset.mem_insert_self _ _)).max (ih fun i hi => h i (Finset.mem_insert_of_mem hi))

/-- Every member of the family is at most the fold of the maximum over it. -/
theorem le_fold_max {ι : Type*} (op : EReal → EReal → EReal) [Std.Commutative op] [Std.Associative op]
    (hop : ∀ x y, op x y = Max.max x y) (s : Finset ι) (f : ι → EReal) (b : EReal) {i : ι} (hi : i ∈ s) :
    f i ≤ s.fold op b f := by
  classical
  induction s using Finset.induction_on with
  | empty => exact absurd hi (Finset.notMem_empty i)
  | insert a s ha ih =>
    rw [Finset.fold_insert ha, hop]
    rcases Finset.mem_insert.mp hi with rfl | hi'
    · exact le_max_left _ _
    · exact (ih hi').trans (le_max_right _ _)

/-! ## Absolute value below `+∞` -/

/-- An extended real whose absolute value `max x (-x)` is below `+∞` is a finite real. -/
theorem isReal_of_abs_lt_top {x : EReal} (h : Max.max x (-x) < ⊤) : IsReal x := by
  induction x using EReal.rec with
  | bot => rw [EReal.neg_bot, max_eq_right bot_le] at h; exact absurd h (lt_irrefl _)
  | top => rw [max_eq_left le_top] at h; exact absurd h (lt_irrefl _)
  | coe r => exact ⟨r, rfl⟩

/-! ## Four f32 words -/

/-- The f32 word `0x00000000` denotes the real `0`. -/
theorem ofBits_zero : Ideal.ofBits .f32 0x00000000#32 = ((0 : ℝ) : EReal) := by
  rw [Ideal.ofBits_zero_f32, EReal.coe_zero]

/-- The f32 word `0x00000000` denotes a finite real. -/
theorem isReal_ofBits_zero : IsReal (Ideal.ofBits .f32 0x00000000#32) := ⟨0, ofBits_zero⟩

/-- The f32 word `0x49000000` denotes the real `524288 = 2^19`. -/
theorem ofBits_524288 : Ideal.ofBits .f32 0x49000000#32 = ((524288 : ℝ) : EReal) := by
  simp [Ideal.ofBits, Ideal.ieee, -EReal.coe_mul]; norm_num

/-- The real `524288` is not zero. -/
theorem real_524288_ne_zero : (524288 : ℝ) ≠ 0 := by norm_num

/-- The f32 word `0x7F800000` denotes `+∞`. -/
theorem ofBits_pos_inf : Ideal.ofBits .f32 0x7F800000#32 = ⊤ := by
  simp [Ideal.ofBits, Ideal.ieee]

/-- The f32 word `0xFF800000` denotes `-∞`. -/
theorem ofBits_neg_inf : Ideal.ofBits .f32 0xFF800000#32 = ⊥ := by
  simp [Ideal.ofBits, Ideal.ieee]

end Cert.LibReal

end
-- ==== Proof.PointMath.lean ====
/-
  The pointwise mathematics of a token's negative log-likelihood over a row of 128 logits.
  With m the maximum of the row x (folded from -∞) and s = Σ_c exp (x_c - m), the two spellings
  (m + log s) - x_k and -((x_k - m) - log s) of the negative log-likelihood of the label k agree.
  On the extended reals this is a law of the FINITE reals only: the module shows that m is a finite
  real, that s is a positive finite real (so log s is a finite real), and then reads both spellings
  as the same real number m + log s - x_k.
-/
import proofs.«419000_j32066225832748_3_alg».proof.Proof.LibReal
import Idealize.ShloMosaic.PureOps.Ideal
import Idealize.ShloMosaic.PureOps.Ideal.Laws
import Mathlib.Data.EReal.Operations
import Mathlib.Data.Finset.Fold
import Mathlib.Algebra.BigOperators.Group.Finset.Basic
import Mathlib.Analysis.SpecialFunctions.Log.Basic
import Mathlib.Tactic.Ring

noncomputable section

namespace Cert.PointMath

open Idealize.ShloMosaic Cert.LibReal
open scoped BigOperators

/-- the maximum of a row of 128 logits, folded from -∞ -/
def rowMax (r : Fin 128 → EReal) : EReal := (Finset.univ : Finset (Fin 128)).fold max (⊥ : EReal) r

/-- the sum of the exponentials of the row shifted by its maximum -/
def rowSumExp (r : Fin 128 → EReal) : EReal := ∑ c : Fin 128, Ideal.exp (r c - rowMax r)

/-- The maximum of a row of finite reals is a finite real: the row has 128 > 0 entries, so the fold
    from -∞ leaves -∞ at its first step and stays among the entries. -/
theorem isReal_rowMax (r : Fin 128 → EReal) (hr : ∀ c, IsReal (r c)) : IsReal (rowMax r) :=
  IsReal.fold_max Finset.univ Finset.univ_nonempty r fun c _ => hr c

/-- Taking the maximum with -∞ once more changes nothing: -∞ is the least extended real. -/
theorem max_bot_rowMax (r : Fin 128 → EReal) : max (⊥ : EReal) (rowMax r) = rowMax r :=
  max_eq_right bot_le

/-- Every entry of the row is at most the row's maximum. -/
theorem le_rowMax (r : Fin 128 → EReal) (c : Fin 128) : r c ≤ rowMax r :=
  le_fold_max max (fun _ _ => rfl) Finset.univ r ⊥ (Finset.mem_univ c)

/-- Each shifted entry x_c - m is a finite real when the row is. -/
theorem isReal_sub_rowMax (r : Fin 128 → EReal) (hr : ∀ c, IsReal (r c)) (c : Fin 128) :
    IsReal (r c - rowMax r) :=
  (hr c).sub (isReal_rowMax r hr)

/-- The sum s = Σ_c exp (x_c - m) over a row of finite reals is a positive finite real: each of
    its 128 terms is the exponential of a finite real, hence a positive finite real. -/
theorem isPosReal_rowSumExp (r : Fin 128 → EReal) (hr : ∀ c, IsReal (r c)) : IsPosReal (rowSumExp r) :=
  IsPosReal.sum_univ (fun c : Fin 128 => Ideal.exp (r c - rowMax r))
    fun c => (isReal_sub_rowMax r hr c).exp_pos

/-- The ideal logarithm of a positive finite real a is the finite real log a. -/
theorem log_coe_of_pos {a : ℝ} (ha : 0 < a) : Ideal.log (a : EReal) = ((Real.log a : ℝ) : EReal) := by
  rw [Ideal.log_coe, if_neg (not_le.mpr ha)]

/-- The ideal logarithm of a positive finite real is a finite real. -/
theorem isReal_log_of_isPosReal {x : EReal} (hx : IsPosReal x) : IsReal (Ideal.log x) := by
  obtain ⟨a, ha, rfl⟩ := hx
  exact ⟨Real.log a, log_coe_of_pos ha⟩

/-- log s is a finite real, s = Σ_c exp (x_c - m) being a positive finite real. -/
theorem isReal_log_rowSumExp (r : Fin 128 → EReal) (hr : ∀ c, IsReal (r c)) :
    IsReal (Ideal.log (rowSumExp r)) :=
  isReal_log_of_isPosReal (isPosReal_rowSumExp r hr)

/-- Summing a row against the indicator of one index k picks the entry x_k: every other term is 0. -/
theorem sum_ite_eq_pick (r : Fin 128 → EReal) (k : Fin 128) :
    (∑ c : Fin 128, if c = k then r c else (0 : EReal)) = r k := by
  rw [Finset.sum_ite_eq' Finset.univ k r, if_pos (Finset.mem_univ k)]

/-- For finite reals m, l, x the two spellings (m + l) - x and -((x - m) - l) are the same real. -/
theorem add_sub_eq_neg_sub_sub {m l x : EReal} (hm : IsReal m) (hl : IsReal l) (hx : IsReal x) :
    (m + l) - x = -((x - m) - l) := by
  obtain ⟨a, rfl⟩ := hm
  obtain ⟨b, rfl⟩ := hl
  obtain ⟨c, rfl⟩ := hx
  rw [← EReal.coe_add, ← EReal.coe_sub, ← EReal.coe_sub, ← EReal.coe_sub, ← EReal.coe_neg]
  exact congrArg _ (by ring)

/-- The two spellings of the negative log-likelihood of the label k agree on a row of finite reals:
    (m + log s) - x_k = -((x_k - m) - log s), with m the row's maximum and s = Σ_c exp (x_c - m);
    m, log s and x_k are finite reals, and both sides are the real m + log s - x_k. -/
theorem nll_forms_eq (r : Fin 128 → EReal) (hr : ∀ c, IsReal (r c)) (k : Fin 128) :
    (rowMax r + Ideal.log (rowSumExp r)) - r k = -((r k - rowMax r) - Ideal.log (rowSumExp r)) :=
  add_sub_eq_neg_sub_sub (isReal_rowMax r hr) (isReal_log_rowSumExp r hr) (hr k)

end Cert.PointMath

end
-- ==== Proof.Spec.lean ====
/-
  The per-token quantities both programs compute, as plain functions on the extended reals, and the kernel's
  output array as ONE function of the three arrays its windows stage.

  For a token (b, p) with logits row r = x[b, p, ·] and label word lab, the kernel stores
  ((max r + log Σ_c exp (r c - max r)) - Σ_c [c = lab] r c) · w[b, p]: the maximum plus the log-sum-exp of the shifted
  row, minus the label's logit picked out by a one-hot sum, times the token's temporal weight.
-/
import proofs.«419000_j32066225832748_3_alg».proof.Proof.PointMath
import Idealize.ShloMosaic.Lib.ValueIdx

noncomputable section

namespace Cert.Spec

open Idealize.ShloMosaic Idealize.ShloMosaic.ValueIdx Cert.PointMath
open scoped BigOperators

/-- The logits' shape: batch × positions × classes. -/
abbrev SX : Shape := ⟨3, ![64, 4096, 128]⟩
/-- The per-token shape: batch × positions. -/
abbrev ST : Shape := ⟨2, ![64, 4096]⟩

/-- The row of 128 logits of token (b, p). -/
def row (x : FVec Ideal SX .f32) (b : Fin 64) (p : Fin 4096) : Fin 128 → EReal := fun c => x (ix3 b p c)

/-- The kernel's form of a token's negative log-likelihood: the row maximum plus the logarithm of the sum of the
    shifted exponentials, minus the label's logit, picked by comparing every class number with the label word. -/
def nllK (r : Fin 128 → EReal) (lab : BitVec 32) : EReal :=
  (rowMax r + Ideal.log (rowSumExp r)) - ∑ c : Fin 128, if BitVec.ofNat 32 c.val = lab then r c else (0 : EReal)

/-- The label clamped into the class range [0, 127], word by word (signed maximum with 0, then signed minimum with 127). -/
def clipv (t : IVec ST 32) : IVec ST 32 := fun j => IntOp.minsi 127#32 (IntOp.maxsi 0#32 (t j))

/-- The kernel's output array: every token's negative log-likelihood, in the kernel's form, times its weight. -/
def Gk (x : FVec Ideal SX .f32) (tg : IVec ST 32) (tw : FVec Ideal ST .f32) : FVec Ideal ST .f32 :=
  fun j => nllK (row x (j 0) (j 1)) (tg j) * tw j

/-- The output array at token (b, p). -/
theorem Gk_apply (x : FVec Ideal SX .f32) (tg : IVec ST 32) (tw : FVec Ideal ST .f32) (b : Fin 64) (p : Fin 4096) :
    Gk x tg tw (ix2 b p) = nllK (row x b p) (tg (ix2 b p)) * tw (ix2 b p) := rfl

/-- Two distinct class numbers below 128 are distinct 32-bit words. -/
theorem ofNat_class_inj (c k : Fin 128) : BitVec.ofNat 32 c.val = BitVec.ofNat 32 k.val ↔ c = k := by
  constructor
  · intro h
    have := congrArg BitVec.toNat h
    simp only [BitVec.toNat_ofNat] at this
    have hc : c.val % 2 ^ 32 = c.val := Nat.mod_eq_of_lt (by omega)
    have hk : k.val % 2 ^ 32 = k.val := Nat.mod_eq_of_lt (by omega)
    exact Fin.ext (by omega)
  · rintro rfl; rfl

/-- With the label one of the 128 classes, the one-hot sum picks that class's logit: the kernel's form is the
    maximum plus the log-sum-exp minus the label's logit. -/
theorem nllK_label (r : Fin 128 → EReal) (k : Fin 128) :
    nllK r (BitVec.ofNat 32 k.val) = (rowMax r + Ideal.log (rowSumExp r)) - r k := by
  unfold nllK
  simp only [ofNat_class_inj]
  rw [sum_ite_eq_pick]

end Cert.Spec

end
-- ==== Proof.KernelHost.lean ====
/-
  The idealized kernel's host side, read back as values.

  Before the region the host computes, from the labels alone, the temporal weights (the same chain of shifted
  maxima the reference computes) and the labels clamped into the class range; the logits reach the region as launched.
  After the region the host sums the kernel's output array over all tokens and divides by the token count. So the
  program's result is that sum-and-divide of the output array the run leaves, and both arguments end as launched.
-/
import proofs.«419000_j32066225832748_3_alg».proof.Proof.KernelIdealFrameP
import proofs.«419000_j32066225832748_3_alg».proof.Proof.RefTerms
import proofs.«419000_j32066225832748_3_alg».proof.Proof.Spec
import Idealize.ShloMosaic.Lib.StableHlo.Run
import Idealize.ShloMosaic.Lib.Pipeline.Regions

set_option maxRecDepth 100000

noncomputable section

namespace Cert.KernelIdeal.HostVal

open Idealize.ShloMosaic Idealize.ShloMosaic.TcCoe Idealize.SL.Sem Idealize.ShloMosaic.StableHlo
open Cert.KernelIdeal Cert.KernelIdeal.Gen Cert.KernelIdeal.GenP

variable {F : FTy → Type} [FloatOps F]

variable (m : (ℓ : Loc nD τ sig) → Buf (Elt F) ℓ)

/-! ## The arrays the region finds -/

/-- Window 0 stages the logits, window 1 the clamped labels, window 2 the weights, window 3 the output. -/
theorem arrRef0 : Pipeline.arrRef spec0 0 = main_arg0 := rfl
theorem arrRef1 : Pipeline.arrRef spec0 1 = main_call0_v259 := rfl
theorem arrRef2 : Pipeline.arrRef spec0 2 = main_call0_v258 := rfl
theorem arrRef3 : Pipeline.arrRef spec0 3 = main_call0_v260 := rfl

/-- The logits reach the region as launched. -/
theorem arr0 (c : Dev nD) : V m c main_arg0 = m ((c.tc : Thread nD τ).loc main_arg0) := V_main_arg0 m c

/-- The labels reach the region clamped into the class range, word by word. -/
theorem arr1 (c : Dev nD) :
    V m c main_call0_v259 = Cert.Spec.clipv (m ((c.tc : Thread nD τ).loc main_arg1)) := by
  chain_rfl

/-- The weights the region finds are the reference's temporal weights of the launched labels: the two programs apply
    the same chain of host operations to the labels. -/
theorem arr2 (c : Dev nD) :
    V m c main_call0_v258 = Cert.ReferenceIdeal.Terms.TW (m ((c.tc : Thread nD τ).loc main_arg1)) := by
  chain_rfl

/-! ## The lines after the region -/

/-- The sum over all tokens divided by the token count. -/
def sumDiv (a : FVec F S64x4096 .f32) : FVec F S_ .f32 :=
  Host.divf (Host.reduceAdd a (constant S_ .f32 0x00000000#32) reducesTo_S64x4096_S_d0_1 h_S_) (constant S_ .f32 0x48800000#32)

/-- The reference ends with the same sum and quotient, of the product of its two arrays. -/
theorem sumDiv_mulf (n w : FVec F S64x4096 .f32) : sumDiv (mulf n w) = Cert.ReferenceIdeal.Terms.tail n w := rfl

/-- The result buffer after the lines that follow the region: the sum-and-divide of the output array the run leaves. -/
theorem tail_val (c : Dev nD) :
    Pipeline.afterTail₀ cfgs (dats m) 0 (V0 m) [hostOps1] c main_v0 = sumDiv ((dats m 0 c).arrAt 3 cfg0.N) := by
  unfold Pipeline.afterTail₀ sumDiv
  show StableHlo.after hostOps1 _ (Proc.devRef .tc main_v0) = _
  after_results
  simp only [TRef.ofBuf, TRef.toBuf, cast_eq]
  exact congrArg (fun a => Host.divf (Host.reduceAdd a (constant S_ .f32 0x00000000#32) reducesTo_S64x4096_S_d0_1 h_S_)
      (constant S_ .f32 0x48800000#32))
    (Pipeline.withArrays_arr (cfgs 0).spec launch0.win.arr_inj c (V0 m c) (fun w => (dats m 0 c).arrAt w (cfgs 0).N) 3)

/-! ## The run, with the result named -/

/-- On every device, from any memory with zero counters: every weakly fair execution of the idealized kernel's @main
    terminates with the result buffer at the sum-and-divide of the output array the region leaves, and both arguments
    as launched. -/
theorem run (ρ : Dev nD → PrngReg) :
    θ_run defs (onTc (τ := τ) (main (F := F))) ⟨m, fun _ => 0, ρ⟩ fun r => ∀ c : Dev nD,
      r.2.mem ((c.tc : Thread nD τ).loc main_v0) = sumDiv ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v0 (Pipeline.mem_restRefs_of main_v0 (by decide) (by decide))).trans (tail_val m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.HostVal

end
-- ==== Proof.KernelBlocks.lean ====
/-
  From blocks to the array, for the idealized kernel: the output array after the kernel's run is one
  whole-array function of the three arrays its input windows stage.

  The grid has 16 points; at point t each window holds the block of 256 consecutive positions 256 t … 256 t + 255
  (all 64 batch rows; for the logits, all 128 classes) of its array. The body stores, at token (b, r) of the block,
  the token's negative log-likelihood in the kernel's form times its weight, computed from the three input blocks.
  A block's coordinate in its array is the block index times the block size plus the coordinate inside the block,
  so token (b, r) of block t is token (b, 256 t + r) of the arrays, and the stored value is the array function
  Gk at that token. The 16 output blocks cover the array (column p is in block p / 256), hence the array ends
  holding Gk of the three arrays.
-/
import proofs.«419000_j32066225832748_3_alg».proof.Proof.KernelIdealFrameP
import proofs.«419000_j32066225832748_3_alg».proof.Proof.Spec
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem Cert.KernelIdeal Cert.KernelIdeal.Gen Cert.KernelIdeal.GenP Cert.Spec
open Idealize.ShloMosaic.Pipeline (Dat Cfg Window)

variable (m : (ℓ : Loc nD τ sig) → Buf (Elt Ideal) ℓ)

/-- the stored value at a token of a block, as another module proves it: the token's negative log-likelihood in the
    kernel's form times its weight -/
def PayFact : Prop := ∀ (i : grid0.Coords) (v0 : Vec Ideal S64x256x128 .f32) (v1 : Vec Ideal S64x256 .i32) (v28 : Vec Ideal S64x256 .f32) (b : Fin 64) (r : Fin 256),
    k0_pay1 (F := Ideal) i v0 v1 v28 (ix2 b r) = nllK (fun c => v0 (ix3 b r c)) (v1 (ix2 b r)) * v28 (ix2 b r)

/-- the three arrays the region finds, at their literal types -/
abbrev xarr (c : Dev nD) : FVec Ideal SX .f32 := V m c (Pipeline.arrRef spec0 0)
abbrev garr (c : Dev nD) : IVec ST 32 := V m c (Pipeline.arrRef spec0 1)
abbrev warr (c : Dev nD) : FVec Ideal ST .f32 := V m c (Pipeline.arrRef spec0 2)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: every window's block index at point t is t along the positions
    and 0 along the other axes. -/
theorem idx_facts : ∀ t : Fin cfg0.N,
    win0_3.index t (0 : Fin 2) = 0 ∧ win0_3.index t (1 : Fin 2) = t.val
    ∧ win0_0.index t (0 : Fin 3) = 0 ∧ win0_0.index t (1 : Fin 3) = t.val ∧ win0_0.index t (2 : Fin 3) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Position r of block t is position 256 t + r of the arrays. -/
def pos (t : Fin cfg0.N) (r : Fin 256) : Fin 4096 :=
  ⟨t.val * 256 + r.val, by have h := t.isLt; have hN : cfg0.N = 16 := N_0; have hr := r.isLt; omega⟩

theorem pos_val (t : Fin cfg0.N) (r : Fin 256) : (pos t r).val = t.val * 256 + r.val := rfl

/-- Two functions on a block of tokens that agree at every token (b, r) are equal. -/
theorem funext_blk {α : Type} {f g : S64x256.Idx → α} (h : ∀ (b : Fin 64) (r : Fin 256), f (ix2 b r) = g (ix2 b r)) : f = g :=
  funext fun y => by rw [eq_ix2 y]; exact h _ _

/-- Token (b, r) of the output's block at point t sits in the array at token (b, 256 t + r). -/
theorem emb3 (t : Fin cfg0.N) (b : Fin 64) (r : Fin 256) :
    ((cfg0.win 3).blk t).view.emb (ix2 b r) = (ix2 b (pos t r) : ST.Idx) := by
  obtain ⟨e0, e1, -⟩ := idx_facts t
  funext a; apply Fin.ext
  match a with
  | ⟨0, _⟩ => show win0_3.index t (0 : Fin 2) * 64 + 1 * b.val = b.val; rw [e0]; omega
  | ⟨1, _⟩ => show win0_3.index t (1 : Fin 2) * 256 + 1 * r.val = t.val * 256 + r.val; rw [e1]; omega

/-- Entry (b, r, k) of the logits' block at point t sits in the array at (b, 256 t + r, k). -/
theorem emb0 (t : Fin cfg0.N) (b : Fin 64) (r : Fin 256) (k : Fin 128) :
    ((cfg0.win 0).blk t).view.emb (ix3 b r k) = (ix3 b (pos t r) k : SX.Idx) := by
  obtain ⟨-, -, e0, e1, e2, -⟩ := idx_facts t
  funext a; apply Fin.ext
  match a with
  | ⟨0, _⟩ => show win0_0.index t (0 : Fin 3) * 64 + 1 * b.val = b.val; rw [e0]; omega
  | ⟨1, _⟩ => show win0_0.index t (1 : Fin 3) * 256 + 1 * r.val = t.val * 256 + r.val; rw [e1]; omega
  | ⟨2, _⟩ => show win0_0.index t (2 : Fin 3) * 128 + 1 * k.val = k.val; rw [e2]; omega

/-- Token (b, r) of the labels' block at point t sits in the array at token (b, 256 t + r). -/
theorem emb1 (t : Fin cfg0.N) (b : Fin 64) (r : Fin 256) :
    ((cfg0.win 1).blk t).view.emb (ix2 b r) = (ix2 b (pos t r) : ST.Idx) := by
  obtain ⟨-, -, -, -, -, e0, e1, -⟩ := idx_facts t
  funext a; apply Fin.ext
  match a with
  | ⟨0, _⟩ => show win0_1.index t (0 : Fin 2) * 64 + 1 * b.val = b.val; rw [e0]; omega
  | ⟨1, _⟩ => show win0_1.index t (1 : Fin 2) * 256 + 1 * r.val = t.val * 256 + r.val; rw [e1]; omega

/-- Token (b, r) of the weights' block at point t sits in the array at token (b, 256 t + r). -/
theorem emb2 (t : Fin cfg0.N) (b : Fin 64) (r : Fin 256) :
    ((cfg0.win 2).blk t).view.emb (ix2 b r) = (ix2 b (pos t r) : ST.Idx) := by
  obtain ⟨-, -, -, -, -, -, -, e0, e1⟩ := idx_facts t
  funext a; apply Fin.ext
  match a with
  | ⟨0, _⟩ => show win0_2.index t (0 : Fin 2) * 64 + 1 * b.val = b.val; rw [e0]; omega
  | ⟨1, _⟩ => show win0_2.index t (1 : Fin 2) * 256 + 1 * r.val = t.val * 256 + r.val; rw [e1]; omega

/-- The logits' block at point t, entry by entry, is the array's. -/
theorem iblk0_apply (c : Dev nD) (t : Fin cfg0.N) (b : Fin 64) (r : Fin 256) (k : Fin 128) :
    (iblk m c 0 t : Vec Ideal S64x256x128 .f32) (ix3 b r k) = xarr m c (ix3 b (pos t r) k) := by
  unfold iblk
  show V m c (Pipeline.arrRef spec0 0) (((cfg0.win 0).blk t).view.emb (ix3 b r k)) = V m c (Pipeline.arrRef spec0 0) (ix3 b (pos t r) k)
  exact congrArg _ (emb0 t b r k)

/-- The labels' block at point t, token by token, is the array's. -/
theorem iblk1_apply (c : Dev nD) (t : Fin cfg0.N) (b : Fin 64) (r : Fin 256) :
    (iblk m c 1 t : Vec Ideal S64x256 .i32) (ix2 b r) = garr m c (ix2 b (pos t r)) := by
  unfold iblk
  show V m c (Pipeline.arrRef spec0 1) (((cfg0.win 1).blk t).view.emb (ix2 b r)) = V m c (Pipeline.arrRef spec0 1) (ix2 b (pos t r))
  exact congrArg _ (emb1 t b r)

/-- The weights' block at point t, token by token, is the array's. -/
theorem iblk2_apply (c : Dev nD) (t : Fin cfg0.N) (b : Fin 64) (r : Fin 256) :
    (iblk m c 2 t : Vec Ideal S64x256 .f32) (ix2 b r) = warr m c (ix2 b (pos t r)) := by
  unfold iblk
  show V m c (Pipeline.arrRef spec0 2) (((cfg0.win 2).blk t).view.emb (ix2 b r)) = V m c (Pipeline.arrRef spec0 2) (ix2 b (pos t r))
  exact congrArg _ (emb2 t b r)

/-- What point t writes back is block t of the kernel's function of the three arrays. -/
theorem flushed_eq (hpay : PayFact) (c : Dev nD) (t : Fin cfg0.N) :
    (dats m 0 c).flushed 3 t = ((cfg0.win 3).blk t).view.read (Elt Ideal) (Gk (xarr m c) (garr m c) (warr m c)) := by
  show (cfg0.win 3).cut (grid0.coords t) ((dats m 0 c).after 3 t) = _
  rw [after0_3]
  unfold out0_3
  rw [View.canon_unit_zero hz2]
  simp only [View.ld_unit_zero (S := S64x256) hz2, View.ld_unit_zero (S := S64x256x128) hz3]
  refine funext_blk fun b r => ?_
  show k0_pay1 (grid0.coords t) (iblk m c 0 t) (iblk m c 1 t) (iblk m c 2 t) (ix2 b r)
    = Gk (xarr m c) (garr m c) (warr m c) (((cfg0.win 3).blk t).view.emb (ix2 b r))
  refine (hpay (grid0.coords t) (iblk m c 0 t) (iblk m c 1 t) (iblk m c 2 t) b r).trans ?_
  rw [emb3 t b r, Gk_apply]
  exact congrArg₂ (· * ·)
    (congrArg₂ nllK (funext fun k => iblk0_apply m c t b r k) (iblk1_apply m c t b r))
    (iblk2_apply m c t b r)

/-- An index of the array is in point t's block iff each coordinate is in the block's range on its axis. -/
theorem mem_blk (t : Fin cfg0.N) (i : S64x4096.Idx) :
    i ∈ ((cfg0.win 3).blk t).view.set ↔ ∀ a : Fin 2, win0_3.index t a * S64x256.size a ≤ (i a).val ∧ (i a).val < win0_3.index t a * S64x256.size a + S64x256.size a := by
  show i ∈ ((View.whole main_call0_v260).slice (win0_3.rect t)).set ↔ _
  rw [View.set_slice_whole, Rect.mem_set_unit]
  exact Iff.rfl

/-- Every token of the array is in some point's block: position p is in block p / 256. -/
theorem cover (i : S64x4096.Idx) : ∃ t : Fin cfg0.N, (cfg0.win 3).flush t = true ∧ i ∈ ((cfg0.win 3).blk t).view.set := by
  have hi0 : (i 0).val < 64 := (i 0).isLt
  have hi1 : (i 1).val < 4096 := (i 1).isLt
  have hN : cfg0.N = 16 := N_0
  obtain ⟨t, ht⟩ : ∃ t : Fin cfg0.N, t.val = (i 1).val / 256 := ⟨⟨(i 1).val / 256, by rw [hN]; omega⟩, rfl⟩
  obtain ⟨e0, e1, -⟩ := idx_facts t
  refine ⟨t, flush0_3 t, ?_⟩
  rw [mem_blk]
  intro a
  match a with
  | ⟨0, _⟩ => show win0_3.index t (0 : Fin 2) * 64 ≤ (i 0).val ∧ (i 0).val < win0_3.index t (0 : Fin 2) * 64 + 64; rw [e0]; omega
  | ⟨1, _⟩ => show win0_3.index t (1 : Fin 2) * 256 ≤ (i 1).val ∧ (i 1).val < win0_3.index t (1 : Fin 2) * 256 + 256; rw [e1, ht]; omega

/-- the output array after the run is the kernel's one function of the three arrays -/
theorem final (hpay : PayFact) (c : Dev nD) : (dats m 0 c).arrAt 3 cfg0.N = Gk (xarr m c) (garr m c) (warr m c) :=
  (dats m 0 c).arrAt_eq_of_cover 3 (Gk (xarr m c) (garr m c) (warr m c)) (fun t _ => flushed_eq m hpay c t) cover

/-- info: 'Cert.KernelIdeal.Blocks.final' depends on axioms: [propext, Classical.choice, Quot.sound] -/
#guard_msgs in #print axioms final

end Cert.KernelIdeal.Blocks

end
-- ==== Proof.KernelPayload.lean ====
/-
  The kernel body's stored value READ AT AN INDEX, at the ideal instance (floats are extended reals).

  The body of the one grid region computes, for the block of logits x : [64, 256, 128], the block of labels
  t : [64, 256] and the block of weights w : [64, 256], the array whose element at token (b, r) is
  ((max_c x[b,r,c] + log Σ_c exp (x[b,r,c] - max_c x[b,r,c])) - Σ_c [c = t[b,r]] x[b,r,c]) · w[b,r].
  The module reads the body's one pure term at the index (b, r): the pointwise operations read through, each
  layout operation (the keepdims column [a,b] → [a,b,1] and back, the broadcast of a column along the class axis)
  reads one element of its operand, the two lane sums are sums over the 128 classes and the lane maximum is the fold
  of max from -∞ over them, and the final select on "position < 4096" always takes its first operand, the position
  being 256 · (grid coordinate) + r with the grid coordinate below 16 and r below 256.
-/
import proofs.«419000_j32066225832748_3_alg».proof.Proof.Gen.KernelIdeal.Skeleton
import proofs.«419000_j32066225832748_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Spec Cert.PointMath
open scoped BigOperators

/-! ## The layout operations of the body, read at an index -/

section Layout
variable {α : Type}

/-- An [a, b] array cast to the keepdims column [a, b, 1] reads, at (i, j, u), the operand at (i, j): the two
    row-major positions are (i·b + j)·1 + u and i·b + j, and u = 0. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A keepdims column [a, b, 1] cast back to [a, b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- A keepdims column [a, b, 1] broadcast along the last axis to [a, b, c] reads, at (i, j, k), the column's
    element (i, j, 0). -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## The index over (b, r) with the class c inserted -/

/-- The source index of the class-axis reductions over the token (b, r) at class c is (b, r, c). -/
theorem lift_ix2 (h : S64x256x128.Reduces [2] S64x256) (b : Fin 64) (r : Fin 256) (c : Fin 128) :
    h.lift (ix2 b r) c = ix3 b r c := by
  funext ax
  match ax with
  | ⟨0, _⟩ => exact Fin.ext rfl
  | ⟨1, _⟩ => exact Fin.ext rfl
  | ⟨2, _⟩ => exact Fin.ext rfl

/-! ## The bit pattern of -∞ -/

/-- The pattern 0xFF800000 is f32's -∞. -/
theorem ofBits_neg_inf : Ideal.ofBits .f32 0xFF800000#32 = (⊥ : EReal) := by
  simp [Ideal.ofBits, Ideal.ieee]

/-! ## The body's non-pointwise pieces, named -/

/-- The label's logit picked by a one-hot select and summed over the class axis. -/
def pickV (v0 : Vec Ideal S64x256x128 .f32) (v1 : Vec Ideal S64x256 .i32) : FVec Ideal S64x256 .f32 :=
  multiReduction (F := Ideal) .add [2] S64x256
    (select (cmpi .eq (iota .tc S64x256x128 32 [2] iota_S64x256x128_d2_w32)
        (broadcastTo S64x256x128 (shapeCast S64x256x1 (shapeCast S64x256 v1 shapeCasts_S64x256_S64x256) shapeCasts_S64x256_S64x256x1)
          broadcasts_S64x256x1_S64x256x128))
      v0 (broadcast S64x256x128 (Scalar.ofBits (F := Ideal) .f32 0x00000000#32)))
    0x00000000#32 reduces_S64x256x128_S64x256 (.inl rfl) rfl

/-- The class-axis maximum, folded from -∞. -/
def maxV (v0 : Vec Ideal S64x256x128 .f32) : FVec Ideal S64x256 .f32 :=
  multiReduction (F := Ideal) .maximumf [2] S64x256 v0 0xFF800000#32 reduces_S64x256x128_S64x256 (.inl rfl) rfl

/-- The maximum as a keepdims column. -/
def maxC (v0 : Vec Ideal S64x256x128 .f32) : FVec Ideal S64x256x1 .f32 :=
  shapeCast S64x256x1 (maxV v0) shapeCasts_S64x256_S64x256x1

/-- The class-axis sum of the exponentials of the block shifted by its maximum. -/
def sumV (v0 : Vec Ideal S64x256x128 .f32) : FVec Ideal S64x256 .f32 :=
  multiReduction (F := Ideal) .add [2] S64x256
    (exp (subf v0 (broadcastTo S64x256x128 (maxC v0) broadcasts_S64x256x1_S64x256x128)))
    0x00000000#32 reduces_S64x256x128_S64x256 (.inl rfl) rfl

/-- The token's negative log-likelihood in the kernel's form, as a keepdims column: the maximum plus the logarithm of
    the sum of the shifted exponentials, minus the one-hot sum. -/
def nllC (v0 : Vec Ideal S64x256x128 .f32) (v1 : Vec Ideal S64x256 .i32) : FVec Ideal S64x256x1 .f32 :=
  subf (addf (maxC v0) (log (shapeCast S64x256x1 (sumV v0) shapeCasts_S64x256_S64x256x1)))
    (shapeCast S64x256x1 (pickV v0 v1) shapeCasts_S64x256_S64x256x1)

/-- The test "position < 4096", the position being 256 · (grid coordinate) + (the index's second coordinate). -/
def validV (i : grid0.Coords) : IVec S64x256 1 :=
  cmpi .slt (addi (broadcast S64x256 (Scalar.muli (BitVec.ofNat 32 (i 0).val) 256#32)) (iota .tc S64x256 32 [1] iota_S64x256_d1_w32))
    (broadcast S64x256 4096#32)

/-- The body's term over the named pieces: the definitions unfold to the same term. -/
theorem k0_pay1_eq (i : grid0.Coords) (v0 : Vec Ideal S64x256x128 .f32) (v1 : Vec Ideal S64x256 .i32) (v28 : Vec Ideal S64x256 .f32) :
    k0_pay1 (F := Ideal) i v0 v1 v28
      = select (validV i)
          (mulf (shapeCast S64x256 (nllC v0 v1) shapeCasts_S64x256x1_S64x256)
            (shapeCast S64x256 v28 shapeCasts_S64x256_S64x256))
          (broadcast S64x256 (Scalar.ofBits (F := Ideal) .f32 0x00000000#32)) := rfl

/-! ## Each piece read at the token (b, r) -/

/-- The class-axis sum of a block at the token (b, r) is the sum over the 128 classes c of its elements (b, r, c). -/
theorem sum_classes_apply (src : FVec Ideal S64x256x128 .f32) (b : Fin 64) (r : Fin 256) :
    multiReduction (F := Ideal) .add [2] S64x256 src 0x00000000#32 reduces_S64x256x128_S64x256 (.inl rfl) rfl (ix2 b r)
      = ∑ c : Fin 128, src (ix3 b r c) :=
  (Ideal.multiReduction_add_single src _ reduces_S64x256x128_S64x256 (.inl rfl) rfl (ix2 b r)).trans
    (Finset.sum_congr rfl fun c _ => congrArg src (lift_ix2 reduces_S64x256x128_S64x256 b r c))

/-- The one-hot sum at (b, r): the sum over the classes c of the logit (b, r, c) where the class number, as a
    32-bit word, equals the label word, and of 0 elsewhere. -/
theorem pickV_apply (v0 : Vec Ideal S64x256x128 .f32) (v1 : Vec Ideal S64x256 .i32) (b : Fin 64) (r : Fin 256) :
    pickV v0 v1 (ix2 b r)
      = ∑ c : Fin 128, if BitVec.ofNat 32 c.val = v1 (ix2 b r) then v0 (ix3 b r c) else (0 : EReal) := by
  unfold pickV
  refine (sum_classes_apply _ b r).trans ?_
  refine Finset.sum_congr rfl fun c _ => ?_
  rw [select_apply, broadcast_apply]
  show Scalar.select (IntOp.cmpi .eq (iota .tc S64x256x128 32 [2] iota_S64x256x128_d2_w32 (ix3 b r c))
      (broadcastTo S64x256x128 (shapeCast S64x256x1 (shapeCast S64x256 v1 shapeCasts_S64x256_S64x256) shapeCasts_S64x256_S64x256x1)
        broadcasts_S64x256x1_S64x256x128 (ix3 b r c)))
      (v0 (ix3 b r c)) (Ideal.ofBits .f32 0x00000000#32) = _
  rw [iota_single_apply, broadcastTo_ab1_abc_apply, shapeCast_ab_ab1_apply, shapeCast_self, Ideal.ofBits_zero_f32]
  show Scalar.select (IntOp.cmpi .eq (BitVec.ofNat 32 c.val) (v1 (ix2 b r))) (v0 (ix3 b r c)) 0 = _
  by_cases h : BitVec.ofNat 32 c.val = v1 (ix2 b r)
  · simp [Scalar.select, IntOp.cmpi, h]
  · have hb : (BitVec.ofNat 32 c.val == v1 (ix2 b r)) = false := beq_eq_false_iff_ne.mpr h
    rw [if_neg h]
    show (if BitVec.ofBool (BitVec.ofNat 32 c.val == v1 (ix2 b r)) = 1#1 then v0 (ix3 b r c) else (0 : EReal)) = 0
    rw [hb]
    exact if_neg (by decide)

/-- The class-axis maximum at (b, r) is the maximum of the row of logits of (b, r), folded from -∞. -/
theorem maxV_apply (v0 : Vec Ideal S64x256x128 .f32) (b : Fin 64) (r : Fin 256) :
    maxV v0 (ix2 b r) = rowMax (fun c => v0 (ix3 b r c)) := by
  unfold maxV
  refine (Ideal.multiReduction_maximumf_single v0 _ reduces_S64x256x128_S64x256 (.inl rfl) rfl (ix2 b r)).trans ?_
  have hf : (v0 ∘ reduces_S64x256x128_S64x256.lift (ix2 b r)) = fun c : Fin 128 => v0 (ix3 b r c) :=
    funext fun c => congrArg v0 (lift_ix2 reduces_S64x256x128_S64x256 b r c)
  show (Finset.univ : Finset (Fin 128)).fold max (Ideal.ofBits .f32 0xFF800000#32)
      (v0 ∘ reduces_S64x256x128_S64x256.lift (ix2 b r)) = _
  rw [hf, ofBits_neg_inf]
  rfl

/-- The maximum's keepdims column at (b, r, u) is the maximum at (b, r). -/
theorem maxC_apply (v0 : Vec Ideal S64x256x128 .f32) (b : Fin 64) (r : Fin 256) (u : Fin 1) :
    maxC v0 (ix3 b r u) = rowMax (fun c => v0 (ix3 b r c)) :=
  (shapeCast_ab_ab1_apply (maxV v0) shapeCasts_S64x256_S64x256x1 b r u).trans (maxV_apply v0 b r)

/-- The sum of the shifted exponentials at (b, r) is that of the row of logits of (b, r). -/
theorem sumV_apply (v0 : Vec Ideal S64x256x128 .f32) (b : Fin 64) (r : Fin 256) :
    sumV v0 (ix2 b r) = rowSumExp (fun c => v0 (ix3 b r c)) := by
  unfold sumV
  refine (sum_classes_apply _ b r).trans ?_
  unfold rowSumExp
  refine Finset.sum_congr rfl fun c _ => ?_
  show Ideal.exp (v0 (ix3 b r c) - broadcastTo S64x256x128 (maxC v0) broadcasts_S64x256x1_S64x256x128 (ix3 b r c)) = _
  exact congrArg (fun m => Ideal.exp (v0 (ix3 b r c) - m))
    ((broadcastTo_ab1_abc_apply (maxC v0) broadcasts_S64x256x1_S64x256x128 b r c).trans (maxC_apply v0 b r 0))

/-- A logarithm at an index is the ideal logarithm of the element. -/
theorem log_at {s : Shape} (a : FVec Ideal s .f32) (j : s.Idx) : log a j = Ideal.log (a j) := rfl

/-- The column at (b, r, u) is the kernel's form of the negative log-likelihood of the token (b, r). -/
theorem nllC_apply (v0 : Vec Ideal S64x256x128 .f32) (v1 : Vec Ideal S64x256 .i32) (b : Fin 64) (r : Fin 256) (u : Fin 1) :
    nllC v0 v1 (ix3 b r u) = nllK (fun c => v0 (ix3 b r c)) (v1 (ix2 b r)) := by
  have h1 : maxC v0 (ix3 b r u) = rowMax (fun c => v0 (ix3 b r c)) := maxC_apply v0 b r u
  have h2 : shapeCast S64x256x1 (sumV v0) shapeCasts_S64x256_S64x256x1 (ix3 b r u) = rowSumExp (fun c => v0 (ix3 b r c)) :=
    (shapeCast_ab_ab1_apply (sumV v0) shapeCasts_S64x256_S64x256x1 b r u).trans (sumV_apply v0 b r)
  have h3 : shapeCast S64x256x1 (pickV v0 v1) shapeCasts_S64x256_S64x256x1 (ix3 b r u)
      = ∑ c : Fin 128, if BitVec.ofNat 32 c.val = v1 (ix2 b r) then v0 (ix3 b r c) else (0 : EReal) :=
    (shapeCast_ab_ab1_apply (pickV v0 v1) shapeCasts_S64x256_S64x256x1 b r u).trans (pickV_apply v0 v1 b r)
  unfold nllC nllK
  rw [subf_apply, addf_apply, log_at, h1, h2, h3]

/-- A position 256·g + r with g below 16 and r below 256 is below 4096 as a signed 32-bit word. -/
theorem pos_slt (g r : ℕ) (hg : g < 16) (hr : r < 256) :
    (BitVec.ofNat 32 g * 256#32 + BitVec.ofNat 32 r).slt 4096#32 = true := by
  have hn : (BitVec.ofNat 32 g * 256#32 + BitVec.ofNat 32 r).toNat = g * 256 + r := by
    simp only [BitVec.toNat_add, BitVec.toNat_mul, BitVec.toNat_ofNat]
    omega
  have hi : (BitVec.ofNat 32 g * 256#32 + BitVec.ofNat 32 r).toInt = ((g * 256 + r : ℕ) : ℤ) := by
    rw [BitVec.toInt_eq_toNat_of_lt (by omega), hn]
  have h4 : (4096#32 : BitVec 32).toInt = 4096 := by decide
  rw [BitVec.slt_eq_decide, hi, h4]
  exact decide_eq_true (by omega)

/-- The position test holds at every index of every grid point's block. -/
theorem validV_apply (i : grid0.Coords) (b : Fin 64) (r : Fin 256) : validV i (ix2 b r) = 1#1 := by
  have hg : (i 0).val < 16 := (i 0).isLt
  show IntOp.cmpi .slt (IntOp.addi (IntOp.muli (BitVec.ofNat 32 (i 0).val) 256#32) (iota .tc S64x256 32 [1] iota_S64x256_d1_w32 (ix2 b r))) 4096#32 = 1#1
  rw [iota_single_apply]
  show BitVec.ofBool ((BitVec.ofNat 32 (i 0).val * 256#32 + BitVec.ofNat 32 r.val).slt 4096#32) = 1#1
  rw [pos_slt _ _ hg r.isLt]
  rfl

/-- The select on the position test, read at (b, r), is its first operand there. -/
theorem select_validV_apply (i : grid0.Coords) (a z : FVec Ideal S64x256 .f32) (b : Fin 64) (r : Fin 256) :
    select (validV i) a z (ix2 b r) = a (ix2 b r) :=
  (select_apply (validV i) a z (ix2 b r)).trans
    ((congrArg (fun c => Scalar.select c (a (ix2 b r)) (z (ix2 b r))) (validV_apply i b r)).trans (select_one _ _))

/-! ## The stored value at a token -/

/-- the stored value at token (b, r) of the block at grid point i: the token's negative log-likelihood in the kernel's form, times its weight -/
theorem pay_apply (i : grid0.Coords) (v0 : Vec Ideal S64x256x128 .f32) (v1 : Vec Ideal S64x256 .i32) (v28 : Vec Ideal S64x256 .f32) (b : Fin 64) (r : Fin 256) :
    k0_pay1 (F := Ideal) i v0 v1 v28 (ix2 b r) = nllK (fun c => v0 (ix3 b r c)) (v1 (ix2 b r)) * v28 (ix2 b r) := by
  refine (congrFun (k0_pay1_eq i v0 v1 v28) (ix2 b r)).trans ?_
  refine (select_validV_apply i _ _ b r).trans ?_
  refine (mulf_apply _ _ (ix2 b r)).trans ?_
  exact congrArg₂ (fun x y : EReal => x * y)
    ((shapeCast_ab1_ab_apply (nllC v0 v1) shapeCasts_S64x256x1_S64x256 b r).trans (nllC_apply v0 v1 b r 0))
    (congrFun (shapeCast_self v28 shapeCasts_S64x256_S64x256) (ix2 b r))

end Cert.KernelIdeal.Pay

end
-- ==== Proof.RefOps.lean ====
/- The reference program's @main as ONE list of its 572 host operations, each callee's body inlined at its call
   site over that call's buffers, in program order; and that each operation touches TensorCore references only. -/
import proofs.«419000_j32066225832748_3_alg».proof.Proof.Gen.ReferenceIdeal
import Idealize.ShloMosaic.Lib.StableHlo.Run

noncomputable section

namespace Cert.ReferenceIdeal.Host

open Cert.ReferenceIdeal Cert.ReferenceIdeal.Facts₀ Cert.ReferenceIdeal.Facts Idealize.ShloMosaic Idealize.SL.Sem

variable {F : FTy → Type} [FloatOps F]

set_option maxHeartbeats 40000000 in
/-- The 572 host operations of the reference's @main, in order. -/
abbrev opsR : List (HloOp τ sig (Elt F)) :=
  ( StableHlo.nullary main_cst (fun i => FloatOps.ofBits .f32 (lit0 (S10.rowMajor i)))
  :: StableHlo.TRef.nullary (.of main_call0_cst : StableHlo.TRef sig ⟨S_, .f32⟩) (constant S_ .f32 0xFF800000#32)
  :: StableHlo.TRef.binary (.of main_arg0 : StableHlo.TRef sig ⟨S64x4096x128, .f32⟩) (.of main_call0_cst : StableHlo.TRef sig ⟨S_, .f32⟩) (.of main_call0_v0 : StableHlo.TRef sig ⟨S64x4096, .f32⟩) (fun x v => Host.reduce FloatOps.maximumf x v reducesTo_S64x4096x128_S64x4096_d2 h_S_)
  :: StableHlo.TRef.nullary (.of main_call0_cst_0 : StableHlo.TRef sig ⟨S_, .f32⟩) (constant S_ .f32 0xFF800000#32)
  :: StableHlo.TRef.unary (.of main_call0_cst_0 : StableHlo.TRef sig ⟨S_, .f32⟩) (.of main_call0_v1 : StableHlo.TRef sig ⟨S64x4096, .f32⟩) (broadcastInDim S64x4096 ![] bcast_S_S64x4096)
  :: StableHlo.TRef.binary (.of main_call0_v1 : StableHlo.TRef sig ⟨S64x4096, .f32⟩) (.of main_call0_v0 : StableHlo.TRef sig ⟨S64x4096, .f32⟩) (.of main_call0_v2 : StableHlo.TRef sig ⟨S64x4096, .f32⟩) maximumf
  :: StableHlo.TRef.unary (.of main_call0_v2 : StableHlo.TRef sig ⟨S64x4096, .f32⟩) (.of main_call0_v3 : StableHlo.TRef sig ⟨S64x4096x1, .f32⟩) (broadcastInDim S64x4096x1 ![0, 1] bcast_S64x4096_S64x4096x1_0_1)
  :: StableHlo.TRef.unary (.of main_call0_v3 : StableHlo.TRef sig ⟨S64x4096x1, .f32⟩) (.of main_call0_v4 : StableHlo.TRef sig ⟨S64x4096x128, .f32⟩) (broadcastInDim S64x4096x128 ![0, 1, 2] bcast_S64x4096x1_S64x4096x128_0_1_2)
  :: StableHlo.TRef.binary (.of main_arg0 : StableHlo.TRef sig ⟨S64x4096x128, .f32⟩) (.of main_call0_v4 : StableHlo.TRef sig ⟨S64x4096x128, .f32⟩) (.of main_call0_v5 : StableHlo.TRef sig ⟨S64x4096x128, .f32⟩) subf
  :: StableHlo.TRef.unary (.of main_call0_v5 : StableHlo.TRef sig ⟨S64x4096x128, .f32⟩) (.of main_call0_v6 : StableHlo.TRef sig ⟨S64x4096x128, .f32⟩) Host.exp
  :: StableHlo.TRef.nullary (.of main_call0_cst_1 : StableHlo.TRef sig ⟨S_, .f32⟩) (constant S_ .f32 0x00000000#32)
  :: StableHlo.TRef.binary (.of main_call0_v6 : StableHlo.TRef sig ⟨S64x4096x128, .f32⟩) (.of main_call0_cst_1 : StableHlo.TRef sig ⟨S_, .f32⟩) (.of main_call0_v7 : StableHlo.TRef sig ⟨S64x4096, .f32⟩) (fun x v => Host.reduceAdd x v reducesTo_S64x4096x128_S64x4096_d2 h_S_)
  :: StableHlo.TRef.unary (.of main_call0_v7 : StableHlo.TRef sig ⟨S64x4096, .f32⟩) (.of main_call0_v8 : StableHlo.TRef sig ⟨S64x4096x1, .f32⟩) (broadcastInDim S64x4096x1 ![0, 1] bcast_S64x4096_S64x4096x1_0_1)
  :: StableHlo.TRef.unary (.of main_call0_v8 : StableHlo.TRef sig ⟨S64x4096x1, .f32⟩) (.of main_call0_v9 : StableHlo.TRef sig ⟨S64x4096x1, .f32⟩) Host.log
  :: StableHlo.TRef.unary (.of main_call0_v9 : StableHlo.TRef sig ⟨S64x4096x1, .f32⟩) (.of main_call0_v10 : StableHlo.TRef sig ⟨S64x4096x128, .f32⟩) (broadcastInDim S64x4096x128 ![0, 1, 2] bcast_S64x4096x1_S64x4096x128_0_1_2)
  :: StableHlo.TRef.binary (.of main_call0_v5 : StableHlo.TRef sig ⟨S64x4096x128, .f32⟩) (.of main_call0_v10 : StableHlo.TRef sig ⟨S64x4096x128, .f32⟩) (.of main_v0 : StableHlo.TRef sig ⟨S64x4096x128, .f32⟩) subf
  :: StableHlo.unary main_arg1 main_v1 (broadcastInDim S64x4096x1 ![0, 1] bcast_S64x4096_S64x4096x1_0_1 : (⟨S64x4096, .i32⟩ : BufTy).Contents (Elt F) → (⟨S64x4096x1, .i32⟩ : BufTy).Contents (Elt F))
  :: StableHlo.TRef.nullary (.of main_call1_c : StableHlo.TRef sig ⟨S_, .i32⟩) (constantI S_ 32 0#32)
  :: StableHlo.TRef.unary (.of main_call1_c : StableHlo.TRef sig ⟨S_, .i32⟩) (.of main_call1_v0 : StableHlo.TRef sig ⟨S64x4096x1, .i32⟩) (broadcastInDim S64x4096x1 ![] bcast_S_S64x4096x1)
  :: StableHlo.TRef.binary (.of main_v1 : StableHlo.TRef sig ⟨S64x4096x1, .i32⟩) (.of main_call1_v0 : StableHlo.TRef sig ⟨S64x4096x1, .i32⟩) (.of main_call1_v1 : StableHlo.TRef sig ⟨S64x4096x1, .i1⟩) (cmpi .slt)
  :: StableHlo.TRef.nullary (.of main_call1_c_0 : StableHlo.TRef sig ⟨S_, .i32⟩) (constantI S_ 32 128#32)
  :: StableHlo.TRef.unary (.of main_call1_c_0 : StableHlo.TRef sig ⟨S_, .i32⟩) (.of main_call1_v2 : StableHlo.TRef sig ⟨S64x4096x1, .i32⟩) (broadcastInDim S64x4096x1 ![] bcast_S_S64x4096x1)
  :: StableHlo.TRef.binary (.of main_v1 : StableHlo.TRef sig ⟨S64x4096x1, .i32⟩) (.of main_call1_v2 : StableHlo.TRef sig ⟨S64x4096x1, .i32⟩) (.of main_call1_v3 : StableHlo.TRef sig ⟨S64x4096x1, .i32⟩) addi
  :: StableHlo.TRef.ternary (.of main_call1_v1 : StableHlo.TRef sig ⟨S64x4096x1, .i1⟩) (.of main_call1_v3 : StableHlo.TRef sig ⟨S64x4096x1, .i32⟩) (.of main_v1 : StableHlo.TRef sig ⟨S64x4096x1, .i32⟩) (.of main_call1_v4 : StableHlo.TRef sig ⟨S64x4096x1, .i32⟩) select
  :: StableHlo.TRef.reshape (.of main_call1_v4 : StableHlo.TRef sig ⟨S64x4096x1, .i32⟩) (.of main_call1_v5 : StableHlo.TRef sig ⟨S64x4096x1x1, .i32⟩) rfl shapeCasts_S64x4096x1_S64x4096x1x1
  :: StableHlo.TRef.nullary (.of main_call1_c_1 : StableHlo.TRef sig ⟨S1, .i32⟩) (constantI S1 32 127#32)
  :: StableHlo.TRef.nullary (.of main_call1_c_2 : StableHlo.TRef sig ⟨S_, .i32⟩) (constantI S_ 32 0#32)
  :: StableHlo.TRef.unary (.of main_call1_c_2 : StableHlo.TRef sig ⟨S_, .i32⟩) (.of main_call1_v6 : StableHlo.TRef sig ⟨S64x4096x1x1, .i32⟩) (broadcastInDim S64x4096x1x1 ![] bcast_S_S64x4096x1x1)
  :: StableHlo.TRef.binary (.of main_call1_v5 : StableHlo.TRef sig ⟨S64x4096x1x1, .i32⟩) (.of main_call1_v6 : StableHlo.TRef sig ⟨S64x4096x1x1, .i32⟩) (.of main_call1_v7 : StableHlo.TRef sig ⟨S64x4096x1x1, .i1⟩) (cmpi .sge)
  :: StableHlo.TRef.unary (.of main_call1_c_1 : StableHlo.TRef sig ⟨S1, .i32⟩) (.of main_call1_v8 : StableHlo.TRef sig ⟨S1x1x1x1, .i32⟩) (broadcastInDim S1x1x1x1 ![3] bcast_S1_S1x1x1x1_3)
  :: StableHlo.TRef.unary (.of main_call1_v8 : StableHlo.TRef sig ⟨S1x1x1x1, .i32⟩) (.of main_call1_v9 : StableHlo.TRef sig ⟨S64x4096x1x1, .i32⟩) (broadcastInDim S64x4096x1x1 ![0, 1, 2, 3] bcast_S1x1x1x1_S64x4096x1x1_0_1_2_3)
  :: StableHlo.TRef.binary (.of main_call1_v5 : StableHlo.TRef sig ⟨S64x4096x1x1, .i32⟩) (.of main_call1_v9 : StableHlo.TRef sig ⟨S64x4096x1x1, .i32⟩) (.of main_call1_v10 : StableHlo.TRef sig ⟨S64x4096x1x1, .i1⟩) (cmpi .sle)
  :: StableHlo.TRef.binary (.of main_call1_v7 : StableHlo.TRef sig ⟨S64x4096x1x1, .i1⟩) (.of main_call1_v10 : StableHlo.TRef sig ⟨S64x4096x1x1, .i1⟩) (.of main_call1_v11 : StableHlo.TRef sig ⟨S64x4096x1x1, .i1⟩) andi
  :: StableHlo.TRef.nullary (.of main_call1_c_3 : StableHlo.TRef sig ⟨S_, .i1⟩) (constantI S_ 1 1#1)
  :: StableHlo.TRef.binary (.of main_call1_v11 : StableHlo.TRef sig ⟨S64x4096x1x1, .i1⟩) (.of main_call1_c_3 : StableHlo.TRef sig ⟨S_, .i1⟩) (.of main_call1_v12 : StableHlo.TRef sig ⟨S64x4096x1, .i1⟩) (fun x v => Host.reduce IntOp.andi x v reducesTo_S64x4096x1x1_S64x4096x1_d3 h_S_)
  :: StableHlo.TRef.binary (.of main_v0 : StableHlo.TRef sig ⟨S64x4096x128, .f32⟩) (.of main_call1_v5 : StableHlo.TRef sig ⟨S64x4096x1x1, .i32⟩) (.of main_call1_v13 : StableHlo.TRef sig ⟨S64x4096x1, .f32⟩) (fun x i => Host.gather gather_S64x4096x128_S64x4096x1x1_S64x4096x1_n_2_01_01_2_3_111 x i)
  :: StableHlo.TRef.nullary (.of main_call1_cst : StableHlo.TRef sig ⟨S_, .f32⟩) (constant S_ .f32 0x7FC00000#32)
  :: StableHlo.TRef.unary (.of main_call1_cst : StableHlo.TRef sig ⟨S_, .f32⟩) (.of main_call1_v14 : StableHlo.TRef sig ⟨S64x4096x1, .f32⟩) (broadcastInDim S64x4096x1 ![] bcast_S_S64x4096x1)
  :: StableHlo.TRef.ternary (.of main_call1_v12 : StableHlo.TRef sig ⟨S64x4096x1, .i1⟩) (.of main_call1_v13 : StableHlo.TRef sig ⟨S64x4096x1, .f32⟩) (.of main_call1_v14 : StableHlo.TRef sig ⟨S64x4096x1, .f32⟩) (.of main_v2 : StableHlo.TRef sig ⟨S64x4096x1, .f32⟩) select
  :: StableHlo.reshape main_v2 main_v3 rfl shapeCasts_S64x4096x1_S64x4096
  :: StableHlo.unary main_v3 main_v4 (Host.negf : (⟨S64x4096, .f32⟩ : BufTy).Contents (Elt F) → (⟨S64x4096, .f32⟩ : BufTy).Contents (Elt F))
  :: StableHlo.nullary main_c (constantI S_ 32 0#32)
  :: StableHlo.unary main_c main_v5 (broadcastInDim S64x4096 ![] bcast_S_S64x4096 : (⟨S_, .i32⟩ : BufTy).Contents (Elt F) → (⟨S64x4096, .i32⟩ : BufTy).Contents (Elt F))
  :: StableHlo.binary main_arg1 main_v5 main_v6 (cmpi .sgt : (⟨S64x4096, .i32⟩ : BufTy).Contents (Elt F) → (⟨S64x4096, .i32⟩ : BufTy).Contents (Elt F) → (⟨S64x4096, .i1⟩ : BufTy).Contents (Elt F))
  :: StableHlo.nullary main_cst_0 (constant S_ .f32 0x40A00000#32)
  :: StableHlo.nullary main_cst_1 (constant S_ .f32 0x3F800000#32)
  :: StableHlo.TRef.unary (.of main_cst_0 : StableHlo.TRef sig ⟨S_, .f32⟩) (.of main_call2_v0 : StableHlo.TRef sig ⟨S64x4096, .f32⟩) (broadcastInDim S64x4096 ![] bcast_S_S64x4096)
  :: StableHlo.TRef.unary (.of main_cst_1 : StableHlo.TRef sig ⟨S_, .f32⟩) (.of main_call2_v1 : StableHlo.TRef sig ⟨S64x4096, .f32⟩) (broadcastInDim S64x4096 ![] bcast_S_S64x4096)
  :: StableHlo.TRef.ternary (.of main_v6 : StableHlo.TRef sig ⟨S64x4096, .i1⟩) (.of main_call2_v0 : StableHlo.TRef sig ⟨S64x4096, .f32⟩) (.of main_call2_v1 : StableHlo.TRef sig ⟨S64x4096, .f32⟩) (.of main_v7 : StableHlo.TRef sig ⟨S64x4096, .f32⟩) select
  :: StableHlo.unary main_v7 main_v8 (id : (⟨S64x4096, .f32⟩ : BufTy).Contents (Elt F) → (⟨S64x4096, .f32⟩ : BufTy).Contents (Elt F))
  :: StableHlo.unary main_v6 main_v9 ((extractStridedSlice S64x4095 ![0, 1] · slices_S64x4096_S64x4095_0_1) : (⟨S64x4096, .i1⟩ : BufTy).Contents (Elt F) → (⟨S64x4095, .i1⟩ : BufTy).Contents (Elt F))
  :: StableHlo.nullary main_c_2 (constantI S_ 32 0#32)
  :: StableHlo.TRef.nullary (.of main_call3_c : StableHlo.TRef sig ⟨S_, .i32⟩) (constantI S_ 32 0#32)
  :: StableHlo.TRef.unary (.of main_call3_c : StableHlo.TRef sig ⟨S_, .i32⟩) (.of main_call3_v0 : StableHlo.TRef sig ⟨S_, .i32⟩) (broadcastInDim S_ ![] bcast_S_S_)
  :: StableHlo.TRef.binary (.of main_c_2 : StableHlo.TRef sig ⟨S_, .i32⟩) (.of main_call3_v0 : StableHlo.TRef sig ⟨S_, .i32⟩) (.of main_call3_v1 : StableHlo.TRef sig ⟨S_, .i1⟩) (cmpi .ne)
  :: StableHlo.TRef.unary (.of main_call3_v1 : StableHlo.TRef sig ⟨S_, .i1⟩) (.of main_call3_v2 : StableHlo.TRef sig ⟨S_, .i1⟩) id
  :: StableHlo.TRef.binary (.of main_v9 : StableHlo.TRef sig ⟨S64x4095, .i1⟩) (.of main_call3_v2 : StableHlo.TRef sig ⟨S_, .i1⟩) (.of main_v10 : StableHlo.TRef sig ⟨S64x4096, .i1⟩) (fun x v => pad S64x4096 ![0, 0] ![0, 1] ![0, 0] x v pads_S64x4095_S64x4096_000_010 h_S_)
  :: StableHlo.unary main_cst main_v11 ((extractStridedSlice S1 ![9] · slices_S10_S1_9) : (⟨S10, .f32⟩ : BufTy).Contents (Elt F) → (⟨S1, .f32⟩ : BufTy).Contents (Elt F))
  :: StableHlo.reshape main_v11 main_v12 rfl shapeCasts_S1_S_
  :: StableHlo.nullary main_cst_3 (constant S_ .f32 0x3F800000#32)
  :: StableHlo.TRef.unary (.of main_cst_3 : StableHlo.TRef sig ⟨S_, .f32⟩) (.of main_call4_v0 : StableHlo.TRef sig ⟨S_, .f32⟩) id
  :: StableHlo.TRef.unary (.of main_v12 : StableHlo.TRef sig ⟨S_, .f32⟩) (.of main_call4_v1 : StableHlo.TRef sig ⟨S64x4096, .f32⟩) (broadcastInDim S64x4096 ![] bcast_S_S64x4096)
  :: StableHlo.TRef.unary (.of main_call4_v0 : StableHlo.TRef sig ⟨S_, .f32⟩) (.of main_call4_v2 : StableHlo.TRef sig ⟨S64x4096, .f32⟩) (broadcastInDim S64x4096 ![] bcast_S_S64x4096)
  :: StableHlo.TRef.ternary (.of main_v10 : StableHlo.TRef sig ⟨S64x4096, .i1⟩) (.of main_call4_v1 : StableHlo.TRef sig ⟨S64x4096, .f32⟩) (.of main_call4_v2 : StableHlo.TRef sig ⟨S64x4096, .f32⟩) (.of main_v13 : StableHlo.TRef sig ⟨S64x4096, .f32⟩) select
  :: StableHlo.binary main_v8 main_v13 main_v14 (maximumf : (⟨S64x4096, .f32⟩ : BufTy).Contents (Elt F) → (⟨S64x4096, .f32⟩ : BufTy).Contents (Elt F) → (⟨S64x4096, .f32⟩ : BufTy).Contents (Elt F))
  :: StableHlo.unary main_v6 main_v15 ((extractStridedSlice S64x4094 ![0, 2] · slices_S64x4096_S64x4094_0_2) : (⟨S64x4096, .i1⟩ : BufTy).Contents (Elt F) → (⟨S64x4094, .i1⟩ : BufTy).Contents (Elt F))
  :: StableHlo.nullary main_c_4 (constantI S_ 32 0#32)
  :: StableHlo.TRef.nullary (.of main_call5_c : StableHlo.TRef sig ⟨S_, .i32⟩) (constantI S_ 32 0#32)
  :: StableHlo.TRef.unary (.of main_call5_c : StableHlo.TRef sig ⟨S_, .i32⟩) (.of main_call5_v0 : StableHlo.TRef sig ⟨S_, .i32⟩) (broadcastInDim S_ ![] bcast_S_S_)
  :: StableHlo.TRef.binary (.of main_c_4 : StableHlo.TRef sig ⟨S_, .i32⟩) (.of main_call5_v0 : StableHlo.TRef sig ⟨S_, .i32⟩) (.of main_call5_v1 : StableHlo.TRef sig ⟨S_, .i1⟩) (cmpi .ne)
  :: StableHlo.TRef.unary (.of main_call5_v1 : StableHlo.TRef sig ⟨S_, .i1⟩) (.of main_call5_v2 : StableHlo.TRef sig ⟨S_, .i1⟩) id
  :: StableHlo.TRef.binary (.of main_v15 : StableHlo.TRef sig ⟨S64x4094, .i1⟩) (.of main_call5_v2 : StableHlo.TRef sig ⟨S_, .i1⟩) (.of main_v16 : StableHlo.TRef sig ⟨S64x4096, .i1⟩) (fun x v => pad S64x4096 ![0, 0] ![0, 2] ![0, 0] x v pads_S64x4094_S64x4096_000_020 h_S_)
  :: StableHlo.unary main_cst main_v17 ((extractStridedSlice S1 ![8] · slices_S10_S1_8) : (⟨S10, .f32⟩ : BufTy).Contents (Elt F) → (⟨S1, .f32⟩ : BufTy).Contents (Elt F))
  :: StableHlo.reshape main_v17 main_v18 rfl shapeCasts_S1_S_
  :: StableHlo.nullary main_cst_5 (constant S_ .f32 0x3F800000#32)
  :: StableHlo.TRef.unary (.of main_cst_5 : StableHlo.TRef sig ⟨S_, .f32⟩) (.of main_call6_v0 : StableHlo.TRef sig ⟨S_, .f32⟩) id
  :: StableHlo.TRef.unary (.of main_v18 : StableHlo.TRef sig ⟨S_, .f32⟩) (.of main_call6_v1 : StableHlo.TRef sig ⟨S64x4096, .f32⟩) (broadcastInDim S64x4096 ![] bcast_S_S64x4096)
  :: StableHlo.TRef.unary (.of main_call6_v0 : StableHlo.TRef sig ⟨S_, .f32⟩) (.of main_call6_v2 : StableHlo.TRef sig ⟨S64x4096, .f32⟩) (broadcastInDim S64x4096 ![] bcast_S_S64x4096)
  :: StableHlo.TRef.ternary (.of main_v16 : StableHlo.TRef sig ⟨S64x4096, .i1⟩) (.of main_call6_v1 : StableHlo.TRef sig ⟨S64x4096, .f32⟩) (.of main_call6_v2 : StableHlo.TRef sig ⟨S64x4096, .f32⟩) (.of main_v19 : StableHlo.TRef sig ⟨S64x4096, .f32⟩) select
  :: StableHlo.binary main_v14 main_v19 main_v20 (maximumf : (⟨S64x4096, .f32⟩ : BufTy).Contents (Elt F) → (⟨S64x4096, .f32⟩ : BufTy).Contents (Elt F) → (⟨S64x4096, .f32⟩ : BufTy).Contents (Elt F))
  :: StableHlo.unary main_v6 main_v21 ((extractStridedSlice S64x4093 ![0, 3] · slices_S64x4096_S64x4093_0_3) : (⟨S64x4096, .i1⟩ : BufTy).Contents (Elt F) → (⟨S64x4093, .i1⟩ : BufTy).Contents (Elt F))
  :: StableHlo.nullary main_c_6 (constantI S_ 32 0#32)
  :: StableHlo.TRef.nullary (.of main_call7_c : StableHlo.TRef sig ⟨S_, .i32⟩) (constantI S_ 32 0#32)
  :: StableHlo.TRef.unary (.of main_call7_c : StableHlo.TRef sig ⟨S_, .i32⟩) (.of main_call7_v0 : StableHlo.TRef sig ⟨S_, .i32⟩) (broadcastInDim S_ ![] bcast_S_S_)
  :: StableHlo.TRef.binary (.of main_c_6 : StableHlo.TRef sig ⟨S_, .i32⟩) (.of main_call7_v0 : StableHlo.TRef sig ⟨S_, .i32⟩) (.of main_call7_v1 : StableHlo.TRef sig ⟨S_, .i1⟩) (cmpi .ne)
  :: StableHlo.TRef.unary (.of main_call7_v1 : StableHlo.TRef sig ⟨S_, .i1⟩) (.of main_call7_v2 : StableHlo.TRef sig ⟨S_, .i1⟩) id
  :: StableHlo.TRef.binary (.of main_v21 : StableHlo.TRef sig ⟨S64x4093, .i1⟩) (.of main_call7_v2 : StableHlo.TRef sig ⟨S_, .i1⟩) (.of main_v22 : StableHlo.TRef sig ⟨S64x4096, .i1⟩) (fun x v => pad S64x4096 ![0, 0] ![0, 3] ![0, 0] x v pads_S64x4093_S64x4096_000_030 h_S_)
  :: StableHlo.unary main_cst main_v23 ((extractStridedSlice S1 ![7] · slices_S10_S1_7) : (⟨S10, .f32⟩ : BufTy).Contents (Elt F) → (⟨S1, .f32⟩ : BufTy).Contents (Elt F))
  :: StableHlo.reshape main_v23 main_v24 rfl shapeCasts_S1_S_
  :: StableHlo.nullary main_cst_7 (constant S_ .f32 0x3F800000#32)
  :: StableHlo.TRef.unary (.of main_cst_7 : StableHlo.TRef sig ⟨S_, .f32⟩) (.of main_call8_v0 : StableHlo.TRef sig ⟨S_, .f32⟩) id
  :: StableHlo.TRef.unary (.of main_v24 : StableHlo.TRef sig ⟨S_, .f32⟩) (.of main_call8_v1 : StableHlo.TRef sig ⟨S64x4096, .f32⟩) (broadcastInDim S64x4096 ![] bcast_S_S64x4096)
  :: StableHlo.TRef.unary (.of main_call8_v0 : StableHlo.TRef sig ⟨S_, .f32⟩) (.of main_call8_v2 : StableHlo.TRef sig ⟨S64x4096, .f32⟩) (broadcastInDim S64x4096 ![] bcast_S_S64x4096)
  :: StableHlo.TRef.ternary (.of main_v22 : StableHlo.TRef sig ⟨S64x4096, .i1⟩) (.of main_call8_v1 : StableHlo.TRef sig ⟨S64x4096, .f32⟩) (.of main_call8_v2 : StableHlo.TRef sig ⟨S64x4096, .f32⟩) (.of main_v25 : StableHlo.TRef sig ⟨S64x4096, .f32⟩) select
  :: StableHlo.binary main_v20 main_v25 main_v26 (maximumf : (⟨S64x4096, .f32⟩ : BufTy).Contents (Elt F) → (⟨S64x4096, .f32⟩ : BufTy).Contents (Elt F) → (⟨S64x4096, .f32⟩ : BufTy).Contents (Elt F))
  :: StableHlo.unary main_v6 main_v27 ((extractStridedSlice S64x4092 ![0, 4] · slices_S64x4096_S64x4092_0_4) : (⟨S64x4096, .i1⟩ : BufTy).Contents (Elt F) → (⟨S64x4092, .i1⟩ : BufTy).Contents (Elt F))
  :: StableHlo.nullary main_c_8 (constantI S_ 32 0#32)
  :: StableHlo.TRef.nullary (.of main_call9_c : StableHlo.TRef sig ⟨S_, .i32⟩) (constantI S_ 32 0#32)
  :: StableHlo.TRef.unary (.of main_call9_c : StableHlo.TRef sig ⟨S_, .i32⟩) (.of main_call9_v0 : StableHlo.TRef sig ⟨S_, .i32⟩) (broadcastInDim S_ ![] bcast_S_S_)
  :: StableHlo.TRef.binary (.of main_c_8 : StableHlo.TRef sig ⟨S_, .i32⟩) (.of main_call9_v0 : StableHlo.TRef sig ⟨S_, .i32⟩) (.of main_call9_v1 : StableHlo.TRef sig ⟨S_, .i1⟩) (cmpi .ne)
  :: StableHlo.TRef.unary (.of main_call9_v1 : StableHlo.TRef sig ⟨S_, .i1⟩) (.of main_call9_v2 : StableHlo.TRef sig ⟨S_, .i1⟩) id
  :: StableHlo.TRef.binary (.of main_v27 : StableHlo.TRef sig ⟨S64x4092, .i1⟩) (.of main_call9_v2 : StableHlo.TRef sig ⟨S_, .i1⟩) (.of main_v28 : StableHlo.TRef sig ⟨S64x4096, .i1⟩) (fun x v => pad S64x4096 ![0, 0] ![0, 4] ![0, 0] x v pads_S64x4092_S64x4096_000_040 h_S_)
  :: StableHlo.unary main_cst main_v29 ((extractStridedSlice S1 ![6] · slices_S10_S1_6) : (⟨S10, .f32⟩ : BufTy).Contents (Elt F) → (⟨S1, .f32⟩ : BufTy).Contents (Elt F))
  :: StableHlo.reshape main_v29 main_v30 rfl shapeCasts_S1_S_
  :: StableHlo.nullary main_cst_9 (constant S_ .f32 0x3F800000#32)
  :: StableHlo.TRef.unary (.of main_cst_9 : StableHlo.TRef sig ⟨S_, .f32⟩) (.of main_call10_v0 : StableHlo.TRef sig ⟨S_, .f32⟩) id
  :: StableHlo.TRef.unary (.of main_v30 : StableHlo.TRef sig ⟨S_, .f32⟩) (.of main_call10_v1 : StableHlo.TRef sig ⟨S64x4096, .f32⟩) (broadcastInDim S64x4096 ![] bcast_S_S64x4096)
  :: StableHlo.TRef.unary (.of main_call10_v0 : StableHlo.TRef sig ⟨S_, .f32⟩) (.of main_call10_v2 : StableHlo.TRef sig ⟨S64x4096, .f32⟩) (broadcastInDim S64x4096 ![] bcast_S_S64x4096)
  :: StableHlo.TRef.ternary (.of main_v28 : StableHlo.TRef sig ⟨S64x4096, .i1⟩) (.of main_call10_v1 : StableHlo.TRef sig ⟨S64x4096, .f32⟩) (.of main_call10_v2 : StableHlo.TRef sig ⟨S64x4096, .f32⟩) (.of main_v31 : StableHlo.TRef sig ⟨S64x4096, .f32⟩) select
  :: StableHlo.binary main_v26 main_v31 main_v32 (maximumf : (⟨S64x4096, .f32⟩ : BufTy).Contents (Elt F) → (⟨S64x4096, .f32⟩ : BufTy).Contents (Elt F) → (⟨S64x4096, .f32⟩ : BufTy).Contents (Elt F))
  :: StableHlo.unary main_v6 main_v33 ((extractStridedSlice S64x4091 ![0, 5] · slices_S64x4096_S64x4091_0_5) : (⟨S64x4096, .i1⟩ : BufTy).Contents (Elt F) → (⟨S64x4091, .i1⟩ : BufTy).Contents (Elt F))
  :: StableHlo.nullary main_c_10 (constantI S_ 32 0#32)
  :: StableHlo.TRef.nullary (.of main_call11_c : StableHlo.TRef sig ⟨S_, .i32⟩) (constantI S_ 32 0#32)
  :: StableHlo.TRef.unary (.of main_call11_c : StableHlo.TRef sig ⟨S_, .i32⟩) (.of main_call11_v0 : StableHlo.TRef sig ⟨S_, .i32⟩) (broadcastInDim S_ ![] bcast_S_S_)
  :: StableHlo.TRef.binary (.of main_c_10 : StableHlo.TRef sig ⟨S_, .i32⟩) (.of main_call11_v0 : StableHlo.TRef sig ⟨S_, .i32⟩) (.of main_call11_v1 : StableHlo.TRef sig ⟨S_, .i1⟩) (cmpi .ne)
  :: StableHlo.TRef.unary (.of main_call11_v1 : StableHlo.TRef sig ⟨S_, .i1⟩) (.of main_call11_v2 : StableHlo.TRef sig ⟨S_, .i1⟩) id
  :: StableHlo.TRef.binary (.of main_v33 : StableHlo.TRef sig ⟨S64x4091, .i1⟩) (.of main_call11_v2 : StableHlo.TRef sig ⟨S_, .i1⟩) (.of main_v34 : StableHlo.TRef sig ⟨S64x4096, .i1⟩) (fun x v => pad S64x4096 ![0, 0] ![0, 5] ![0, 0] x v pads_S64x4091_S64x4096_000_050 h_S_)
  :: StableHlo.unary main_cst main_v35 ((extractStridedSlice S1 ![5] · slices_S10_S1_5) : (⟨S10, .f32⟩ : BufTy).Contents (Elt F) → (⟨S1, .f32⟩ : BufTy).Contents (Elt F))
  :: StableHlo.reshape main_v35 main_v36 rfl shapeCasts_S1_S_
  :: StableHlo.nullary main_cst_11 (constant S_ .f32 0x3F800000#32)
  :: StableHlo.TRef.unary (.of main_cst_11 : StableHlo.TRef sig ⟨S_, .f32⟩) (.of main_call12_v0 : StableHlo.TRef sig ⟨S_, .f32⟩) id
  :: StableHlo.TRef.unary (.of main_v36 : StableHlo.TRef sig ⟨S_, .f32⟩) (.of main_call12_v1 : StableHlo.TRef sig ⟨S64x4096, .f32⟩) (broadcastInDim S64x4096 ![] bcast_S_S64x4096)
  :: StableHlo.TRef.unary (.of main_call12_v0 : StableHlo.TRef sig ⟨S_, .f32⟩) (.of main_call12_v2 : StableHlo.TRef sig ⟨S64x4096, .f32⟩) (broadcastInDim S64x4096 ![] bcast_S_S64x4096)
  :: StableHlo.TRef.ternary (.of main_v34 : StableHlo.TRef sig ⟨S64x4096, .i1⟩) (.of main_call12_v1 : StableHlo.TRef sig ⟨S64x4096, .f32⟩) (.of main_call12_v2 : StableHlo.TRef sig ⟨S64x4096, .f32⟩) (.of main_v37 : StableHlo.TRef sig ⟨S64x4096, .f32⟩) select
  :: StableHlo.binary main_v32 main_v37 main_v38 (maximumf : (⟨S64x4096, .f32⟩ : BufTy).Contents (Elt F) → (⟨S64x4096, .f32⟩ : BufTy).Contents (Elt F) → (⟨S64x4096, .f32⟩ : BufTy).Contents (Elt F))
  :: StableHlo.unary main_v6 main_v39 ((extractStridedSlice S64x4090 ![0, 6] · slices_S64x4096_S64x4090_0_6) : (⟨S64x4096, .i1⟩ : BufTy).Contents (Elt F) → (⟨S64x4090, .i1⟩ : BufTy).Contents (Elt F))
  :: StableHlo.nullary main_c_12 (constantI S_ 32 0#32)
  :: StableHlo.TRef.nullary (.of main_call13_c : StableHlo.TRef sig ⟨S_, .i32⟩) (constantI S_ 32 0#32)
  :: StableHlo.TRef.unary (.of main_call13_c : StableHlo.TRef sig ⟨S_, .i32⟩) (.of main_call13_v0 : StableHlo.TRef sig ⟨S_, .i32⟩) (broadcastInDim S_ ![] bcast_S_S_)
  :: StableHlo.TRef.binary (.of main_c_12 : StableHlo.TRef sig ⟨S_, .i32⟩) (.of main_call13_v0 : StableHlo.TRef sig ⟨S_, .i32⟩) (.of main_call13_v1 : StableHlo.TRef sig ⟨S_, .i1⟩) (cmpi .ne)
  :: StableHlo.TRef.unary (.of main_call13_v1 : StableHlo.TRef sig ⟨S_, .i1⟩) (.of main_call13_v2 : StableHlo.TRef sig ⟨S_, .i1⟩) id
  :: StableHlo.TRef.binary (.of main_v39 : StableHlo.TRef sig ⟨S64x4090, .i1⟩) (.of main_call13_v2 : StableHlo.TRef sig ⟨S_, .i1⟩) (.of main_v40 : StableHlo.TRef sig ⟨S64x4096, .i1⟩) (fun x v => pad S64x4096 ![0, 0] ![0, 6] ![0, 0] x v pads_S64x4090_S64x4096_000_060 h_S_)
  :: StableHlo.unary main_cst main_v41 ((extractStridedSlice S1 ![4] · slices_S10_S1_4) : (⟨S10, .f32⟩ : BufTy).Contents (Elt F) → (⟨S1, .f32⟩ : BufTy).Contents (Elt F))
  :: StableHlo.reshape main_v41 main_v42 rfl shapeCasts_S1_S_
  :: StableHlo.nullary main_cst_13 (constant S_ .f32 0x3F800000#32)
  :: StableHlo.TRef.unary (.of main_cst_13 : StableHlo.TRef sig ⟨S_, .f32⟩) (.of main_call14_v0 : StableHlo.TRef sig ⟨S_, .f32⟩) id
  :: StableHlo.TRef.unary (.of main_v42 : StableHlo.TRef sig ⟨S_, .f32⟩) (.of main_call14_v1 : StableHlo.TRef sig ⟨S64x4096, .f32⟩) (broadcastInDim S64x4096 ![] bcast_S_S64x4096)
  :: StableHlo.TRef.unary (.of main_call14_v0 : StableHlo.TRef sig ⟨S_, .f32⟩) (.of main_call14_v2 : StableHlo.TRef sig ⟨S64x4096, .f32⟩) (broadcastInDim S64x4096 ![] bcast_S_S64x4096)
  :: StableHlo.TRef.ternary (.of main_v40 : StableHlo.TRef sig ⟨S64x4096, .i1⟩) (.of main_call14_v1 : StableHlo.TRef sig ⟨S64x4096, .f32⟩) (.of main_call14_v2 : StableHlo.TRef sig ⟨S64x4096, .f32⟩) (.of main_v43 : StableHlo.TRef sig ⟨S64x4096, .f32⟩) select
  :: StableHlo.binary main_v38 main_v43 main_v44 (maximumf : (⟨S64x4096, .f32⟩ : BufTy).Contents (Elt F) → (⟨S64x4096, .f32⟩ : BufTy).Contents (Elt F) → (⟨S64x4096, .f32⟩ : BufTy).Contents (Elt F))
  :: StableHlo.unary main_v6 main_v45 ((extractStridedSlice S64x4089 ![0, 7] · slices_S64x4096_S64x4089_0_7) : (⟨S64x4096, .i1⟩ : BufTy).Contents (Elt F) → (⟨S64x4089, .i1⟩ : BufTy).Contents (Elt F))
  :: StableHlo.nullary main_c_14 (constantI S_ 32 0#32)
  :: StableHlo.TRef.nullary (.of main_call15_c : StableHlo.TRef sig ⟨S_, .i32⟩) (constantI S_ 32 0#32)
  :: StableHlo.TRef.unary (.of main_call15_c : StableHlo.TRef sig ⟨S_, .i32⟩) (.of main_call15_v0 : StableHlo.TRef sig ⟨S_, .i32⟩) (broadcastInDim S_ ![] bcast_S_S_)
  :: StableHlo.TRef.binary (.of main_c_14 : StableHlo.TRef sig ⟨S_, .i32⟩) (.of main_call15_v0 : StableHlo.TRef sig ⟨S_, .i32⟩) (.of main_call15_v1 : StableHlo.TRef sig ⟨S_, .i1⟩) (cmpi .ne)
  :: StableHlo.TRef.unary (.of main_call15_v1 : StableHlo.TRef sig ⟨S_, .i1⟩) (.of main_call15_v2 : StableHlo.TRef sig ⟨S_, .i1⟩) id
  :: StableHlo.TRef.binary (.of main_v45 : StableHlo.TRef sig ⟨S64x4089, .i1⟩) (.of main_call15_v2 : StableHlo.TRef sig ⟨S_, .i1⟩) (.of main_v46 : StableHlo.TRef sig ⟨S64x4096, .i1⟩) (fun x v => pad S64x4096 ![0, 0] ![0, 7] ![0, 0] x v pads_S64x4089_S64x4096_000_070 h_S_)
  :: StableHlo.unary main_cst main_v47 ((extractStridedSlice S1 ![3] · slices_S10_S1_3) : (⟨S10, .f32⟩ : BufTy).Contents (Elt F) → (⟨S1, .f32⟩ : BufTy).Contents (Elt F))
  :: StableHlo.reshape main_v47 main_v48 rfl shapeCasts_S1_S_
  :: StableHlo.nullary main_cst_15 (constant S_ .f32 0x3F800000#32)
  :: StableHlo.TRef.unary (.of main_cst_15 : StableHlo.TRef sig ⟨S_, .f32⟩) (.of main_call16_v0 : StableHlo.TRef sig ⟨S_, .f32⟩) id
  :: StableHlo.TRef.unary (.of main_v48 : StableHlo.TRef sig ⟨S_, .f32⟩) (.of main_call16_v1 : StableHlo.TRef sig ⟨S64x4096, .f32⟩) (broadcastInDim S64x4096 ![] bcast_S_S64x4096)
  :: StableHlo.TRef.unary (.of main_call16_v0 : StableHlo.TRef sig ⟨S_, .f32⟩) (.of main_call16_v2 : StableHlo.TRef sig ⟨S64x4096, .f32⟩) (broadcastInDim S64x4096 ![] bcast_S_S64x4096)
  :: StableHlo.TRef.ternary (.of main_v46 : StableHlo.TRef sig ⟨S64x4096, .i1⟩) (.of main_call16_v1 : StableHlo.TRef sig ⟨S64x4096, .f32⟩) (.of main_call16_v2 : StableHlo.TRef sig ⟨S64x4096, .f32⟩) (.of main_v49 : StableHlo.TRef sig ⟨S64x4096, .f32⟩) select
  :: StableHlo.binary main_v44 main_v49 main_v50 (maximumf : (⟨S64x4096, .f32⟩ : BufTy).Contents (Elt F) → (⟨S64x4096, .f32⟩ : BufTy).Contents (Elt F) → (⟨S64x4096, .f32⟩ : BufTy).Contents (Elt F))
  :: StableHlo.unary main_v6 main_v51 ((extractStridedSlice S64x4088 ![0, 8] · slices_S64x4096_S64x4088_0_8) : (⟨S64x4096, .i1⟩ : BufTy).Contents (Elt F) → (⟨S64x4088, .i1⟩ : BufTy).Contents (Elt F))
  :: StableHlo.nullary main_c_16 (constantI S_ 32 0#32)
  :: StableHlo.TRef.nullary (.of main_call17_c : StableHlo.TRef sig ⟨S_, .i32⟩) (constantI S_ 32 0#32)
  :: StableHlo.TRef.unary (.of main_call17_c : StableHlo.TRef sig ⟨S_, .i32⟩) (.of main_call17_v0 : StableHlo.TRef sig ⟨S_, .i32⟩) (broadcastInDim S_ ![] bcast_S_S_)
  :: StableHlo.TRef.binary (.of main_c_16 : StableHlo.TRef sig ⟨S_, .i32⟩) (.of main_call17_v0 : StableHlo.TRef sig ⟨S_, .i32⟩) (.of main_call17_v1 : StableHlo.TRef sig ⟨S_, .i1⟩) (cmpi .ne)
  :: StableHlo.TRef.unary (.of main_call17_v1 : StableHlo.TRef sig ⟨S_, .i1⟩) (.of main_call17_v2 : StableHlo.TRef sig ⟨S_, .i1⟩) id
  :: StableHlo.TRef.binary (.of main_v51 : StableHlo.TRef sig ⟨S64x4088, .i1⟩) (.of main_call17_v2 : StableHlo.TRef sig ⟨S_, .i1⟩) (.of main_v52 : StableHlo.TRef sig ⟨S64x4096, .i1⟩) (fun x v => pad S64x4096 ![0, 0] ![0, 8] ![0, 0] x v pads_S64x4088_S64x4096_000_080 h_S_)
  :: StableHlo.unary main_cst main_v53 ((extractStridedSlice S1 ![2] · slices_S10_S1_2) : (⟨S10, .f32⟩ : BufTy).Contents (Elt F) → (⟨S1, .f32⟩ : BufTy).Contents (Elt F))
  :: StableHlo.reshape main_v53 main_v54 rfl shapeCasts_S1_S_
  :: StableHlo.nullary main_cst_17 (constant S_ .f32 0x3F800000#32)
  :: StableHlo.TRef.unary (.of main_cst_17 : StableHlo.TRef sig ⟨S_, .f32⟩) (.of main_call18_v0 : StableHlo.TRef sig ⟨S_, .f32⟩) id
  :: StableHlo.TRef.unary (.of main_v54 : StableHlo.TRef sig ⟨S_, .f32⟩) (.of main_call18_v1 : StableHlo.TRef sig ⟨S64x4096, .f32⟩) (broadcastInDim S64x4096 ![] bcast_S_S64x4096)
  :: StableHlo.TRef.unary (.of main_call18_v0 : StableHlo.TRef sig ⟨S_, .f32⟩) (.of main_call18_v2 : StableHlo.TRef sig ⟨S64x4096, .f32⟩) (broadcastInDim S64x4096 ![] bcast_S_S64x4096)
  :: StableHlo.TRef.ternary (.of main_v52 : StableHlo.TRef sig ⟨S64x4096, .i1⟩) (.of main_call18_v1 : StableHlo.TRef sig ⟨S64x4096, .f32⟩) (.of main_call18_v2 : StableHlo.TRef sig ⟨S64x4096, .f32⟩) (.of main_v55 : StableHlo.TRef sig ⟨S64x4096, .f32⟩) select
  :: StableHlo.binary main_v50 main_v55 main_v56 (maximumf : (⟨S64x4096, .f32⟩ : BufTy).Contents (Elt F) → (⟨S64x4096, .f32⟩ : BufTy).Contents (Elt F) → (⟨S64x4096, .f32⟩ : BufTy).Contents (Elt F))
  :: StableHlo.unary main_v6 main_v57 ((extractStridedSlice S64x4087 ![0, 9] · slices_S64x4096_S64x4087_0_9) : (⟨S64x4096, .i1⟩ : BufTy).Contents (Elt F) → (⟨S64x4087, .i1⟩ : BufTy).Contents (Elt F))
  :: StableHlo.nullary main_c_18 (constantI S_ 32 0#32)
  :: StableHlo.TRef.nullary (.of main_call19_c : StableHlo.TRef sig ⟨S_, .i32⟩) (constantI S_ 32 0#32)
  :: StableHlo.TRef.unary (.of main_call19_c : StableHlo.TRef sig ⟨S_, .i32⟩) (.of main_call19_v0 : StableHlo.TRef sig ⟨S_, .i32⟩) (broadcastInDim S_ ![] bcast_S_S_)
  :: StableHlo.TRef.binary (.of main_c_18 : StableHlo.TRef sig ⟨S_, .i32⟩) (.of main_call19_v0 : StableHlo.TRef sig ⟨S_, .i32⟩) (.of main_call19_v1 : StableHlo.TRef sig ⟨S_, .i1⟩) (cmpi .ne)
  :: StableHlo.TRef.unary (.of main_call19_v1 : StableHlo.TRef sig ⟨S_, .i1⟩) (.of main_call19_v2 : StableHlo.TRef sig ⟨S_, .i1⟩) id
  :: StableHlo.TRef.binary (.of main_v57 : StableHlo.TRef sig ⟨S64x4087, .i1⟩) (.of main_call19_v2 : StableHlo.TRef sig ⟨S_, .i1⟩) (.of main_v58 : StableHlo.TRef sig ⟨S64x4096, .i1⟩) (fun x v => pad S64x4096 ![0, 0] ![0, 9] ![0, 0] x v pads_S64x4087_S64x4096_000_090 h_S_)
  :: StableHlo.unary main_cst main_v59 ((extractStridedSlice S1 ![1] · slices_S10_S1_1) : (⟨S10, .f32⟩ : BufTy).Contents (Elt F) → (⟨S1, .f32⟩ : BufTy).Contents (Elt F))
  :: StableHlo.reshape main_v59 main_v60 rfl shapeCasts_S1_S_
  :: StableHlo.nullary main_cst_19 (constant S_ .f32 0x3F800000#32)
  :: StableHlo.TRef.unary (.of main_cst_19 : StableHlo.TRef sig ⟨S_, .f32⟩) (.of main_call20_v0 : StableHlo.TRef sig ⟨S_, .f32⟩) id
  :: StableHlo.TRef.unary (.of main_v60 : StableHlo.TRef sig ⟨S_, .f32⟩) (.of main_call20_v1 : StableHlo.TRef sig ⟨S64x4096, .f32⟩) (broadcastInDim S64x4096 ![] bcast_S_S64x4096)
  :: StableHlo.TRef.unary (.of main_call20_v0 : StableHlo.TRef sig ⟨S_, .f32⟩) (.of main_call20_v2 : StableHlo.TRef sig ⟨S64x4096, .f32⟩) (broadcastInDim S64x4096 ![] bcast_S_S64x4096)
  :: StableHlo.TRef.ternary (.of main_v58 : StableHlo.TRef sig ⟨S64x4096, .i1⟩) (.of main_call20_v1 : StableHlo.TRef sig ⟨S64x4096, .f32⟩) (.of main_call20_v2 : StableHlo.TRef sig ⟨S64x4096, .f32⟩) (.of main_v61 : StableHlo.TRef sig ⟨S64x4096, .f32⟩) select
  :: StableHlo.binary main_v56 main_v61 main_v62 (maximumf : (⟨S64x4096, .f32⟩ : BufTy).Contents (Elt F) → (⟨S64x4096, .f32⟩ : BufTy).Contents (Elt F) → (⟨S64x4096, .f32⟩ : BufTy).Contents (Elt F))
  :: StableHlo.unary main_v6 main_v63 ((extractStridedSlice S64x4086 ![0, 10] · slices_S64x4096_S64x4086_0_10) : (⟨S64x4096, .i1⟩ : BufTy).Contents (Elt F) → (⟨S64x4086, .i1⟩ : BufTy).Contents (Elt F))
  :: StableHlo.nullary main_c_20 (constantI S_ 32 0#32)
  :: StableHlo.TRef.nullary (.of main_call21_c : StableHlo.TRef sig ⟨S_, .i32⟩) (constantI S_ 32 0#32)
  :: StableHlo.TRef.unary (.of main_call21_c : StableHlo.TRef sig ⟨S_, .i32⟩) (.of main_call21_v0 : StableHlo.TRef sig ⟨S_, .i32⟩) (broadcastInDim S_ ![] bcast_S_S_)
  :: StableHlo.TRef.binary (.of main_c_20 : StableHlo.TRef sig ⟨S_, .i32⟩) (.of main_call21_v0 : StableHlo.TRef sig ⟨S_, .i32⟩) (.of main_call21_v1 : StableHlo.TRef sig ⟨S_, .i1⟩) (cmpi .ne)
  :: StableHlo.TRef.unary (.of main_call21_v1 : StableHlo.TRef sig ⟨S_, .i1⟩) (.of main_call21_v2 : StableHlo.TRef sig ⟨S_, .i1⟩) id
  :: StableHlo.TRef.binary (.of main_v63 : StableHlo.TRef sig ⟨S64x4086, .i1⟩) (.of main_call21_v2 : StableHlo.TRef sig ⟨S_, .i1⟩) (.of main_v64 : StableHlo.TRef sig ⟨S64x4096, .i1⟩) (fun x v => pad S64x4096 ![0, 0] ![0, 10] ![0, 0] x v pads_S64x4086_S64x4096_000_0100 h_S_)
  :: StableHlo.unary main_cst main_v65 ((extractStridedSlice S1 ![0] · slices_S10_S1_0) : (⟨S10, .f32⟩ : BufTy).Contents (Elt F) → (⟨S1, .f32⟩ : BufTy).Contents (Elt F))
  :: StableHlo.reshape main_v65 main_v66 rfl shapeCasts_S1_S_
  :: StableHlo.nullary main_cst_21 (constant S_ .f32 0x3F800000#32)
  :: StableHlo.TRef.unary (.of main_cst_21 : StableHlo.TRef sig ⟨S_, .f32⟩) (.of main_call22_v0 : StableHlo.TRef sig ⟨S_, .f32⟩) id
  :: StableHlo.TRef.unary (.of main_v66 : StableHlo.TRef sig ⟨S_, .f32⟩) (.of main_call22_v1 : StableHlo.TRef sig ⟨S64x4096, .f32⟩) (broadcastInDim S64x4096 ![] bcast_S_S64x4096)
  :: StableHlo.TRef.unary (.of main_call22_v0 : StableHlo.TRef sig ⟨S_, .f32⟩) (.of main_call22_v2 : StableHlo.TRef sig ⟨S64x4096, .f32⟩) (broadcastInDim S64x4096 ![] bcast_S_S64x4096)
  :: StableHlo.TRef.ternary (.of main_v64 : StableHlo.TRef sig ⟨S64x4096, .i1⟩) (.of main_call22_v1 : StableHlo.TRef sig ⟨S64x4096, .f32⟩) (.of main_call22_v2 : StableHlo.TRef sig ⟨S64x4096, .f32⟩) (.of main_v67 : StableHlo.TRef sig ⟨S64x4096, .f32⟩) select
  :: StableHlo.binary main_v62 main_v67 main_v68 (maximumf : (⟨S64x4096, .f32⟩ : BufTy).Contents (Elt F) → (⟨S64x4096, .f32⟩ : BufTy).Contents (Elt F) → (⟨S64x4096, .f32⟩ : BufTy).Contents (Elt F))
  :: StableHlo.nullary main_v69 (iotaInDim S4096 32 0)
  :: StableHlo.nullary main_c_22 (constantI S_ 32 4095#32)
  :: StableHlo.unary main_c_22 main_v70 (broadcastInDim S4096 ![] bcast_S_S4096 : (⟨S_, .i32⟩ : BufTy).Contents (Elt F) → (⟨S4096, .i32⟩ : BufTy).Contents (Elt F))
  :: StableHlo.binary main_v70 main_v69 main_v71 (subi : (⟨S4096, .i32⟩ : BufTy).Contents (Elt F) → (⟨S4096, .i32⟩ : BufTy).Contents (Elt F) → (⟨S4096, .i32⟩ : BufTy).Contents (Elt F))
  :: StableHlo.nullary main_c_23 (constantI S_ 32 10#32)
  :: StableHlo.unary main_c_23 main_v72 (broadcastInDim S4096 ![] bcast_S_S4096 : (⟨S_, .i32⟩ : BufTy).Contents (Elt F) → (⟨S4096, .i32⟩ : BufTy).Contents (Elt F))
  :: StableHlo.binary main_v72 main_v71 main_v73 (minsi : (⟨S4096, .i32⟩ : BufTy).Contents (Elt F) → (⟨S4096, .i32⟩ : BufTy).Contents (Elt F) → (⟨S4096, .i32⟩ : BufTy).Contents (Elt F))
  :: StableHlo.nullary main_c_24 (constantI S_ 32 1#32)
  :: StableHlo.unary main_c_24 main_v74 (broadcastInDim S4096 ![] bcast_S_S4096 : (⟨S_, .i32⟩ : BufTy).Contents (Elt F) → (⟨S4096, .i32⟩ : BufTy).Contents (Elt F))
  :: StableHlo.binary main_v73 main_v74 main_v75 (subi : (⟨S4096, .i32⟩ : BufTy).Contents (Elt F) → (⟨S4096, .i32⟩ : BufTy).Contents (Elt F) → (⟨S4096, .i32⟩ : BufTy).Contents (Elt F))
  :: StableHlo.nullary main_c_25 (constantI S_ 32 0#32)
  :: StableHlo.unary main_c_25 main_v76 (broadcastInDim S4096 ![] bcast_S_S4096 : (⟨S_, .i32⟩ : BufTy).Contents (Elt F) → (⟨S4096, .i32⟩ : BufTy).Contents (Elt F))
  :: StableHlo.binary main_v75 main_v76 main_v77 (cmpi .sge : (⟨S4096, .i32⟩ : BufTy).Contents (Elt F) → (⟨S4096, .i32⟩ : BufTy).Contents (Elt F) → (⟨S4096, .i1⟩ : BufTy).Contents (Elt F))
  :: StableHlo.unary main_v77 main_v78 (broadcastInDim S1x4096 ![1] bcast_S4096_S1x4096_1 : (⟨S4096, .i1⟩ : BufTy).Contents (Elt F) → (⟨S1x4096, .i1⟩ : BufTy).Contents (Elt F))
  :: StableHlo.unary main_v78 main_v79 (broadcastInDim S64x4096 ![0, 1] bcast_S1x4096_S64x4096_0_1 : (⟨S1x4096, .i1⟩ : BufTy).Contents (Elt F) → (⟨S64x4096, .i1⟩ : BufTy).Contents (Elt F))
  :: StableHlo.binary main_v6 main_v79 main_v80 (andi : (⟨S64x4096, .i1⟩ : BufTy).Contents (Elt F) → (⟨S64x4096, .i1⟩ : BufTy).Contents (Elt F) → (⟨S64x4096, .i1⟩ : BufTy).Contents (Elt F))
  :: StableHlo.nullary main_c_26 (constantI S_ 32 0#32)
  :: StableHlo.nullary main_c_27 (constantI S_ 32 9#32)
  :: StableHlo.TRef.unary (.of main_c_26 : StableHlo.TRef sig ⟨S_, .i32⟩) (.of main_call23_v0 : StableHlo.TRef sig ⟨S_, .i32⟩) id
  :: StableHlo.TRef.unary (.of main_call23_v0 : StableHlo.TRef sig ⟨S_, .i32⟩) (.of main_call23_v1 : StableHlo.TRef sig ⟨S4096, .i32⟩) (broadcastInDim S4096 ![] bcast_S_S4096)
  :: StableHlo.TRef.binary (.of main_call23_v1 : StableHlo.TRef sig ⟨S4096, .i32⟩) (.of main_v75 : StableHlo.TRef sig ⟨S4096, .i32⟩) (.of main_call23_v2 : StableHlo.TRef sig ⟨S4096, .i32⟩) maxsi
  :: StableHlo.TRef.unary (.of main_c_27 : StableHlo.TRef sig ⟨S_, .i32⟩) (.of main_call23_v3 : StableHlo.TRef sig ⟨S_, .i32⟩) id
  :: StableHlo.TRef.unary (.of main_call23_v3 : StableHlo.TRef sig ⟨S_, .i32⟩) (.of main_call23_v4 : StableHlo.TRef sig ⟨S4096, .i32⟩) (broadcastInDim S4096 ![] bcast_S_S4096)
  :: StableHlo.TRef.binary (.of main_call23_v4 : StableHlo.TRef sig ⟨S4096, .i32⟩) (.of main_call23_v2 : StableHlo.TRef sig ⟨S4096, .i32⟩) (.of main_v81 : StableHlo.TRef sig ⟨S4096, .i32⟩) minsi
  :: StableHlo.nullary main_c_28 (constantI S_ 32 0#32)
  :: StableHlo.unary main_c_28 main_v82 (broadcastInDim S4096 ![] bcast_S_S4096 : (⟨S_, .i32⟩ : BufTy).Contents (Elt F) → (⟨S4096, .i32⟩ : BufTy).Contents (Elt F))
  :: StableHlo.binary main_v81 main_v82 main_v83 (cmpi .slt : (⟨S4096, .i32⟩ : BufTy).Contents (Elt F) → (⟨S4096, .i32⟩ : BufTy).Contents (Elt F) → (⟨S4096, .i1⟩ : BufTy).Contents (Elt F))
  :: StableHlo.nullary main_c_29 (constantI S_ 32 10#32)
  :: StableHlo.unary main_c_29 main_v84 (broadcastInDim S4096 ![] bcast_S_S4096 : (⟨S_, .i32⟩ : BufTy).Contents (Elt F) → (⟨S4096, .i32⟩ : BufTy).Contents (Elt F))
  :: StableHlo.binary main_v81 main_v84 main_v85 (addi : (⟨S4096, .i32⟩ : BufTy).Contents (Elt F) → (⟨S4096, .i32⟩ : BufTy).Contents (Elt F) → (⟨S4096, .i32⟩ : BufTy).Contents (Elt F))
  :: StableHlo.ternary main_v83 main_v85 main_v81 main_v86 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v86 main_v87 (broadcastInDim S4096x1 ![0] bcast_S4096_S4096x1_0 : (⟨S4096, .i32⟩ : BufTy).Contents (Elt F) → (⟨S4096x1, .i32⟩ : BufTy).Contents (Elt F))
  :: StableHlo.binary main_cst main_v87 main_v88 ((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))
  :: StableHlo.nullary main_cst_30 (constant S_ .f32 0x3F800000#32)
  :: StableHlo.TRef.unary (.of main_cst_30 : StableHlo.TRef sig ⟨S_, .f32⟩) (.of main_call24_v0 : StableHlo.TRef sig ⟨S_, .f32⟩) id
  :: StableHlo.TRef.unary (.of main_v88 : StableHlo.TRef sig ⟨S4096, .f32⟩) (.of main_call24_v1 : StableHlo.TRef sig ⟨S64x4096, .f32⟩) (broadcastInDim S64x4096 ![1] bcast_S4096_S64x4096_1)
  :: StableHlo.TRef.unary (.of main_call24_v0 : StableHlo.TRef sig ⟨S_, .f32⟩) (.of main_call24_v2 : StableHlo.TRef sig ⟨S64x4096, .f32⟩) (broadcastInDim S64x4096 ![] bcast_S_S64x4096)
  :: StableHlo.TRef.ternary (.of main_v80 : StableHlo.TRef sig ⟨S64x4096, .i1⟩) (.of main_call24_v1 : StableHlo.TRef sig ⟨S64x4096, .f32⟩) (.of main_call24_v2 : StableHlo.TRef sig ⟨S64x4096, .f32⟩) (.of main_v89 : StableHlo.TRef sig ⟨S64x4096, .f32⟩) select
  :: StableHlo.unary main_v89 main_v90 ((extractStridedSlice S64x4095 ![0, 0] · slices_S64x4096_S64x4095_0_0) : (⟨S64x4096, .f32⟩ : BufTy).Contents (Elt F) → (⟨S64x4095, .f32⟩ : BufTy).Contents (Elt F))
  :: StableHlo.nullary main_cst_31 (constant S_ .f32 0x3F800000#32)
  :: StableHlo.TRef.unary (.of main_cst_31 : StableHlo.TRef sig ⟨S_, .f32⟩) (.of main_call25_v0 : StableHlo.TRef sig ⟨S_, .f32⟩) id
  :: StableHlo.TRef.binary (.of main_v90 : StableHlo.TRef sig ⟨S64x4095, .f32⟩) (.of main_call25_v0 : StableHlo.TRef sig ⟨S_, .f32⟩) (.of main_v91 : StableHlo.TRef sig ⟨S64x4096, .f32⟩) (fun x v => pad S64x4096 ![0, 1] ![0, 0] ![0, 0] x v pads_S64x4095_S64x4096_000_100 h_S_)
  :: StableHlo.binary main_v68 main_v91 main_v92 (maximumf : (⟨S64x4096, .f32⟩ : BufTy).Contents (Elt F) → (⟨S64x4096, .f32⟩ : BufTy).Contents (Elt F) → (⟨S64x4096, .f32⟩ : BufTy).Contents (Elt F))
  :: StableHlo.nullary main_c_32 (constantI S_ 32 2#32)
  :: StableHlo.unary main_c_32 main_v93 (broadcastInDim S4096 ![] bcast_S_S4096 : (⟨S_, .i32⟩ : BufTy).Contents (Elt F) → (⟨S4096, .i32⟩ : BufTy).Contents (Elt F))
  :: StableHlo.binary main_v73 main_v93 main_v94 (subi : (⟨S4096, .i32⟩ : BufTy).Contents (Elt F) → (⟨S4096, .i32⟩ : BufTy).Contents (Elt F) → (⟨S4096, .i32⟩ : BufTy).Contents (Elt F))
  :: StableHlo.nullary main_c_33 (constantI S_ 32 0#32)
  :: StableHlo.unary main_c_33 main_v95 (broadcastInDim S4096 ![] bcast_S_S4096 : (⟨S_, .i32⟩ : BufTy).Contents (Elt F) → (⟨S4096, .i32⟩ : BufTy).Contents (Elt F))
  :: StableHlo.binary main_v94 main_v95 main_v96 (cmpi .sge : (⟨S4096, .i32⟩ : BufTy).Contents (Elt F) → (⟨S4096, .i32⟩ : BufTy).Contents (Elt F) → (⟨S4096, .i1⟩ : BufTy).Contents (Elt F))
  :: StableHlo.unary main_v96 main_v97 (broadcastInDim S1x4096 ![1] bcast_S4096_S1x4096_1 : (⟨S4096, .i1⟩ : BufTy).Contents (Elt F) → (⟨S1x4096, .i1⟩ : BufTy).Contents (Elt F))
  :: StableHlo.unary main_v97 main_v98 (broadcastInDim S64x4096 ![0, 1] bcast_S1x4096_S64x4096_0_1 : (⟨S1x4096, .i1⟩ : BufTy).Contents (Elt F) → (⟨S64x4096, .i1⟩ : BufTy).Contents (Elt F))
  :: StableHlo.binary main_v6 main_v98 main_v99 (andi : (⟨S64x4096, .i1⟩ : BufTy).Contents (Elt F) → (⟨S64x4096, .i1⟩ : BufTy).Contents (Elt F) → (⟨S64x4096, .i1⟩ : BufTy).Contents (Elt F))
  :: StableHlo.nullary main_c_34 (constantI S_ 32 0#32)
  :: StableHlo.nullary main_c_35 (constantI S_ 32 9#32)
  :: StableHlo.TRef.unary (.of main_c_34 : StableHlo.TRef sig ⟨S_, .i32⟩) (.of main_call26_v0 : StableHlo.TRef sig ⟨S_, .i32⟩) id
  :: StableHlo.TRef.unary (.of main_call26_v0 : StableHlo.TRef sig ⟨S_, .i32⟩) (.of main_call26_v1 : StableHlo.TRef sig ⟨S4096, .i32⟩) (broadcastInDim S4096 ![] bcast_S_S4096)
  :: StableHlo.TRef.binary (.of main_call26_v1 : StableHlo.TRef sig ⟨S4096, .i32⟩) (.of main_v94 : StableHlo.TRef sig ⟨S4096, .i32⟩) (.of main_call26_v2 : StableHlo.TRef sig ⟨S4096, .i32⟩) maxsi
  :: StableHlo.TRef.unary (.of main_c_35 : StableHlo.TRef sig ⟨S_, .i32⟩) (.of main_call26_v3 : StableHlo.TRef sig ⟨S_, .i32⟩) id
  :: StableHlo.TRef.unary (.of main_call26_v3 : StableHlo.TRef sig ⟨S_, .i32⟩) (.of main_call26_v4 : StableHlo.TRef sig ⟨S4096, .i32⟩) (broadcastInDim S4096 ![] bcast_S_S4096)
  :: StableHlo.TRef.binary (.of main_call26_v4 : StableHlo.TRef sig ⟨S4096, .i32⟩) (.of main_call26_v2 : StableHlo.TRef sig ⟨S4096, .i32⟩) (.of main_v100 : StableHlo.TRef sig ⟨S4096, .i32⟩) minsi
  :: StableHlo.nullary main_c_36 (constantI S_ 32 0#32)
  :: StableHlo.unary main_c_36 main_v101 (broadcastInDim S4096 ![] bcast_S_S4096 : (⟨S_, .i32⟩ : BufTy).Contents (Elt F) → (⟨S4096, .i32⟩ : BufTy).Contents (Elt F))
  :: StableHlo.binary main_v100 main_v101 main_v102 (cmpi .slt : (⟨S4096, .i32⟩ : BufTy).Contents (Elt F) → (⟨S4096, .i32⟩ : BufTy).Contents (Elt F) → (⟨S4096, .i1⟩ : BufTy).Contents (Elt F))
  :: StableHlo.nullary main_c_37 (constantI S_ 32 10#32)
  :: StableHlo.unary main_c_37 main_v103 (broadcastInDim S4096 ![] bcast_S_S4096 : (⟨S_, .i32⟩ : BufTy).Contents (Elt F) → (⟨S4096, .i32⟩ : BufTy).Contents (Elt F))
  :: StableHlo.binary main_v100 main_v103 main_v104 (addi : (⟨S4096, .i32⟩ : BufTy).Contents (Elt F) → (⟨S4096, .i32⟩ : BufTy).Contents (Elt F) → (⟨S4096, .i32⟩ : BufTy).Contents (Elt F))
  :: StableHlo.ternary main_v102 main_v104 main_v100 main_v105 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v105 main_v106 (broadcastInDim S4096x1 ![0] bcast_S4096_S4096x1_0 : (⟨S4096, .i32⟩ : BufTy).Contents (Elt F) → (⟨S4096x1, .i32⟩ : BufTy).Contents (Elt F))
  :: StableHlo.binary main_cst main_v106 main_v107 ((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))
  :: StableHlo.nullary main_cst_38 (constant S_ .f32 0x3F800000#32)
  :: StableHlo.TRef.unary (.of main_cst_38 : StableHlo.TRef sig ⟨S_, .f32⟩) (.of main_call27_v0 : StableHlo.TRef sig ⟨S_, .f32⟩) id
  :: StableHlo.TRef.unary (.of main_v107 : StableHlo.TRef sig ⟨S4096, .f32⟩) (.of main_call27_v1 : StableHlo.TRef sig ⟨S64x4096, .f32⟩) (broadcastInDim S64x4096 ![1] bcast_S4096_S64x4096_1)
  :: StableHlo.TRef.unary (.of main_call27_v0 : StableHlo.TRef sig ⟨S_, .f32⟩) (.of main_call27_v2 : StableHlo.TRef sig ⟨S64x4096, .f32⟩) (broadcastInDim S64x4096 ![] bcast_S_S64x4096)
  :: StableHlo.TRef.ternary (.of main_v99 : StableHlo.TRef sig ⟨S64x4096, .i1⟩) (.of main_call27_v1 : StableHlo.TRef sig ⟨S64x4096, .f32⟩) (.of main_call27_v2 : StableHlo.TRef sig ⟨S64x4096, .f32⟩) (.of main_v108 : StableHlo.TRef sig ⟨S64x4096, .f32⟩) select
  :: StableHlo.unary main_v108 main_v109 ((extractStridedSlice S64x4094 ![0, 0] · slices_S64x4096_S64x4094_0_0) : (⟨S64x4096, .f32⟩ : BufTy).Contents (Elt F) → (⟨S64x4094, .f32⟩ : BufTy).Contents (Elt F))
  :: StableHlo.nullary main_cst_39 (constant S_ .f32 0x3F800000#32)
  :: StableHlo.TRef.unary (.of main_cst_39 : StableHlo.TRef sig ⟨S_, .f32⟩) (.of main_call28_v0 : StableHlo.TRef sig ⟨S_, .f32⟩) id
  :: StableHlo.TRef.binary (.of main_v109 : StableHlo.TRef sig ⟨S64x4094, .f32⟩) (.of main_call28_v0 : StableHlo.TRef sig ⟨S_, .f32⟩) (.of main_v110 : StableHlo.TRef sig ⟨S64x4096, .f32⟩) (fun x v => pad S64x4096 ![0, 2] ![0, 0] ![0, 0] x v pads_S64x4094_S64x4096_000_200 h_S_)
  :: StableHlo.binary main_v92 main_v110 main_v111 (maximumf : (⟨S64x4096, .f32⟩ : BufTy).Contents (Elt F) → (⟨S64x4096, .f32⟩ : BufTy).Contents (Elt F) → (⟨S64x4096, .f32⟩ : BufTy).Contents (Elt F))
  :: StableHlo.nullary main_c_40 (constantI S_ 32 3#32)
  :: StableHlo.unary main_c_40 main_v112 (broadcastInDim S4096 ![] bcast_S_S4096 : (⟨S_, .i32⟩ : BufTy).Contents (Elt F) → (⟨S4096, .i32⟩ : BufTy).Contents (Elt F))
  :: StableHlo.binary main_v73 main_v112 main_v113 (subi : (⟨S4096, .i32⟩ : BufTy).Contents (Elt F) → (⟨S4096, .i32⟩ : BufTy).Contents (Elt F) → (⟨S4096, .i32⟩ : BufTy).Contents (Elt F))
  :: StableHlo.nullary main_c_41 (constantI S_ 32 0#32)
  :: StableHlo.unary main_c_41 main_v114 (broadcastInDim S4096 ![] bcast_S_S4096 : (⟨S_, .i32⟩ : BufTy).Contents (Elt F) → (⟨S4096, .i32⟩ : BufTy).Contents (Elt F))
  :: StableHlo.binary main_v113 main_v114 main_v115 (cmpi .sge : (⟨S4096, .i32⟩ : BufTy).Contents (Elt F) → (⟨S4096, .i32⟩ : BufTy).Contents (Elt F) → (⟨S4096, .i1⟩ : BufTy).Contents (Elt F))
  :: StableHlo.unary main_v115 main_v116 (broadcastInDim S1x4096 ![1] bcast_S4096_S1x4096_1 : (⟨S4096, .i1⟩ : BufTy).Contents (Elt F) → (⟨S1x4096, .i1⟩ : BufTy).Contents (Elt F))
  :: StableHlo.unary main_v116 main_v117 (broadcastInDim S64x4096 ![0, 1] bcast_S1x4096_S64x4096_0_1 : (⟨S1x4096, .i1⟩ : BufTy).Contents (Elt F) → (⟨S64x4096, .i1⟩ : BufTy).Contents (Elt F))
  :: StableHlo.binary main_v6 main_v117 main_v118 (andi : (⟨S64x4096, .i1⟩ : BufTy).Contents (Elt F) → (⟨S64x4096, .i1⟩ : BufTy).Contents (Elt F) → (⟨S64x4096, .i1⟩ : BufTy).Contents (Elt F))
  :: StableHlo.nullary main_c_42 (constantI S_ 32 0#32)
  :: StableHlo.nullary main_c_43 (constantI S_ 32 9#32)
  :: StableHlo.TRef.unary (.of main_c_42 : StableHlo.TRef sig ⟨S_, .i32⟩) (.of main_call29_v0 : StableHlo.TRef sig ⟨S_, .i32⟩) id
  :: StableHlo.TRef.unary (.of main_call29_v0 : StableHlo.TRef sig ⟨S_, .i32⟩) (.of main_call29_v1 : StableHlo.TRef sig ⟨S4096, .i32⟩) (broadcastInDim S4096 ![] bcast_S_S4096)
  :: StableHlo.TRef.binary (.of main_call29_v1 : StableHlo.TRef sig ⟨S4096, .i32⟩) (.of main_v113 : StableHlo.TRef sig ⟨S4096, .i32⟩) (.of main_call29_v2 : StableHlo.TRef sig ⟨S4096, .i32⟩) maxsi
  :: StableHlo.TRef.unary (.of main_c_43 : StableHlo.TRef sig ⟨S_, .i32⟩) (.of main_call29_v3 : StableHlo.TRef sig ⟨S_, .i32⟩) id
  :: StableHlo.TRef.unary (.of main_call29_v3 : StableHlo.TRef sig ⟨S_, .i32⟩) (.of main_call29_v4 : StableHlo.TRef sig ⟨S4096, .i32⟩) (broadcastInDim S4096 ![] bcast_S_S4096)
  :: StableHlo.TRef.binary (.of main_call29_v4 : StableHlo.TRef sig ⟨S4096, .i32⟩) (.of main_call29_v2 : StableHlo.TRef sig ⟨S4096, .i32⟩) (.of main_v119 : StableHlo.TRef sig ⟨S4096, .i32⟩) minsi
  :: StableHlo.nullary main_c_44 (constantI S_ 32 0#32)
  :: StableHlo.unary main_c_44 main_v120 (broadcastInDim S4096 ![] bcast_S_S4096 : (⟨S_, .i32⟩ : BufTy).Contents (Elt F) → (⟨S4096, .i32⟩ : BufTy).Contents (Elt F))
  :: StableHlo.binary main_v119 main_v120 main_v121 (cmpi .slt : (⟨S4096, .i32⟩ : BufTy).Contents (Elt F) → (⟨S4096, .i32⟩ : BufTy).Contents (Elt F) → (⟨S4096, .i1⟩ : BufTy).Contents (Elt F))
  :: StableHlo.nullary main_c_45 (constantI S_ 32 10#32)
  :: StableHlo.unary main_c_45 main_v122 (broadcastInDim S4096 ![] bcast_S_S4096 : (⟨S_, .i32⟩ : BufTy).Contents (Elt F) → (⟨S4096, .i32⟩ : BufTy).Contents (Elt F))
  :: StableHlo.binary main_v119 main_v122 main_v123 (addi : (⟨S4096, .i32⟩ : BufTy).Contents (Elt F) → (⟨S4096, .i32⟩ : BufTy).Contents (Elt F) → (⟨S4096, .i32⟩ : BufTy).Contents (Elt F))
  :: StableHlo.ternary main_v121 main_v123 main_v119 main_v124 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v124 main_v125 (broadcastInDim S4096x1 ![0] bcast_S4096_S4096x1_0 : (⟨S4096, .i32⟩ : BufTy).Contents (Elt F) → (⟨S4096x1, .i32⟩ : BufTy).Contents (Elt F))
  :: StableHlo.binary main_cst main_v125 main_v126 ((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))
  :: StableHlo.nullary main_cst_46 (constant S_ .f32 0x3F800000#32)
  :: StableHlo.TRef.unary (.of main_cst_46 : StableHlo.TRef sig ⟨S_, .f32⟩) (.of main_call30_v0 : StableHlo.TRef sig ⟨S_, .f32⟩) id
  :: StableHlo.TRef.unary (.of main_v126 : StableHlo.TRef sig ⟨S4096, .f32⟩) (.of main_call30_v1 : StableHlo.TRef sig ⟨S64x4096, .f32⟩) (broadcastInDim S64x4096 ![1] bcast_S4096_S64x4096_1)
  :: StableHlo.TRef.unary (.of main_call30_v0 : StableHlo.TRef sig ⟨S_, .f32⟩) (.of main_call30_v2 : StableHlo.TRef sig ⟨S64x4096, .f32⟩) (broadcastInDim S64x4096 ![] bcast_S_S64x4096)
  :: StableHlo.TRef.ternary (.of main_v118 : StableHlo.TRef sig ⟨S64x4096, .i1⟩) (.of main_call30_v1 : StableHlo.TRef sig ⟨S64x4096, .f32⟩) (.of main_call30_v2 : StableHlo.TRef sig ⟨S64x4096, .f32⟩) (.of main_v127 : StableHlo.TRef sig ⟨S64x4096, .f32⟩) select
  :: StableHlo.unary main_v127 main_v128 ((extractStridedSlice S64x4093 ![0, 0] · slices_S64x4096_S64x4093_0_0) : (⟨S64x4096, .f32⟩ : BufTy).Contents (Elt F) → (⟨S64x4093, .f32⟩ : BufTy).Contents (Elt F))
  :: StableHlo.nullary main_cst_47 (constant S_ .f32 0x3F800000#32)
  :: StableHlo.TRef.unary (.of main_cst_47 : StableHlo.TRef sig ⟨S_, .f32⟩) (.of main_call31_v0 : StableHlo.TRef sig ⟨S_, .f32⟩) id
  :: StableHlo.TRef.binary (.of main_v128 : StableHlo.TRef sig ⟨S64x4093, .f32⟩) (.of main_call31_v0 : StableHlo.TRef sig ⟨S_, .f32⟩) (.of main_v129 : StableHlo.TRef sig ⟨S64x4096, .f32⟩) (fun x v => pad S64x4096 ![0, 3] ![0, 0] ![0, 0] x v pads_S64x4093_S64x4096_000_300 h_S_)
  :: StableHlo.binary main_v111 main_v129 main_v130 (maximumf : (⟨S64x4096, .f32⟩ : BufTy).Contents (Elt F) → (⟨S64x4096, .f32⟩ : BufTy).Contents (Elt F) → (⟨S64x4096, .f32⟩ : BufTy).Contents (Elt F))
  :: StableHlo.nullary main_c_48 (constantI S_ 32 4#32)
  :: StableHlo.unary main_c_48 main_v131 (broadcastInDim S4096 ![] bcast_S_S4096 : (⟨S_, .i32⟩ : BufTy).Contents (Elt F) → (⟨S4096, .i32⟩ : BufTy).Contents (Elt F))
  :: StableHlo.binary main_v73 main_v131 main_v132 (subi : (⟨S4096, .i32⟩ : BufTy).Contents (Elt F) → (⟨S4096, .i32⟩ : BufTy).Contents (Elt F) → (⟨S4096, .i32⟩ : BufTy).Contents (Elt F))
  :: StableHlo.nullary main_c_49 (constantI S_ 32 0#32)
  :: StableHlo.unary main_c_49 main_v133 (broadcastInDim S4096 ![] bcast_S_S4096 : (⟨S_, .i32⟩ : BufTy).Contents (Elt F) → (⟨S4096, .i32⟩ : BufTy).Contents (Elt F))
  :: StableHlo.binary main_v132 main_v133 main_v134 (cmpi .sge : (⟨S4096, .i32⟩ : BufTy).Contents (Elt F) → (⟨S4096, .i32⟩ : BufTy).Contents (Elt F) → (⟨S4096, .i1⟩ : BufTy).Contents (Elt F))
  :: StableHlo.unary main_v134 main_v135 (broadcastInDim S1x4096 ![1] bcast_S4096_S1x4096_1 : (⟨S4096, .i1⟩ : BufTy).Contents (Elt F) → (⟨S1x4096, .i1⟩ : BufTy).Contents (Elt F))
  :: StableHlo.unary main_v135 main_v136 (broadcastInDim S64x4096 ![0, 1] bcast_S1x4096_S64x4096_0_1 : (⟨S1x4096, .i1⟩ : BufTy).Contents (Elt F) → (⟨S64x4096, .i1⟩ : BufTy).Contents (Elt F))
  :: StableHlo.binary main_v6 main_v136 main_v137 (andi : (⟨S64x4096, .i1⟩ : BufTy).Contents (Elt F) → (⟨S64x4096, .i1⟩ : BufTy).Contents (Elt F) → (⟨S64x4096, .i1⟩ : BufTy).Contents (Elt F))
  :: StableHlo.nullary main_c_50 (constantI S_ 32 0#32)
  :: StableHlo.nullary main_c_51 (constantI S_ 32 9#32)
  :: StableHlo.TRef.unary (.of main_c_50 : StableHlo.TRef sig ⟨S_, .i32⟩) (.of main_call32_v0 : StableHlo.TRef sig ⟨S_, .i32⟩) id
  :: StableHlo.TRef.unary (.of main_call32_v0 : StableHlo.TRef sig ⟨S_, .i32⟩) (.of main_call32_v1 : StableHlo.TRef sig ⟨S4096, .i32⟩) (broadcastInDim S4096 ![] bcast_S_S4096)
  :: StableHlo.TRef.binary (.of main_call32_v1 : StableHlo.TRef sig ⟨S4096, .i32⟩) (.of main_v132 : StableHlo.TRef sig ⟨S4096, .i32⟩) (.of main_call32_v2 : StableHlo.TRef sig ⟨S4096, .i32⟩) maxsi
  :: StableHlo.TRef.unary (.of main_c_51 : StableHlo.TRef sig ⟨S_, .i32⟩) (.of main_call32_v3 : StableHlo.TRef sig ⟨S_, .i32⟩) id
  :: StableHlo.TRef.unary (.of main_call32_v3 : StableHlo.TRef sig ⟨S_, .i32⟩) (.of main_call32_v4 : StableHlo.TRef sig ⟨S4096, .i32⟩) (broadcastInDim S4096 ![] bcast_S_S4096)
  :: StableHlo.TRef.binary (.of main_call32_v4 : StableHlo.TRef sig ⟨S4096, .i32⟩) (.of main_call32_v2 : StableHlo.TRef sig ⟨S4096, .i32⟩) (.of main_v138 : StableHlo.TRef sig ⟨S4096, .i32⟩) minsi
  :: StableHlo.nullary main_c_52 (constantI S_ 32 0#32)
  :: StableHlo.unary main_c_52 main_v139 (broadcastInDim S4096 ![] bcast_S_S4096 : (⟨S_, .i32⟩ : BufTy).Contents (Elt F) → (⟨S4096, .i32⟩ : BufTy).Contents (Elt F))
  :: StableHlo.binary main_v138 main_v139 main_v140 (cmpi .slt : (⟨S4096, .i32⟩ : BufTy).Contents (Elt F) → (⟨S4096, .i32⟩ : BufTy).Contents (Elt F) → (⟨S4096, .i1⟩ : BufTy).Contents (Elt F))
  :: StableHlo.nullary main_c_53 (constantI S_ 32 10#32)
  :: StableHlo.unary main_c_53 main_v141 (broadcastInDim S4096 ![] bcast_S_S4096 : (⟨S_, .i32⟩ : BufTy).Contents (Elt F) → (⟨S4096, .i32⟩ : BufTy).Contents (Elt F))
  :: StableHlo.binary main_v138 main_v141 main_v142 (addi : (⟨S4096, .i32⟩ : BufTy).Contents (Elt F) → (⟨S4096, .i32⟩ : BufTy).Contents (Elt F) → (⟨S4096, .i32⟩ : BufTy).Contents (Elt F))
  :: StableHlo.ternary main_v140 main_v142 main_v138 main_v143 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v143 main_v144 (broadcastInDim S4096x1 ![0] bcast_S4096_S4096x1_0 : (⟨S4096, .i32⟩ : BufTy).Contents (Elt F) → (⟨S4096x1, .i32⟩ : BufTy).Contents (Elt F))
  :: StableHlo.binary main_cst main_v144 main_v145 ((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))
  :: StableHlo.nullary main_cst_54 (constant S_ .f32 0x3F800000#32)
  :: StableHlo.TRef.unary (.of main_cst_54 : StableHlo.TRef sig ⟨S_, .f32⟩) (.of main_call33_v0 : StableHlo.TRef sig ⟨S_, .f32⟩) id
  :: StableHlo.TRef.unary (.of main_v145 : StableHlo.TRef sig ⟨S4096, .f32⟩) (.of main_call33_v1 : StableHlo.TRef sig ⟨S64x4096, .f32⟩) (broadcastInDim S64x4096 ![1] bcast_S4096_S64x4096_1)
  :: StableHlo.TRef.unary (.of main_call33_v0 : StableHlo.TRef sig ⟨S_, .f32⟩) (.of main_call33_v2 : StableHlo.TRef sig ⟨S64x4096, .f32⟩) (broadcastInDim S64x4096 ![] bcast_S_S64x4096)
  :: StableHlo.TRef.ternary (.of main_v137 : StableHlo.TRef sig ⟨S64x4096, .i1⟩) (.of main_call33_v1 : StableHlo.TRef sig ⟨S64x4096, .f32⟩) (.of main_call33_v2 : StableHlo.TRef sig ⟨S64x4096, .f32⟩) (.of main_v146 : StableHlo.TRef sig ⟨S64x4096, .f32⟩) select
  :: StableHlo.unary main_v146 main_v147 ((extractStridedSlice S64x4092 ![0, 0] · slices_S64x4096_S64x4092_0_0) : (⟨S64x4096, .f32⟩ : BufTy).Contents (Elt F) → (⟨S64x4092, .f32⟩ : BufTy).Contents (Elt F))
  :: StableHlo.nullary main_cst_55 (constant S_ .f32 0x3F800000#32)
  :: StableHlo.TRef.unary (.of main_cst_55 : StableHlo.TRef sig ⟨S_, .f32⟩) (.of main_call34_v0 : StableHlo.TRef sig ⟨S_, .f32⟩) id
  :: StableHlo.TRef.binary (.of main_v147 : StableHlo.TRef sig ⟨S64x4092, .f32⟩) (.of main_call34_v0 : StableHlo.TRef sig ⟨S_, .f32⟩) (.of main_v148 : StableHlo.TRef sig ⟨S64x4096, .f32⟩) (fun x v => pad S64x4096 ![0, 4] ![0, 0] ![0, 0] x v pads_S64x4092_S64x4096_000_400 h_S_)
  :: StableHlo.binary main_v130 main_v148 main_v149 (maximumf : (⟨S64x4096, .f32⟩ : BufTy).Contents (Elt F) → (⟨S64x4096, .f32⟩ : BufTy).Contents (Elt F) → (⟨S64x4096, .f32⟩ : BufTy).Contents (Elt F))
  :: StableHlo.nullary main_c_56 (constantI S_ 32 5#32)
  :: StableHlo.unary main_c_56 main_v150 (broadcastInDim S4096 ![] bcast_S_S4096 : (⟨S_, .i32⟩ : BufTy).Contents (Elt F) → (⟨S4096, .i32⟩ : BufTy).Contents (Elt F))
  :: StableHlo.binary main_v73 main_v150 main_v151 (subi : (⟨S4096, .i32⟩ : BufTy).Contents (Elt F) → (⟨S4096, .i32⟩ : BufTy).Contents (Elt F) → (⟨S4096, .i32⟩ : BufTy).Contents (Elt F))
  :: StableHlo.nullary main_c_57 (constantI S_ 32 0#32)
  :: StableHlo.unary main_c_57 main_v152 (broadcastInDim S4096 ![] bcast_S_S4096 : (⟨S_, .i32⟩ : BufTy).Contents (Elt F) → (⟨S4096, .i32⟩ : BufTy).Contents (Elt F))
  :: StableHlo.binary main_v151 main_v152 main_v153 (cmpi .sge : (⟨S4096, .i32⟩ : BufTy).Contents (Elt F) → (⟨S4096, .i32⟩ : BufTy).Contents (Elt F) → (⟨S4096, .i1⟩ : BufTy).Contents (Elt F))
  :: StableHlo.unary main_v153 main_v154 (broadcastInDim S1x4096 ![1] bcast_S4096_S1x4096_1 : (⟨S4096, .i1⟩ : BufTy).Contents (Elt F) → (⟨S1x4096, .i1⟩ : BufTy).Contents (Elt F))
  :: StableHlo.unary main_v154 main_v155 (broadcastInDim S64x4096 ![0, 1] bcast_S1x4096_S64x4096_0_1 : (⟨S1x4096, .i1⟩ : BufTy).Contents (Elt F) → (⟨S64x4096, .i1⟩ : BufTy).Contents (Elt F))
  :: StableHlo.binary main_v6 main_v155 main_v156 (andi : (⟨S64x4096, .i1⟩ : BufTy).Contents (Elt F) → (⟨S64x4096, .i1⟩ : BufTy).Contents (Elt F) → (⟨S64x4096, .i1⟩ : BufTy).Contents (Elt F))
  :: StableHlo.nullary main_c_58 (constantI S_ 32 0#32)
  :: StableHlo.nullary main_c_59 (constantI S_ 32 9#32)
  :: StableHlo.TRef.unary (.of main_c_58 : StableHlo.TRef sig ⟨S_, .i32⟩) (.of main_call35_v0 : StableHlo.TRef sig ⟨S_, .i32⟩) id
  :: StableHlo.TRef.unary (.of main_call35_v0 : StableHlo.TRef sig ⟨S_, .i32⟩) (.of main_call35_v1 : StableHlo.TRef sig ⟨S4096, .i32⟩) (broadcastInDim S4096 ![] bcast_S_S4096)
  :: StableHlo.TRef.binary (.of main_call35_v1 : StableHlo.TRef sig ⟨S4096, .i32⟩) (.of main_v151 : StableHlo.TRef sig ⟨S4096, .i32⟩) (.of main_call35_v2 : StableHlo.TRef sig ⟨S4096, .i32⟩) maxsi
  :: StableHlo.TRef.unary (.of main_c_59 : StableHlo.TRef sig ⟨S_, .i32⟩) (.of main_call35_v3 : StableHlo.TRef sig ⟨S_, .i32⟩) id
  :: StableHlo.TRef.unary (.of main_call35_v3 : StableHlo.TRef sig ⟨S_, .i32⟩) (.of main_call35_v4 : StableHlo.TRef sig ⟨S4096, .i32⟩) (broadcastInDim S4096 ![] bcast_S_S4096)
  :: StableHlo.TRef.binary (.of main_call35_v4 : StableHlo.TRef sig ⟨S4096, .i32⟩) (.of main_call35_v2 : StableHlo.TRef sig ⟨S4096, .i32⟩) (.of main_v157 : StableHlo.TRef sig ⟨S4096, .i32⟩) minsi
  :: StableHlo.nullary main_c_60 (constantI S_ 32 0#32)
  :: StableHlo.unary main_c_60 main_v158 (broadcastInDim S4096 ![] bcast_S_S4096 : (⟨S_, .i32⟩ : BufTy).Contents (Elt F) → (⟨S4096, .i32⟩ : BufTy).Contents (Elt F))
  :: StableHlo.binary main_v157 main_v158 main_v159 (cmpi .slt : (⟨S4096, .i32⟩ : BufTy).Contents (Elt F) → (⟨S4096, .i32⟩ : BufTy).Contents (Elt F) → (⟨S4096, .i1⟩ : BufTy).Contents (Elt F))
  :: StableHlo.nullary main_c_61 (constantI S_ 32 10#32)
  :: StableHlo.unary main_c_61 main_v160 (broadcastInDim S4096 ![] bcast_S_S4096 : (⟨S_, .i32⟩ : BufTy).Contents (Elt F) → (⟨S4096, .i32⟩ : BufTy).Contents (Elt F))
  :: StableHlo.binary main_v157 main_v160 main_v161 (addi : (⟨S4096, .i32⟩ : BufTy).Contents (Elt F) → (⟨S4096, .i32⟩ : BufTy).Contents (Elt F) → (⟨S4096, .i32⟩ : BufTy).Contents (Elt F))
  :: StableHlo.ternary main_v159 main_v161 main_v157 main_v162 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v162 main_v163 (broadcastInDim S4096x1 ![0] bcast_S4096_S4096x1_0 : (⟨S4096, .i32⟩ : BufTy).Contents (Elt F) → (⟨S4096x1, .i32⟩ : BufTy).Contents (Elt F))
  :: StableHlo.binary main_cst main_v163 main_v164 ((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))
  :: StableHlo.nullary main_cst_62 (constant S_ .f32 0x3F800000#32)
  :: StableHlo.TRef.unary (.of main_cst_62 : StableHlo.TRef sig ⟨S_, .f32⟩) (.of main_call36_v0 : StableHlo.TRef sig ⟨S_, .f32⟩) id
  :: StableHlo.TRef.unary (.of main_v164 : StableHlo.TRef sig ⟨S4096, .f32⟩) (.of main_call36_v1 : StableHlo.TRef sig ⟨S64x4096, .f32⟩) (broadcastInDim S64x4096 ![1] bcast_S4096_S64x4096_1)
  :: StableHlo.TRef.unary (.of main_call36_v0 : StableHlo.TRef sig ⟨S_, .f32⟩) (.of main_call36_v2 : StableHlo.TRef sig ⟨S64x4096, .f32⟩) (broadcastInDim S64x4096 ![] bcast_S_S64x4096)
  :: StableHlo.TRef.ternary (.of main_v156 : StableHlo.TRef sig ⟨S64x4096, .i1⟩) (.of main_call36_v1 : StableHlo.TRef sig ⟨S64x4096, .f32⟩) (.of main_call36_v2 : StableHlo.TRef sig ⟨S64x4096, .f32⟩) (.of main_v165 : StableHlo.TRef sig ⟨S64x4096, .f32⟩) select
  :: StableHlo.unary main_v165 main_v166 ((extractStridedSlice S64x4091 ![0, 0] · slices_S64x4096_S64x4091_0_0) : (⟨S64x4096, .f32⟩ : BufTy).Contents (Elt F) → (⟨S64x4091, .f32⟩ : BufTy).Contents (Elt F))
  :: StableHlo.nullary main_cst_63 (constant S_ .f32 0x3F800000#32)
  :: StableHlo.TRef.unary (.of main_cst_63 : StableHlo.TRef sig ⟨S_, .f32⟩) (.of main_call37_v0 : StableHlo.TRef sig ⟨S_, .f32⟩) id
  :: StableHlo.TRef.binary (.of main_v166 : StableHlo.TRef sig ⟨S64x4091, .f32⟩) (.of main_call37_v0 : StableHlo.TRef sig ⟨S_, .f32⟩) (.of main_v167 : StableHlo.TRef sig ⟨S64x4096, .f32⟩) (fun x v => pad S64x4096 ![0, 5] ![0, 0] ![0, 0] x v pads_S64x4091_S64x4096_000_500 h_S_)
  :: StableHlo.binary main_v149 main_v167 main_v168 (maximumf : (⟨S64x4096, .f32⟩ : BufTy).Contents (Elt F) → (⟨S64x4096, .f32⟩ : BufTy).Contents (Elt F) → (⟨S64x4096, .f32⟩ : BufTy).Contents (Elt F))
  :: StableHlo.nullary main_c_64 (constantI S_ 32 6#32)
  :: StableHlo.unary main_c_64 main_v169 (broadcastInDim S4096 ![] bcast_S_S4096 : (⟨S_, .i32⟩ : BufTy).Contents (Elt F) → (⟨S4096, .i32⟩ : BufTy).Contents (Elt F))
  :: StableHlo.binary main_v73 main_v169 main_v170 (subi : (⟨S4096, .i32⟩ : BufTy).Contents (Elt F) → (⟨S4096, .i32⟩ : BufTy).Contents (Elt F) → (⟨S4096, .i32⟩ : BufTy).Contents (Elt F))
  :: StableHlo.nullary main_c_65 (constantI S_ 32 0#32)
  :: StableHlo.unary main_c_65 main_v171 (broadcastInDim S4096 ![] bcast_S_S4096 : (⟨S_, .i32⟩ : BufTy).Contents (Elt F) → (⟨S4096, .i32⟩ : BufTy).Contents (Elt F))
  :: StableHlo.binary main_v170 main_v171 main_v172 (cmpi .sge : (⟨S4096, .i32⟩ : BufTy).Contents (Elt F) → (⟨S4096, .i32⟩ : BufTy).Contents (Elt F) → (⟨S4096, .i1⟩ : BufTy).Contents (Elt F))
  :: StableHlo.unary main_v172 main_v173 (broadcastInDim S1x4096 ![1] bcast_S4096_S1x4096_1 : (⟨S4096, .i1⟩ : BufTy).Contents (Elt F) → (⟨S1x4096, .i1⟩ : BufTy).Contents (Elt F))
  :: StableHlo.unary main_v173 main_v174 (broadcastInDim S64x4096 ![0, 1] bcast_S1x4096_S64x4096_0_1 : (⟨S1x4096, .i1⟩ : BufTy).Contents (Elt F) → (⟨S64x4096, .i1⟩ : BufTy).Contents (Elt F))
  :: StableHlo.binary main_v6 main_v174 main_v175 (andi : (⟨S64x4096, .i1⟩ : BufTy).Contents (Elt F) → (⟨S64x4096, .i1⟩ : BufTy).Contents (Elt F) → (⟨S64x4096, .i1⟩ : BufTy).Contents (Elt F))
  :: StableHlo.nullary main_c_66 (constantI S_ 32 0#32)
  :: StableHlo.nullary main_c_67 (constantI S_ 32 9#32)
  :: StableHlo.TRef.unary (.of main_c_66 : StableHlo.TRef sig ⟨S_, .i32⟩) (.of main_call38_v0 : StableHlo.TRef sig ⟨S_, .i32⟩) id
  :: StableHlo.TRef.unary (.of main_call38_v0 : StableHlo.TRef sig ⟨S_, .i32⟩) (.of main_call38_v1 : StableHlo.TRef sig ⟨S4096, .i32⟩) (broadcastInDim S4096 ![] bcast_S_S4096)
  :: StableHlo.TRef.binary (.of main_call38_v1 : StableHlo.TRef sig ⟨S4096, .i32⟩) (.of main_v170 : StableHlo.TRef sig ⟨S4096, .i32⟩) (.of main_call38_v2 : StableHlo.TRef sig ⟨S4096, .i32⟩) maxsi
  :: StableHlo.TRef.unary (.of main_c_67 : StableHlo.TRef sig ⟨S_, .i32⟩) (.of main_call38_v3 : StableHlo.TRef sig ⟨S_, .i32⟩) id
  :: StableHlo.TRef.unary (.of main_call38_v3 : StableHlo.TRef sig ⟨S_, .i32⟩) (.of main_call38_v4 : StableHlo.TRef sig ⟨S4096, .i32⟩) (broadcastInDim S4096 ![] bcast_S_S4096)
  :: StableHlo.TRef.binary (.of main_call38_v4 : StableHlo.TRef sig ⟨S4096, .i32⟩) (.of main_call38_v2 : StableHlo.TRef sig ⟨S4096, .i32⟩) (.of main_v176 : StableHlo.TRef sig ⟨S4096, .i32⟩) minsi
  :: StableHlo.nullary main_c_68 (constantI S_ 32 0#32)
  :: StableHlo.unary main_c_68 main_v177 (broadcastInDim S4096 ![] bcast_S_S4096 : (⟨S_, .i32⟩ : BufTy).Contents (Elt F) → (⟨S4096, .i32⟩ : BufTy).Contents (Elt F))
  :: StableHlo.binary main_v176 main_v177 main_v178 (cmpi .slt : (⟨S4096, .i32⟩ : BufTy).Contents (Elt F) → (⟨S4096, .i32⟩ : BufTy).Contents (Elt F) → (⟨S4096, .i1⟩ : BufTy).Contents (Elt F))
  :: StableHlo.nullary main_c_69 (constantI S_ 32 10#32)
  :: StableHlo.unary main_c_69 main_v179 (broadcastInDim S4096 ![] bcast_S_S4096 : (⟨S_, .i32⟩ : BufTy).Contents (Elt F) → (⟨S4096, .i32⟩ : BufTy).Contents (Elt F))
  :: StableHlo.binary main_v176 main_v179 main_v180 (addi : (⟨S4096, .i32⟩ : BufTy).Contents (Elt F) → (⟨S4096, .i32⟩ : BufTy).Contents (Elt F) → (⟨S4096, .i32⟩ : BufTy).Contents (Elt F))
  :: StableHlo.ternary main_v178 main_v180 main_v176 main_v181 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v181 main_v182 (broadcastInDim S4096x1 ![0] bcast_S4096_S4096x1_0 : (⟨S4096, .i32⟩ : BufTy).Contents (Elt F) → (⟨S4096x1, .i32⟩ : BufTy).Contents (Elt F))
  :: StableHlo.binary main_cst main_v182 main_v183 ((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))
  :: StableHlo.nullary main_cst_70 (constant S_ .f32 0x3F800000#32)
  :: StableHlo.TRef.unary (.of main_cst_70 : StableHlo.TRef sig ⟨S_, .f32⟩) (.of main_call39_v0 : StableHlo.TRef sig ⟨S_, .f32⟩) id
  :: StableHlo.TRef.unary (.of main_v183 : StableHlo.TRef sig ⟨S4096, .f32⟩) (.of main_call39_v1 : StableHlo.TRef sig ⟨S64x4096, .f32⟩) (broadcastInDim S64x4096 ![1] bcast_S4096_S64x4096_1)
  :: StableHlo.TRef.unary (.of main_call39_v0 : StableHlo.TRef sig ⟨S_, .f32⟩) (.of main_call39_v2 : StableHlo.TRef sig ⟨S64x4096, .f32⟩) (broadcastInDim S64x4096 ![] bcast_S_S64x4096)
  :: StableHlo.TRef.ternary (.of main_v175 : StableHlo.TRef sig ⟨S64x4096, .i1⟩) (.of main_call39_v1 : StableHlo.TRef sig ⟨S64x4096, .f32⟩) (.of main_call39_v2 : StableHlo.TRef sig ⟨S64x4096, .f32⟩) (.of main_v184 : StableHlo.TRef sig ⟨S64x4096, .f32⟩) select
  :: StableHlo.unary main_v184 main_v185 ((extractStridedSlice S64x4090 ![0, 0] · slices_S64x4096_S64x4090_0_0) : (⟨S64x4096, .f32⟩ : BufTy).Contents (Elt F) → (⟨S64x4090, .f32⟩ : BufTy).Contents (Elt F))
  :: StableHlo.nullary main_cst_71 (constant S_ .f32 0x3F800000#32)
  :: StableHlo.TRef.unary (.of main_cst_71 : StableHlo.TRef sig ⟨S_, .f32⟩) (.of main_call40_v0 : StableHlo.TRef sig ⟨S_, .f32⟩) id
  :: StableHlo.TRef.binary (.of main_v185 : StableHlo.TRef sig ⟨S64x4090, .f32⟩) (.of main_call40_v0 : StableHlo.TRef sig ⟨S_, .f32⟩) (.of main_v186 : StableHlo.TRef sig ⟨S64x4096, .f32⟩) (fun x v => pad S64x4096 ![0, 6] ![0, 0] ![0, 0] x v pads_S64x4090_S64x4096_000_600 h_S_)
  :: StableHlo.binary main_v168 main_v186 main_v187 (maximumf : (⟨S64x4096, .f32⟩ : BufTy).Contents (Elt F) → (⟨S64x4096, .f32⟩ : BufTy).Contents (Elt F) → (⟨S64x4096, .f32⟩ : BufTy).Contents (Elt F))
  :: StableHlo.nullary main_c_72 (constantI S_ 32 7#32)
  :: StableHlo.unary main_c_72 main_v188 (broadcastInDim S4096 ![] bcast_S_S4096 : (⟨S_, .i32⟩ : BufTy).Contents (Elt F) → (⟨S4096, .i32⟩ : BufTy).Contents (Elt F))
  :: StableHlo.binary main_v73 main_v188 main_v189 (subi : (⟨S4096, .i32⟩ : BufTy).Contents (Elt F) → (⟨S4096, .i32⟩ : BufTy).Contents (Elt F) → (⟨S4096, .i32⟩ : BufTy).Contents (Elt F))
  :: StableHlo.nullary main_c_73 (constantI S_ 32 0#32)
  :: StableHlo.unary main_c_73 main_v190 (broadcastInDim S4096 ![] bcast_S_S4096 : (⟨S_, .i32⟩ : BufTy).Contents (Elt F) → (⟨S4096, .i32⟩ : BufTy).Contents (Elt F))
  :: StableHlo.binary main_v189 main_v190 main_v191 (cmpi .sge : (⟨S4096, .i32⟩ : BufTy).Contents (Elt F) → (⟨S4096, .i32⟩ : BufTy).Contents (Elt F) → (⟨S4096, .i1⟩ : BufTy).Contents (Elt F))
  :: StableHlo.unary main_v191 main_v192 (broadcastInDim S1x4096 ![1] bcast_S4096_S1x4096_1 : (⟨S4096, .i1⟩ : BufTy).Contents (Elt F) → (⟨S1x4096, .i1⟩ : BufTy).Contents (Elt F))
  :: StableHlo.unary main_v192 main_v193 (broadcastInDim S64x4096 ![0, 1] bcast_S1x4096_S64x4096_0_1 : (⟨S1x4096, .i1⟩ : BufTy).Contents (Elt F) → (⟨S64x4096, .i1⟩ : BufTy).Contents (Elt F))
  :: StableHlo.binary main_v6 main_v193 main_v194 (andi : (⟨S64x4096, .i1⟩ : BufTy).Contents (Elt F) → (⟨S64x4096, .i1⟩ : BufTy).Contents (Elt F) → (⟨S64x4096, .i1⟩ : BufTy).Contents (Elt F))
  :: StableHlo.nullary main_c_74 (constantI S_ 32 0#32)
  :: StableHlo.nullary main_c_75 (constantI S_ 32 9#32)
  :: StableHlo.TRef.unary (.of main_c_74 : StableHlo.TRef sig ⟨S_, .i32⟩) (.of main_call41_v0 : StableHlo.TRef sig ⟨S_, .i32⟩) id
  :: StableHlo.TRef.unary (.of main_call41_v0 : StableHlo.TRef sig ⟨S_, .i32⟩) (.of main_call41_v1 : StableHlo.TRef sig ⟨S4096, .i32⟩) (broadcastInDim S4096 ![] bcast_S_S4096)
  :: StableHlo.TRef.binary (.of main_call41_v1 : StableHlo.TRef sig ⟨S4096, .i32⟩) (.of main_v189 : StableHlo.TRef sig ⟨S4096, .i32⟩) (.of main_call41_v2 : StableHlo.TRef sig ⟨S4096, .i32⟩) maxsi
  :: StableHlo.TRef.unary (.of main_c_75 : StableHlo.TRef sig ⟨S_, .i32⟩) (.of main_call41_v3 : StableHlo.TRef sig ⟨S_, .i32⟩) id
  :: StableHlo.TRef.unary (.of main_call41_v3 : StableHlo.TRef sig ⟨S_, .i32⟩) (.of main_call41_v4 : StableHlo.TRef sig ⟨S4096, .i32⟩) (broadcastInDim S4096 ![] bcast_S_S4096)
  :: StableHlo.TRef.binary (.of main_call41_v4 : StableHlo.TRef sig ⟨S4096, .i32⟩) (.of main_call41_v2 : StableHlo.TRef sig ⟨S4096, .i32⟩) (.of main_v195 : StableHlo.TRef sig ⟨S4096, .i32⟩) minsi
  :: StableHlo.nullary main_c_76 (constantI S_ 32 0#32)
  :: StableHlo.unary main_c_76 main_v196 (broadcastInDim S4096 ![] bcast_S_S4096 : (⟨S_, .i32⟩ : BufTy).Contents (Elt F) → (⟨S4096, .i32⟩ : BufTy).Contents (Elt F))
  :: StableHlo.binary main_v195 main_v196 main_v197 (cmpi .slt : (⟨S4096, .i32⟩ : BufTy).Contents (Elt F) → (⟨S4096, .i32⟩ : BufTy).Contents (Elt F) → (⟨S4096, .i1⟩ : BufTy).Contents (Elt F))
  :: StableHlo.nullary main_c_77 (constantI S_ 32 10#32)
  :: StableHlo.unary main_c_77 main_v198 (broadcastInDim S4096 ![] bcast_S_S4096 : (⟨S_, .i32⟩ : BufTy).Contents (Elt F) → (⟨S4096, .i32⟩ : BufTy).Contents (Elt F))
  :: StableHlo.binary main_v195 main_v198 main_v199 (addi : (⟨S4096, .i32⟩ : BufTy).Contents (Elt F) → (⟨S4096, .i32⟩ : BufTy).Contents (Elt F) → (⟨S4096, .i32⟩ : BufTy).Contents (Elt F))
  :: StableHlo.ternary main_v197 main_v199 main_v195 main_v200 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v200 main_v201 (broadcastInDim S4096x1 ![0] bcast_S4096_S4096x1_0 : (⟨S4096, .i32⟩ : BufTy).Contents (Elt F) → (⟨S4096x1, .i32⟩ : BufTy).Contents (Elt F))
  :: StableHlo.binary main_cst main_v201 main_v202 ((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))
  :: StableHlo.nullary main_cst_78 (constant S_ .f32 0x3F800000#32)
  :: StableHlo.TRef.unary (.of main_cst_78 : StableHlo.TRef sig ⟨S_, .f32⟩) (.of main_call42_v0 : StableHlo.TRef sig ⟨S_, .f32⟩) id
  :: StableHlo.TRef.unary (.of main_v202 : StableHlo.TRef sig ⟨S4096, .f32⟩) (.of main_call42_v1 : StableHlo.TRef sig ⟨S64x4096, .f32⟩) (broadcastInDim S64x4096 ![1] bcast_S4096_S64x4096_1)
  :: StableHlo.TRef.unary (.of main_call42_v0 : StableHlo.TRef sig ⟨S_, .f32⟩) (.of main_call42_v2 : StableHlo.TRef sig ⟨S64x4096, .f32⟩) (broadcastInDim S64x4096 ![] bcast_S_S64x4096)
  :: StableHlo.TRef.ternary (.of main_v194 : StableHlo.TRef sig ⟨S64x4096, .i1⟩) (.of main_call42_v1 : StableHlo.TRef sig ⟨S64x4096, .f32⟩) (.of main_call42_v2 : StableHlo.TRef sig ⟨S64x4096, .f32⟩) (.of main_v203 : StableHlo.TRef sig ⟨S64x4096, .f32⟩) select
  :: StableHlo.unary main_v203 main_v204 ((extractStridedSlice S64x4089 ![0, 0] · slices_S64x4096_S64x4089_0_0) : (⟨S64x4096, .f32⟩ : BufTy).Contents (Elt F) → (⟨S64x4089, .f32⟩ : BufTy).Contents (Elt F))
  :: StableHlo.nullary main_cst_79 (constant S_ .f32 0x3F800000#32)
  :: StableHlo.TRef.unary (.of main_cst_79 : StableHlo.TRef sig ⟨S_, .f32⟩) (.of main_call43_v0 : StableHlo.TRef sig ⟨S_, .f32⟩) id
  :: StableHlo.TRef.binary (.of main_v204 : StableHlo.TRef sig ⟨S64x4089, .f32⟩) (.of main_call43_v0 : StableHlo.TRef sig ⟨S_, .f32⟩) (.of main_v205 : StableHlo.TRef sig ⟨S64x4096, .f32⟩) (fun x v => pad S64x4096 ![0, 7] ![0, 0] ![0, 0] x v pads_S64x4089_S64x4096_000_700 h_S_)
  :: StableHlo.binary main_v187 main_v205 main_v206 (maximumf : (⟨S64x4096, .f32⟩ : BufTy).Contents (Elt F) → (⟨S64x4096, .f32⟩ : BufTy).Contents (Elt F) → (⟨S64x4096, .f32⟩ : BufTy).Contents (Elt F))
  :: StableHlo.nullary main_c_80 (constantI S_ 32 8#32)
  :: StableHlo.unary main_c_80 main_v207 (broadcastInDim S4096 ![] bcast_S_S4096 : (⟨S_, .i32⟩ : BufTy).Contents (Elt F) → (⟨S4096, .i32⟩ : BufTy).Contents (Elt F))
  :: StableHlo.binary main_v73 main_v207 main_v208 (subi : (⟨S4096, .i32⟩ : BufTy).Contents (Elt F) → (⟨S4096, .i32⟩ : BufTy).Contents (Elt F) → (⟨S4096, .i32⟩ : BufTy).Contents (Elt F))
  :: StableHlo.nullary main_c_81 (constantI S_ 32 0#32)
  :: StableHlo.unary main_c_81 main_v209 (broadcastInDim S4096 ![] bcast_S_S4096 : (⟨S_, .i32⟩ : BufTy).Contents (Elt F) → (⟨S4096, .i32⟩ : BufTy).Contents (Elt F))
  :: StableHlo.binary main_v208 main_v209 main_v210 (cmpi .sge : (⟨S4096, .i32⟩ : BufTy).Contents (Elt F) → (⟨S4096, .i32⟩ : BufTy).Contents (Elt F) → (⟨S4096, .i1⟩ : BufTy).Contents (Elt F))
  :: StableHlo.unary main_v210 main_v211 (broadcastInDim S1x4096 ![1] bcast_S4096_S1x4096_1 : (⟨S4096, .i1⟩ : BufTy).Contents (Elt F) → (⟨S1x4096, .i1⟩ : BufTy).Contents (Elt F))
  :: StableHlo.unary main_v211 main_v212 (broadcastInDim S64x4096 ![0, 1] bcast_S1x4096_S64x4096_0_1 : (⟨S1x4096, .i1⟩ : BufTy).Contents (Elt F) → (⟨S64x4096, .i1⟩ : BufTy).Contents (Elt F))
  :: StableHlo.binary main_v6 main_v212 main_v213 (andi : (⟨S64x4096, .i1⟩ : BufTy).Contents (Elt F) → (⟨S64x4096, .i1⟩ : BufTy).Contents (Elt F) → (⟨S64x4096, .i1⟩ : BufTy).Contents (Elt F))
  :: StableHlo.nullary main_c_82 (constantI S_ 32 0#32)
  :: StableHlo.nullary main_c_83 (constantI S_ 32 9#32)
  :: StableHlo.TRef.unary (.of main_c_82 : StableHlo.TRef sig ⟨S_, .i32⟩) (.of main_call44_v0 : StableHlo.TRef sig ⟨S_, .i32⟩) id
  :: StableHlo.TRef.unary (.of main_call44_v0 : StableHlo.TRef sig ⟨S_, .i32⟩) (.of main_call44_v1 : StableHlo.TRef sig ⟨S4096, .i32⟩) (broadcastInDim S4096 ![] bcast_S_S4096)
  :: StableHlo.TRef.binary (.of main_call44_v1 : StableHlo.TRef sig ⟨S4096, .i32⟩) (.of main_v208 : StableHlo.TRef sig ⟨S4096, .i32⟩) (.of main_call44_v2 : StableHlo.TRef sig ⟨S4096, .i32⟩) maxsi
  :: StableHlo.TRef.unary (.of main_c_83 : StableHlo.TRef sig ⟨S_, .i32⟩) (.of main_call44_v3 : StableHlo.TRef sig ⟨S_, .i32⟩) id
  :: StableHlo.TRef.unary (.of main_call44_v3 : StableHlo.TRef sig ⟨S_, .i32⟩) (.of main_call44_v4 : StableHlo.TRef sig ⟨S4096, .i32⟩) (broadcastInDim S4096 ![] bcast_S_S4096)
  :: StableHlo.TRef.binary (.of main_call44_v4 : StableHlo.TRef sig ⟨S4096, .i32⟩) (.of main_call44_v2 : StableHlo.TRef sig ⟨S4096, .i32⟩) (.of main_v214 : StableHlo.TRef sig ⟨S4096, .i32⟩) minsi
  :: StableHlo.nullary main_c_84 (constantI S_ 32 0#32)
  :: StableHlo.unary main_c_84 main_v215 (broadcastInDim S4096 ![] bcast_S_S4096 : (⟨S_, .i32⟩ : BufTy).Contents (Elt F) → (⟨S4096, .i32⟩ : BufTy).Contents (Elt F))
  :: StableHlo.binary main_v214 main_v215 main_v216 (cmpi .slt : (⟨S4096, .i32⟩ : BufTy).Contents (Elt F) → (⟨S4096, .i32⟩ : BufTy).Contents (Elt F) → (⟨S4096, .i1⟩ : BufTy).Contents (Elt F))
  :: StableHlo.nullary main_c_85 (constantI S_ 32 10#32)
  :: StableHlo.unary main_c_85 main_v217 (broadcastInDim S4096 ![] bcast_S_S4096 : (⟨S_, .i32⟩ : BufTy).Contents (Elt F) → (⟨S4096, .i32⟩ : BufTy).Contents (Elt F))
  :: StableHlo.binary main_v214 main_v217 main_v218 (addi : (⟨S4096, .i32⟩ : BufTy).Contents (Elt F) → (⟨S4096, .i32⟩ : BufTy).Contents (Elt F) → (⟨S4096, .i32⟩ : BufTy).Contents (Elt F))
  :: StableHlo.ternary main_v216 main_v218 main_v214 main_v219 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v219 main_v220 (broadcastInDim S4096x1 ![0] bcast_S4096_S4096x1_0 : (⟨S4096, .i32⟩ : BufTy).Contents (Elt F) → (⟨S4096x1, .i32⟩ : BufTy).Contents (Elt F))
  :: StableHlo.binary main_cst main_v220 main_v221 ((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))
  :: StableHlo.nullary main_cst_86 (constant S_ .f32 0x3F800000#32)
  :: StableHlo.TRef.unary (.of main_cst_86 : StableHlo.TRef sig ⟨S_, .f32⟩) (.of main_call45_v0 : StableHlo.TRef sig ⟨S_, .f32⟩) id
  :: StableHlo.TRef.unary (.of main_v221 : StableHlo.TRef sig ⟨S4096, .f32⟩) (.of main_call45_v1 : StableHlo.TRef sig ⟨S64x4096, .f32⟩) (broadcastInDim S64x4096 ![1] bcast_S4096_S64x4096_1)
  :: StableHlo.TRef.unary (.of main_call45_v0 : StableHlo.TRef sig ⟨S_, .f32⟩) (.of main_call45_v2 : StableHlo.TRef sig ⟨S64x4096, .f32⟩) (broadcastInDim S64x4096 ![] bcast_S_S64x4096)
  :: StableHlo.TRef.ternary (.of main_v213 : StableHlo.TRef sig ⟨S64x4096, .i1⟩) (.of main_call45_v1 : StableHlo.TRef sig ⟨S64x4096, .f32⟩) (.of main_call45_v2 : StableHlo.TRef sig ⟨S64x4096, .f32⟩) (.of main_v222 : StableHlo.TRef sig ⟨S64x4096, .f32⟩) select
  :: StableHlo.unary main_v222 main_v223 ((extractStridedSlice S64x4088 ![0, 0] · slices_S64x4096_S64x4088_0_0) : (⟨S64x4096, .f32⟩ : BufTy).Contents (Elt F) → (⟨S64x4088, .f32⟩ : BufTy).Contents (Elt F))
  :: StableHlo.nullary main_cst_87 (constant S_ .f32 0x3F800000#32)
  :: StableHlo.TRef.unary (.of main_cst_87 : StableHlo.TRef sig ⟨S_, .f32⟩) (.of main_call46_v0 : StableHlo.TRef sig ⟨S_, .f32⟩) id
  :: StableHlo.TRef.binary (.of main_v223 : StableHlo.TRef sig ⟨S64x4088, .f32⟩) (.of main_call46_v0 : StableHlo.TRef sig ⟨S_, .f32⟩) (.of main_v224 : StableHlo.TRef sig ⟨S64x4096, .f32⟩) (fun x v => pad S64x4096 ![0, 8] ![0, 0] ![0, 0] x v pads_S64x4088_S64x4096_000_800 h_S_)
  :: StableHlo.binary main_v206 main_v224 main_v225 (maximumf : (⟨S64x4096, .f32⟩ : BufTy).Contents (Elt F) → (⟨S64x4096, .f32⟩ : BufTy).Contents (Elt F) → (⟨S64x4096, .f32⟩ : BufTy).Contents (Elt F))
  :: StableHlo.nullary main_c_88 (constantI S_ 32 9#32)
  :: StableHlo.unary main_c_88 main_v226 (broadcastInDim S4096 ![] bcast_S_S4096 : (⟨S_, .i32⟩ : BufTy).Contents (Elt F) → (⟨S4096, .i32⟩ : BufTy).Contents (Elt F))
  :: StableHlo.binary main_v73 main_v226 main_v227 (subi : (⟨S4096, .i32⟩ : BufTy).Contents (Elt F) → (⟨S4096, .i32⟩ : BufTy).Contents (Elt F) → (⟨S4096, .i32⟩ : BufTy).Contents (Elt F))
  :: StableHlo.nullary main_c_89 (constantI S_ 32 0#32)
  :: StableHlo.unary main_c_89 main_v228 (broadcastInDim S4096 ![] bcast_S_S4096 : (⟨S_, .i32⟩ : BufTy).Contents (Elt F) → (⟨S4096, .i32⟩ : BufTy).Contents (Elt F))
  :: StableHlo.binary main_v227 main_v228 main_v229 (cmpi .sge : (⟨S4096, .i32⟩ : BufTy).Contents (Elt F) → (⟨S4096, .i32⟩ : BufTy).Contents (Elt F) → (⟨S4096, .i1⟩ : BufTy).Contents (Elt F))
  :: StableHlo.unary main_v229 main_v230 (broadcastInDim S1x4096 ![1] bcast_S4096_S1x4096_1 : (⟨S4096, .i1⟩ : BufTy).Contents (Elt F) → (⟨S1x4096, .i1⟩ : BufTy).Contents (Elt F))
  :: StableHlo.unary main_v230 main_v231 (broadcastInDim S64x4096 ![0, 1] bcast_S1x4096_S64x4096_0_1 : (⟨S1x4096, .i1⟩ : BufTy).Contents (Elt F) → (⟨S64x4096, .i1⟩ : BufTy).Contents (Elt F))
  :: StableHlo.binary main_v6 main_v231 main_v232 (andi : (⟨S64x4096, .i1⟩ : BufTy).Contents (Elt F) → (⟨S64x4096, .i1⟩ : BufTy).Contents (Elt F) → (⟨S64x4096, .i1⟩ : BufTy).Contents (Elt F))
  :: StableHlo.nullary main_c_90 (constantI S_ 32 0#32)
  :: StableHlo.nullary main_c_91 (constantI S_ 32 9#32)
  :: StableHlo.TRef.unary (.of main_c_90 : StableHlo.TRef sig ⟨S_, .i32⟩) (.of main_call47_v0 : StableHlo.TRef sig ⟨S_, .i32⟩) id
  :: StableHlo.TRef.unary (.of main_call47_v0 : StableHlo.TRef sig ⟨S_, .i32⟩) (.of main_call47_v1 : StableHlo.TRef sig ⟨S4096, .i32⟩) (broadcastInDim S4096 ![] bcast_S_S4096)
  :: StableHlo.TRef.binary (.of main_call47_v1 : StableHlo.TRef sig ⟨S4096, .i32⟩) (.of main_v227 : StableHlo.TRef sig ⟨S4096, .i32⟩) (.of main_call47_v2 : StableHlo.TRef sig ⟨S4096, .i32⟩) maxsi
  :: StableHlo.TRef.unary (.of main_c_91 : StableHlo.TRef sig ⟨S_, .i32⟩) (.of main_call47_v3 : StableHlo.TRef sig ⟨S_, .i32⟩) id
  :: StableHlo.TRef.unary (.of main_call47_v3 : StableHlo.TRef sig ⟨S_, .i32⟩) (.of main_call47_v4 : StableHlo.TRef sig ⟨S4096, .i32⟩) (broadcastInDim S4096 ![] bcast_S_S4096)
  :: StableHlo.TRef.binary (.of main_call47_v4 : StableHlo.TRef sig ⟨S4096, .i32⟩) (.of main_call47_v2 : StableHlo.TRef sig ⟨S4096, .i32⟩) (.of main_v233 : StableHlo.TRef sig ⟨S4096, .i32⟩) minsi
  :: StableHlo.nullary main_c_92 (constantI S_ 32 0#32)
  :: StableHlo.unary main_c_92 main_v234 (broadcastInDim S4096 ![] bcast_S_S4096 : (⟨S_, .i32⟩ : BufTy).Contents (Elt F) → (⟨S4096, .i32⟩ : BufTy).Contents (Elt F))
  :: StableHlo.binary main_v233 main_v234 main_v235 (cmpi .slt : (⟨S4096, .i32⟩ : BufTy).Contents (Elt F) → (⟨S4096, .i32⟩ : BufTy).Contents (Elt F) → (⟨S4096, .i1⟩ : BufTy).Contents (Elt F))
  :: StableHlo.nullary main_c_93 (constantI S_ 32 10#32)
  :: StableHlo.unary main_c_93 main_v236 (broadcastInDim S4096 ![] bcast_S_S4096 : (⟨S_, .i32⟩ : BufTy).Contents (Elt F) → (⟨S4096, .i32⟩ : BufTy).Contents (Elt F))
  :: StableHlo.binary main_v233 main_v236 main_v237 (addi : (⟨S4096, .i32⟩ : BufTy).Contents (Elt F) → (⟨S4096, .i32⟩ : BufTy).Contents (Elt F) → (⟨S4096, .i32⟩ : BufTy).Contents (Elt F))
  :: StableHlo.ternary main_v235 main_v237 main_v233 main_v238 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v238 main_v239 (broadcastInDim S4096x1 ![0] bcast_S4096_S4096x1_0 : (⟨S4096, .i32⟩ : BufTy).Contents (Elt F) → (⟨S4096x1, .i32⟩ : BufTy).Contents (Elt F))
  :: StableHlo.binary main_cst main_v239 main_v240 ((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))
  :: StableHlo.nullary main_cst_94 (constant S_ .f32 0x3F800000#32)
  :: StableHlo.TRef.unary (.of main_cst_94 : StableHlo.TRef sig ⟨S_, .f32⟩) (.of main_call48_v0 : StableHlo.TRef sig ⟨S_, .f32⟩) id
  :: StableHlo.TRef.unary (.of main_v240 : StableHlo.TRef sig ⟨S4096, .f32⟩) (.of main_call48_v1 : StableHlo.TRef sig ⟨S64x4096, .f32⟩) (broadcastInDim S64x4096 ![1] bcast_S4096_S64x4096_1)
  :: StableHlo.TRef.unary (.of main_call48_v0 : StableHlo.TRef sig ⟨S_, .f32⟩) (.of main_call48_v2 : StableHlo.TRef sig ⟨S64x4096, .f32⟩) (broadcastInDim S64x4096 ![] bcast_S_S64x4096)
  :: StableHlo.TRef.ternary (.of main_v232 : StableHlo.TRef sig ⟨S64x4096, .i1⟩) (.of main_call48_v1 : StableHlo.TRef sig ⟨S64x4096, .f32⟩) (.of main_call48_v2 : StableHlo.TRef sig ⟨S64x4096, .f32⟩) (.of main_v241 : StableHlo.TRef sig ⟨S64x4096, .f32⟩) select
  :: StableHlo.unary main_v241 main_v242 ((extractStridedSlice S64x4087 ![0, 0] · slices_S64x4096_S64x4087_0_0) : (⟨S64x4096, .f32⟩ : BufTy).Contents (Elt F) → (⟨S64x4087, .f32⟩ : BufTy).Contents (Elt F))
  :: StableHlo.nullary main_cst_95 (constant S_ .f32 0x3F800000#32)
  :: StableHlo.TRef.unary (.of main_cst_95 : StableHlo.TRef sig ⟨S_, .f32⟩) (.of main_call49_v0 : StableHlo.TRef sig ⟨S_, .f32⟩) id
  :: StableHlo.TRef.binary (.of main_v242 : StableHlo.TRef sig ⟨S64x4087, .f32⟩) (.of main_call49_v0 : StableHlo.TRef sig ⟨S_, .f32⟩) (.of main_v243 : StableHlo.TRef sig ⟨S64x4096, .f32⟩) (fun x v => pad S64x4096 ![0, 9] ![0, 0] ![0, 0] x v pads_S64x4087_S64x4096_000_900 h_S_)
  :: StableHlo.binary main_v225 main_v243 main_v244 (maximumf : (⟨S64x4096, .f32⟩ : BufTy).Contents (Elt F) → (⟨S64x4096, .f32⟩ : BufTy).Contents (Elt F) → (⟨S64x4096, .f32⟩ : BufTy).Contents (Elt F))
  :: StableHlo.nullary main_c_96 (constantI S_ 32 10#32)
  :: StableHlo.unary main_c_96 main_v245 (broadcastInDim S4096 ![] bcast_S_S4096 : (⟨S_, .i32⟩ : BufTy).Contents (Elt F) → (⟨S4096, .i32⟩ : BufTy).Contents (Elt F))
  :: StableHlo.binary main_v73 main_v245 main_v246 (subi : (⟨S4096, .i32⟩ : BufTy).Contents (Elt F) → (⟨S4096, .i32⟩ : BufTy).Contents (Elt F) → (⟨S4096, .i32⟩ : BufTy).Contents (Elt F))
  :: StableHlo.nullary main_c_97 (constantI S_ 32 0#32)
  :: StableHlo.unary main_c_97 main_v247 (broadcastInDim S4096 ![] bcast_S_S4096 : (⟨S_, .i32⟩ : BufTy).Contents (Elt F) → (⟨S4096, .i32⟩ : BufTy).Contents (Elt F))
  :: StableHlo.binary main_v246 main_v247 main_v248 (cmpi .sge : (⟨S4096, .i32⟩ : BufTy).Contents (Elt F) → (⟨S4096, .i32⟩ : BufTy).Contents (Elt F) → (⟨S4096, .i1⟩ : BufTy).Contents (Elt F))
  :: StableHlo.unary main_v248 main_v249 (broadcastInDim S1x4096 ![1] bcast_S4096_S1x4096_1 : (⟨S4096, .i1⟩ : BufTy).Contents (Elt F) → (⟨S1x4096, .i1⟩ : BufTy).Contents (Elt F))
  :: StableHlo.unary main_v249 main_v250 (broadcastInDim S64x4096 ![0, 1] bcast_S1x4096_S64x4096_0_1 : (⟨S1x4096, .i1⟩ : BufTy).Contents (Elt F) → (⟨S64x4096, .i1⟩ : BufTy).Contents (Elt F))
  :: StableHlo.binary main_v6 main_v250 main_v251 (andi : (⟨S64x4096, .i1⟩ : BufTy).Contents (Elt F) → (⟨S64x4096, .i1⟩ : BufTy).Contents (Elt F) → (⟨S64x4096, .i1⟩ : BufTy).Contents (Elt F))
  :: StableHlo.nullary main_c_98 (constantI S_ 32 0#32)
  :: StableHlo.nullary main_c_99 (constantI S_ 32 9#32)
  :: StableHlo.TRef.unary (.of main_c_98 : StableHlo.TRef sig ⟨S_, .i32⟩) (.of main_call50_v0 : StableHlo.TRef sig ⟨S_, .i32⟩) id
  :: StableHlo.TRef.unary (.of main_call50_v0 : StableHlo.TRef sig ⟨S_, .i32⟩) (.of main_call50_v1 : StableHlo.TRef sig ⟨S4096, .i32⟩) (broadcastInDim S4096 ![] bcast_S_S4096)
  :: StableHlo.TRef.binary (.of main_call50_v1 : StableHlo.TRef sig ⟨S4096, .i32⟩) (.of main_v246 : StableHlo.TRef sig ⟨S4096, .i32⟩) (.of main_call50_v2 : StableHlo.TRef sig ⟨S4096, .i32⟩) maxsi
  :: StableHlo.TRef.unary (.of main_c_99 : StableHlo.TRef sig ⟨S_, .i32⟩) (.of main_call50_v3 : StableHlo.TRef sig ⟨S_, .i32⟩) id
  :: StableHlo.TRef.unary (.of main_call50_v3 : StableHlo.TRef sig ⟨S_, .i32⟩) (.of main_call50_v4 : StableHlo.TRef sig ⟨S4096, .i32⟩) (broadcastInDim S4096 ![] bcast_S_S4096)
  :: StableHlo.TRef.binary (.of main_call50_v4 : StableHlo.TRef sig ⟨S4096, .i32⟩) (.of main_call50_v2 : StableHlo.TRef sig ⟨S4096, .i32⟩) (.of main_v252 : StableHlo.TRef sig ⟨S4096, .i32⟩) minsi
  :: StableHlo.nullary main_c_100 (constantI S_ 32 0#32)
  :: StableHlo.unary main_c_100 main_v253 (broadcastInDim S4096 ![] bcast_S_S4096 : (⟨S_, .i32⟩ : BufTy).Contents (Elt F) → (⟨S4096, .i32⟩ : BufTy).Contents (Elt F))
  :: StableHlo.binary main_v252 main_v253 main_v254 (cmpi .slt : (⟨S4096, .i32⟩ : BufTy).Contents (Elt F) → (⟨S4096, .i32⟩ : BufTy).Contents (Elt F) → (⟨S4096, .i1⟩ : BufTy).Contents (Elt F))
  :: StableHlo.nullary main_c_101 (constantI S_ 32 10#32)
  :: StableHlo.unary main_c_101 main_v255 (broadcastInDim S4096 ![] bcast_S_S4096 : (⟨S_, .i32⟩ : BufTy).Contents (Elt F) → (⟨S4096, .i32⟩ : BufTy).Contents (Elt F))
  :: StableHlo.binary main_v252 main_v255 main_v256 (addi : (⟨S4096, .i32⟩ : BufTy).Contents (Elt F) → (⟨S4096, .i32⟩ : BufTy).Contents (Elt F) → (⟨S4096, .i32⟩ : BufTy).Contents (Elt F))
  :: StableHlo.ternary main_v254 main_v256 main_v252 main_v257 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v257 main_v258 (broadcastInDim S4096x1 ![0] bcast_S4096_S4096x1_0 : (⟨S4096, .i32⟩ : BufTy).Contents (Elt F) → (⟨S4096x1, .i32⟩ : BufTy).Contents (Elt F))
  :: StableHlo.binary main_cst main_v258 main_v259 ((fun x i => Host.gather gather_S10_S4096x1_S4096_n_0_n_n_0_1_1 x i) : (⟨S10, .f32⟩ : BufTy).Contents (Elt F) → (⟨S4096x1, .i32⟩ : BufTy).Contents (Elt F) → (⟨S4096, .f32⟩ : BufTy).Contents (Elt F))
  :: StableHlo.nullary main_cst_102 (constant S_ .f32 0x3F800000#32)
  :: StableHlo.TRef.unary (.of main_cst_102 : StableHlo.TRef sig ⟨S_, .f32⟩) (.of main_call51_v0 : StableHlo.TRef sig ⟨S_, .f32⟩) id
  :: StableHlo.TRef.unary (.of main_v259 : StableHlo.TRef sig ⟨S4096, .f32⟩) (.of main_call51_v1 : StableHlo.TRef sig ⟨S64x4096, .f32⟩) (broadcastInDim S64x4096 ![1] bcast_S4096_S64x4096_1)
  :: StableHlo.TRef.unary (.of main_call51_v0 : StableHlo.TRef sig ⟨S_, .f32⟩) (.of main_call51_v2 : StableHlo.TRef sig ⟨S64x4096, .f32⟩) (broadcastInDim S64x4096 ![] bcast_S_S64x4096)
  :: StableHlo.TRef.ternary (.of main_v251 : StableHlo.TRef sig ⟨S64x4096, .i1⟩) (.of main_call51_v1 : StableHlo.TRef sig ⟨S64x4096, .f32⟩) (.of main_call51_v2 : StableHlo.TRef sig ⟨S64x4096, .f32⟩) (.of main_v260 : StableHlo.TRef sig ⟨S64x4096, .f32⟩) select
  :: StableHlo.unary main_v260 main_v261 ((extractStridedSlice S64x4086 ![0, 0] · slices_S64x4096_S64x4086_0_0) : (⟨S64x4096, .f32⟩ : BufTy).Contents (Elt F) → (⟨S64x4086, .f32⟩ : BufTy).Contents (Elt F))
  :: StableHlo.nullary main_cst_103 (constant S_ .f32 0x3F800000#32)
  :: StableHlo.TRef.unary (.of main_cst_103 : StableHlo.TRef sig ⟨S_, .f32⟩) (.of main_call52_v0 : StableHlo.TRef sig ⟨S_, .f32⟩) id
  :: StableHlo.TRef.binary (.of main_v261 : StableHlo.TRef sig ⟨S64x4086, .f32⟩) (.of main_call52_v0 : StableHlo.TRef sig ⟨S_, .f32⟩) (.of main_v262 : StableHlo.TRef sig ⟨S64x4096, .f32⟩) (fun x v => pad S64x4096 ![0, 10] ![0, 0] ![0, 0] x v pads_S64x4086_S64x4096_000_1000 h_S_)
  :: StableHlo.binary main_v244 main_v262 main_v263 (maximumf : (⟨S64x4096, .f32⟩ : BufTy).Contents (Elt F) → (⟨S64x4096, .f32⟩ : BufTy).Contents (Elt F) → (⟨S64x4096, .f32⟩ : BufTy).Contents (Elt F))
  :: StableHlo.binary main_v4 main_v263 main_v264 (mulf : (⟨S64x4096, .f32⟩ : BufTy).Contents (Elt F) → (⟨S64x4096, .f32⟩ : BufTy).Contents (Elt F) → (⟨S64x4096, .f32⟩ : BufTy).Contents (Elt F))
  :: StableHlo.nullary main_cst_104 (constant S_ .f32 0x00000000#32)
  :: StableHlo.binary main_v264 main_cst_104 main_v265 ((fun x v => Host.reduceAdd x v reducesTo_S64x4096_S_d0_1 h_S_) : (⟨S64x4096, .f32⟩ : BufTy).Contents (Elt F) → (⟨S_, .f32⟩ : BufTy).Contents (Elt F) → (⟨S_, .f32⟩ : BufTy).Contents (Elt F))
  :: StableHlo.nullary main_cst_105 (constant S_ .f32 0x48800000#32)
  :: StableHlo.binary main_v265 main_cst_105 main_v266 (Host.divf : (⟨S_, .f32⟩ : BufTy).Contents (Elt F) → (⟨S_, .f32⟩ : BufTy).Contents (Elt F) → (⟨S_, .f32⟩ : BufTy).Contents (Elt F))
  :: [] )

set_option maxHeartbeats 40000000 in
/-- Each operation touches TensorCore references only. -/
theorem opsR_sub : (opsR : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.reshape_bufs_sub .., StableHlo.unary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.unary_bufs_sub .., StableHlo.unary_bufs_sub .., StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.binary_bufs_sub .., StableHlo.unary_bufs_sub .., StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.binary_bufs_sub .., StableHlo.unary_bufs_sub .., StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.binary_bufs_sub .., StableHlo.unary_bufs_sub .., StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.binary_bufs_sub .., StableHlo.unary_bufs_sub .., StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.binary_bufs_sub .., StableHlo.unary_bufs_sub .., StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.binary_bufs_sub .., StableHlo.unary_bufs_sub .., StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.binary_bufs_sub .., StableHlo.unary_bufs_sub .., StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.binary_bufs_sub .., StableHlo.unary_bufs_sub .., StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.binary_bufs_sub .., StableHlo.unary_bufs_sub .., StableHlo.nullary_bufs_sub .., StableHlo.nullary_bufs_sub .., StableHlo.unary_bufs_sub .., StableHlo.binary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.unary_bufs_sub .., StableHlo.ternary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub ..⟩

end Cert.ReferenceIdeal.Host

end
-- ==== Proof.RefRun.lean ====
/-
  The reference program's run. Its @main is a straight line of host operations (every callee inlined at its call),
  so every weakly fair execution terminates with each buffer at the fold of the operations' results over the launch
  contents. Read back at the result buffer that fold is the reference's result as one function of its two arguments:
  the per-token negative log-likelihood times the temporal weight, summed over all tokens and divided by their number.
  Neither argument buffer is written by any operation, so both end as launched.
-/
import proofs.«419000_j32066225832748_3_alg».proof.Proof.RefOps
import proofs.«419000_j32066225832748_3_alg».proof.Proof.RefTerms
import Idealize.ShloMosaic.Lib.StableHlo.Run
import Idealize.ShloMosaic.Lib.Pipeline.Regions

set_option maxRecDepth 100000

noncomputable section

namespace Cert.ReferenceIdeal.Host

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F]

/-- @main is the straight line of its operations: the callees' bodies unfold at their calls. -/
theorem main_eq (c : Dev nD) : main (F := F) c = seq opsR := by
  chain_rfl

/-- The signature scopes no TensorCore reference. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- No operation leaves a buffer undetermined. -/
theorem opsR_fresh : (opsR : List (HloOp τ sig (Elt F))).Forall fun op => op.fresh = ∅ := by
  simp only [List.Forall]; repeat' constructor

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The last five operations: the product of the two per-token arrays, its sum from zero, the quotient by the token count. -/
theorem drop_tail : (opsR : List (HloOp τ sig (Elt F))).drop 567
    = [ StableHlo.binary main_v4 main_v263 main_v264 (mulf : (⟨S64x4096, .f32⟩ : BufTy).Contents (Elt F) → (⟨S64x4096, .f32⟩ : BufTy).Contents (Elt F) → (⟨S64x4096, .f32⟩ : BufTy).Contents (Elt F)),
        StableHlo.nullary main_cst_104 (constant S_ .f32 0x00000000#32),
        StableHlo.binary main_v264 main_cst_104 main_v265 ((fun x v => Host.reduceAdd x v reducesTo_S64x4096_S_d0_1 h_S_) : (⟨S64x4096, .f32⟩ : BufTy).Contents (Elt F) → (⟨S_, .f32⟩ : BufTy).Contents (Elt F) → (⟨S_, .f32⟩ : BufTy).Contents (Elt F)),
        StableHlo.nullary main_cst_105 (constant S_ .f32 0x48800000#32),
        StableHlo.binary main_v265 main_cst_105 main_v266 (Host.divf : (⟨S_, .f32⟩ : BufTy).Contents (Elt F) → (⟨S_, .f32⟩ : BufTy).Contents (Elt F) → (⟨S_, .f32⟩ : BufTy).Contents (Elt F)) ] := by
  chain_rfl

/-- Through the last five operations the result is the sum-and-quotient of the product of the two arrays as the five
    find them; they write neither. -/
theorem tail_read (V : Valuation τ sig (Elt F)) :
    after ((opsR : List (HloOp τ sig (Elt F))).drop 567) V (Proc.devRef .tc main_v266)
      = Terms.tail (after ((opsR : List (HloOp τ sig (Elt F))).drop 567) V (Proc.devRef .tc main_v4))
          (after ((opsR : List (HloOp τ sig (Elt F))).drop 567) V (Proc.devRef .tc main_v263)) := by
  rw [drop_tail]
  after_results
  rfl

/-! ## The typed references' moves

An operation inside a callee reads and writes its buffers at the tensor's own type, moved to and from the buffer's
type along the reference's type equation. Read back through the fold these moves come in pairs, and a pair is the
identity by the equation alone; the unpaired ones sit at the three buffers that a top-level operation and a callee's
share, where the equation is between a type and itself. -/

/-- Moving contents to a typed reference's buffer type and back is the identity. -/
theorem ofBuf_toBuf {Val : EltTy → Type} {T : BufTy} (x : StableHlo.TRef sig T) (v : T.Contents Val) :
    x.ofBuf (x.toBuf v) = v := by
  obtain ⟨r, h, _, _⟩ := x
  subst h
  rfl

/-- The logits' buffer read at its own type. -/
theorem ofBuf_arg0 {Val : EltTy → Type} (v : main_arg0.ty.Contents Val) :
    (.of main_arg0 : StableHlo.TRef sig ⟨S64x4096x128, .f32⟩).ofBuf v = v := rfl
/-- The broadcast labels' buffer read at its own type. -/
theorem ofBuf_v1 {Val : EltTy → Type} (v : main_v1.ty.Contents Val) :
    (.of main_v1 : StableHlo.TRef sig ⟨S64x4096x1, .i32⟩).ofBuf v = v := rfl
/-- The gathered entries' buffer written at its own type. -/
theorem toBuf_v2 {Val : EltTy → Type} (v : (⟨S64x4096x1, .f32⟩ : BufTy).Contents Val) :
    (.of main_v2 : StableHlo.TRef sig ⟨S64x4096x1, .f32⟩).toBuf v = v := rfl

set_option maxHeartbeats 40000000 in
/-- The likelihood buffer after the operations: the reference's negative log-likelihood of the two arguments. The
    fold is computed operation by operation, the moves between a tensor's type and its buffer's are removed as
    above, and what is left is the reference's chain of operations on the two arguments, term for term. -/
theorem val_v4 (W : Valuation τ sig (Elt F)) :
    after opsR W (Proc.devRef .tc main_v4)
      = Terms.NLL (W (Proc.devRef .tc main_arg0)) (W (Proc.devRef .tc main_arg1)) := by
  after_results_simp
  simp only [ofBuf_toBuf, ofBuf_arg0, ofBuf_v1, toBuf_v2]
  rfl

/-- The weights buffer after the operations: the reference's temporal weights of the labels. -/
theorem val_v263 (W : Valuation τ sig (Elt F)) :
    after opsR W (Proc.devRef .tc main_v263) = Terms.TW (W (Proc.devRef .tc main_arg1)) := by
  chain_rfl

/-- The result buffer after the operations, from any contents: the reference's result of the two argument buffers.
    The list is cut before its last five operations; these read the likelihood and weight buffers the first 567
    leave and write neither. -/
theorem val_out (W : Valuation τ sig (Elt F)) :
    after opsR W (Proc.devRef .tc main_v266)
      = Terms.refOut (W (Proc.devRef .tc main_arg0)) (W (Proc.devRef .tc main_arg1)) := by
  have e4 := val_v4 W
  have e263 := val_v263 W
  have hs : after opsR W = after ((opsR : List (HloOp τ sig (Elt F))).drop 567)
      (after ((opsR : List (HloOp τ sig (Elt F))).take 567) W) := by
    rw [← after_append, List.take_append_drop]
  rw [hs] at e4 e263 ⊢
  rw [tail_read, e4, e263]
  rfl

/-- No operation writes the first argument. -/
theorem kept_arg0 (W : Valuation τ sig (Elt F)) :
    after opsR W (Proc.devRef .tc main_arg0) = W (Proc.devRef .tc main_arg0) := by
  chain_rfl

/-- No operation writes the second argument. -/
theorem kept_arg1 (W : Valuation τ sig (Elt F)) :
    after opsR W (Proc.devRef .tc main_arg1) = W (Proc.devRef .tc main_arg1) := by
  chain_rfl

/-- On every device, for any float values, from any memory with zero counters: every weakly fair execution of the
    reference's @main terminates with the result buffer at the reference's result of the launched arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v266)
          = Terms.refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v266).trans (val_out _),
      (h c main_arg0).trans (kept_arg0 _),
      (h c main_arg1).trans (kept_arg1 _)⟩)
    (run_seq scopedRefs_eq scopedSems_eq defs main (fun _ => opsR) main_eq (fun _ => opsR_sub) m ρ
      (fun _ => List.forall_iff_forall_mem.mp opsR_fresh))

end Cert.ReferenceIdeal.Host

end
-- ==== Proof.PreDecode.lean ====
/-
  The precondition, decoded. The printed precondition is the conjunction of three "all"s: every logit has an
  absolute value below +∞, every label is at least 0 and every label is below 128 (as signed 32-bit words).
  "The printed function is the constant 1" is read back here into the two facts the value proofs use: every
  logit is a finite real, and every label is the word of one of the numbers 0..127. For such a word the
  clip to [0, 127] (the signed maximum with 0 followed by the signed minimum with 127) is the identity.
-/
import proofs.«419000_j32066225832748_3_alg».proof.Pre_finite_inputs
import proofs.«419000_j32066225832748_3_alg».proof.Proof.Gen.Pre_finite_inputs
import proofs.«419000_j32066225832748_3_alg».proof.Proof.LibReal
import Idealize.ShloMosaic.PureOps.Ideal
import Idealize.ShloMosaic.Lib.ReduceAll
import Idealize.ShloMosaic.Lib.ValueIdx
import Idealize.ShloMosaic.Lib.StableHlo.Predicate

noncomputable section

namespace Cert.PreDecode

open Idealize.ShloMosaic Cert.LibReal Cert.Pre_finite_inputs

/-- The scalar shape has exactly one index. -/
instance : Subsingleton S_.Idx := ⟨fun a b => funext fun d => d.elim0⟩

/-! ## Words -/

/-- A 32-bit word whose signed value lies in [0, 128) is the word of one of the numbers 0..127. -/
theorem word_of_range (w : BitVec 32) (h0 : (0#32 : BitVec 32).toInt ≤ w.toInt)
    (h1 : w.toInt < (128#32 : BitVec 32).toInt) : ∃ k : Fin 128, w = BitVec.ofNat 32 k.val := by
  have e0 : (0#32 : BitVec 32).toInt = 0 := by decide
  have e128 : (128#32 : BitVec 32).toInt = 128 := by decide
  rw [e0] at h0
  rw [e128] at h1
  have hw : w.toNat < 2 ^ 32 := w.isLt
  have hlt : w.toNat < 128 := by
    rw [BitVec.toInt_eq_toNat_cond] at h0 h1
    by_cases hc : 2 * w.toNat < 2 ^ 32
    · rw [if_pos hc] at h1; omega
    · rw [if_neg hc] at h0; omega
  refine ⟨⟨w.toNat, hlt⟩, ?_⟩
  apply BitVec.eq_of_toNat_eq
  simp only [BitVec.toNat_ofNat]
  omega

/-- The word of a number below 128 reads, signed, as that number. -/
theorem toInt_label (k : Fin 128) : (BitVec.ofNat 32 k.val).toInt = (k.val : Int) :=
  StableHlo.Predicate.toInt_ofNat_small k.val (by have := k.isLt; omega)

/-- The signed maximum of 0 and a label's word is the word. -/
theorem maxsi_zero_label (k : Fin 128) : IntOp.maxsi 0#32 (BitVec.ofNat 32 k.val) = BitVec.ofNat 32 k.val := by
  have e0 : (0#32 : BitVec 32).toInt = 0 := by decide
  unfold IntOp.maxsi
  refine if_neg fun hc => ?_
  rw [BitVec.slt_iff_toInt_lt, toInt_label, e0] at hc
  omega

/-- The signed minimum of 127 and a label's word is the word. -/
theorem minsi_127_label (k : Fin 128) : IntOp.minsi 127#32 (BitVec.ofNat 32 k.val) = BitVec.ofNat 32 k.val := by
  have e127 : (127#32 : BitVec 32).toInt = 127 := by decide
  have hk := k.isLt
  unfold IntOp.minsi
  refine if_neg fun hc => ?_
  rw [BitVec.slt_iff_toInt_lt, toInt_label, e127] at hc
  omega

/-- clip(w, 0, 127) = min(127, max(0, w)) leaves a label's word unchanged (the constants as first operands). -/
theorem clamp_label (k : Fin 128) :
    IntOp.minsi 127#32 (IntOp.maxsi 0#32 (BitVec.ofNat 32 k.val)) = BitVec.ofNat 32 k.val := by
  rw [maxsi_zero_label, minsi_127_label]

/-- The same with the constants as second operands: min(max(w, 0), 127). -/
theorem clamp_label' (k : Fin 128) :
    IntOp.minsi (IntOp.maxsi (BitVec.ofNat 32 k.val) 0#32) 127#32 = BitVec.ofNat 32 k.val :=
  StableHlo.Predicate.clamp_eval _ _ (by decide) (by
    have hk := k.isLt
    simp only [BitVec.toNat_ofNat]
    omega)

/-! ## The precondition, read back -/

/-- under the precondition every logit is a finite real and every label is one of the 128 classes -/
theorem decode (x : FVec Ideal S64x4096x128 .f32) (t : IVec S64x4096 32)
    (h : Cert.Pre_finite_inputs.fn (F := Ideal) x t = fun _ => 1#1) :
    (∀ i, IsReal (x i)) ∧ (∀ j, ∃ k : Fin 128, t j = BitVec.ofNat 32 k.val) := by
  -- the result has one index; there the printed function is a conjunction of three "all"s
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  -- each "all" holds at every element
  have e1 := Host.reduce_andi_all _ _ _ _ _ h1
  have e2 := Host.reduce_andi_all _ _ _ _ _ h2
  have e3 := Host.reduce_andi_all _ _ _ _ _ h3
  refine ⟨fun i => ?_, fun j => ?_⟩
  · -- |x i| < +∞, the comparison of extended reals
    have hi : Ideal.cmp .olt (max (x i) (-(x i))) (Ideal.ofBits .f32 0x7F800000#32) = 1#1 := e1 i
    rw [ofBits_pos_inf] at hi
    have hi' : BitVec.ofBool (decide (max (x i) (-(x i)) < (⊤ : EReal))) = 1#1 := hi
    exact isReal_of_abs_lt_top (of_decide_eq_true ((StableHlo.Predicate.ofBool_eq_one_iff _).1 hi'))
  · -- 0 ≤ t j < 128 as signed words
    have hge : IntOp.cmpi .sge (t j) 0#32 = 1#1 := e2 j
    have hlt : IntOp.cmpi .slt (t j) 128#32 = 1#1 := e3 j
    exact word_of_range (t j) (IntOp.cmpi_sge.1 hge) (IntOp.cmpi_slt.1 hlt)

/-- Under the precondition the clip of the labels to [0, 127] is the labels, elementwise. -/
theorem clamp_of_pre (x : FVec Ideal S64x4096x128 .f32) (t : IVec S64x4096 32)
    (h : Cert.Pre_finite_inputs.fn (F := Ideal) x t = fun _ => 1#1) (j : S64x4096.Idx) :
    IntOp.minsi 127#32 (IntOp.maxsi 0#32 (t j)) = t j := by
  obtain ⟨k, hk⟩ := (decode x t h).2 j
  rw [hk]
  exact clamp_label k

end Cert.PreDecode

end
-- ==== Proof.RefNll.lean ====
import proofs.«419000_j32066225832748_3_alg».proof.Proof.RefTerms
import proofs.«419000_j32066225832748_3_alg».proof.Proof.Spec
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

noncomputable section

namespace Cert.ReferenceIdeal.NllAt

open Idealize.ShloMosaic Idealize.ShloMosaic.ValueIdx Cert.ReferenceIdeal Cert.ReferenceIdeal.Terms Cert.Spec Cert.PointMath
open Cert.ReferenceIdeal.Facts₀ Cert.ReferenceIdeal.Facts
open scoped BigOperators

/-- the class axis of the logits' shape is dropped to the token shape -/
theorem red2 : S64x4096x128.Reduces [2] S64x4096 := by decide

/-- the index of token (b, p) with the class c put back on the class axis is (b, p, c) -/
theorem lift_tok (b : Fin 64) (p : Fin 4096) (c : Fin 128) :
    red2.lift (ix2 b p) c = ix3 b p c := by
  funext a
  match a with
  | ⟨0, _⟩ => exact Fin.ext rfl
  | ⟨1, _⟩ => exact Fin.ext rfl
  | ⟨2, _⟩ => exact Fin.ext rfl

/-- the word 0xFF800000 is -∞ -/
theorem ofBits_neg_inf : Ideal.ofBits .f32 0xFF800000#32 = (⊥ : EReal) := by
  simp [Ideal.ofBits, Ideal.ieee]

/-- the class-axis maximum from -∞ at token (b, p) is the row's maximum -/
theorem reduceMax_apply (x : FVec Ideal S64x4096x128 .f32) (b : Fin 64) (p : Fin 4096) :
    Host.reduce (FloatOps.maximumf (F := Ideal) (φ := .f32)) x (constant (F := Ideal) S_ .f32 0xFF800000#32)
      reducesTo_S64x4096x128_S64x4096_d2 h_S_ (ix2 b p) = rowMax (row x b p) := by
  refine (Host.reduce_eq_fold_single _ x _ reducesTo_S64x4096x128_S64x4096_d2 red2 h_S_ (ix2 b p)).trans ?_
  have hx : (x ∘ red2.lift (ix2 b p)) = row x b p := by
    funext c
    exact congrArg x (lift_tok b p c)
  rw [hx]
  show (Finset.univ : Finset (Fin 128)).fold max (Ideal.ofBits .f32 0xFF800000#32) (row x b p) = _
  rw [ofBits_neg_inf]
  rfl

/-- the gather's dimension numbers: class axis collapsed and indexed, batch and position axes batching -/
abbrev G := gather_S64x4096x128_S64x4096x1x1_S64x4096x1_n_2_01_01_2_3_111

/-- the start-indices index read for token (b, p) is (b, p, 0, 0) -/
theorem G_siIdx (b : Fin 64) (p : Fin 4096) (u : Fin 1) (c : Fin G.startIndexMap.length) :
    G.siIdx (ix3 b p u) c = ix4 b p (0 : Fin 1) (0 : Fin 1) := by
  funext a
  match a with
  | ⟨0, _⟩ => exact Fin.ext rfl
  | ⟨1, _⟩ => exact Fin.ext rfl
  | ⟨2, _⟩ => exact Fin.ext (by show u.val = 0; omega)
  | ⟨3, _⟩ => exact Fin.ext (by
      show c.val = 0
      have h1 : G.startIndexMap.length = 1 := rfl
      have := c.isLt
      omega)

/-- the gather read at token (b, p): the operand at (b, p, the start index read signed and clamped into [0, 127]) -/
theorem gather_apply {α : Type} (x : S64x4096x128.Idx → α) (idx : IVec S64x4096x1x1 32) (b : Fin 64) (p : Fin 4096) (u : Fin 1) :
    Host.gather G x idx (ix3 b p u)
      = x (ix3 b p (⟨min (idx (ix4 b p (0 : Fin 1) (0 : Fin 1))).toInt.toNat 127, by omega⟩ : Fin 128)) := by
  unfold Host.gather
  congr 1
  funext a
  match a with
  | ⟨0, _⟩ =>
    refine Fin.ext ?_
    show G.start (ix3 b p u) idx 0 + G.batchCoord (ix3 b p u) 0 + G.offCoord (ix3 b p u) 0 = b.val
    rw [G.start_batching _ _ _ (by decide), G.offCoord_eq_zero _ _ (by decide), Nat.zero_add, Nat.add_zero]
    rfl
  | ⟨1, _⟩ =>
    refine Fin.ext ?_
    show G.start (ix3 b p u) idx 1 + G.batchCoord (ix3 b p u) 1 + G.offCoord (ix3 b p u) 1 = p.val
    rw [G.start_batching _ _ _ (by decide), G.offCoord_eq_zero _ _ (by decide), Nat.zero_add, Nat.add_zero]
    rfl
  | ⟨2, _⟩ =>
    refine Fin.ext ?_
    show G.start (ix3 b p u) idx 2 + G.batchCoord (ix3 b p u) 2 + G.offCoord (ix3 b p u) 2
      = min (idx (ix4 b p (0 : Fin 1) (0 : Fin 1))).toInt.toNat 127
    rw [G.batchCoord_eq_zero _ _ (by decide), G.offCoord_eq_zero _ _ (by decide)]
    simp only [Nat.add_zero]
    unfold GatherDims.start
    rw [dif_pos (show (2 : Fin 3) ∈ G.startIndexMap from List.mem_singleton.mpr rfl), G_siIdx]
    rfl

/-- the unit axis of the start indices' mask is dropped to the token shape with one unit axis -/
theorem red3 : S64x4096x1x1.Reduces [3] S64x4096x1 := by decide

/-- the index of (b, p, ·) with a coordinate put back on the last unit axis is (b, p, 0, 0) -/
theorem lift_unit (b : Fin 64) (p : Fin 4096) (u : Fin 1) (c : Fin 1) :
    red3.lift (ix3 b p u) c = ix4 b p (0 : Fin 1) (0 : Fin 1) := by
  funext a
  match a with
  | ⟨0, _⟩ => exact Fin.ext rfl
  | ⟨1, _⟩ => exact Fin.ext rfl
  | ⟨2, _⟩ => exact Fin.ext (by show u.val = 0; omega)
  | ⟨3, _⟩ => exact Fin.ext (by show c.val = 0; omega)

/-- the conjunction over a one-element range, started from the bit 1, is the one bit -/
theorem fold_and_unit (f : Fin 1 → BitVec 1) :
    (Finset.univ : Finset (Fin 1)).fold IntOp.andi 1#1 f = f 0 := by
  rw [Finset.univ_unique, Finset.fold_singleton]
  show IntOp.andi (f 0) 1#1 = f 0
  generalize f 0 = v
  revert v
  decide

/-- the and-reduction over the unit axis from the bit 1 at token (b, p) is the operand's bit at (b, p, 0, 0) -/
theorem reduceAnd_apply (m : IVec S64x4096x1x1 1) (b : Fin 64) (p : Fin 4096) (u : Fin 1) :
    Host.reduce IntOp.andi m (constantI S_ 1 1#1) reducesTo_S64x4096x1x1_S64x4096x1_d3 h_S_ (ix3 b p u)
      = m (ix4 b p (0 : Fin 1) (0 : Fin 1)) := by
  refine (Host.reduce_eq_fold_single _ m _ reducesTo_S64x4096x1x1_S64x4096x1_d3 red3 h_S_ (ix3 b p u)).trans ?_
  refine (fold_and_unit (m ∘ red3.lift (ix3 b p u))).trans ?_
  exact congrArg m (lift_unit b p u 0)

/-! The label word of a class k < 128: not negative, at least 0 and at most 127 as signed words. -/

/-- the word of a class number reads, signed, as that number -/
theorem word_toInt (k : Fin 128) : (BitVec.ofNat 32 k.val).toInt = (k.val : Int) := by
  have hk := k.isLt
  have hm : k.val % 2 ^ 32 = k.val := Nat.mod_eq_of_lt (by omega)
  rw [BitVec.toInt_eq_toNat_cond, BitVec.toNat_ofNat, hm, if_pos (by omega)]

theorem word_slt_zero (k : Fin 128) : IntOp.cmpi .slt (BitVec.ofNat 32 k.val) 0#32 = 0#1 := by
  have h := word_toInt k
  show BitVec.ofBool ((BitVec.ofNat 32 k.val).slt 0#32) = 0#1
  have : (BitVec.ofNat 32 k.val).slt 0#32 = false := by
    simp only [BitVec.slt, h, BitVec.toInt_zero]
    simp
  rw [this]; rfl

theorem word_sge_zero (k : Fin 128) : IntOp.cmpi .sge (BitVec.ofNat 32 k.val) 0#32 = 1#1 := by
  have h := word_toInt k
  show BitVec.ofBool ((0#32 : BitVec 32).sle (BitVec.ofNat 32 k.val)) = 1#1
  have : (0#32 : BitVec 32).sle (BitVec.ofNat 32 k.val) = true := by
    simp only [BitVec.sle, h, BitVec.toInt_zero]
    simp
  rw [this]; rfl

theorem word_sle_127 (k : Fin 128) : IntOp.cmpi .sle (BitVec.ofNat 32 k.val) 127#32 = 1#1 := by
  have h := word_toInt k
  have hk := k.isLt
  show BitVec.ofBool ((BitVec.ofNat 32 k.val).sle 127#32) = 1#1
  have h127 : (127#32 : BitVec 32).toInt = 127 := by decide
  have : (BitVec.ofNat 32 k.val).sle 127#32 = true := by
    simp only [BitVec.sle, h, h127]
    simp; omega
  rw [this]; rfl

/-! The tail of the chain: select on the mask, the unit axis dropped, the negation. -/

/-- where the mask bit of token (b, p) is 1, the tail reads minus the gathered entry -/
theorem part2_apply (m : IVec S64x4096x1 1) (g : FVec Ideal S64x4096x1 .f32) (cst : FVec Ideal S_ .f32)
    (b : Fin 64) (p : Fin 4096) (hm : m (ix3 b p (0 : Fin 1)) = 1#1) :
    NLL_part2 (F := Ideal) m g cst (ix2 b p) = -(g (ix3 b p (0 : Fin 1))) := by
  unfold NLL_part2
  dsimp only
  show -(shapeCast S64x4096 (select m g (broadcastInDim S64x4096x1 ![] bcast_S_S64x4096x1 cst))
      shapeCasts_S64x4096x1_S64x4096 (ix2 b p)) = _
  refine congrArg Neg.neg ?_
  refine (shapeCast_apply _ shapeCasts_S64x4096x1_S64x4096 (ix2 b p) (ix3 b p (0 : Fin 1)) ?_).trans ?_
  · rw [Shape.rowMajor_val_three, Shape.rowMajor_val_two]
    show (b.val * 4096 + p.val) * 1 + 0 = b.val * 4096 + p.val
    omega
  · rw [select_apply, hm, select_one]

/-- the start indices: the label on a new unit axis, a negative one wrapped by 128, on one more unit axis -/
def startIdx (v1 z : IVec S64x4096x1 32) : IVec S64x4096x1x1 32 :=
  shapeCast S64x4096x1x1
    (select (cmpi .slt v1 z) (addi v1 (broadcastInDim S64x4096x1 ![] bcast_S_S64x4096x1 (constantI S_ 32 128#32))) v1)
    shapeCasts_S64x4096x1_S64x4096x1x1

/-- the in-range mask: 0 ≤ start index ≤ 127, conjoined over the unit axis -/
def inRange (i5 : IVec S64x4096x1x1 32) : IVec S64x4096x1 1 :=
  Host.reduce IntOp.andi
    (andi (cmpi .sge i5 (broadcastInDim S64x4096x1x1 ![] bcast_S_S64x4096x1x1 (constantI S_ 32 0#32)))
      (cmpi .sle i5 (broadcastInDim S64x4096x1x1 ![0, 1, 2, 3] bcast_S1x1x1x1_S64x4096x1x1_0_1_2_3
        (broadcastInDim S1x1x1x1 ![3] bcast_S1_S1x1x1x1_3 (constantI S1 32 127#32)))))
    (constantI S_ 1 1#1) reducesTo_S64x4096x1x1_S64x4096x1_d3 h_S_

/-- the middle of the chain is the tail over the mask and the gather at the start indices -/
theorem part1_eq (lp : FVec Ideal S64x4096x128 .f32) (v1 z : IVec S64x4096x1 32) :
    NLL_part1 (F := Ideal) lp v1 z
      = NLL_part2 (F := Ideal) (inRange (startIdx v1 z)) (Host.gather G lp (startIdx v1 z)) (constant (F := Ideal) S_ .f32 0x7FC00000#32) := rfl

/-- with the label word of token (b, p) a class number k and the comparison word 0, the start index at (b, p, 0, 0) is k's word -/
theorem startIdx_apply (v1 z : IVec S64x4096x1 32) (b : Fin 64) (p : Fin 4096) (k : Fin 128)
    (hv : v1 (ix3 b p (0 : Fin 1)) = BitVec.ofNat 32 k.val) (hz : z (ix3 b p (0 : Fin 1)) = 0#32) :
    startIdx v1 z (ix4 b p (0 : Fin 1) (0 : Fin 1)) = BitVec.ofNat 32 k.val := by
  unfold startIdx
  refine (shapeCast_apply _ shapeCasts_S64x4096x1_S64x4096x1x1 (ix4 b p (0 : Fin 1) (0 : Fin 1)) (ix3 b p (0 : Fin 1)) ?_).trans ?_
  · rw [Shape.rowMajor_val_three, Shape.rowMajor_val_four]
    show (b.val * 4096 + p.val) * 1 + 0 = ((b.val * 4096 + p.val) * 1 + 0) * 1 + 0
    omega
  · rw [select_apply]
    show Scalar.select (IntOp.cmpi .slt (v1 (ix3 b p (0 : Fin 1))) (z (ix3 b p (0 : Fin 1)))) _ (v1 (ix3 b p (0 : Fin 1))) = _
    rw [hv, hz, word_slt_zero, select_zero]

/-- where the start index of token (b, p) is the word of a class number, the in-range mask is 1 -/
theorem inRange_apply (i5 : IVec S64x4096x1x1 32) (b : Fin 64) (p : Fin 4096) (k : Fin 128)
    (h5 : i5 (ix4 b p (0 : Fin 1) (0 : Fin 1)) = BitVec.ofNat 32 k.val) :
    inRange i5 (ix3 b p (0 : Fin 1)) = 1#1 := by
  unfold inRange
  refine (reduceAnd_apply _ b p 0).trans ?_
  show IntOp.andi (IntOp.cmpi .sge (i5 (ix4 b p (0 : Fin 1) (0 : Fin 1))) 0#32)
      (IntOp.cmpi .sle (i5 (ix4 b p (0 : Fin 1) (0 : Fin 1))) 127#32) = 1#1
  rw [h5, word_sge_zero, word_sle_127]
  decide

/-- the word of a class number, read signed and clamped into [0, 127], is the class number -/
theorem word_clamp (k : Fin 128) : min (BitVec.ofNat 32 k.val).toInt.toNat 127 = k.val := by
  have hk := k.isLt
  rw [word_toInt, Int.toNat_natCast]
  omega

/-- the middle of the chain at token (b, p) whose label word is the class k: minus the operand's entry (b, p, k) -/
theorem part1_apply (lp : FVec Ideal S64x4096x128 .f32) (v1 z : IVec S64x4096x1 32) (b : Fin 64) (p : Fin 4096) (k : Fin 128)
    (hv : v1 (ix3 b p (0 : Fin 1)) = BitVec.ofNat 32 k.val) (hz : z (ix3 b p (0 : Fin 1)) = 0#32) :
    NLL_part1 (F := Ideal) lp v1 z (ix2 b p) = -(lp (ix3 b p k)) := by
  have h5 := startIdx_apply v1 z b p k hv hz
  rw [part1_eq]
  refine (part2_apply _ _ _ b p (inRange_apply _ b p k h5)).trans ?_
  refine congrArg Neg.neg ?_
  refine (gather_apply lp (startIdx v1 z) b p 0).trans ?_
  refine congrArg lp ?_
  refine congrArg (ix3 b p) (Fin.ext ?_)
  show min (startIdx v1 z (ix4 b p (0 : Fin 1) (0 : Fin 1))).toInt.toNat 127 = k.val
  rw [h5, word_clamp]

/-! The log-softmax of the logits, stage by stage, each read at a token. -/

/-- the row maxima, joined once more with -∞ -/
def mx (x : FVec Ideal S64x4096x128 .f32) : FVec Ideal S64x4096 .f32 :=
  maximumf (broadcastInDim S64x4096 ![] bcast_S_S64x4096 (constant (F := Ideal) S_ .f32 0xFF800000#32))
    (Host.reduce (FloatOps.maximumf (F := Ideal) (φ := .f32)) x (constant (F := Ideal) S_ .f32 0xFF800000#32)
      reducesTo_S64x4096x128_S64x4096_d2 h_S_)

/-- the logits minus their row's maximum -/
def shifted (x : FVec Ideal S64x4096x128 .f32) : FVec Ideal S64x4096x128 .f32 :=
  subf x (broadcastInDim S64x4096x128 ![0, 1, 2] bcast_S64x4096x1_S64x4096x128_0_1_2
    (broadcastInDim S64x4096x1 ![0, 1] bcast_S64x4096_S64x4096x1_0_1 (mx x)))

/-- the logarithm of the sum, from 0, of the exponentials of the shifted row, on a unit class axis -/
def lse (x : FVec Ideal S64x4096x128 .f32) : FVec Ideal S64x4096x1 .f32 :=
  Host.log (broadcastInDim S64x4096x1 ![0, 1] bcast_S64x4096_S64x4096x1_0_1
    (Host.reduceAdd (Host.exp (shifted x)) (constant (F := Ideal) S_ .f32 0x00000000#32)
      reducesTo_S64x4096x128_S64x4096_d2 h_S_))

/-- the log-softmax: the shifted logits minus the logarithm of the sum of their exponentials -/
def logp (x : FVec Ideal S64x4096x128 .f32) : FVec Ideal S64x4096x128 .f32 :=
  subf (shifted x) (broadcastInDim S64x4096x128 ![0, 1, 2] bcast_S64x4096x1_S64x4096x128_0_1_2 (lse x))

/-- the reference's chain is its middle part over the log-softmax, the labels on a unit axis, and the zero word -/
theorem NLL_eq (x : FVec Ideal S64x4096x128 .f32) (t : IVec S64x4096 32) :
    Terms.NLL (F := Ideal) x t
      = NLL_part1 (F := Ideal) (logp x) (broadcastInDim S64x4096x1 ![0, 1] bcast_S64x4096_S64x4096x1_0_1 t)
          (broadcastInDim S64x4096x1 ![] bcast_S_S64x4096x1 (constantI S_ 32 0#32)) := rfl

/-- a per-token array put on a unit class axis reads, at (b, p, ·), the array at (b, p) -/
theorem bcast_tok_apply {α : Type} (y : S64x4096.Idx → α) (b : Fin 64) (p : Fin 4096) (u : Fin 1) :
    broadcastInDim S64x4096x1 ![0, 1] bcast_S64x4096_S64x4096x1_0_1 y (ix3 b p u) = y (ix2 b p) := by
  refine broadcastInDim_apply ![0, 1] bcast_S64x4096_S64x4096x1_0_1 y (ix3 b p u) (ix2 b p) ?_
  intro a
  match a with
  | ⟨0, _⟩ => rfl
  | ⟨1, _⟩ => rfl

/-- an array with a unit class axis spread over the 128 classes reads, at (b, p, c), the array at (b, p, 0) -/
theorem bcast_cls_apply {α : Type} (y : S64x4096x1.Idx → α) (b : Fin 64) (p : Fin 4096) (c : Fin 128) :
    broadcastInDim S64x4096x128 ![0, 1, 2] bcast_S64x4096x1_S64x4096x128_0_1_2 y (ix3 b p c) = y (ix3 b p (0 : Fin 1)) := by
  refine broadcastInDim_apply ![0, 1, 2] bcast_S64x4096x1_S64x4096x128_0_1_2 y (ix3 b p c) (ix3 b p (0 : Fin 1)) ?_
  intro a
  match a with
  | ⟨0, _⟩ => rfl
  | ⟨1, _⟩ => rfl
  | ⟨2, _⟩ => rfl

/-- the joined maximum at token (b, p) is the row's maximum -/
theorem mx_apply (x : FVec Ideal S64x4096x128 .f32) (b : Fin 64) (p : Fin 4096) :
    mx x (ix2 b p) = rowMax (row x b p) := by
  unfold mx
  refine (maximumf_apply _ _ (ix2 b p)).trans ?_
  rw [reduceMax_apply x b p, broadcastInDim_scalar_apply bcast_S_S64x4096, constant_apply, ofBits_neg_inf]
  exact max_bot_rowMax (row x b p)

/-- the shifted logit at (b, p, c) is the logit minus the row's maximum -/
theorem shifted_apply (x : FVec Ideal S64x4096x128 .f32) (b : Fin 64) (p : Fin 4096) (c : Fin 128) :
    shifted x (ix3 b p c) = x (ix3 b p c) - rowMax (row x b p) := by
  unfold shifted
  refine (subf_apply _ _ (ix3 b p c)).trans ?_
  refine congrArg (fun v => x (ix3 b p c) - v) ?_
  refine (bcast_cls_apply _ b p c).trans ?_
  refine (bcast_tok_apply _ b p 0).trans ?_
  exact mx_apply x b p

/-- the sum from 0 over the class axis at token (b, p) is 0 plus the sum over the 128 classes -/
theorem reduceAdd_apply (y : FVec Ideal S64x4096x128 .f32) (b : Fin 64) (p : Fin 4096) :
    Host.reduceAdd y (constant (F := Ideal) S_ .f32 0x00000000#32) reducesTo_S64x4096x128_S64x4096_d2 h_S_ (ix2 b p)
      = ∑ c : Fin 128, y (ix3 b p c) := by
  refine (hostReduceAdd_apply y _ reducesTo_S64x4096x128_S64x4096_d2 h_S_ (ix2 b p)).trans ?_
  refine (Ideal.hostReduceAdd_single reducesTo_S64x4096x128_S64x4096_d2 red2 y _ (ix2 b p)).trans ?_
  rw [constant_apply, Ideal.ofBits_zero_f32, zero_add]
  show ∑ c : Fin 128, y (red2.lift (ix2 b p) c) = _
  exact Finset.sum_congr rfl fun c _ => congrArg y (lift_tok b p c)

/-- the logarithm stage at (b, p, ·) is the logarithm of the row's sum of shifted exponentials -/
theorem lse_apply (x : FVec Ideal S64x4096x128 .f32) (b : Fin 64) (p : Fin 4096) (u : Fin 1) :
    lse x (ix3 b p u) = Ideal.log (rowSumExp (row x b p)) := by
  unfold lse
  show Ideal.log (broadcastInDim S64x4096x1 ![0, 1] bcast_S64x4096_S64x4096x1_0_1
    (Host.reduceAdd (Host.exp (shifted x)) (constant (F := Ideal) S_ .f32 0x00000000#32)
      reducesTo_S64x4096x128_S64x4096_d2 h_S_) (ix3 b p u)) = _
  refine congrArg Ideal.log ?_
  refine (bcast_tok_apply _ b p u).trans ?_
  refine (reduceAdd_apply _ b p).trans ?_
  unfold rowSumExp
  refine Finset.sum_congr rfl fun c _ => ?_
  show Ideal.exp (shifted x (ix3 b p c)) = _
  exact congrArg Ideal.exp (shifted_apply x b p c)

/-- the log-softmax at (b, p, k): the logit minus the row's maximum, minus the logarithm of the sum of the shifted exponentials -/
theorem logp_apply (x : FVec Ideal S64x4096x128 .f32) (b : Fin 64) (p : Fin 4096) (k : Fin 128) :
    logp x (ix3 b p k) = (row x b p k - rowMax (row x b p)) - Ideal.log (rowSumExp (row x b p)) := by
  unfold logp
  refine (subf_apply _ _ (ix3 b p k)).trans ?_
  rw [shifted_apply x b p k, bcast_cls_apply _ b p k, lse_apply x b p 0]
  rfl

/-- The reference's negative log-likelihood of token (b, p) whose label word is the class k: minus (the label's logit
    minus the row's maximum, minus the logarithm of the sum of the shifted exponentials). -/
theorem NLL_apply (x : FVec Ideal SX .f32) (t : IVec ST 32) (b : Fin 64) (p : Fin 4096) (k : Fin 128)
    (hk : t (ix2 b p) = BitVec.ofNat 32 k.val) :
    Terms.NLL (F := Ideal) x t (ix2 b p)
      = -((row x b p k - rowMax (row x b p)) - Ideal.log (rowSumExp (row x b p))) := by
  have hv : broadcastInDim S64x4096x1 ![0, 1] bcast_S64x4096_S64x4096x1_0_1 t (ix3 b p (0 : Fin 1)) = BitVec.ofNat 32 k.val :=
    (bcast_tok_apply t b p 0).trans hk
  have hz : broadcastInDim S64x4096x1 ![] bcast_S_S64x4096x1 (constantI S_ 32 0#32) (ix3 b p (0 : Fin 1)) = 0#32 :=
    broadcastInDim_scalar_apply bcast_S_S64x4096x1 _ _
  rw [NLL_eq x t]
  refine (part1_apply (logp x) _ _ b p k hv hz).trans ?_
  exact congrArg Neg.neg (logp_apply x b p k)

end Cert.ReferenceIdeal.NllAt

end
-- ==== Proof.Bridge.lean ====
/-
  Where the two programs meet. With every logit a finite real and every label one of the 128 classes, the kernel's
  output array — per token (max + log-sum-exp - the label's logit) times the weight, the label clamped into the class
  range, which leaves it unchanged — is the reference's array — per token minus (the label's logit - max - log-sum-exp),
  times the same weight: on finite reals the two forms of the negative log-likelihood are one number.
-/
import proofs.«419000_j32066225832748_3_alg».proof.Proof.Spec
import proofs.«419000_j32066225832748_3_alg».proof.Proof.PreDecode
import proofs.«419000_j32066225832748_3_alg».proof.Proof.RefNll

noncomputable section

namespace Cert.Bridge

open Idealize.ShloMosaic Idealize.ShloMosaic.ValueIdx Cert.Spec Cert.PointMath Cert.LibReal

/-- The kernel's array of the clamped labels is the reference's product array, token by token. -/
theorem arrays_eq (x : FVec Ideal SX .f32) (t : IVec ST 32) (w : FVec Ideal ST .f32)
    (hx : ∀ i, IsReal (x i)) (ht : ∀ j, ∃ k : Fin 128, t j = BitVec.ofNat 32 k.val) :
    Gk x (clipv t) w = mulf (Cert.ReferenceIdeal.Terms.NLL (F := Ideal) x t) w := by
  funext j
  obtain ⟨b, p, rfl⟩ : ∃ (b : Fin 64) (p : Fin 4096), j = ix2 b p := ⟨j 0, j 1, eq_ix2 j⟩
  obtain ⟨k, hk⟩ := ht (ix2 b p)
  have hc : clipv t (ix2 b p) = BitVec.ofNat 32 k.val := by
    unfold clipv; rw [hk]; exact Cert.PreDecode.clamp_label k
  rw [Gk_apply, hc, nllK_label]
  show _ = Cert.ReferenceIdeal.Terms.NLL (F := Ideal) x t (ix2 b p) * w (ix2 b p)
  rw [Cert.ReferenceIdeal.NllAt.NLL_apply x t b p k hk, nll_forms_eq (row x b p) (fun c => hx _) k]

end Cert.Bridge

end
-- ==== Proof.lean ====
/-
  The certificate of a cross-entropy kernel against its jnp reference, over the extended reals.

  Both programs take logits x : f32[64, 4096, 128] and labels t : i32[64, 4096] and return one number: the mean
  over all 64 · 4096 tokens of the token's negative log-likelihood times its temporal weight. For a token with
  logits row r and label k the kernel stores (max r + log Σ_c exp (r c - max r)) - r k, the label's logit picked by
  a one-hot sum over the classes after the label has been clamped into [0, 127]; the reference computes
  -((r k - max r) - log Σ_c exp (r c - max r)), the label's entry of the row's log-softmax gathered and negated.
  The temporal weight is a windowed maximum around the positive labels, computed on the host by the same chain of
  operations in both programs, from the labels alone.

  Under the precondition — every logit a finite real, every label one of the 128 classes — the clamp leaves the
  label unchanged, the one-hot sum is the label's logit, the row maximum and the logarithm of the sum of the shifted
  exponentials are finite reals, and on finite reals (m + l) - x = -((x - m) - l): the two arrays of weighted
  negative log-likelihoods are equal token by token, and the two programs end with the same sum and quotient of them.
  The frames: each kernel program's launch, staging and flushing is the pipeline's frame run with the body's loads
  and stores through literal rectangles; the reference is a straight line of host operations.
-/
import proofs.«419000_j32066225832748_3_alg».proof.Defs
import proofs.«419000_j32066225832748_3_alg».proof.Proof.Gen.Kernel
import proofs.«419000_j32066225832748_3_alg».proof.Proof.Gen.KernelIdeal
import proofs.«419000_j32066225832748_3_alg».proof.Proof.Gen.ReferenceIdeal
import proofs.«419000_j32066225832748_3_alg».proof.Proof.Gen.Pre_finite_inputs
import proofs.«419000_j32066225832748_3_alg».proof.Proof.KernelFrameP
import proofs.«419000_j32066225832748_3_alg».proof.Proof.KernelIdealFrameP
import proofs.«419000_j32066225832748_3_alg».proof.Proof.KernelHost
import proofs.«419000_j32066225832748_3_alg».proof.Proof.KernelBlocks
import proofs.«419000_j32066225832748_3_alg».proof.Proof.KernelPayload
import proofs.«419000_j32066225832748_3_alg».proof.Proof.RefRun
import proofs.«419000_j32066225832748_3_alg».proof.Proof.PreDecode
import proofs.«419000_j32066225832748_3_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end with its arguments unchanged: the pipeline's frame run. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference is a straight line of host operations none of which writes an argument. -/
theorem frame_ri : Cert.frame_ReferenceIdeal := fun m ρ _ =>
  (θ_run Cert.ReferenceIdeal.defs _ _).mono (fun _ h c => (h c).2) (Cert.ReferenceIdeal.Host.run (F := Ideal) m ρ)

/-- The ideal pass rewrote no operation. -/
theorem preserves : Cert.preserves_Kernel_KernelIdeal := trivial

/-- Both programs end at the sum over all tokens, divided by their number, of the token's negative log-likelihood
    times its weight: the kernel's array in its own form of the likelihood, with the clamped labels, and the
    reference's in the log-softmax form are one array under the precondition. -/
theorem algebraic : Cert.algebraic_KernelIdeal_ReferenceIdeal := by
  intro m ρ m' ρ' hpre hagree
  refine ⟨fun c => Cert.KernelIdeal.HostVal.sumDiv
      (Cert.Spec.Gk (m ((c.tc : Thread Cert.KernelIdeal.nD Cert.KernelIdeal.τ).loc Cert.KernelIdeal.main_arg0))
        (Cert.Spec.clipv (m ((c.tc : Thread Cert.KernelIdeal.nD Cert.KernelIdeal.τ).loc Cert.KernelIdeal.main_arg1)))
        (Cert.ReferenceIdeal.Terms.TW (m ((c.tc : Thread Cert.KernelIdeal.nD Cert.KernelIdeal.τ).loc Cert.KernelIdeal.main_arg1)))), ?_, ?_⟩
  · -- the kernel: the region leaves the array of weighted likelihoods of the three arrays it finds, which are the
    -- logits as launched, the clamped labels and the weights of the labels
    refine (θ_run Cert.KernelIdeal.defs _ _).mono (fun _ h c => ⟨(h c).1.trans ?_, (h c).2⟩)
      (Cert.KernelIdeal.HostVal.run m ρ)
    have e0 : Cert.KernelIdeal.Blocks.xarr m c
        = m ((c.tc : Thread Cert.KernelIdeal.nD Cert.KernelIdeal.τ).loc Cert.KernelIdeal.main_arg0) :=
      Cert.KernelIdeal.HostVal.arr0 m c
    have e1 : Cert.KernelIdeal.Blocks.garr m c
        = Cert.Spec.clipv (m ((c.tc : Thread Cert.KernelIdeal.nD Cert.KernelIdeal.τ).loc Cert.KernelIdeal.main_arg1)) :=
      Cert.KernelIdeal.HostVal.arr1 m c
    have e2 : Cert.KernelIdeal.Blocks.warr m c
        = Cert.ReferenceIdeal.Terms.TW (m ((c.tc : Thread Cert.KernelIdeal.nD Cert.KernelIdeal.τ).loc Cert.KernelIdeal.main_arg1)) :=
      Cert.KernelIdeal.HostVal.arr2 m c
    rw [Cert.KernelIdeal.Blocks.final m Cert.KernelIdeal.Pay.pay_apply c, e0, e1, e2]
  · -- the reference: its product array is the kernel's array, by the precondition
    refine (θ_run Cert.ReferenceIdeal.defs _ _).mono (fun _ h c => ⟨(h c).1.trans ?_, (h c).2⟩)
      (Cert.ReferenceIdeal.Host.run (F := Ideal) m' ρ')
    obtain ⟨hx, ht⟩ := Cert.PreDecode.decode _ _ (hpre c)
    rw [(hagree c).1, (hagree c).2]
    show Cert.ReferenceIdeal.Terms.tail (Cert.ReferenceIdeal.Terms.NLL _ _) (Cert.ReferenceIdeal.Terms.TW _) = _
    rw [← Cert.KernelIdeal.HostVal.sumDiv_mulf, ← Cert.Bridge.arrays_eq _ _ _ hx ht]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
